-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S2x320000 : Shape := ⟨2, ![2, 320000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S2x320000 : S_.BroadcastsInDim S2x320000 (![] : Fin 0 → Fin S2x320000.rank)
  reducesTo_S2x320000_S_d0_1 : S2x320000.ReducesTo [0, 1] S_

variable [Facts]

def fn_part1 {F : FTy → Type} [FloatOps F] (main_arg1 : IVec S2x320000 32) (main_arg5 : FVec F S64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_c_8 : IVec S_ 32 := constantI S_ 32 0#32
  let main_v24 : IVec S2x320000 32 := broadcastInDim S2x320000 ![] bcast_S_S2x320000 main_c_8
  let main_v25 : IVec S2x320000 1 := cmpi .sge main_arg1 main_v24
  let main_c_9 : IVec S_ 32 := constantI S_ 32 10000#32
  let main_v26 : IVec S2x320000 32 := broadcastInDim S2x320000 ![] bcast_S_S2x320000 main_c_9
  let main_v27 : IVec S2x320000 1 := cmpi .slt main_arg1 main_v26
  let main_v28 : IVec S2x320000 1 := andi main_v25 main_v27
  let main_c_10 : IVec S_ 1 := constantI S_ 1 1#1
  let main_v29 : IVec S_ 1 := (fun x v => Host.reduce IntOp.andi x v reducesTo_S2x320000_S_d0_1 h_S_) main_v28 main_c_10
  let main_v30 : IVec S_ 1 := andi main_v23 main_v29
  main_v30

def fn {F : FTy → Type} [FloatOps F] (main_arg0 : FVec F S10000x256 .f32) (main_arg1 : IVec S2x320000 32) (main_arg2 : FVec F S256x256 .f32) (main_arg3 : FVec F S256 .f32) (main_arg4 : FVec F S256x64 .f32) (main_arg5 : FVec F S64 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg1 main_arg5 main_v13 main_v16
-- ==== Kernel.lean ====
abbrev S10000x256 : Shape := ⟨2, ![10000, 256]⟩
abbrev S2x320000 : Shape := ⟨2, ![2, 320000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S10000 : Shape := ⟨1, ![10000]⟩
abbrev S1x320000 : Shape := ⟨2, ![1, 320000]⟩
abbrev S320000 : Shape := ⟨1, ![320000]⟩
abbrev S330000 : Shape := ⟨1, ![330000]⟩
abbrev S_ : Shape := ⟨0, ![]⟩
abbrev S330000x1 : Shape := ⟨2, ![330000, 1]⟩
abbrev S10240x10240 : Shape := ⟨2, ![10240, 10240]⟩
abbrev S330000x2 : Shape := ⟨2, ![330000, 2]⟩
abbrev S10240x256 : Shape := ⟨2, ![10240, 256]⟩
abbrev S1x256 : Shape := ⟨2, ![1, 256]⟩
abbrev S1x64 : Shape := ⟨2, ![1, 64]⟩
abbrev S1024x256 : Shape := ⟨2, ![1024, 256]⟩
abbrev S1024x2048 : Shape := ⟨2, ![1024, 2048]⟩
abbrev S2048x256 : Shape := ⟨2, ![2048, 256]⟩
abbrev S10240x64 : Shape := ⟨2, ![10240, 64]⟩
abbrev S1024x64 : Shape := ⟨2, ![1024, 64]⟩
abbrev S2048x64 : Shape := ⟨2, ![2048, 64]⟩
abbrev S10000x64 : Shape := ⟨2, ![10000, 64]⟩

abbrev nBuf : Space → Nat
  | .hbm => 83
  | .vmem => 26
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S256x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S10000, .i32⟩
  | .hbm, ⟨7, _⟩ => ⟨S1x320000, .i32⟩
  | .hbm, ⟨8, _⟩ => ⟨S320000, .i32⟩
  | .hbm, ⟨9, _⟩ => ⟨S330000, .i32⟩
  | .hbm, ⟨10, _⟩ => ⟨S1x320000, .i32⟩
  | .hbm, ⟨11, _⟩ => ⟨S320000, .i32⟩
  | .hbm, ⟨12, _⟩ => ⟨S330000, .i32⟩
  | .hbm, ⟨13, _⟩ => ⟨S_, .f32⟩
  | .hbm, ⟨14, _⟩ => ⟨S330000, .f32⟩
  | .hbm, ⟨15, _⟩ => ⟨S_, .f32⟩
  | .hbm, ⟨16, _⟩ => ⟨S10000, .f32⟩
  | .hbm, ⟨17, _⟩ => ⟨S330000x1, .i32⟩
  | .hbm, ⟨18, _⟩ => ⟨S10000, .f32⟩
  | .hbm, ⟨19, _⟩ => ⟨S_, .f32⟩
  | .hbm, ⟨20, _⟩ => ⟨S10000, .f32⟩
  | .hbm, ⟨21, _⟩ => ⟨S10000, .i1⟩
  | .hbm, ⟨22, _⟩ => ⟨S10000, .f32⟩
  | .hbm, ⟨23, _⟩ => ⟨S_, .f32⟩
  | .hbm, ⟨24, _⟩ => ⟨S_, .f32⟩
  | .hbm, ⟨25, _⟩ => ⟨S10000, .f32⟩
  | .hbm, ⟨26, _⟩ => ⟨S10000, .f32⟩
  | .hbm, ⟨27, _⟩ => ⟨S_, .i32⟩
  | .hbm, ⟨28, _⟩ => ⟨S330000, .i32⟩
  | .hbm, ⟨29, _⟩ => ⟨S330000, .i1⟩
  | .hbm, ⟨30, _⟩ => ⟨S_, .i32⟩
  | .hbm, ⟨31, _⟩ => ⟨S330000, .i32⟩
  | .hbm, ⟨32, _⟩ => ⟨S330000, .i32⟩
  | .hbm, ⟨33, _⟩ => ⟨S330000, .i32⟩
  | .hbm, ⟨34, _⟩ => ⟨S330000x1, .i32⟩
  | .hbm, ⟨35, _⟩ => ⟨S330000, .f32⟩
  | .hbm, ⟨36, _⟩ => ⟨S_, .i32⟩
  | .hbm, ⟨37, _⟩ => ⟨S330000, .i32⟩
  | .hbm, ⟨38, _⟩ => ⟨S330000, .i1⟩
  | .hbm, ⟨39, _⟩ => ⟨S_, .i32⟩
  | .hbm, ⟨40, _⟩ => ⟨S330000, .i32⟩
  | .hbm, ⟨41, _⟩ => ⟨S330000, .i32⟩
  | .hbm, ⟨42, _⟩ => ⟨S330000, .i32⟩
  | .hbm, ⟨43, _⟩ => ⟨S330000x1, .i32⟩
  | .hbm, ⟨44, _⟩ => ⟨S330000, .f32⟩
  | .hbm, ⟨45, _⟩ => ⟨S330000, .f32⟩
  | .hbm, ⟨46, _⟩ => ⟨S_, .f32⟩
  | .hbm, ⟨47, _⟩ => ⟨S10240x10240, .f32⟩
  | .hbm, ⟨48, _⟩ => ⟨S_, .i32⟩
  | .hbm, ⟨49, _⟩ => ⟨S330000, .i32⟩
  | .hbm, ⟨50, _⟩ => ⟨S330000, .i1⟩
  | .hbm, ⟨51, _⟩ => ⟨S_, .i32⟩
  | .hbm, ⟨52, _⟩ => ⟨S330000, .i32⟩
  | .hbm, ⟨53, _⟩ => ⟨S330000, .i32⟩
  | .hbm, ⟨54, _⟩ => ⟨S330000, .i32⟩
  | .hbm, ⟨55, _⟩ => ⟨S_, .i32⟩
  | .hbm, ⟨56, _⟩ => ⟨S330000, .i32⟩
  | .hbm, ⟨57, _⟩ => ⟨S330000, .i1⟩
  | .hbm, ⟨58, _⟩ => ⟨S_, .i32⟩
  | .hbm, ⟨59, _⟩ => ⟨S330000, .i32⟩
  | .hbm, ⟨60, _⟩ => ⟨S330000, .i32⟩
  | .hbm, ⟨61, _⟩ => ⟨S330000, .i32⟩
  | .hbm, ⟨62, _⟩ => ⟨S330000x1, .i32⟩
  | .hbm, ⟨63, _⟩ => ⟨S330000x1, .i32⟩
  | .hbm, ⟨64, _⟩ => ⟨S330000x2, .i32⟩
  | .hbm, ⟨65, _⟩ => ⟨S10240x10240, .f32⟩
  | .hbm, ⟨66, _⟩ => ⟨S10240x10240, .bf16⟩
  | .hbm, ⟨67, _⟩ => ⟨S_, .i32⟩
  | .hbm, ⟨68, _⟩ => ⟨S_, .f32⟩
  | .hbm, ⟨69, _⟩ => ⟨S10240x256, .f32⟩
  | .hbm, ⟨70, _⟩ => ⟨S10240x256, .bf16⟩
  | .hbm, ⟨71, _⟩ => ⟨S256x256, .bf16⟩
  | .hbm, ⟨72, _⟩ => ⟨S256x64, .bf16⟩
  | .hbm, ⟨73, _⟩ => ⟨S1x256, .f32⟩
  | .hbm, ⟨74, _⟩ => ⟨S1x64, .f32⟩
  | .hbm, ⟨75, _⟩ => ⟨S10240x256, .f32⟩
  | .hbm, ⟨76, _⟩ => ⟨S10240x256, .bf16⟩
  | .hbm, ⟨77, _⟩ => ⟨S10240x256, .f32⟩
  | .hbm, ⟨78, _⟩ => ⟨S10240x256, .bf16⟩
  | .hbm, ⟨79, _⟩ => ⟨S10240x64, .f32⟩
  | .hbm, ⟨80, _⟩ => ⟨S10240x64, .bf16⟩
  | .hbm, ⟨81, _⟩ => ⟨S10240x64, .f32⟩
  | .hbm, ⟨82, _⟩ => ⟨S10000x64, .f32⟩
  | .local _ .vmem, ⟨0, _⟩ => ⟨S1024x256, .bf16⟩
  | .local _ .vmem, ⟨1, _⟩ => ⟨S1024x256, .bf16⟩
  | .local _ .vmem, ⟨2, _⟩ => ⟨S256x256, .bf16⟩
  | .local _ .vmem, ⟨3, _⟩ => ⟨S1024x256, .f32⟩
  | .local _ .vmem, ⟨4, _⟩ => ⟨S1024x256, .f32⟩
  | .local _ .vmem, ⟨5, _⟩ => ⟨S1024x2048, .bf16⟩
  | .local _ .vmem, ⟨6, _⟩ => ⟨S1024x2048, .bf16⟩
  | .local _ .vmem, ⟨7, _⟩ => ⟨S2048x256, .bf16⟩
  | .local _ .vmem, ⟨8, _⟩ => ⟨S2048x256, .bf16⟩
  | .local _ .vmem, ⟨9, _⟩ => ⟨S1x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .bf16⟩
  | .local _ .vmem, ⟨14, _⟩ => ⟨S1024x256, .bf16⟩
  | .local _ .vmem, ⟨15, _⟩ => ⟨S256x64, .bf16⟩
  | .local _ .vmem, ⟨16, _⟩ => ⟨S1024x64, .f32⟩
  | .local _ .vmem, ⟨17, _⟩ => ⟨S1024x64, .f32⟩
  | .local _ .vmem, ⟨18, _⟩ => ⟨S1024x2048, .bf16⟩
  | .local _ .vmem, ⟨19, _⟩ => ⟨S1024x2048, .bf16⟩
  | .local _ .vmem, ⟨20, _⟩ => ⟨S2048x64, .bf16⟩
  | .local _ .vmem, ⟨21, _⟩ => ⟨S2048x64, .bf16⟩
  | .local _ .vmem, ⟨22, _⟩ => ⟨S1x64, .f32⟩
  | .local _ .vmem, ⟨23, _⟩ => ⟨S1024x64, .f32⟩
  | .local _ .vmem, ⟨24, _⟩ => ⟨S1024x64, .f32⟩
  | .local _ .vmem, ⟨25, _⟩ => ⟨S1024x64, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_c_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_9 : Ref sig .tc := ⟨.hbm, 55, rfl⟩
abbrev main_v36 : Ref sig .tc := ⟨.hbm, 56, rfl⟩
abbrev main_v37 : Ref sig .tc := ⟨.hbm, 57, rfl⟩
abbrev main_c_10 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_11 : Ref sig .tc := ⟨.hbm, 67, rfl⟩
abbrev main_call1_v0 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc3_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![10, 5], ![false, false]⟩

def k1_cond2 (i : grid1.Coords) : BitVec 1 :=
  let arg1 : BitVec 32 := BitVec.ofNat 32 (i 1).val
  let c4_i32 : BitVec 32 := 4#32
  let v13 : BitVec 1 := Scalar.cmpi .eq arg1 c4_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![10, 5], ![false, false]⟩

def k3_cond2 (i : grid3.Coords) : BitVec 1 :=
  let arg1 : BitVec 32 := BitVec.ofNat 32 (i 1).val
  let c4_i32 : BitVec 32 := 4#32
  let v13 : BitVec 1 := Scalar.cmpi .eq arg1 c4_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S1024x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

class Facts₀ : Prop where
  slices_S2x320000_S1x320000_0_0 : S2x320000.Slices ![0, 0] S1x320000
  shapeCasts_S1x320000_S320000 : S1x320000.ShapeCasts S320000
  concatenates_S320000_S10000_S330000_d0 : Shape.Concatenates [S320000, S10000] S330000 0
  slices_S2x320000_S1x320000_1_0 : S2x320000.Slices ![1, 0] S1x320000
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  bcast_S_S10240x10240 : S_.BroadcastsInDim S10240x10240 (![] : Fin 0 → Fin S10240x10240.rank)
  concatenates_S330000x1_S330000x1_S330000x2_d1 : Shape.Concatenates [S330000x1, S330000x1] S330000x2 1
  bitsLt_bf16_f32 : FTy.bits .bf16 < FTy.bits .f32
  pads_S10000x256_S10240x256_02400_000 : S10000x256.Pads (![0, 0] : Fin 2 → Nat) ![240, 0] ![0, 0] S10240x256
  h_S_ : 0 < S_.numel
  shapeCasts_S256_S1x256 : S256.ShapeCasts S1x256
  shapeCasts_S64_S1x64 : S64.ShapeCasts S1x64
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  slices_S10240x64_S10000x64_0_0 : S10240x64.Slices ![0, 0] S10000x64
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  scatter_S10240x10240_S330000x2_S330000_n_01_01_1_wf : ScatterDims.WF S10240x10240 S330000x2 S330000 [] [0, 1] [0, 1] 1
  dot_S1024x256_S256x256_S1024x256_1_0_0_1_n_n_wf : DotDims.WF S1024x256 S256x256 S1024x256 [1] [0] [0] [1] [] []
  dot_S1024x2048_S2048x256_S1024x256_1_0_0_1_n_n_wf : DotDims.WF S1024x2048 S2048x256 S1024x256 [1] [0] [0] [1] [] []
  dot_S1024x256_S256x64_S1024x64_1_0_0_1_n_n_wf : DotDims.WF S1024x256 S256x64 S1024x64 [1] [0] [0] [1] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S10240x256.size a
  hwx0_0 : ∀ i : grid0.Coords, EltTy.bits .bf16 = 32 ∨ (Rect.block (s := S10240x256) S1024x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S10240x256.size a
  hwx0_2 : ∀ i : grid0.Coords, EltTy.bits .f32 = 32 ∨ (Rect.block (s := S10240x256) S1024x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S10240x10240.size a
  hwx1_0 : ∀ i : grid1.Coords, EltTy.bits .bf16 = 32 ∨ (Rect.block (s := S10240x10240) S1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S10240x256.size a
  hwx1_1 : ∀ i : grid1.Coords, EltTy.bits .bf16 = 32 ∨ (Rect.block (s := S10240x256) S2048x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S10240x256.size a
  hwx1_3 : ∀ i : grid1.Coords, EltTy.bits .f32 = 32 ∨ (Rect.block (s := S10240x256) S1024x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S10240x256.size a
  hwx2_0 : ∀ i : grid2.Coords, EltTy.bits .bf16 = 32 ∨ (Rect.block (s := S10240x256) S1024x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x64.size a ≤ S256x64.size a
  hwx2_1 : ∀ i : grid2.Coords, EltTy.bits .bf16 = 32 ∨ (Rect.block (s := S256x64) S256x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x64.size a ≤ S10240x64.size a
  hwx2_2 : ∀ i : grid2.Coords, EltTy.bits .f32 = 32 ∨ (Rect.block (s := S10240x64) S1024x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x2048.size a ≤ S10240x10240.size a
  hwx3_0 : ∀ i : grid3.Coords, EltTy.bits .bf16 = 32 ∨ (Rect.block (s := S10240x10240) S1024x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x64.size a ≤ S10240x64.size a
  hwx3_1 : ∀ i : grid3.Coords, EltTy.bits .bf16 = 32 ∨ (Rect.block (s := S10240x64) S2048x64.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x64.size a ≤ S10240x64.size a
  hwx3_3 : ∀ i : grid3.Coords, EltTy.bits .f32 = 32 ∨ (Rect.block (s := S10240x64) S1024x64.size (cc3_transform_3 i) (hinb3_3 i)).WholeWords (EltTy.packing .f32)

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def scatter_S10240x10240_S330000x2_S330000_n_01_01_1 : ScatterDims S10240x10240 S330000x2 S330000 where
  updateWindowDims := []
  insertedWindowDims := [0, 1]
  scatterDimsToOperandDims := [0, 1]
  indexVectorDim := 1
  wf := scatter_S10240x10240_S330000x2_S330000_n_01_01_1_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_v47) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v48) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v52) S1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v50) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v54) S1024x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v55) S1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S256x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v56) S1024x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v45) S1024x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S2048x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v51) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1024x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where

variable [Facts]
-- ==== ReferenceIdeal.lean ====
abbrev S10000x256 : Shape := ⟨2, ![10000, 256]⟩
abbrev S2x320000 : Shape := ⟨2, ![2, 320000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S10000 : Shape := ⟨1, ![10000]⟩
abbrev S1x320000 : Shape := ⟨2, ![1, 320000]⟩
abbrev S320000 : Shape := ⟨1, ![320000]⟩
abbrev S330000 : Shape := ⟨1, ![330000]⟩
abbrev S_ : Shape := ⟨0, ![]⟩
abbrev S330000x1 : Shape := ⟨2, ![330000, 1]⟩
abbrev S330000x256 : Shape := ⟨2, ![330000, 256]⟩
abbrev S1x256 : Shape := ⟨2, ![1, 256]⟩
abbrev S10000x64 : Shape := ⟨2, ![10000, 64]⟩
abbrev S330000x64 : Shape := ⟨2, ![330000, 64]⟩
abbrev S1x64 : Shape := ⟨2, ![1, 64]⟩

abbrev nBuf : Space → Nat
  | .hbm => 122
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S256x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S10000, .i32⟩
  | .hbm, ⟨7, _⟩ => ⟨S1x320000, .i32⟩
  | .hbm, ⟨8, _⟩ => ⟨S320000, .i32⟩
  | .hbm, ⟨9, _⟩ => ⟨S330000, .i32⟩
  | .hbm, ⟨10, _⟩ => ⟨S1x320000, .i32⟩
  | .hbm, ⟨11, _⟩ => ⟨S320000, .i32⟩
  | .hbm, ⟨12, _⟩ => ⟨S330000, .i32⟩
  | .hbm, ⟨13, _⟩ => ⟨S_, .f32⟩
  | .hbm, ⟨14, _⟩ => ⟨S330000, .f32⟩
  | .hbm, ⟨15, _⟩ => ⟨S_, .f32⟩
  | .hbm, ⟨16, _⟩ => ⟨S10000, .f32⟩
  | .hbm, ⟨17, _⟩ => ⟨S330000x1, .i32⟩
  | .hbm, ⟨18, _⟩ => ⟨S10000, .f32⟩
  | .hbm, ⟨19, _⟩ => ⟨S_, .f32⟩
  | .hbm, ⟨20, _⟩ => ⟨S10000, .f32⟩
  | .hbm, ⟨21, _⟩ => ⟨S10000, .i1⟩
  | .hbm, ⟨22, _⟩ => ⟨S10000, .f32⟩
  | .hbm, ⟨23, _⟩ => ⟨S_, .f32⟩
  | .hbm, ⟨24, _⟩ => ⟨S_, .f32⟩
  | .hbm, ⟨25, _⟩ => ⟨S10000, .f32⟩
  | .hbm, ⟨26, _⟩ => ⟨S10000, .f32⟩
  | .hbm, ⟨27, _⟩ => ⟨S_, .i32⟩
  | .hbm, ⟨28, _⟩ => ⟨S330000, .i32⟩
  | .hbm, ⟨29, _⟩ => ⟨S330000, .i1⟩
  | .hbm, ⟨30, _⟩ => ⟨S_, .i32⟩
  | .hbm, ⟨31, _⟩ => ⟨S330000, .i32⟩
  | .hbm, ⟨32, _⟩ => ⟨S330000, .i32⟩
  | .hbm, ⟨33, _⟩ => ⟨S330000, .i32⟩
  | .hbm, ⟨34, _⟩ => ⟨S330000x1, .i32⟩
  | .hbm, ⟨35, _⟩ => ⟨S330000, .f32⟩
  | .hbm, ⟨36, _⟩ => ⟨S_, .i32⟩
  | .hbm, ⟨37, _⟩ => ⟨S330000, .i32⟩
  | .hbm, ⟨38, _⟩ => ⟨S330000, .i1⟩
  | .hbm, ⟨39, _⟩ => ⟨S_, .i32⟩
  | .hbm, ⟨40, _⟩ => ⟨S330000, .i32⟩
  | .hbm, ⟨41, _⟩ => ⟨S330000, .i32⟩
  | .hbm, ⟨42, _⟩ => ⟨S330000, .i32⟩
  | .hbm, ⟨43, _⟩ => ⟨S330000x1, .i32⟩
  | .hbm, ⟨44, _⟩ => ⟨S330000, .f32⟩
  | .hbm, ⟨45, _⟩ => ⟨S330000, .f32⟩
  | .hbm, ⟨46, _⟩ => ⟨S10000x256, .f32⟩
  | .hbm, ⟨47, _⟩ => ⟨S_, .i32⟩
  | .hbm, ⟨48, _⟩ => ⟨S330000, .i32⟩
  | .hbm, ⟨49, _⟩ => ⟨S330000, .i1⟩
  | .hbm, ⟨50, _⟩ => ⟨S_, .i32⟩
  | .hbm, ⟨51, _⟩ => ⟨S330000, .i32⟩
  | .hbm, ⟨52, _⟩ => ⟨S330000, .i32⟩
  | .hbm, ⟨53, _⟩ => ⟨S330000, .i32⟩
  | .hbm, ⟨54, _⟩ => ⟨S330000x1, .i32⟩
  | .hbm, ⟨55, _⟩ => ⟨S330000x256, .f32⟩
  | .hbm, ⟨56, _⟩ => ⟨S330000x1, .f32⟩
  | .hbm, ⟨57, _⟩ => ⟨S330000x256, .f32⟩
  | .hbm, ⟨58, _⟩ => ⟨S330000x256, .f32⟩
  | .hbm, ⟨59, _⟩ => ⟨S_, .f32⟩
  | .hbm, ⟨60, _⟩ => ⟨S10000x256, .f32⟩
  | .hbm, ⟨61, _⟩ => ⟨S330000x1, .i32⟩
  | .hbm, ⟨62, _⟩ => ⟨S10000x256, .f32⟩
  | .hbm, ⟨63, _⟩ => ⟨S1x256, .f32⟩
  | .hbm, ⟨64, _⟩ => ⟨S10000x256, .f32⟩
  | .hbm, ⟨65, _⟩ => ⟨S10000x256, .f32⟩
  | .hbm, ⟨66, _⟩ => ⟨S_, .f32⟩
  | .hbm, ⟨67, _⟩ => ⟨S10000x256, .f32⟩
  | .hbm, ⟨68, _⟩ => ⟨S10000x256, .f32⟩
  | .hbm, ⟨69, _⟩ => ⟨S_, .f32⟩
  | .hbm, ⟨70, _⟩ => ⟨S330000, .f32⟩
  | .hbm, ⟨71, _⟩ => ⟨S_, .f32⟩
  | .hbm, ⟨72, _⟩ => ⟨S10000, .f32⟩
  | .hbm, ⟨73, _⟩ => ⟨S330000x1, .i32⟩
  | .hbm, ⟨74, _⟩ => ⟨S10000, .f32⟩
  | .hbm, ⟨75, _⟩ => ⟨S_, .f32⟩
  | .hbm, ⟨76, _⟩ => ⟨S10000, .f32⟩
  | .hbm, ⟨77, _⟩ => ⟨S10000, .i1⟩
  | .hbm, ⟨78, _⟩ => ⟨S10000, .f32⟩
  | .hbm, ⟨79, _⟩ => ⟨S_, .f32⟩
  | .hbm, ⟨80, _⟩ => ⟨S_, .f32⟩
  | .hbm, ⟨81, _⟩ => ⟨S10000, .f32⟩
  | .hbm, ⟨82, _⟩ => ⟨S10000, .f32⟩
  | .hbm, ⟨83, _⟩ => ⟨S_, .i32⟩
  | .hbm, ⟨84, _⟩ => ⟨S330000, .i32⟩
  | .hbm, ⟨85, _⟩ => ⟨S330000, .i1⟩
  | .hbm, ⟨86, _⟩ => ⟨S_, .i32⟩
  | .hbm, ⟨87, _⟩ => ⟨S330000, .i32⟩
  | .hbm, ⟨88, _⟩ => ⟨S330000, .i32⟩
  | .hbm, ⟨89, _⟩ => ⟨S330000, .i32⟩
  | .hbm, ⟨90, _⟩ => ⟨S330000x1, .i32⟩
  | .hbm, ⟨91, _⟩ => ⟨S330000, .f32⟩
  | .hbm, ⟨92, _⟩ => ⟨S_, .i32⟩
  | .hbm, ⟨93, _⟩ => ⟨S330000, .i32⟩
  | .hbm, ⟨94, _⟩ => ⟨S330000, .i1⟩
  | .hbm, ⟨95, _⟩ => ⟨S_, .i32⟩
  | .hbm, ⟨96, _⟩ => ⟨S330000, .i32⟩
  | .hbm, ⟨97, _⟩ => ⟨S330000, .i32⟩
  | .hbm, ⟨98, _⟩ => ⟨S330000, .i32⟩
  | .hbm, ⟨99, _⟩ => ⟨S330000x1, .i32⟩
  | .hbm, ⟨100, _⟩ => ⟨S330000, .f32⟩
  | .hbm, ⟨101, _⟩ => ⟨S330000, .f32⟩
  | .hbm, ⟨102, _⟩ => ⟨S10000x64, .f32⟩
  | .hbm, ⟨103, _⟩ => ⟨S_, .i32⟩
  | .hbm, ⟨104, _⟩ => ⟨S330000, .i32⟩
  | .hbm, ⟨105, _⟩ => ⟨S330000, .i1⟩
  | .hbm, ⟨106, _⟩ => ⟨S_, .i32⟩
  | .hbm, ⟨107, _⟩ => ⟨S330000, .i32⟩
  | .hbm, ⟨108, _⟩ => ⟨S330000, .i32⟩
  | .hbm, ⟨109, _⟩ => ⟨S330000, .i32⟩
  | .hbm, ⟨110, _⟩ => ⟨S330000x1, .i32⟩
  | .hbm, ⟨111, _⟩ => ⟨S330000x64, .f32⟩
  | .hbm, ⟨112, _⟩ => ⟨S330000x1, .f32⟩
  | .hbm, ⟨113, _⟩ => ⟨S330000x64, .f32⟩
  | .hbm, ⟨114, _⟩ => ⟨S330000x64, .f32⟩
  | .hbm, ⟨115, _⟩ => ⟨S_, .f32⟩
  | .hbm, ⟨116, _⟩ => ⟨S10000x64, .f32⟩
  | .hbm, ⟨117, _⟩ => ⟨S330000x1, .i32⟩
  | .hbm, ⟨118, _⟩ => ⟨S10000x64, .f32⟩
  | .hbm, ⟨119, _⟩ => ⟨S1x64, .f32⟩
  | .hbm, ⟨120, _⟩ => ⟨S10000x64, .f32⟩
  | .hbm, ⟨121, _⟩ => ⟨S10000x64, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_call2_v0 : Ref sig .tc := ⟨.hbm, 80, rfl⟩
abbrev main_call2_v1 : Ref sig .tc := ⟨.hbm, 81, rfl⟩
abbrev main_v55 : Ref sig .tc := ⟨.hbm, 82, rfl⟩
abbrev main_c_13 : Ref sig .tc := ⟨.hbm, 83, rfl⟩
abbrev main_v56 : Ref sig .tc := ⟨.hbm, 84, rfl⟩
abbrev main_v57 : Ref sig .tc := ⟨.hbm, 85, rfl⟩
abbrev main_c_14 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_15 : Ref sig .tc := ⟨.hbm, 92, rfl⟩
abbrev main_v63 : Ref sig .tc := ⟨.hbm, 93, rfl⟩
abbrev main_v64 : Ref sig .tc := ⟨.hbm, 94, rfl⟩
abbrev main_c_16 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  concatenates_S320000_S10000_S330000_d0 : Shape.Concatenates [S320000, S10000] S330000 0
  slices_S2x320000_S1x320000_1_0 : S2x320000.Slices ![1, 0] S1x320000
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  bcast_S330000x1_S330000x256_0_1 : S330000x1.BroadcastsInDim S330000x256 (![0, 1] : Fin 2 → Fin S330000x256.rank)
  bcast_S_S10000x256 : S_.BroadcastsInDim S10000x256 (![] : Fin 0 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S330000x1_S330000x64_0_1 : S330000x1.BroadcastsInDim S330000x64 (![0, 1] : Fin 2 → Fin S330000x64.rank)
  bcast_S_S10000x64 : S_.BroadcastsInDim S10000x64 (![] : Fin 0 → Fin S10000x64.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  dot_S10000x256_S256x256_S10000x256_1_0_0_1_n_n_wf : DotDims.WF S10000x256 S256x256 S10000x256 [1] [0] [0] [1] [] []
  gather_S10000x256_S330000x1_S330000x256_1_0_n_n_0_1_1256_wf : GatherDims.WF S10000x256 S330000x1 S330000x256 [1] [0] [] [0] [] 1 ![1, 256]
  scatter_S10000x256_S330000x1_S330000x256_1_0_0_1_wf : ScatterDims.WF S10000x256 S330000x1 S330000x256 [1] [0] [0] 1
  dot_S10000x256_S256x64_S10000x64_1_0_0_1_n_n_wf : DotDims.WF S10000x256 S256x64 S10000x64 [1] [0] [0] [1] [] []
  gather_S10000x64_S330000x1_S330000x64_1_0_n_n_0_1_164_wf : GatherDims.WF S10000x64 S330000x1 S330000x64 [1] [0] [] [0] [] 1 ![1, 64]
  scatter_S10000x64_S330000x1_S330000x64_1_0_0_1_wf : ScatterDims.WF S10000x64 S330000x1 S330000x64 [1] [0] [0] 1

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def gather_S10000x256_S330000x1_S330000x256_1_0_n_n_0_1_1256 : GatherDims S10000x256 S330000x1 S330000x256 where
  offsetDims := [1]
  collapsedSliceDims := [0]
  operandBatchingDims := []
  startIndicesBatchingDims := []
  startIndexMap := [0]
  indexVectorDim := 1
  sliceSizes := ![1, 256]
  wf := gather_S10000x256_S330000x1_S330000x256_1_0_n_n_0_1_1256_wf
def scatter_S10000x256_S330000x1_S330000x256_1_0_0_1 : ScatterDims S10000x256 S330000x1 S330000x256 where
  updateWindowDims := [1]
  insertedWindowDims := [0]
  scatterDimsToOperandDims := [0]
  indexVectorDim := 1
  wf := scatter_S10000x256_S330000x1_S330000x256_1_0_0_1_wf
def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf
def gather_S10000x64_S330000x1_S330000x64_1_0_n_n_0_1_164 : GatherDims S10000x64 S330000x1 S330000x64 where
  offsetDims := [1]
  collapsedSliceDims := [0]
  operandBatchingDims := []
  startIndicesBatchingDims := []
  startIndexMap := [0]
  indexVectorDim := 1
  sliceSizes := ![1, 64]
  wf := gather_S10000x64_S330000x1_S330000x64_1_0_n_n_0_1_164_wf
def scatter_S10000x64_S330000x1_S330000x64_1_0_0_1 : ScatterDims S10000x64 S330000x1 S330000x64 where
  updateWindowDims := [1]
  insertedWindowDims := [0]
  scatterDimsToOperandDims := [0]
  indexVectorDim := 1
  wf := scatter_S10000x64_S330000x1_S330000x64_1_0_0_1_wf

class Facts : Prop extends Facts₀ where

variable [Facts]
-- ==== Proof.K.Reg0.lean ====
/-
  The first dense product, one grid point at a time. A point `t` of the ten-point grid takes rows
  [1024 t, 1024 t + 1024) of the padded feature matrix and the whole first weight matrix, and leaves
  in its output block their matrix product accumulated into zero. Nothing is carried from one point
  to the next, so what a block holds after its point is a function of that point's two input blocks
  alone (`prodBlock0`); the contents of the three staging buffers after every point (`dat0`) and the
  body's triple at a generic point (`body_obligation0`) say exactly this.
-/
import proofs.«422500_j8761733284692_1_alg».proof.Proof.Gen.Kernel.Skeleton
import proofs.«422500_j8761733284692_1_alg».proof.Proof.Gen.Kernel.Launch
import proofs.«422500_j8761733284692_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffers' contents when the region is entered: the parameter the region is stated at
variable (V : (c : Dev nD) → (b : Ref sig .tc) → Buf (Elt F) ((c : Thread nD τ).loc b))

/-- Window `w`'s block at point `t`, read off the array the region finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of the padded features is in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix, fetched once, is in its staging buffer at every point: its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The shape of the product's block. -/
abbrev SC0 : Shape := S1024x256
/-- Each of the three blocks as one whole rectangle: the left factor's rows, the right factor, the product. -/
abbrev rA0 : Rect S1024x256 := Rect.unit (s := S1024x256) ![0, 0] S1024x256.size inb_S1024x256_S1024x256_0_0
abbrev rB0 : Rect S256x256 := Rect.unit (s := S256x256) ![0, 0] S256x256.size inb_S256x256_S256x256_0_0
abbrev rC0 : Rect SC0 := Rect.unit (s := S1024x256) ![0, 0] S1024x256.size inb_S1024x256_S1024x256_0_0

/-- What a point leaves in its output block: the product of its two input blocks, stored whole. -/
def prodBlock0 (x0 : Vec F S1024x256 .bf16) (x1 : Vec F S256x256 .bf16) : Vec F SC0 .f32 :=
  View.canon [⟨rC0, k0_pay1 (View.ld x0 rA0) (View.ld x1 rB0)⟩]

/-- One whole-block store covers the block. -/
theorem cover0_2 (p0 : Vec F SC0 .f32) (y : SC0.Idx) :
    ∃ pc ∈ ([⟨rC0, p0⟩] : List (View.Piece (Elt F) SC0 .f32)), y ∈ pc.1.set :=
  View.cover_of_tiled [⟨rC0, p0⟩] SC0.size (by rfl) y

set_option maxHeartbeats 1000000 in
/-- The body on whole staging buffers: the two inputs are read and left as they were, the output,
    whatever it held, ends at the product. -/
theorem sound_kernel0 (c : Dev nD) (E : Set ℕ) (i : grid0.Coords)
    (arg1 : Memref sig .tc .vmem S1024x256 .bf16) (harg1 : arg1.IsWhole) (arg2 : Memref sig .tc .vmem S256x256 .bf16) (harg2 : arg2.IsWhole)
    (arg3 : Memref sig .tc .vmem SC0 .f32) (harg3 : arg3.IsWhole)
    (x0 : Vec F S1024x256 .bf16) (x1 : Vec F S256x256 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (prodBlock0 x0 x1)) -∗ K ⟨⟩))
      ⊢ wp frame (wpE (defs₀ (F := F)) Variants.none c none) E (cc0__dense_matmul_kernel i arg1 harg1 arg2 harg2 arg3 harg3) K := by
  simp only [cc0__dense_matmul_kernel_eq_skeleton]; unfold cc0__dense_matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The region's proof data on core `c`: the arrays as found; after point `t` the inputs' buffers at
    their blocks and the output's at the product of the two; nothing kept between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => prodBlock0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = prodBlock0 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple above applies; the
    rest passes through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg2.lean ====
/-
  The second dense product, one grid point at a time. A point `t` of the ten-point grid takes rows
  [1024 t, 1024 t + 1024) of the hidden activations and the whole second weight matrix, and leaves
  in its output block their matrix product accumulated into zero. Nothing is carried from one point
  to the next, so what a block holds after its point is a function of that point's two input blocks
  alone (`prodBlock2`); the contents of the three staging buffers after every point (`dat2`) and the
  body's triple at a generic point (`body_obligation2`) say exactly this.
-/
import proofs.«422500_j8761733284692_1_alg».proof.Proof.Gen.Kernel.Skeleton
import proofs.«422500_j8761733284692_1_alg».proof.Proof.Gen.Kernel.Launch
import proofs.«422500_j8761733284692_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffers' contents when the region is entered: the parameter the region is stated at
variable (V : (c : Dev nD) → (b : Ref sig .tc) → Buf (Elt F) ((c : Thread nD τ).loc b))

/-- Window `w`'s block at point `t`, read off the array the region finds. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row block of the padded features is in its staging buffer at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight matrix, fetched once, is in its staging buffer at every point: its block index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The shape of the product's block. -/
abbrev SC2 : Shape := S1024x64
/-- Each of the three blocks as one whole rectangle: the left factor's rows, the right factor, the product. -/
abbrev rA2 : Rect S1024x256 := Rect.unit (s := S1024x256) ![0, 0] S1024x256.size inb_S1024x256_S1024x256_0_0
abbrev rB2 : Rect S256x64 := Rect.unit (s := S256x64) ![0, 0] S256x64.size inb_S256x64_S256x64_0_0
abbrev rC2 : Rect SC2 := Rect.unit (s := S1024x64) ![0, 0] S1024x64.size inb_S1024x64_S1024x64_0_0

/-- What a point leaves in its output block: the product of its two input blocks, stored whole. -/
def prodBlock2 (x0 : Vec F S1024x256 .bf16) (x1 : Vec F S256x64 .bf16) : Vec F SC2 .f32 :=
  View.canon [⟨rC2, k2_pay1 (View.ld x0 rA2) (View.ld x1 rB2)⟩]

/-- One whole-block store covers the block. -/
theorem cover2_2 (p0 : Vec F SC2 .f32) (y : SC2.Idx) :
    ∃ pc ∈ ([⟨rC2, p0⟩] : List (View.Piece (Elt F) SC2 .f32)), y ∈ pc.1.set :=
  View.cover_of_tiled [⟨rC2, p0⟩] SC2.size (by rfl) y

set_option maxHeartbeats 1000000 in
/-- The body on whole staging buffers: the two inputs are read and left as they were, the output,
    whatever it held, ends at the product. -/
theorem sound_kernel2 (c : Dev nD) (E : Set ℕ) (i : grid2.Coords)
    (arg1 : Memref sig .tc .vmem S1024x256 .bf16) (harg1 : arg1.IsWhole) (arg2 : Memref sig .tc .vmem S256x64 .bf16) (harg2 : arg2.IsWhole)
    (arg3 : Memref sig .tc .vmem SC2 .f32) (harg3 : arg3.IsWhole)
    (x0 : Vec F S1024x256 .bf16) (x1 : Vec F S256x64 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (prodBlock2 x0 x1)) -∗ K ⟨⟩))
      ⊢ wp frame (wpE (defs₀ (F := F)) Variants.none c none) E (cc2__dense_matmul_kernel i arg1 harg1 arg2 harg2 arg3 harg3) K := by
  simp only [cc2__dense_matmul_kernel_eq_skeleton]; unfold cc2__dense_matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The region's proof data on core `c`: the arrays as found; after point `t` the inputs' buffers at
    their blocks and the output's at the product of the two; nothing kept between points. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => prodBlock2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = prodBlock2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the triple above applies; the
    rest passes through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg1.lean ====
/-
  The first neighbour aggregation, one grid point at a time. The 50 points run through 10 row tiles of the
  normalised adjacency matrix, and within a row tile through its 5 column blocks: point `t` is row tile `t / 5`,
  column block `t % 5`. A point multiplies its 1024 × 2048 tile of the adjacency matrix with the matching
  2048 × 256 tile of the features and adds the product into an f32 accumulator that the kernel KEEPS from one
  point to the next. At a first column block the accumulator is zeroed before the addition, so whatever it held
  — nothing in particular at the very first point, the finished sum of the row tile before at the later ones —
  plays no part; at a last column block the finished sum, with the bias row added and negative entries replaced
  by zero, is stored as the row tile's output block. At the other four points of a row tile the output block is
  neither stored into nor written back.

  So the body has three behaviours, told apart by `t % 5` (0, then 1 to 3, then 4), and what the accumulator
  holds after point `t` is a recursion on `t` (`scrAt1`): the running sum over the column blocks of `t`'s row
  tile up to `t`'s own. The module states the body's triple in each of the three cases on whole buffers
  (`sound_kernel1_A`, `_B`, `_C`), the contents after every point (`outsAt1`, `dat1`), the invariant between
  points (`PhiS1`: the accumulator at the running sum), and the body's triple at a generic point
  (`body_obligation1`), with the three equations that say what the recursion computes (`scr1_first`,
  `scr1_next`, `out1_last`).
-/
import proofs.«422500_j8761733284692_1_alg».proof.Proof.Gen.Kernel.Skeleton
import proofs.«422500_j8761733284692_1_alg».proof.Proof.Gen.Kernel.Launch
import proofs.«422500_j8761733284692_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffers' contents when the region is entered: the parameter the region is stated at
variable (V : (c : Dev nD) → (b : Ref sig .tc) → Buf (Elt F) ((c : Thread nD τ).loc b))

/-- Window `w`'s block at point `t`, read off the array the region finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency tile of the point is in its staging buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- So is the feature tile of the point's column block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias row, fetched once, stays in its staging buffer: its block index never moves. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The two tests on the column coordinate -/

/-- "This is the first column block": the test that guards the reset of the accumulator. -/
abbrev cond1_0 (i : grid1.Coords) : Prop := (Scalar.cmpi .ne (Scalar.extui (Scalar.cmpi .eq (BitVec.ofNat 32 (i 1).val) 0#32)) 0#32) = 1#1
/-- Points run row tile by row tile, five column blocks each: the first block is at the multiples of five. -/
theorem hcond1_0 : ∀ t : Fin cfg1.N, cond1_0 (grid1.coords t) ↔ t.val % 5 = 0 :=
  (by decide +kernel : ∀ t : Fin grid1.N, cond1_0 (grid1.coords t) ↔ t.val % 5 = 0)

/-- "This is the last column block": the test that guards the store of the output block. -/
abbrev cond1_1 (i : grid1.Coords) : Prop := k1_cond2 i = 1#1
theorem hcond1_1 : ∀ t : Fin cfg1.N, cond1_1 (grid1.coords t) ↔ t.val % 5 = 4 :=
  (by decide +kernel : ∀ t : Fin grid1.N, cond1_1 (grid1.coords t) ↔ t.val % 5 = 4)

/-! ## Where the output window rests -/

/-- The three inputs are never at rest. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last column block the output block is neither stored into -/
theorem idleAt1_3 : ∀ t : Fin cfg1.N, ¬ t.val % 5 = 4 → cfg1.idle 3 (grid1.coords t) = true := by decide +kernel
/-- nor written back; -/
theorem noFlush1_3 (t : Fin cfg1.N) (h : ¬ t.val % 5 = 4) : (cfg1.win 3).flush t = false :=
  Bool.eq_false_iff.mpr fun hf => h ((flush1_3 t).mp hf)
/-- on the last it is stored. -/
theorem liveAt1_3 : ∀ t : Fin cfg1.N, t.val % 5 = 4 → cfg1.idle 3 (grid1.coords t) = false := by decide +kernel

/-! ## The accumulator -/

/-- The f32 accumulator the kernel keeps from one point to the next: a whole buffer of the core's own. -/
abbrev scM1_0 : Memref sig .tc .vmem S1024x256 .f32 := Memref.whole cc1_scratch0

/-- What the launch hands the region, with the accumulator set apart from the other buffers of the core
    that this call does not stage (they pass through unopened) and from the generator register. -/
theorem PhiA1_eq (c : Dev nD) :
    (Pipeline.ΦA spec1 c : sProp 𝕄)
      = iprop(((∃ d, owns (c : Thread nD τ) scM1_0 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [bigSepL_singleton, scM1_0, owns_whole]; try rfl

/-! ## The body on whole staging buffers, case by case -/

theorem hz1 : (![0, 0] : Fin 2 → ℕ) = fun _ => 0 := by funext a; fin_cases a <;> rfl

/-- A store through the whole 1024 × 256 block, made last, covers the block whatever was stored before. -/
theorem cover1_whole (p0 : Vec F S1024x256 .f32) (L : List (View.Piece (Elt F) S1024x256 .f32)) (y : S1024x256.Idx) :
    ∃ pc ∈ ((⟨Rect.unit (s := S1024x256) ![0, 0] S1024x256.size inb_S1024x256_S1024x256_0_0, p0⟩ : View.Piece (Elt F) S1024x256 .f32) :: L), y ∈ pc.1.set :=
  ⟨_, List.mem_cons_self .., View.mem_set_unit_zero hz1 inb_S1024x256_S1024x256_0_0 y⟩

set_option maxHeartbeats 1000000 in
/-- FIRST COLUMN BLOCK. The accumulator, whatever it held, is zeroed, read back, and the product of the two
    tiles is added into it; the bias row and the output block are not touched. -/
theorem sound_kernel1_A (c : Dev nD) (E : Set ℕ) (i : grid1.Coords)
    (arg2 : Memref sig .tc .vmem S1024x2048 .bf16) (harg2 : arg2.IsWhole) (arg3 : Memref sig .tc .vmem S2048x256 .bf16) (harg3 : arg3.IsWhole)
    (arg4 : Memref sig .tc .vmem S1x256 .f32) (harg4 : arg4.IsWhole) (arg5 : Memref sig .tc .vmem S1024x256 .f32) (harg5 : arg5.IsWhole)
    (arg6 : Memref sig .tc .vmem S1024x256 .f32) (harg6 : arg6.IsWhole) (hc0 : cond1_0 i) (hc1 : ¬cond1_1 i)
    (x0 : Vec F S1024x2048 .bf16) (x1 : Vec F S2048x256 .bf16) (x2 : Vec F S1x256 .f32) (xi3 : Vec F S1024x256 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k1_pay2 (k1_pay1 (F := F)) x0 x1)) -∗ K ⟨⟩))
      ⊢ wp frame (wpE (defs₀ (F := F)) Variants.none c none) E (cc1__agg_kernel i arg2 harg2 arg3 harg3 arg4 harg4 arg5 harg5 arg6 harg6) K := by
  simp only [cc1__agg_kernel_eq_skeleton]; unfold cc1__agg_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_words
  rw [View.read_writes_eq_canon _ _ _ (cover1_whole _ _), View.canon_cons_unit_zero hz1]
  simp only [View.readCov_unit_zero (S := S1024x256) _ hz1, View.readAt_eq_ld, View.ld_unit_zero (S := S1024x2048) hz1, View.ld_unit_zero (S := S2048x256) hz1]

set_option maxHeartbeats 1000000 in
/-- A MIDDLE COLUMN BLOCK. The product of the two tiles is added into what the accumulator holds; nothing else
    changes. -/
theorem sound_kernel1_B (c : Dev nD) (E : Set ℕ) (i : grid1.Coords)
    (arg2 : Memref sig .tc .vmem S1024x2048 .bf16) (harg2 : arg2.IsWhole) (arg3 : Memref sig .tc .vmem S2048x256 .bf16) (harg3 : arg3.IsWhole)
    (arg4 : Memref sig .tc .vmem S1x256 .f32) (harg4 : arg4.IsWhole) (arg5 : Memref sig .tc .vmem S1024x256 .f32) (harg5 : arg5.IsWhole)
    (arg6 : Memref sig .tc .vmem S1024x256 .f32) (harg6 : arg6.IsWhole) (hc0 : ¬cond1_0 i) (hc1 : ¬cond1_1 i)
    (x0 : Vec F S1024x2048 .bf16) (x1 : Vec F S2048x256 .bf16) (x2 : Vec F S1x256 .f32) (xi3 : Vec F S1024x256 .f32) (xs : Vec F S1024x256 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k1_pay2 xs x0 x1)) -∗ K ⟨⟩))
      ⊢ wp frame (wpE (defs₀ (F := F)) Variants.none c none) E (cc1__agg_kernel i arg2 harg2 arg3 harg3 arg4 harg4 arg5 harg5 arg6 harg6) K := by
  simp only [cc1__agg_kernel_eq_skeleton]; unfold cc1__agg_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  try sl_unfold_words
  rw [View.read_writes_eq_canon _ _ _ (cover1_whole _ _), View.canon_unit_zero hz1]
  simp only [View.readAt_eq_ld, View.ld_unit_zero (S := S1024x256) hz1, View.ld_unit_zero (S := S1024x2048) hz1, View.ld_unit_zero (S := S2048x256) hz1]

set_option maxHeartbeats 1000000 in
/-- LAST COLUMN BLOCK. The product is added into the accumulator as before; then the finished sum is read back,
    the bias row added to every row, the result clamped below at zero and stored over the output block, whatever
    that held. -/
theorem sound_kernel1_C (c : Dev nD) (E : Set ℕ) (i : grid1.Coords)
    (arg2 : Memref sig .tc .vmem S1024x2048 .bf16) (harg2 : arg2.IsWhole) (arg3 : Memref sig .tc .vmem S2048x256 .bf16) (harg3 : arg3.IsWhole)
    (arg4 : Memref sig .tc .vmem S1x256 .f32) (harg4 : arg4.IsWhole) (arg5 : Memref sig .tc .vmem S1024x256 .f32) (harg5 : arg5.IsWhole)
    (arg6 : Memref sig .tc .vmem S1024x256 .f32) (harg6 : arg6.IsWhole) (hc0 : ¬cond1_0 i) (hc1 : cond1_1 i)
    (x0 : Vec F S1024x2048 .bf16) (x1 : Vec F S2048x256 .bf16) (x2 : Vec F S1x256 .f32) (xs : Vec F S1024x256 .f32)
    (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 (k1_pay2 xs x0 x1) x2) ∗ owns (c : Thread nD τ) arg6 fullShare (k1_pay2 xs x0 x1)) -∗ K ⟨⟩))
      ⊢ wp frame (wpE (defs₀ (F := F)) Variants.none c none) E (cc1__agg_kernel i arg2 harg2 arg3 harg3 arg4 harg4 arg5 harg5 arg6 harg6) K := by
  simp only [cc1__agg_kernel_eq_skeleton]; unfold cc1__agg_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [View.read_writes_eq_canon _ _ _ (cover1_whole _ _), View.canon_unit_zero hz1]
    simp only [View.readCov_unit_zero (S := S1024x256) _ hz1, View.readAt_eq_ld, View.ld_unit_zero (S := S1024x256) hz1, View.ld_unit_zero (S := S1024x2048) hz1, View.ld_unit_zero (S := S2048x256) hz1, View.ld_unit_zero (S := S1x256) hz1]
  iexists _; isplitr
  swap; · iexact HS
  ipureintro
  sl_unfold_words
  rw [View.read_writes_eq_canon _ _ _ (cover1_whole _ _), View.canon_unit_zero hz1]
  simp only [View.readAt_eq_ld, View.ld_unit_zero (S := S1024x256) hz1, View.ld_unit_zero (S := S1024x2048) hz1, View.ld_unit_zero (S := S2048x256) hz1]

/-! ## What the accumulator and the output block hold, point by point -/

/-- THE RUNNING SUM. What the accumulator holds after point `n`: at a first column block the product of the
    point's two tiles added into zero — whatever the accumulator held before, the reset discards it —; at any
    other block the same product added into what the point before left. -/
def scrAt1 (c : Dev nD) : (n : ℕ) → n < cfg1.N → Vec F S1024x256 .f32
  | 0, hn => k1_pay2 (k1_pay1 (F := F)) (iblk1 V c 0 ⟨0, hn⟩) (iblk1 V c 1 ⟨0, hn⟩)
  | n + 1, hn =>
    if (n + 1) % 5 = 0 then k1_pay2 (k1_pay1 (F := F)) (iblk1 V c 0 ⟨n + 1, hn⟩) (iblk1 V c 1 ⟨n + 1, hn⟩)
    else k1_pay2 (scrAt1 c n (Nat.lt_of_succ_lt hn)) (iblk1 V c 0 ⟨n + 1, hn⟩) (iblk1 V c 1 ⟨n + 1, hn⟩)

/-- After point `n`: the output block and the accumulator. The output block is the accumulator plus the bias
    row, clamped below at zero; that is what the last column block stores, and at the other points, where the
    block is neither stored nor written back, nothing reads this component. -/
def outsAt1 (c : Dev nD) (n : ℕ) (hn : n < cfg1.N) : Vec F S1024x256 .f32 × Vec F S1024x256 .f32 :=
  (k1_pay3 (scrAt1 V c n hn) (iblk1 V c 2 ⟨n, hn⟩), scrAt1 V c n hn)

theorem scrAt1_first (c : Dev nD) (t : Fin cfg1.N) (h0 : t.val % 5 = 0) :
    scrAt1 V c t.val t.isLt = k1_pay2 (k1_pay1 (F := F)) (iblk1 V c 0 t) (iblk1 V c 1 t) := by
  obtain ⟨n, hn⟩ := t
  cases n with
  | zero => rfl
  | succ n => exact if_pos h0

theorem scrAt1_next (c : Dev nD) (t : Fin cfg1.N) (h0 : ¬ t.val % 5 = 0) :
    scrAt1 V c t.val t.isLt = k1_pay2 (scrAt1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h0
  | succ n => exact if_neg h0

/-- The accumulator after a first column block: the point's product added into zero. -/
theorem scr1_first (c : Dev nD) (t : Fin cfg1.N) (h0 : t.val % 5 = 0) :
    (outsAt1 V c t.val t.isLt).2 = k1_pay2 (k1_pay1 (F := F)) (iblk1 V c 0 t) (iblk1 V c 1 t) :=
  scrAt1_first V c t h0

/-- After any other block: the point's product added into what the point before left. -/
theorem scr1_next (c : Dev nD) (t : Fin cfg1.N) (h0 : ¬ t.val % 5 = 0) :
    (outsAt1 V c t.val t.isLt).2 = k1_pay2 (outsAt1 V c (t.val - 1) (Nat.lt_of_le_of_lt (Nat.sub_le _ _) t.isLt)).2 (iblk1 V c 0 t) (iblk1 V c 1 t) :=
  scrAt1_next V c t h0

/-- The output block after a last column block: the finished sum plus the bias row, clamped below at zero. -/
theorem out1_last (c : Dev nD) (t : Fin cfg1.N) (h1 : t.val % 5 = 4) :
    (outsAt1 V c t.val t.isLt).1 = k1_pay3 (outsAt1 V c t.val t.isLt).2 (iblk1 V c 2 t) := rfl

/-! ## The invariant -/

/-- Before point `n`: at the start what the launch hands over (the accumulator at anything); afterwards the
    accumulator at the running sum the point before left, the core's other buffers and the generator register
    as they come. -/
def PhiS1 (c : Dev nD) : (n : ℕ) → n ≤ cfg1.N → sProp 𝕄
  | 0, _ => Pipeline.ΦA spec1 c
  | n + 1, hn => iprop((owns (c : Thread nD τ) scM1_0 fullShare (scrAt1 V c n hn) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((owns (c : Thread nD τ) scM1_0 fullShare (scrAt1 V c n hn) ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop((owns (c : Thread nD τ) scM1_0 fullShare (scrAt1 V c (n - 1) (by omega)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The region's proof data -/

/-- On core `c`: the arrays as found; after point `t` the three inputs' buffers at their blocks and the
    output's at `outsAt1`'s first component; between points the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem out1_eq (c : Dev nD) (t : Fin cfg1.N) :
    (outsAt1 V c t.val t.isLt).1 = k1_pay3 (scrAt1 V c t.val t.isLt) (iblk1 V c 2 t) := rfl

set_option maxHeartbeats 4000000 in
/-- The body at any point. The three inputs' buffers hold their blocks; which of the three cases the point is in
    is read off its position among the five column blocks. At a first block the accumulator comes at anything
    (at the very first point from the launch, later from the row tile before) and leaves at the first term of
    the sum; at the others it comes at what the point before left and leaves one term longer. The output block
    is handed back as it came except at a last block, where it leaves at the finished value. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  have hN : t.val < 50 := lt_of_lt_of_eq t.isLt (show cfg1.N = 50 from N_1)
  by_cases h0 : t.val % 5 = 0
  · have h1 : ¬ t.val % 5 = 4 := by omega
    rw [Dat.leavesExact_idle (dat1 V c) 3 t (idleAt1_3 t h1) (noFlush1_3 t h1)]
    rw [scrAt1_first V c t h0]
    by_cases hz : t.val = 0
    · rw [PhiS1_castSucc V c t, PhiS1_zero V c _ _ hz, PhiA1_eq]
      iintro ⟨⟨⟨HS, HR⟩, Hg⟩, Ho, ⟨%d0, H0⟩, ⟨%d1, H1⟩, ⟨%d2, H2⟩, ⟨%d3, H3⟩⟩
      iapply (sound_kernel1_A c Set.univ (grid1.coords t) _ _ _ _ _ _ _ _ _ _ ((hcond1_0 t).mpr h0) (fun h => h1 ((hcond1_1 t).mp h)) (iblk1 V c 0 t) (iblk1 V c 1 t) (iblk1 V c 2 t) ((dat1 V c).before 3 t d3) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS, HR⟩, Hg⟩, Ho, ⟨%d0, H0⟩, ⟨%d1, H1⟩, ⟨%d2, H2⟩, ⟨%d3, H3⟩⟩
      iapply (sound_kernel1_A c Set.univ (grid1.coords t) _ _ _ _ _ _ _ _ _ _ ((hcond1_0 t).mpr h0) (fun h => h1 ((hcond1_1 t).mp h)) (iblk1 V c 0 t) (iblk1 V c 1 t) (iblk1 V c 2 t) ((dat1 V c).before 3 t d3) _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    rw [scrAt1_next V c t h0]
    by_cases h1 : t.val % 5 = 4
    · rw [show (dat1 V c).leavesExact 3 t = owns (c : Thread nD τ) (st1_3 t) fullShare ((dat1 V c).after 3 t) from by
        unfold Dat.leavesExact; rw [liveAt1_3 t h1], after1_3, out1_eq, scrAt1_next V c t h0]
      rw [PhiS1_castSucc V c t, PhiS1_pos V c _ _ hz]
      iintro ⟨⟨⟨HS, HR⟩, Hg⟩, Ho, ⟨%d0, H0⟩, ⟨%d1, H1⟩, ⟨%d2, H2⟩, ⟨%d3, H3⟩⟩
      iapply (sound_kernel1_C c Set.univ (grid1.coords t) _ _ _ _ _ _ _ _ _ _ (fun h => h0 ((hcond1_0 t).mp h)) ((hcond1_1 t).mpr h1) (iblk1 V c 0 t) (iblk1 V c 1 t) (iblk1 V c 2 t) (scrAt1 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [Dat.leavesExact_idle (dat1 V c) 3 t (idleAt1_3 t h1) (noFlush1_3 t h1)]
      rw [PhiS1_castSucc V c t, PhiS1_pos V c _ _ hz]
      iintro ⟨⟨⟨HS, HR⟩, Hg⟩, Ho, ⟨%d0, H0⟩, ⟨%d1, H1⟩, ⟨%d2, H2⟩, ⟨%d3, H3⟩⟩
      iapply (sound_kernel1_B c Set.univ (grid1.coords t) _ _ _ _ _ _ _ _ _ _ (fun h => h0 ((hcond1_0 t).mp h)) (fun h => h1 ((hcond1_1 t).mp h)) (iblk1 V c 0 t) (iblk1 V c 1 t) (iblk1 V c 2 t) ((dat1 V c).before 3 t d3) (scrAt1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The body obligation of the region, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives that back: what the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, HR⟩, Hg⟩
  isplitl [HS HR]
  · isplitl [HS]; · iexists _; iexact HS
    iexact HR
  iexact Hg

/-- In particular after the last. -/
theorem hout1 (c : Dev nD) : (dat1 V c).Φ (Fin.last cfg1.N) ⊢ Pipeline.ΦA spec1 c :=
  Phi_out1 V c _ (by rw [Fin.val_last]; have : cfg1.N = 50 := N_1; omega)

end Cert.Kernel.Hand

end
-- ==== Proof.K.Reg3.lean ====
/-
  The second neighbour aggregation, one grid point at a time. The 50 points run through 10 row tiles of the
  normalised adjacency matrix, and within a row tile through its 5 column blocks: point `t` is row tile `t / 5`,
  column block `t % 5`. A point multiplies its 1024 × 2048 tile of the adjacency matrix with the matching
  2048 × 256 tile of the features and adds the product into an f32 accumulator that the kernel KEEPS from one
  point to the next. At a first column block the accumulator is zeroed before the addition, so whatever it held
  — nothing in particular at the very first point, the finished sum of the row tile before at the later ones —
  plays no part; at a last column block the finished sum, with the bias row added and negative entries replaced
  by zero, is stored as the row tile's output block. At the other four points of a row tile the output block is
  neither stored into nor written back.

  So the body has three behaviours, told apart by `t % 5` (0, then 1 to 3, then 4), and what the accumulator
  holds after point `t` is a recursion on `t` (`scrAt3`): the running sum over the column blocks of `t`'s row
  tile up to `t`'s own. The module states the body's triple in each of the three cases on whole buffers
  (`sound_kernel3_A`, `_B`, `_C`), the contents after every point (`outsAt3`, `dat3`), the invariant between
  points (`PhiS3`: the accumulator at the running sum), and the body's triple at a generic point
  (`body_obligation3`), with the three equations that say what the recursion computes (`scr3_first`,
  `scr3_next`, `out3_last`).
-/
import proofs.«422500_j8761733284692_1_alg».proof.Proof.Gen.Kernel.Skeleton
import proofs.«422500_j8761733284692_1_alg».proof.Proof.Gen.Kernel.Launch
import proofs.«422500_j8761733284692_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffers' contents when the region is entered: the parameter the region is stated at
variable (V : (c : Dev nD) → (b : Ref sig .tc) → Buf (Elt F) ((c : Thread nD τ).loc b))

/-- Window `w`'s block at point `t`, read off the array the region finds. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The adjacency tile of the point is in its staging buffer at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- So is the feature tile of the point's column block. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The bias row, fetched once, stays in its staging buffer: its block index never moves. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The two tests on the column coordinate -/

/-- "This is the first column block": the test that guards the reset of the accumulator. -/
abbrev cond3_0 (i : grid3.Coords) : Prop := (Scalar.cmpi .ne (Scalar.extui (Scalar.cmpi .eq (BitVec.ofNat 32 (i 1).val) 0#32)) 0#32) = 1#1
/-- Points run row tile by row tile, five column blocks each: the first block is at the multiples of five. -/
theorem hcond3_0 : ∀ t : Fin cfg3.N, cond3_0 (grid3.coords t) ↔ t.val % 5 = 0 :=
  (by decide +kernel : ∀ t : Fin grid3.N, cond3_0 (grid3.coords t) ↔ t.val % 5 = 0)

/-- "This is the last column block": the test that guards the store of the output block. -/
abbrev cond3_1 (i : grid3.Coords) : Prop := k3_cond2 i = 1#1
theorem hcond3_1 : ∀ t : Fin cfg3.N, cond3_1 (grid3.coords t) ↔ t.val % 5 = 4 :=
  (by decide +kernel : ∀ t : Fin grid3.N, cond3_1 (grid3.coords t) ↔ t.val % 5 = 4)

/-! ## Where the output window rests -/

/-- The three inputs are never at rest. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- Off the last column block the output block is neither stored into -/
theorem idleAt3_3 : ∀ t : Fin cfg3.N, ¬ t.val % 5 = 4 → cfg3.idle 3 (grid3.coords t) = true := by decide +kernel
/-- nor written back; -/
theorem noFlush3_3 (t : Fin cfg3.N) (h : ¬ t.val % 5 = 4) : (cfg3.win 3).flush t = false :=
  Bool.eq_false_iff.mpr fun hf => h ((flush3_3 t).mp hf)
/-- on the last it is stored. -/
theorem liveAt3_3 : ∀ t : Fin cfg3.N, t.val % 5 = 4 → cfg3.idle 3 (grid3.coords t) = false := by decide +kernel

/-! ## The accumulator -/

/-- The f32 accumulator the kernel keeps from one point to the next: a whole buffer of the core's own. -/
abbrev scM3_0 : Memref sig .tc .vmem S1024x64 .f32 := Memref.whole cc3_scratch0

/-- What the launch hands the region, with the accumulator set apart from the other buffers of the core
    that this call does not stage (they pass through unopened) and from the generator register. -/
theorem PhiA3_eq (c : Dev nD) :
    (Pipeline.ΦA spec3 c : sProp 𝕄)
      = iprop(((∃ d, owns (c : Thread nD τ) scM3_0 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA
  rw [Pipeline.scopedRest_split_of_list spec3 c [cc3_scratch0] (by decide) (by decide)]
  simp only [bigSepL_singleton, scM3_0, owns_whole]; try rfl

/-! ## The body on whole staging buffers, case by case -/

theorem hz3 : (![0, 0] : Fin 2 → ℕ) = fun _ => 0 := by funext a; fin_cases a <;> rfl

/-- A store through the whole 1024 × 256 block, made last, covers the block whatever was stored before. -/
theorem cover3_whole (p0 : Vec F S1024x64 .f32) (L : List (View.Piece (Elt F) S1024x64 .f32)) (y : S1024x64.Idx) :
    ∃ pc ∈ ((⟨Rect.unit (s := S1024x64) ![0, 0] S1024x64.size inb_S1024x64_S1024x64_0_0, p0⟩ : View.Piece (Elt F) S1024x64 .f32) :: L), y ∈ pc.1.set :=
  ⟨_, List.mem_cons_self .., View.mem_set_unit_zero hz3 inb_S1024x64_S1024x64_0_0 y⟩

set_option maxHeartbeats 1000000 in
/-- FIRST COLUMN BLOCK. The accumulator, whatever it held, is zeroed, read back, and the product of the two
    tiles is added into it; the bias row and the output block are not touched. -/
theorem sound_kernel3_A (c : Dev nD) (E : Set ℕ) (i : grid3.Coords)
    (arg2 : Memref sig .tc .vmem S1024x2048 .bf16) (harg2 : arg2.IsWhole) (arg3 : Memref sig .tc .vmem S2048x64 .bf16) (harg3 : arg3.IsWhole)
    (arg4 : Memref sig .tc .vmem S1x64 .f32) (harg4 : arg4.IsWhole) (arg5 : Memref sig .tc .vmem S1024x64 .f32) (harg5 : arg5.IsWhole)
    (arg6 : Memref sig .tc .vmem S1024x64 .f32) (harg6 : arg6.IsWhole) (hc0 : cond3_0 i) (hc1 : ¬cond3_1 i)
    (x0 : Vec F S1024x2048 .bf16) (x1 : Vec F S2048x64 .bf16) (x2 : Vec F S1x64 .f32) (xi3 : Vec F S1024x64 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k3_pay2 (k3_pay1 (F := F)) x0 x1)) -∗ K ⟨⟩))
      ⊢ wp frame (wpE (defs₀ (F := F)) Variants.none c none) E (cc3__agg_kernel i arg2 harg2 arg3 harg3 arg4 harg4 arg5 harg5 arg6 harg6) K := by
  simp only [cc3__agg_kernel_eq_skeleton]; unfold cc3__agg_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_words
  rw [View.read_writes_eq_canon _ _ _ (cover3_whole _ _), View.canon_cons_unit_zero hz3]
  simp only [View.readCov_unit_zero (S := S1024x64) _ hz3, View.readAt_eq_ld, View.ld_unit_zero (S := S1024x2048) hz3, View.ld_unit_zero (S := S2048x64) hz3]

set_option maxHeartbeats 1000000 in
/-- A MIDDLE COLUMN BLOCK. The product of the two tiles is added into what the accumulator holds; nothing else
    changes. -/
theorem sound_kernel3_B (c : Dev nD) (E : Set ℕ) (i : grid3.Coords)
    (arg2 : Memref sig .tc .vmem S1024x2048 .bf16) (harg2 : arg2.IsWhole) (arg3 : Memref sig .tc .vmem S2048x64 .bf16) (harg3 : arg3.IsWhole)
    (arg4 : Memref sig .tc .vmem S1x64 .f32) (harg4 : arg4.IsWhole) (arg5 : Memref sig .tc .vmem S1024x64 .f32) (harg5 : arg5.IsWhole)
    (arg6 : Memref sig .tc .vmem S1024x64 .f32) (harg6 : arg6.IsWhole) (hc0 : ¬cond3_0 i) (hc1 : ¬cond3_1 i)
    (x0 : Vec F S1024x2048 .bf16) (x1 : Vec F S2048x64 .bf16) (x2 : Vec F S1x64 .f32) (xi3 : Vec F S1024x64 .f32) (xs : Vec F S1024x64 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k3_pay2 xs x0 x1)) -∗ K ⟨⟩))
      ⊢ wp frame (wpE (defs₀ (F := F)) Variants.none c none) E (cc3__agg_kernel i arg2 harg2 arg3 harg3 arg4 harg4 arg5 harg5 arg6 harg6) K := by
  simp only [cc3__agg_kernel_eq_skeleton]; unfold cc3__agg_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  try sl_unfold_words
  rw [View.read_writes_eq_canon _ _ _ (cover3_whole _ _), View.canon_unit_zero hz3]
  simp only [View.readAt_eq_ld, View.ld_unit_zero (S := S1024x64) hz3, View.ld_unit_zero (S := S1024x2048) hz3, View.ld_unit_zero (S := S2048x64) hz3]

set_option maxHeartbeats 1000000 in
/-- LAST COLUMN BLOCK. The product is added into the accumulator as before; then the finished sum is read back,
    the bias row added to every row, the result clamped below at zero and stored over the output block, whatever
    that held. -/
theorem sound_kernel3_C (c : Dev nD) (E : Set ℕ) (i : grid3.Coords)
    (arg2 : Memref sig .tc .vmem S1024x2048 .bf16) (harg2 : arg2.IsWhole) (arg3 : Memref sig .tc .vmem S2048x64 .bf16) (harg3 : arg3.IsWhole)
    (arg4 : Memref sig .tc .vmem S1x64 .f32) (harg4 : arg4.IsWhole) (arg5 : Memref sig .tc .vmem S1024x64 .f32) (harg5 : arg5.IsWhole)
    (arg6 : Memref sig .tc .vmem S1024x64 .f32) (harg6 : arg6.IsWhole) (hc0 : ¬cond3_0 i) (hc1 : cond3_1 i)
    (x0 : Vec F S1024x2048 .bf16) (x1 : Vec F S2048x64 .bf16) (x2 : Vec F S1x64 .f32) (xs : Vec F S1024x64 .f32)
    (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k3_pay3 (k3_pay2 xs x0 x1) x2) ∗ owns (c : Thread nD τ) arg6 fullShare (k3_pay2 xs x0 x1)) -∗ K ⟨⟩))
      ⊢ wp frame (wpE (defs₀ (F := F)) Variants.none c none) E (cc3__agg_kernel i arg2 harg2 arg3 harg3 arg4 harg4 arg5 harg5 arg6 harg6) K := by
  simp only [cc3__agg_kernel_eq_skeleton]; unfold cc3__agg_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [View.read_writes_eq_canon _ _ _ (cover3_whole _ _), View.canon_unit_zero hz3]
    simp only [View.readCov_unit_zero (S := S1024x64) _ hz3, View.readAt_eq_ld, View.ld_unit_zero (S := S1024x64) hz3, View.ld_unit_zero (S := S1024x2048) hz3, View.ld_unit_zero (S := S2048x64) hz3, View.ld_unit_zero (S := S1x64) hz3]
  iexists _; isplitr
  swap; · iexact HS
  ipureintro
  sl_unfold_words
  rw [View.read_writes_eq_canon _ _ _ (cover3_whole _ _), View.canon_unit_zero hz3]
  simp only [View.readAt_eq_ld, View.ld_unit_zero (S := S1024x64) hz3, View.ld_unit_zero (S := S1024x2048) hz3, View.ld_unit_zero (S := S2048x64) hz3]

/-! ## What the accumulator and the output block hold, point by point -/

/-- THE RUNNING SUM. What the accumulator holds after point `n`: at a first column block the product of the
    point's two tiles added into zero — whatever the accumulator held before, the reset discards it —; at any
    other block the same product added into what the point before left. -/
def scrAt3 (c : Dev nD) : (n : ℕ) → n < cfg3.N → Vec F S1024x64 .f32
  | 0, hn => k3_pay2 (k3_pay1 (F := F)) (iblk3 V c 0 ⟨0, hn⟩) (iblk3 V c 1 ⟨0, hn⟩)
  | n + 1, hn =>
    if (n + 1) % 5 = 0 then k3_pay2 (k3_pay1 (F := F)) (iblk3 V c 0 ⟨n + 1, hn⟩) (iblk3 V c 1 ⟨n + 1, hn⟩)
    else k3_pay2 (scrAt3 c n (Nat.lt_of_succ_lt hn)) (iblk3 V c 0 ⟨n + 1, hn⟩) (iblk3 V c 1 ⟨n + 1, hn⟩)

/-- After point `n`: the output block and the accumulator. The output block is the accumulator plus the bias
    row, clamped below at zero; that is what the last column block stores, and at the other points, where the
    block is neither stored nor written back, nothing reads this component. -/
def outsAt3 (c : Dev nD) (n : ℕ) (hn : n < cfg3.N) : Vec F S1024x64 .f32 × Vec F S1024x64 .f32 :=
  (k3_pay3 (scrAt3 V c n hn) (iblk3 V c 2 ⟨n, hn⟩), scrAt3 V c n hn)

theorem scrAt3_first (c : Dev nD) (t : Fin cfg3.N) (h0 : t.val % 5 = 0) :
    scrAt3 V c t.val t.isLt = k3_pay2 (k3_pay1 (F := F)) (iblk3 V c 0 t) (iblk3 V c 1 t) := by
  obtain ⟨n, hn⟩ := t
  cases n with
  | zero => rfl
  | succ n => exact if_pos h0

theorem scrAt3_next (c : Dev nD) (t : Fin cfg3.N) (h0 : ¬ t.val % 5 = 0) :
    scrAt3 V c t.val t.isLt = k3_pay2 (scrAt3 V c (t.val - 1) (Nat.lt_of_le_of_lt (Nat.sub_le _ _) t.isLt)) (iblk3 V c 0 t) (iblk3 V c 1 t) := by
  obtain ⟨n, hn⟩ := t
  cases n with
  | zero => exact absurd (Nat.zero_mod _) h0
  | succ n => exact if_neg h0

/-- The accumulator after a first column block: the point's product added into zero. -/
theorem scr3_first (c : Dev nD) (t : Fin cfg3.N) (h0 : t.val % 5 = 0) :
    (outsAt3 V c t.val t.isLt).2 = k3_pay2 (k3_pay1 (F := F)) (iblk3 V c 0 t) (iblk3 V c 1 t) :=
  scrAt3_first V c t h0

/-- After any other block: the point's product added into what the point before left. -/
theorem scr3_next (c : Dev nD) (t : Fin cfg3.N) (h0 : ¬ t.val % 5 = 0) :
    (outsAt3 V c t.val t.isLt).2 = k3_pay2 (outsAt3 V c (t.val - 1) (Nat.lt_of_le_of_lt (Nat.sub_le _ _) t.isLt)).2 (iblk3 V c 0 t) (iblk3 V c 1 t) :=
  scrAt3_next V c t h0

/-- The output block after a last column block: the finished sum plus the bias row, clamped below at zero. -/
theorem out3_last (c : Dev nD) (t : Fin cfg3.N) (h1 : t.val % 5 = 4) :
    (outsAt3 V c t.val t.isLt).1 = k3_pay3 (outsAt3 V c t.val t.isLt).2 (iblk3 V c 2 t) := rfl

/-! ## The invariant -/

/-- Before point `n`: at the start what the launch hands over (the accumulator at anything); afterwards the
    accumulator at the running sum the point before left, the core's other buffers and the generator register
    as they come. -/
def PhiS3 (c : Dev nD) : (n : ℕ) → n ≤ cfg3.N → sProp 𝕄
  | 0, _ => Pipeline.ΦA spec3 c
  | n + 1, hn => iprop((owns (c : Thread nD τ) scM3_0 fullShare (scrAt3 V c n hn) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop((owns (c : Thread nD τ) scM3_0 fullShare (scrAt3 V c n hn) ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop((owns (c : Thread nD τ) scM3_0 fullShare (scrAt3 V c (n - 1) (by omega)) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The region's proof data -/

/-- On core `c`: the arrays as found; after point `t` the three inputs' buffers at their blocks and the
    output's at `outsAt3`'s first component; between points the invariant above; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

theorem out3_eq (c : Dev nD) (t : Fin cfg3.N) :
    (outsAt3 V c t.val t.isLt).1 = k3_pay3 (scrAt3 V c t.val t.isLt) (iblk3 V c 2 t) := rfl

set_option maxHeartbeats 4000000 in
/-- The body at any point. The three inputs' buffers hold their blocks; which of the three cases the point is in
    is read off its position among the five column blocks. At a first block the accumulator comes at anything
    (at the very first point from the launch, later from the row tile before) and leaves at the first term of
    the sum; at the others it comes at what the point before left and leaves one term longer. The output block
    is handed back as it came except at a last block, where it leaves at the finished value. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  rw [show (dat3 V c).leavesExact 2 t = owns (c : Thread nD τ) (st3_2 t) fullShare ((dat3 V c).after 2 t) from by
    unfold Dat.leavesExact; rw [liveAt3_2 t], after3_2]
  have hN : t.val < 50 := lt_of_lt_of_eq t.isLt (show cfg3.N = 50 from N_3)
  by_cases h0 : t.val % 5 = 0
  · have h1 : ¬ t.val % 5 = 4 := by omega
    rw [Dat.leavesExact_idle (dat3 V c) 3 t (idleAt3_3 t h1) (noFlush3_3 t h1)]
    rw [scrAt3_first V c t h0]
    by_cases hz : t.val = 0
    · rw [PhiS3_castSucc V c t, PhiS3_zero V c _ _ hz, PhiA3_eq]
      iintro ⟨⟨⟨HS, HR⟩, Hg⟩, Ho, ⟨%d0, H0⟩, ⟨%d1, H1⟩, ⟨%d2, H2⟩, ⟨%d3, H3⟩⟩
      iapply (sound_kernel3_A c Set.univ (grid3.coords t) _ _ _ _ _ _ _ _ _ _ ((hcond3_0 t).mpr h0) (fun h => h1 ((hcond3_1 t).mp h)) (iblk3 V c 0 t) (iblk3 V c 1 t) (iblk3 V c 2 t) ((dat3 V c).before 3 t d3) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [PhiS3_castSucc V c t, PhiS3_pos V c _ _ hz]
      iintro ⟨⟨⟨HS, HR⟩, Hg⟩, Ho, ⟨%d0, H0⟩, ⟨%d1, H1⟩, ⟨%d2, H2⟩, ⟨%d3, H3⟩⟩
      iapply (sound_kernel3_A c Set.univ (grid3.coords t) _ _ _ _ _ _ _ _ _ _ ((hcond3_0 t).mpr h0) (fun h => h1 ((hcond3_1 t).mp h)) (iblk3 V c 0 t) (iblk3 V c 1 t) (iblk3 V c 2 t) ((dat3 V c).before 3 t d3) _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    rw [scrAt3_next V c t h0]
    by_cases h1 : t.val % 5 = 4
    · rw [show (dat3 V c).leavesExact 3 t = owns (c : Thread nD τ) (st3_3 t) fullShare ((dat3 V c).after 3 t) from by
        unfold Dat.leavesExact; rw [liveAt3_3 t h1], after3_3, out3_eq, scrAt3_next V c t h0]
      rw [PhiS3_castSucc V c t, PhiS3_pos V c _ _ hz]
      iintro ⟨⟨⟨HS, HR⟩, Hg⟩, Ho, ⟨%d0, H0⟩, ⟨%d1, H1⟩, ⟨%d2, H2⟩, ⟨%d3, H3⟩⟩
      iapply (sound_kernel3_C c Set.univ (grid3.coords t) _ _ _ _ _ _ _ _ _ _ (fun h => h0 ((hcond3_0 t).mp h)) ((hcond3_1 t).mpr h1) (iblk3 V c 0 t) (iblk3 V c 1 t) (iblk3 V c 2 t) (scrAt3 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [Dat.leavesExact_idle (dat3 V c) 3 t (idleAt3_3 t h1) (noFlush3_3 t h1)]
      rw [PhiS3_castSucc V c t, PhiS3_pos V c _ _ hz]
      iintro ⟨⟨⟨HS, HR⟩, Hg⟩, Ho, ⟨%d0, H0⟩, ⟨%d1, H1⟩, ⟨%d2, H2⟩, ⟨%d3, H3⟩⟩
      iapply (sound_kernel3_B c Set.univ (grid3.coords t) _ _ _ _ _ _ _ _ _ _ (fun h => h0 ((hcond3_0 t).mp h)) (fun h => h1 ((hcond3_1 t).mp h)) (iblk3 V c 0 t) (iblk3 V c 1 t) (iblk3 V c 2 t) ((dat3 V c).before 3 t d3) (scrAt3 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The body obligation of the region, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point the invariant gives that back: what the accumulator holds is forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS, HR⟩, Hg⟩
  isplitl [HS HR]
  · isplitl [HS]; · iexists _; iexact HS
    iexact HR
  iexact Hg

/-- In particular after the last. -/
theorem hout3 (c : Dev nD) : (dat3 V c).Φ (Fin.last cfg3.N) ⊢ Pipeline.ΦA spec3 c :=
  Phi_out3 V c _ (by rw [Fin.val_last]; have : cfg3.N = 50 := N_3; omega)

end Cert.Kernel.Hand

end
-- ==== Proof.K.Run.lean ====
/-
  The whole program as a walk through its thirteen stretches: five stretches of host operations (building
  the edge list with its self loops, the degree normalisation, the dense weight matrix, the padded features
  and the re-laid parameters), then four kernel regions — first dense product, first propagation, second
  dense product, second propagation — each followed by one host operation (three changes of float format and
  the final cut to 10000 rows).

  Between two stretches a core holds every buffer that outlives a region at known contents: `W0` at launch,
  `W(j+1)` after stretch `j`. A host stretch takes the contents to the operations' values; a region leaves
  every buffer as it found it except its own arrays, which hold what the pipeline wrote back (`Dat.arrAt` at
  the last point). The run theorem reads ALL of them off the final state (`run_all`), so that both the
  arguments' preservation and the result's value follow by looking up one buffer.
-/
import proofs.«422500_j8761733284692_1_alg».proof.Proof.K.Reg0
import proofs.«422500_j8761733284692_1_alg».proof.Proof.K.Reg2
import proofs.«422500_j8761733284692_1_alg».proof.Proof.K.Reg1
import proofs.«422500_j8761733284692_1_alg».proof.Proof.K.Reg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- At launch. -/
abbrev W0 : Dev nD → Valuation τ sig (Elt F) := fun c b => (s₀ m ρ).mem ((c : Dev nD), b)
/-- After each of the five host stretches before the first region. -/
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
abbrev W5 : Dev nD → Valuation τ sig (Elt F) := fun c => StableHlo.after hostOps0_4 (W4 m ρ c)
/-- What the first dense product finds. -/
abbrev E0 : (c : Dev nD) → (b : Ref sig .tc) → Buf (Elt F) ((c : Thread nD τ).loc b) := fun c b => W5 m ρ c b
/-- After the first dense product: its arrays at what the pipeline left, the rest untouched. -/
def W6 (c : Dev nD) : Valuation τ sig (Elt F) :=
  Pipeline.withArrays spec0 c (W5 m ρ c) fun w => (dat0 (E0 m ρ) c).arrAt w cfg0.N
theorem W6_arr (c : Dev nD) (w : Fin cfg0.W) :
    W6 m ρ c (Proc.devRef .tc (Pipeline.arrRef spec0 w)) = (dat0 (E0 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
abbrev X0 : (c : Dev nD) → (b : Ref sig .tc) → Buf (Elt F) ((c : Thread nD τ).loc b) := fun c b => W6 m ρ c b
theorem hF0 (c : Dev nD) (w : Fin cfg0.W) : (dat0 (E0 m ρ) c).arrAt w cfg0.N = X0 m ρ c (Pipeline.arrRef spec0 w) :=
  (W6_arr m ρ c w).symm
theorem hrest0 (c : Dev nD) : ∀ b, b ∉ Finset.univ.image (Pipeline.arrRef spec0) → X0 m ρ c b = E0 m ρ c b :=
  fun b hb => W6_of_ne m ρ c b fun w e => hb (Finset.mem_image.mpr ⟨w, Finset.mem_univ _, e⟩)

/-- After the change of format that follows it: what the first propagation finds. -/
abbrev W7 : Dev nD → Valuation τ sig (Elt F) := fun c => StableHlo.after hostOps1 (W6 m ρ c)
abbrev E1 : (c : Dev nD) → (b : Ref sig .tc) → Buf (Elt F) ((c : Thread nD τ).loc b) := fun c b => W7 m ρ c b
def W8 (c : Dev nD) : Valuation τ sig (Elt F) :=
  Pipeline.withArrays spec1 c (W7 m ρ c) fun w => (dat1 (E1 m ρ) c).arrAt w cfg1.N
theorem W8_arr (c : Dev nD) (w : Fin cfg1.W) :
    W8 m ρ c (Proc.devRef .tc (Pipeline.arrRef spec1 w)) = (dat1 (E1 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
abbrev X1 : (c : Dev nD) → (b : Ref sig .tc) → Buf (Elt F) ((c : Thread nD τ).loc b) := fun c b => W8 m ρ c b
theorem hF1 (c : Dev nD) (w : Fin cfg1.W) : (dat1 (E1 m ρ) c).arrAt w cfg1.N = X1 m ρ c (Pipeline.arrRef spec1 w) :=
  (W8_arr m ρ c w).symm
theorem hrest1 (c : Dev nD) : ∀ b, b ∉ Finset.univ.image (Pipeline.arrRef spec1) → X1 m ρ c b = E1 m ρ c b :=
  fun b hb => W8_of_ne m ρ c b fun w e => hb (Finset.mem_image.mpr ⟨w, Finset.mem_univ _, e⟩)

/-- The second dense product. -/
abbrev W9 : Dev nD → Valuation τ sig (Elt F) := fun c => StableHlo.after hostOps2 (W8 m ρ c)
abbrev E2 : (c : Dev nD) → (b : Ref sig .tc) → Buf (Elt F) ((c : Thread nD τ).loc b) := fun c b => W9 m ρ c b
def W10 (c : Dev nD) : Valuation τ sig (Elt F) :=
  Pipeline.withArrays spec2 c (W9 m ρ c) fun w => (dat2 (E2 m ρ) c).arrAt w cfg2.N
theorem W10_arr (c : Dev nD) (w : Fin cfg2.W) :
    W10 m ρ c (Proc.devRef .tc (Pipeline.arrRef spec2 w)) = (dat2 (E2 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
abbrev X2 : (c : Dev nD) → (b : Ref sig .tc) → Buf (Elt F) ((c : Thread nD τ).loc b) := fun c b => W10 m ρ c b
theorem hF2 (c : Dev nD) (w : Fin cfg2.W) : (dat2 (E2 m ρ) c).arrAt w cfg2.N = X2 m ρ c (Pipeline.arrRef spec2 w) :=
  (W10_arr m ρ c w).symm
theorem hrest2 (c : Dev nD) : ∀ b, b ∉ Finset.univ.image (Pipeline.arrRef spec2) → X2 m ρ c b = E2 m ρ c b :=
  fun b hb => W10_of_ne m ρ c b fun w e => hb (Finset.mem_image.mpr ⟨w, Finset.mem_univ _, e⟩)

/-- The second propagation. -/
abbrev W11 : Dev nD → Valuation τ sig (Elt F) := fun c => StableHlo.after hostOps3 (W10 m ρ c)
abbrev E3 : (c : Dev nD) → (b : Ref sig .tc) → Buf (Elt F) ((c : Thread nD τ).loc b) := fun c b => W11 m ρ c b
def W12 (c : Dev nD) : Valuation τ sig (Elt F) :=
  Pipeline.withArrays spec3 c (W11 m ρ c) fun w => (dat3 (E3 m ρ) c).arrAt w cfg3.N
theorem W12_arr (c : Dev nD) (w : Fin cfg3.W) :
    W12 m ρ c (Proc.devRef .tc (Pipeline.arrRef spec3 w)) = (dat3 (E3 m ρ) c).arrAt w cfg3.N := by
  unfold W12; exact Pipeline.withArrays_arr spec3 launch3.win.arr_inj c _ _ w
theorem W12_of_ne (c : Dev nD) (b : Ref sig .tc) (hb : ∀ w, Pipeline.arrRef spec3 w ≠ b) :
    W12 m ρ c (Proc.devRef .tc b) = W11 m ρ c (Proc.devRef .tc b) := by
  unfold W12; exact Pipeline.withArrays_of_ne spec3 c _ _ b hb
abbrev X3 : (c : Dev nD) → (b : Ref sig .tc) → Buf (Elt F) ((c : Thread nD τ).loc b) := fun c b => W12 m ρ c b
theorem hF3 (c : Dev nD) (w : Fin cfg3.W) : (dat3 (E3 m ρ) c).arrAt w cfg3.N = X3 m ρ c (Pipeline.arrRef spec3 w) :=
  (W12_arr m ρ c w).symm
theorem hrest3 (c : Dev nD) : ∀ b, b ∉ Finset.univ.image (Pipeline.arrRef spec3) → X3 m ρ c b = E3 m ρ c b :=
  fun b hb => W12_of_ne m ρ c b fun w e => hb (Finset.mem_image.mpr ⟨w, Finset.mem_univ _, e⟩)

/-- After the final cut to 10000 rows: what the program returns from. -/
abbrev W13 : Dev nD → Valuation τ sig (Elt F) := fun c => StableHlo.after hostOps4 (W12 m ρ c)

/-! ## The proof data family and what rides along -/

/-- No region has a prefetched table. -/
abbrev adm : (p : Fin 4) → (pcfgs (F := F) p).Adm := fun p => (cfgs p).toPCfg_adm
/-- Each region's proof data at the contents it is entered from. -/
def pdats : (p : Fin 4) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E1 m ρ) c
  | ⟨2, _⟩ => fun c => dat2 (E2 m ρ) c
  | ⟨3, _⟩ => fun c => dat3 (E3 m ρ) c
abbrev 𝒱₀ : Variants := Variants.none
/-- No core owes another anything. -/
abbrev L : GSem nD τ sig → Finset Unit := fun _ => ∅
abbrev lv : GSem nD τ sig → Unit → ℕ := fun _ _ => 0
/-- Beside the buffers every stretch carries the generator register, at some state, and the core's debts, none. -/
abbrev R (c : Dev nD) : sProp 𝕄 := iprop((∃ r, prngReg c r) ∗ ∃ W, owes (c : Thread nD τ) (0 : CellTallies nD τ sig Unit) W)
/-- A host stretch from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem fresh0 : (hostOps0 : List (HloOp τ sig (Elt F))).Forall fun op => op.fresh = ∅ := by
  simp only [List.Forall]; repeat' constructor
theorem fresh0_1 : (hostOps0_1 : List (HloOp τ sig (Elt F))).Forall fun op => op.fresh = ∅ := by
  simp only [List.Forall]; repeat' constructor
theorem fresh0_2 : (hostOps0_2 : List (HloOp τ sig (Elt F))).Forall fun op => op.fresh = ∅ := by
  simp only [List.Forall]; repeat' constructor
theorem fresh0_3 : (hostOps0_3 : List (HloOp τ sig (Elt F))).Forall fun op => op.fresh = ∅ := by
  simp only [List.Forall]; repeat' constructor
theorem fresh0_4 : (hostOps0_4 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem fresh2 : (hostOps2 : List (HloOp τ sig (Elt F))).Forall fun op => op.fresh = ∅ := by
  simp only [List.Forall]; repeat' constructor
theorem fresh3 : (hostOps3 : List (HloOp τ sig (Elt F))).Forall fun op => op.fresh = ∅ := by
  simp only [List.Forall]; repeat' constructor
theorem fresh4 : (hostOps4 : List (HloOp τ sig (Elt F))).Forall fun op => op.fresh = ∅ := by
  simp only [List.Forall]; repeat' constructor

/-- A buffer that outlives the regions is among those a core holds between stretches. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last state without the debts: every such buffer at the final contents, the generator register at some state. -/
abbrev Tₙ (c : Dev nD) : sProp 𝕄 := iprop(StableHlo.held (c : Thread nD τ) (Pipeline.ucRefs τ sig) (W13 m ρ c) ∗ ∃ r, prngReg c r)

/-! ## The four regions -/

-- a library lemma stated over the pinned configuration unifies with the printed one only when unification may
-- unfold plain definitions in a metavariable's type
set_option backward.isDefEq.respectTransparency.types false in
/-- Region 0 between the boundary contents `W5` and `W6`: its arrays are split out of the unscoped buffers
    on the way in and put back, at what the pipeline left in them, on the way out; the generator register goes
    into the region's invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (X0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 1 between the boundary contents `W7` and `W8`: its arrays are split out of the unscoped buffers
    on the way in and put back, at what the pipeline left in them, on the way out; the generator register goes
    into the region's invariant and comes back; the accumulator's named contents are forgotten at the end; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (hin1 (E1 m ρ) c)
    unfold Pipeline.ΦA
    iintro ⟨Hp, -, Hr⟩
    isplitl [Hr]; · iexact Hr
    iexact Hp
  hout c := by
    refine (show (pdats m ρ 1 c).Φ (Fin.last _) ⊢ Pipeline.ΦA spec1 c from hout1 (E1 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E1 m ρ c) (X1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 2 between the boundary contents `W9` and `W10`: its arrays are split out of the unscoped buffers
    on the way in and put back, at what the pipeline left in them, on the way out; the generator register goes
    into the region's invariant and comes back; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m ρ) c).loose
  hwaits := Pipeline.hwaits_of_owed_zero _ _ _ _ L lv 2 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec2 c (E2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E2 m ρ c) (X2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 3 between the boundary contents `W11` and `W12`: its arrays are split out of the unscoped buffers
    on the way in and put back, at what the pipeline left in them, on the way out; the generator register goes
    into the region's invariant and comes back; the accumulator's named contents are forgotten at the end; nothing is owed. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E3 m ρ) c).loose
  hwaits := Pipeline.hwaits_of_owed_zero _ _ _ _ L lv 3 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec3 c (E3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec3 c from ?_).trans (hin3 (E3 m ρ) c)
    unfold Pipeline.ΦA
    iintro ⟨Hp, -, Hr⟩
    isplitl [Hr]; · iexact Hr
    iexact Hp
  hout c := by
    refine (show (pdats m ρ 3 c).Φ (Fin.last _) ⊢ Pipeline.ΦA spec3 c from hout3 (E3 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (E3 m ρ c) (X3 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its thirteen stretches, and the run -/

abbrev segs : List (Pipeline.Seg (pcfgs (F := F)) adm (pdats m ρ) () defs₀ 𝒱₀ L lv) :=
  [ .host (hseg hostOps0 hostOps0_sub fresh0 (W0 m ρ)),
    .host (hseg hostOps0_1 hostOps0_1_sub fresh0_1 (W1 m ρ)),
    .host (hseg hostOps0_2 hostOps0_2_sub fresh0_2 (W2 m ρ)),
    .host (hseg hostOps0_3 hostOps0_3_sub fresh0_3 (W3 m ρ)),
    .host (hseg hostOps0_4 hostOps0_4_sub fresh0_4 (W4 m ρ)),
    .region (reg0 m ρ),
    .host (hseg hostOps1 hostOps1_sub fresh1 (W6 m ρ)),
    .region (reg1 m ρ),
    .host (hseg hostOps2 hostOps2_sub fresh2 (W8 m ρ)),
    .region (reg2 m ρ),
    .host (hseg hostOps3 hostOps3_sub fresh3 (W10 m ρ)),
    .region (reg3 m ρ),
    .host (hseg hostOps4 hostOps4_sub fresh4 (W12 m ρ)) ]

/-- The program is the run of its stretches. -/
theorem main_run (c : Dev nD) : main (F := F) c = Pipeline.Seg.run (segs m ρ) := (main_chain c).trans (by chain_rfl)

set_option backward.isDefEq.respectTransparency.types false in
/-- From any memory with zero counters every weakly fair execution of the program terminates, nothing
    faulting, and in the final memory every buffer that outlives the regions holds the final contents `W13`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => by
        show iprop(StableHlo.held (c : Thread nD τ) (Pipeline.ucRefs τ sig) (W13 m ρ c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c => h c)

end Cert.Kernel.Hand

end
-- ==== Proof.K.Args.lean ====
/-
  The program's arguments are never written: no host operation has one of them as its result, and no kernel
  region has one of them among the arrays of its windows. So each of the six argument buffers holds at the end,
  after all thirteen stretches, exactly what it held at launch.

  A host stretch is a list of operations each of which writes one named result buffer; a buffer outside the
  list of those results is read through the stretch unchanged. A region changes only the arrays of its own
  windows; any other buffer is read through the region unchanged.
-/
import proofs.«422500_j8761733284692_1_alg».proof.Proof.K.Run

set_option maxRecDepth 16384

noncomputable section

namespace Cert.Kernel.Hand

open Idealize.ShloMosaic Idealize.ShloMosaic.TcCoe
open Cert.Kernel Cert.Kernel.Gen

variable {F : FTy → Type} [FloatOps F]

variable (m : (ℓ : Loc nD τ sig) → Buf (Elt F) ℓ) (ρ : Dev nD → PrngReg)

/-! ## The result buffers of each host stretch -/

/-- The results of the first stretch: the self-loop indices, the two edge rows with the loops appended, and the degree. -/
abbrev res0 : List (Ref sig .tc) := [main_v0, main_v1, main_v2, main_v3, main_v4, main_v5, main_v6, main_cst, main_v7, main_cst_0, main_v8, main_v9, main_v10, main_cst_1, main_v11, main_v12, main_v13, main_cst_2]
/-- The results of the second stretch: the guarded inverse square root of the degree. -/
abbrev res0_1 : List (Ref sig .tc) := [main_call0_v0, main_call0_v1, main_v14]
/-- The results of the third stretch: the wrapped indices, the edge weights and the dense matrix. -/
abbrev res0_2 : List (Ref sig .tc) := [main_c, main_v15, main_v16, main_c_3, main_v17, main_v18, main_v19, main_v20, main_v21, main_c_4, main_v22, main_v23, main_c_5, main_v24, main_v25, main_v26, main_v27, main_v28, main_v29, main_cst_6, main_v30, main_c_7, main_v31, main_v32, main_c_8, main_v33, main_v34, main_v35, main_c_9, main_v36, main_v37, main_c_10, main_v38, main_v39, main_v40, main_v41, main_v42, main_v43, main_v44, main_v45, main_c_11]
/-- The results of the fourth stretch: the features padded to 10240 rows. -/
abbrev res0_3 : List (Ref sig .tc) := [main_call1_v0, main_v46]
/-- The results of the fifth stretch: the features and the weights in the narrow format, the biases as rows. -/
abbrev res0_4 : List (Ref sig .tc) := [main_v47, main_v48, main_v49, main_v50, main_v51]

/-- Every operation of a stretch writes one buffer of the stretch's result list. -/
theorem writes0 : (hostOps0 : List (HloOp τ sig (Elt F))).Forall fun op => op.writes ⊆ (res0.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem writes0_1 : (hostOps0_1 : List (HloOp τ sig (Elt F))).Forall fun op => op.writes ⊆ (res0_1.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem writes0_2 : (hostOps0_2 : List (HloOp τ sig (Elt F))).Forall fun op => op.writes ⊆ (res0_2.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem writes0_3 : (hostOps0_3 : List (HloOp τ sig (Elt F))).Forall fun op => op.writes ⊆ (res0_3.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem writes0_4 : (hostOps0_4 : List (HloOp τ sig (Elt F))).Forall fun op => op.writes ⊆ (res0_4.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- Each of the four single operations after a region writes its one result. -/
theorem writes1 : (hostOps1 : List (HloOp τ sig (Elt F))).Forall fun op => op.writes ⊆ (([main_v53] : List (Ref sig .tc)).map (Proc.devRef (τ := τ) .tc)).toFinset := by
  simp only [List.Forall, StableHlo.unary_writes, Finset.singleton_subset_iff, List.mem_toFinset]
  exact List.mem_map_of_mem (by decide)
theorem writes2 : (hostOps2 : List (HloOp τ sig (Elt F))).Forall fun op => op.writes ⊆ (([main_v55] : List (Ref sig .tc)).map (Proc.devRef (τ := τ) .tc)).toFinset := by
  simp only [List.Forall, StableHlo.unary_writes, Finset.singleton_subset_iff, List.mem_toFinset]
  exact List.mem_map_of_mem (by decide)
theorem writes3 : (hostOps3 : List (HloOp τ sig (Elt F))).Forall fun op => op.writes ⊆ (([main_v57] : List (Ref sig .tc)).map (Proc.devRef (τ := τ) .tc)).toFinset := by
  simp only [List.Forall, StableHlo.unary_writes, Finset.singleton_subset_iff, List.mem_toFinset]
  exact List.mem_map_of_mem (by decide)
theorem writes4 : (hostOps4 : List (HloOp τ sig (Elt F))).Forall fun op => op.writes ⊆ (([main_v59] : List (Ref sig .tc)).map (Proc.devRef (τ := τ) .tc)).toFinset := by
  simp only [List.Forall, StableHlo.unary_writes, Finset.singleton_subset_iff, List.mem_toFinset]
  exact List.mem_map_of_mem (by decide)

/-! ## One stretch at a time: a buffer that is no result of the stretch is read through it -/

theorem W1_of (c : Dev nD) (r : Ref sig .tc) (h : r ∉ res0) : W1 m ρ c (Proc.devRef .tc r) = W0 m ρ c (Proc.devRef .tc r) :=
  StableHlo.after_of_writes_sub hostOps0 _ writes0 h
theorem W2_of (c : Dev nD) (r : Ref sig .tc) (h : r ∉ res0_1) : W2 m ρ c (Proc.devRef .tc r) = W1 m ρ c (Proc.devRef .tc r) :=
  StableHlo.after_of_writes_sub hostOps0_1 _ writes0_1 h
theorem W3_of (c : Dev nD) (r : Ref sig .tc) (h : r ∉ res0_2) : W3 m ρ c (Proc.devRef .tc r) = W2 m ρ c (Proc.devRef .tc r) :=
  StableHlo.after_of_writes_sub hostOps0_2 _ writes0_2 h
theorem W4_of (c : Dev nD) (r : Ref sig .tc) (h : r ∉ res0_3) : W4 m ρ c (Proc.devRef .tc r) = W3 m ρ c (Proc.devRef .tc r) :=
  StableHlo.after_of_writes_sub hostOps0_3 _ writes0_3 h
theorem W5_of (c : Dev nD) (r : Ref sig .tc) (h : r ∉ res0_4) : W5 m ρ c (Proc.devRef .tc r) = W4 m ρ c (Proc.devRef .tc r) :=
  StableHlo.after_of_writes_sub hostOps0_4 _ writes0_4 h
theorem W7_of (c : Dev nD) (r : Ref sig .tc) (h : r ∉ ([main_v53] : List (Ref sig .tc))) : W7 m ρ c (Proc.devRef .tc r) = W6 m ρ c (Proc.devRef .tc r) :=
  StableHlo.after_of_writes_sub hostOps1 _ writes1 h
theorem W9_of (c : Dev nD) (r : Ref sig .tc) (h : r ∉ ([main_v55] : List (Ref sig .tc))) : W9 m ρ c (Proc.devRef .tc r) = W8 m ρ c (Proc.devRef .tc r) :=
  StableHlo.after_of_writes_sub hostOps2 _ writes2 h
theorem W11_of (c : Dev nD) (r : Ref sig .tc) (h : r ∉ ([main_v57] : List (Ref sig .tc))) : W11 m ρ c (Proc.devRef .tc r) = W10 m ρ c (Proc.devRef .tc r) :=
  StableHlo.after_of_writes_sub hostOps3 _ writes3 h
theorem W13_of (c : Dev nD) (r : Ref sig .tc) (h : r ∉ ([main_v59] : List (Ref sig .tc))) : W13 m ρ c (Proc.devRef .tc r) = W12 m ρ c (Proc.devRef .tc r) :=
  StableHlo.after_of_writes_sub hostOps4 _ writes4 h

/-! ## A buffer that no stretch touches -/

/-- A buffer that is no result of any host operation and no array of any region's window holds at the end
    what it held at launch: thirteen steps, each reading it through. -/
theorem W13_untouched (c : Dev nD) (r : Ref sig .tc)
    (h0 : r ∉ res0) (h1 : r ∉ res0_1) (h2 : r ∉ res0_2) (h3 : r ∉ res0_3) (h4 : r ∉ res0_4)
    (a0 : ∀ w, Pipeline.arrRef spec0 w ≠ r) (h6 : r ∉ ([main_v53] : List (Ref sig .tc)))
    (a1 : ∀ w, Pipeline.arrRef spec1 w ≠ r) (h8 : r ∉ ([main_v55] : List (Ref sig .tc)))
    (a2 : ∀ w, Pipeline.arrRef spec2 w ≠ r) (h10 : r ∉ ([main_v57] : List (Ref sig .tc)))
    (a3 : ∀ w, Pipeline.arrRef spec3 w ≠ r) (h12 : r ∉ ([main_v59] : List (Ref sig .tc))) :
    W13 m ρ c (Proc.devRef .tc r) = m ((c : Thread nD τ).loc r) :=
  calc W13 m ρ c (Proc.devRef .tc r)
      = W12 m ρ c (Proc.devRef .tc r) := W13_of m ρ c r h12
    _ = W11 m ρ c (Proc.devRef .tc r) := W12_of_ne m ρ c r a3
    _ = W10 m ρ c (Proc.devRef .tc r) := W11_of m ρ c r h10
    _ = W9 m ρ c (Proc.devRef .tc r) := W10_of_ne m ρ c r a2
    _ = W8 m ρ c (Proc.devRef .tc r) := W9_of m ρ c r h8
    _ = W7 m ρ c (Proc.devRef .tc r) := W8_of_ne m ρ c r a1
    _ = W6 m ρ c (Proc.devRef .tc r) := W7_of m ρ c r h6
    _ = W5 m ρ c (Proc.devRef .tc r) := W6_of_ne m ρ c r a0
    _ = W4 m ρ c (Proc.devRef .tc r) := W5_of m ρ c r h4
    _ = W3 m ρ c (Proc.devRef .tc r) := W4_of m ρ c r h3
    _ = W2 m ρ c (Proc.devRef .tc r) := W3_of m ρ c r h2
    _ = W1 m ρ c (Proc.devRef .tc r) := W2_of m ρ c r h1
    _ = W0 m ρ c (Proc.devRef .tc r) := W1_of m ρ c r h0
    _ = m ((c : Thread nD τ).loc r) := rfl

/-! ## The six arguments -/

/-- The node features. -/
theorem W13_arg0 (c : Dev nD) : W13 m ρ c (Proc.devRef .tc main_arg0) = m ((c : Thread nD τ).loc main_arg0) :=
  W13_untouched m ρ c main_arg0 (by decide) (by decide) (by decide) (by decide) (by decide) (by decide) (by decide)
    (by decide) (by decide) (by decide) (by decide) (by decide) (by decide)
/-- The edge list. -/
theorem W13_arg1 (c : Dev nD) : W13 m ρ c (Proc.devRef .tc main_arg1) = m ((c : Thread nD τ).loc main_arg1) :=
  W13_untouched m ρ c main_arg1 (by decide) (by decide) (by decide) (by decide) (by decide) (by decide) (by decide)
    (by decide) (by decide) (by decide) (by decide) (by decide) (by decide)
/-- The first layer's weights. -/
theorem W13_arg2 (c : Dev nD) : W13 m ρ c (Proc.devRef .tc main_arg2) = m ((c : Thread nD τ).loc main_arg2) :=
  W13_untouched m ρ c main_arg2 (by decide) (by decide) (by decide) (by decide) (by decide) (by decide) (by decide)
    (by decide) (by decide) (by decide) (by decide) (by decide) (by decide)
/-- The first layer's bias. -/
theorem W13_arg3 (c : Dev nD) : W13 m ρ c (Proc.devRef .tc main_arg3) = m ((c : Thread nD τ).loc main_arg3) :=
  W13_untouched m ρ c main_arg3 (by decide) (by decide) (by decide) (by decide) (by decide) (by decide) (by decide)
    (by decide) (by decide) (by decide) (by decide) (by decide) (by decide)
/-- The second layer's weights. -/
theorem W13_arg4 (c : Dev nD) : W13 m ρ c (Proc.devRef .tc main_arg4) = m ((c : Thread nD τ).loc main_arg4) :=
  W13_untouched m ρ c main_arg4 (by decide) (by decide) (by decide) (by decide) (by decide) (by decide) (by decide)
    (by decide) (by decide) (by decide) (by decide) (by decide) (by decide)
/-- The second layer's bias. -/
theorem W13_arg5 (c : Dev nD) : W13 m ρ c (Proc.devRef .tc main_arg5) = m ((c : Thread nD τ).loc main_arg5) :=
  W13_untouched m ρ c main_arg5 (by decide) (by decide) (by decide) (by decide) (by decide) (by decide) (by decide)
    (by decide) (by decide) (by decide) (by decide) (by decide) (by decide)

end Cert.Kernel.Hand

end
-- ==== Proof.KI.Reg0.lean ====
/-
  The first dense product, one grid point at a time. A point `t` of the ten-point grid takes rows
  [1024 t, 1024 t + 1024) of the padded feature matrix and the whole first weight matrix, and leaves
  in its output block their matrix product accumulated into zero. Nothing is carried from one point
  to the next, so what a block holds after its point is a function of that point's two input blocks
  alone (`prodBlock0`); the contents of the three staging buffers after every point (`dat0`) and the
  body's triple at a generic point (`body_obligation0`) say exactly this.
-/
import proofs.«422500_j8761733284692_1_alg».proof.Proof.Gen.KernelIdeal.Skeleton
import proofs.«422500_j8761733284692_1_alg».proof.Proof.Gen.KernelIdeal.Launch
import proofs.«422500_j8761733284692_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffers' contents when the region is entered: the parameter the region is stated at
variable (V : (c : Dev nD) → (b : Ref sig .tc) → Buf (Elt F) ((c : Thread nD τ).loc b))

/-- Window `w`'s block at point `t`, read off the array the region finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of the padded features is in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix, fetched once, is in its staging buffer at every point: its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The shape of the product's block. -/
abbrev SC0 : Shape := S1024x256
/-- Each of the three blocks as one whole rectangle: the left factor's rows, the right factor, the product. -/
abbrev rA0 : Rect S1024x256 := Rect.unit (s := S1024x256) ![0, 0] S1024x256.size inb_S1024x256_S1024x256_0_0
abbrev rB0 : Rect S256x256 := Rect.unit (s := S256x256) ![0, 0] S256x256.size inb_S256x256_S256x256_0_0
abbrev rC0 : Rect SC0 := Rect.unit (s := S1024x256) ![0, 0] S1024x256.size inb_S1024x256_S1024x256_0_0

/-- What a point leaves in its output block: the product of its two input blocks, stored whole. -/
def prodBlock0 (x0 : Vec F S1024x256 .bf16) (x1 : Vec F S256x256 .bf16) : Vec F SC0 .f32 :=
  View.canon [⟨rC0, k0_pay1 (View.ld x0 rA0) (View.ld x1 rB0)⟩]

/-- One whole-block store covers the block. -/
theorem cover0_2 (p0 : Vec F SC0 .f32) (y : SC0.Idx) :
    ∃ pc ∈ ([⟨rC0, p0⟩] : List (View.Piece (Elt F) SC0 .f32)), y ∈ pc.1.set :=
  View.cover_of_tiled [⟨rC0, p0⟩] SC0.size (by rfl) y

set_option maxHeartbeats 1000000 in
/-- The body on whole staging buffers: the two inputs are read and left as they were, the output,
    whatever it held, ends at the product. -/
theorem sound_kernel0 (c : Dev nD) (E : Set ℕ) (i : grid0.Coords)
    (arg1 : Memref sig .tc .vmem S1024x256 .bf16) (harg1 : arg1.IsWhole) (arg2 : Memref sig .tc .vmem S256x256 .bf16) (harg2 : arg2.IsWhole)
    (arg3 : Memref sig .tc .vmem SC0 .f32) (harg3 : arg3.IsWhole)
    (x0 : Vec F S1024x256 .bf16) (x1 : Vec F S256x256 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (prodBlock0 x0 x1)) -∗ K ⟨⟩))
      ⊢ wp frame (wpE (defs₀ (F := F)) Variants.none c none) E (cc0__dense_matmul_kernel i arg1 harg1 arg2 harg2 arg3 harg3) K := by
  simp only [cc0__dense_matmul_kernel_eq_skeleton]; unfold cc0__dense_matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The region's proof data on core `c`: the arrays as found; after point `t` the inputs' buffers at
    their blocks and the output's at the product of the two; nothing kept between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => prodBlock0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = prodBlock0 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple above applies; the
    rest passes through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg2.lean ====
/-
  The second dense product, one grid point at a time. A point `t` of the ten-point grid takes rows
  [1024 t, 1024 t + 1024) of the hidden activations and the whole second weight matrix, and leaves
  in its output block their matrix product accumulated into zero. Nothing is carried from one point
  to the next, so what a block holds after its point is a function of that point's two input blocks
  alone (`prodBlock2`); the contents of the three staging buffers after every point (`dat2`) and the
  body's triple at a generic point (`body_obligation2`) say exactly this.
-/
import proofs.«422500_j8761733284692_1_alg».proof.Proof.Gen.KernelIdeal.Skeleton
import proofs.«422500_j8761733284692_1_alg».proof.Proof.Gen.KernelIdeal.Launch
import proofs.«422500_j8761733284692_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffers' contents when the region is entered: the parameter the region is stated at
variable (V : (c : Dev nD) → (b : Ref sig .tc) → Buf (Elt F) ((c : Thread nD τ).loc b))

/-- Window `w`'s block at point `t`, read off the array the region finds. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row block of the padded features is in its staging buffer at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight matrix, fetched once, is in its staging buffer at every point: its block index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The shape of the product's block. -/
abbrev SC2 : Shape := S1024x64
/-- Each of the three blocks as one whole rectangle: the left factor's rows, the right factor, the product. -/
abbrev rA2 : Rect S1024x256 := Rect.unit (s := S1024x256) ![0, 0] S1024x256.size inb_S1024x256_S1024x256_0_0
abbrev rB2 : Rect S256x64 := Rect.unit (s := S256x64) ![0, 0] S256x64.size inb_S256x64_S256x64_0_0
abbrev rC2 : Rect SC2 := Rect.unit (s := S1024x64) ![0, 0] S1024x64.size inb_S1024x64_S1024x64_0_0

/-- What a point leaves in its output block: the product of its two input blocks, stored whole. -/
def prodBlock2 (x0 : Vec F S1024x256 .bf16) (x1 : Vec F S256x64 .bf16) : Vec F SC2 .f32 :=
  View.canon [⟨rC2, k2_pay1 (View.ld x0 rA2) (View.ld x1 rB2)⟩]

/-- One whole-block store covers the block. -/
theorem cover2_2 (p0 : Vec F SC2 .f32) (y : SC2.Idx) :
    ∃ pc ∈ ([⟨rC2, p0⟩] : List (View.Piece (Elt F) SC2 .f32)), y ∈ pc.1.set :=
  View.cover_of_tiled [⟨rC2, p0⟩] SC2.size (by rfl) y

set_option maxHeartbeats 1000000 in
/-- The body on whole staging buffers: the two inputs are read and left as they were, the output,
    whatever it held, ends at the product. -/
theorem sound_kernel2 (c : Dev nD) (E : Set ℕ) (i : grid2.Coords)
    (arg1 : Memref sig .tc .vmem S1024x256 .bf16) (harg1 : arg1.IsWhole) (arg2 : Memref sig .tc .vmem S256x64 .bf16) (harg2 : arg2.IsWhole)
    (arg3 : Memref sig .tc .vmem SC2 .f32) (harg3 : arg3.IsWhole)
    (x0 : Vec F S1024x256 .bf16) (x1 : Vec F S256x64 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (prodBlock2 x0 x1)) -∗ K ⟨⟩))
      ⊢ wp frame (wpE (defs₀ (F := F)) Variants.none c none) E (cc2__dense_matmul_kernel i arg1 harg1 arg2 harg2 arg3 harg3) K := by
  simp only [cc2__dense_matmul_kernel_eq_skeleton]; unfold cc2__dense_matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The region's proof data on core `c`: the arrays as found; after point `t` the inputs' buffers at
    their blocks and the output's at the product of the two; nothing kept between points. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => prodBlock2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = prodBlock2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the triple above applies; the
    rest passes through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg1.lean ====
/-
  The first neighbour aggregation, one grid point at a time. The 50 points run through 10 row tiles of the
  normalised adjacency matrix, and within a row tile through its 5 column blocks: point `t` is row tile `t / 5`,
  column block `t % 5`. A point multiplies its 1024 × 2048 tile of the adjacency matrix with the matching
  2048 × 256 tile of the features and adds the product into an f32 accumulator that the kernel KEEPS from one
  point to the next. At a first column block the accumulator is zeroed before the addition, so whatever it held
  — nothing in particular at the very first point, the finished sum of the row tile before at the later ones —
  plays no part; at a last column block the finished sum, with the bias row added and negative entries replaced
  by zero, is stored as the row tile's output block. At the other four points of a row tile the output block is
  neither stored into nor written back.

  So the body has three behaviours, told apart by `t % 5` (0, then 1 to 3, then 4), and what the accumulator
  holds after point `t` is a recursion on `t` (`scrAt1`): the running sum over the column blocks of `t`'s row
  tile up to `t`'s own. The module states the body's triple in each of the three cases on whole buffers
  (`sound_kernel1_A`, `_B`, `_C`), the contents after every point (`outsAt1`, `dat1`), the invariant between
  points (`PhiS1`: the accumulator at the running sum), and the body's triple at a generic point
  (`body_obligation1`), with the three equations that say what the recursion computes (`scr1_first`,
  `scr1_next`, `out1_last`).
-/
import proofs.«422500_j8761733284692_1_alg».proof.Proof.Gen.KernelIdeal.Skeleton
import proofs.«422500_j8761733284692_1_alg».proof.Proof.Gen.KernelIdeal.Launch
import proofs.«422500_j8761733284692_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffers' contents when the region is entered: the parameter the region is stated at
variable (V : (c : Dev nD) → (b : Ref sig .tc) → Buf (Elt F) ((c : Thread nD τ).loc b))

/-- Window `w`'s block at point `t`, read off the array the region finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency tile of the point is in its staging buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- So is the feature tile of the point's column block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias row, fetched once, stays in its staging buffer: its block index never moves. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The two tests on the column coordinate -/

/-- "This is the first column block": the test that guards the reset of the accumulator. -/
abbrev cond1_0 (i : grid1.Coords) : Prop := (Scalar.cmpi .ne (Scalar.extui (Scalar.cmpi .eq (BitVec.ofNat 32 (i 1).val) 0#32)) 0#32) = 1#1
/-- Points run row tile by row tile, five column blocks each: the first block is at the multiples of five. -/
theorem hcond1_0 : ∀ t : Fin cfg1.N, cond1_0 (grid1.coords t) ↔ t.val % 5 = 0 :=
  (by decide +kernel : ∀ t : Fin grid1.N, cond1_0 (grid1.coords t) ↔ t.val % 5 = 0)

/-- "This is the last column block": the test that guards the store of the output block. -/
abbrev cond1_1 (i : grid1.Coords) : Prop := k1_cond2 i = 1#1
theorem hcond1_1 : ∀ t : Fin cfg1.N, cond1_1 (grid1.coords t) ↔ t.val % 5 = 4 :=
  (by decide +kernel : ∀ t : Fin grid1.N, cond1_1 (grid1.coords t) ↔ t.val % 5 = 4)

/-! ## Where the output window rests -/

/-- The three inputs are never at rest. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last column block the output block is neither stored into -/
theorem idleAt1_3 : ∀ t : Fin cfg1.N, ¬ t.val % 5 = 4 → cfg1.idle 3 (grid1.coords t) = true := by decide +kernel
/-- nor written back; -/
theorem noFlush1_3 (t : Fin cfg1.N) (h : ¬ t.val % 5 = 4) : (cfg1.win 3).flush t = false :=
  Bool.eq_false_iff.mpr fun hf => h ((flush1_3 t).mp hf)
/-- on the last it is stored. -/
theorem liveAt1_3 : ∀ t : Fin cfg1.N, t.val % 5 = 4 → cfg1.idle 3 (grid1.coords t) = false := by decide +kernel

/-! ## The accumulator -/

/-- The f32 accumulator the kernel keeps from one point to the next: a whole buffer of the core's own. -/
abbrev scM1_0 : Memref sig .tc .vmem S1024x256 .f32 := Memref.whole cc1_scratch0

/-- What the launch hands the region, with the accumulator set apart from the other buffers of the core
    that this call does not stage (they pass through unopened) and from the generator register. -/
theorem PhiA1_eq (c : Dev nD) :
    (Pipeline.ΦA spec1 c : sProp 𝕄)
      = iprop(((∃ d, owns (c : Thread nD τ) scM1_0 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [bigSepL_singleton, scM1_0, owns_whole]; try rfl

/-! ## The body on whole staging buffers, case by case -/

theorem hz1 : (![0, 0] : Fin 2 → ℕ) = fun _ => 0 := by funext a; fin_cases a <;> rfl

/-- A store through the whole 1024 × 256 block, made last, covers the block whatever was stored before. -/
theorem cover1_whole (p0 : Vec F S1024x256 .f32) (L : List (View.Piece (Elt F) S1024x256 .f32)) (y : S1024x256.Idx) :
    ∃ pc ∈ ((⟨Rect.unit (s := S1024x256) ![0, 0] S1024x256.size inb_S1024x256_S1024x256_0_0, p0⟩ : View.Piece (Elt F) S1024x256 .f32) :: L), y ∈ pc.1.set :=
  ⟨_, List.mem_cons_self .., View.mem_set_unit_zero hz1 inb_S1024x256_S1024x256_0_0 y⟩

set_option maxHeartbeats 1000000 in
/-- FIRST COLUMN BLOCK. The accumulator, whatever it held, is zeroed, read back, and the product of the two
    tiles is added into it; the bias row and the output block are not touched. -/
theorem sound_kernel1_A (c : Dev nD) (E : Set ℕ) (i : grid1.Coords)
    (arg2 : Memref sig .tc .vmem S1024x2048 .bf16) (harg2 : arg2.IsWhole) (arg3 : Memref sig .tc .vmem S2048x256 .bf16) (harg3 : arg3.IsWhole)
    (arg4 : Memref sig .tc .vmem S1x256 .f32) (harg4 : arg4.IsWhole) (arg5 : Memref sig .tc .vmem S1024x256 .f32) (harg5 : arg5.IsWhole)
    (arg6 : Memref sig .tc .vmem S1024x256 .f32) (harg6 : arg6.IsWhole) (hc0 : cond1_0 i) (hc1 : ¬cond1_1 i)
    (x0 : Vec F S1024x2048 .bf16) (x1 : Vec F S2048x256 .bf16) (x2 : Vec F S1x256 .f32) (xi3 : Vec F S1024x256 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k1_pay2 (k1_pay1 (F := F)) x0 x1)) -∗ K ⟨⟩))
      ⊢ wp frame (wpE (defs₀ (F := F)) Variants.none c none) E (cc1__agg_kernel i arg2 harg2 arg3 harg3 arg4 harg4 arg5 harg5 arg6 harg6) K := by
  simp only [cc1__agg_kernel_eq_skeleton]; unfold cc1__agg_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_words
  rw [View.read_writes_eq_canon _ _ _ (cover1_whole _ _), View.canon_cons_unit_zero hz1]
  simp only [View.readCov_unit_zero (S := S1024x256) _ hz1, View.readAt_eq_ld, View.ld_unit_zero (S := S1024x2048) hz1, View.ld_unit_zero (S := S2048x256) hz1]

set_option maxHeartbeats 1000000 in
/-- A MIDDLE COLUMN BLOCK. The product of the two tiles is added into what the accumulator holds; nothing else
    changes. -/
theorem sound_kernel1_B (c : Dev nD) (E : Set ℕ) (i : grid1.Coords)
    (arg2 : Memref sig .tc .vmem S1024x2048 .bf16) (harg2 : arg2.IsWhole) (arg3 : Memref sig .tc .vmem S2048x256 .bf16) (harg3 : arg3.IsWhole)
    (arg4 : Memref sig .tc .vmem S1x256 .f32) (harg4 : arg4.IsWhole) (arg5 : Memref sig .tc .vmem S1024x256 .f32) (harg5 : arg5.IsWhole)
    (arg6 : Memref sig .tc .vmem S1024x256 .f32) (harg6 : arg6.IsWhole) (hc0 : ¬cond1_0 i) (hc1 : ¬cond1_1 i)
    (x0 : Vec F S1024x2048 .bf16) (x1 : Vec F S2048x256 .bf16) (x2 : Vec F S1x256 .f32) (xi3 : Vec F S1024x256 .f32) (xs : Vec F S1024x256 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k1_pay2 xs x0 x1)) -∗ K ⟨⟩))
      ⊢ wp frame (wpE (defs₀ (F := F)) Variants.none c none) E (cc1__agg_kernel i arg2 harg2 arg3 harg3 arg4 harg4 arg5 harg5 arg6 harg6) K := by
  simp only [cc1__agg_kernel_eq_skeleton]; unfold cc1__agg_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  try sl_unfold_words
  rw [View.read_writes_eq_canon _ _ _ (cover1_whole _ _), View.canon_unit_zero hz1]
  simp only [View.readAt_eq_ld, View.ld_unit_zero (S := S1024x256) hz1, View.ld_unit_zero (S := S1024x2048) hz1, View.ld_unit_zero (S := S2048x256) hz1]

set_option maxHeartbeats 1000000 in
/-- LAST COLUMN BLOCK. The product is added into the accumulator as before; then the finished sum is read back,
    the bias row added to every row, the result clamped below at zero and stored over the output block, whatever
    that held. -/
theorem sound_kernel1_C (c : Dev nD) (E : Set ℕ) (i : grid1.Coords)
    (arg2 : Memref sig .tc .vmem S1024x2048 .bf16) (harg2 : arg2.IsWhole) (arg3 : Memref sig .tc .vmem S2048x256 .bf16) (harg3 : arg3.IsWhole)
    (arg4 : Memref sig .tc .vmem S1x256 .f32) (harg4 : arg4.IsWhole) (arg5 : Memref sig .tc .vmem S1024x256 .f32) (harg5 : arg5.IsWhole)
    (arg6 : Memref sig .tc .vmem S1024x256 .f32) (harg6 : arg6.IsWhole) (hc0 : ¬cond1_0 i) (hc1 : cond1_1 i)
    (x0 : Vec F S1024x2048 .bf16) (x1 : Vec F S2048x256 .bf16) (x2 : Vec F S1x256 .f32) (xs : Vec F S1024x256 .f32)
    (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 (k1_pay2 xs x0 x1) x2) ∗ owns (c : Thread nD τ) arg6 fullShare (k1_pay2 xs x0 x1)) -∗ K ⟨⟩))
      ⊢ wp frame (wpE (defs₀ (F := F)) Variants.none c none) E (cc1__agg_kernel i arg2 harg2 arg3 harg3 arg4 harg4 arg5 harg5 arg6 harg6) K := by
  simp only [cc1__agg_kernel_eq_skeleton]; unfold cc1__agg_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [View.read_writes_eq_canon _ _ _ (cover1_whole _ _), View.canon_unit_zero hz1]
    simp only [View.readCov_unit_zero (S := S1024x256) _ hz1, View.readAt_eq_ld, View.ld_unit_zero (S := S1024x256) hz1, View.ld_unit_zero (S := S1024x2048) hz1, View.ld_unit_zero (S := S2048x256) hz1, View.ld_unit_zero (S := S1x256) hz1]
  iexists _; isplitr
  swap; · iexact HS
  ipureintro
  sl_unfold_words
  rw [View.read_writes_eq_canon _ _ _ (cover1_whole _ _), View.canon_unit_zero hz1]
  simp only [View.readAt_eq_ld, View.ld_unit_zero (S := S1024x256) hz1, View.ld_unit_zero (S := S1024x2048) hz1, View.ld_unit_zero (S := S2048x256) hz1]

/-! ## What the accumulator and the output block hold, point by point -/

/-- THE RUNNING SUM. What the accumulator holds after point `n`: at a first column block the product of the
    point's two tiles added into zero — whatever the accumulator held before, the reset discards it —; at any
    other block the same product added into what the point before left. -/
def scrAt1 (c : Dev nD) : (n : ℕ) → n < cfg1.N → Vec F S1024x256 .f32
  | 0, hn => k1_pay2 (k1_pay1 (F := F)) (iblk1 V c 0 ⟨0, hn⟩) (iblk1 V c 1 ⟨0, hn⟩)
  | n + 1, hn =>
    if (n + 1) % 5 = 0 then k1_pay2 (k1_pay1 (F := F)) (iblk1 V c 0 ⟨n + 1, hn⟩) (iblk1 V c 1 ⟨n + 1, hn⟩)
    else k1_pay2 (scrAt1 c n (Nat.lt_of_succ_lt hn)) (iblk1 V c 0 ⟨n + 1, hn⟩) (iblk1 V c 1 ⟨n + 1, hn⟩)

/-- After point `n`: the output block and the accumulator. The output block is the accumulator plus the bias
    row, clamped below at zero; that is what the last column block stores, and at the other points, where the
    block is neither stored nor written back, nothing reads this component. -/
def outsAt1 (c : Dev nD) (n : ℕ) (hn : n < cfg1.N) : Vec F S1024x256 .f32 × Vec F S1024x256 .f32 :=
  (k1_pay3 (scrAt1 V c n hn) (iblk1 V c 2 ⟨n, hn⟩), scrAt1 V c n hn)

theorem scrAt1_first (c : Dev nD) (t : Fin cfg1.N) (h0 : t.val % 5 = 0) :
    scrAt1 V c t.val t.isLt = k1_pay2 (k1_pay1 (F := F)) (iblk1 V c 0 t) (iblk1 V c 1 t) := by
  obtain ⟨n, hn⟩ := t
  cases n with
  | zero => rfl
  | succ n => exact if_pos h0

theorem scrAt1_next (c : Dev nD) (t : Fin cfg1.N) (h0 : ¬ t.val % 5 = 0) :
    scrAt1 V c t.val t.isLt = k1_pay2 (scrAt1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h0
  | succ n => exact if_neg h0

/-- The accumulator after a first column block: the point's product added into zero. -/
theorem scr1_first (c : Dev nD) (t : Fin cfg1.N) (h0 : t.val % 5 = 0) :
    (outsAt1 V c t.val t.isLt).2 = k1_pay2 (k1_pay1 (F := F)) (iblk1 V c 0 t) (iblk1 V c 1 t) :=
  scrAt1_first V c t h0

/-- After any other block: the point's product added into what the point before left. -/
theorem scr1_next (c : Dev nD) (t : Fin cfg1.N) (h0 : ¬ t.val % 5 = 0) :
    (outsAt1 V c t.val t.isLt).2 = k1_pay2 (outsAt1 V c (t.val - 1) (Nat.lt_of_le_of_lt (Nat.sub_le _ _) t.isLt)).2 (iblk1 V c 0 t) (iblk1 V c 1 t) :=
  scrAt1_next V c t h0

/-- The output block after a last column block: the finished sum plus the bias row, clamped below at zero. -/
theorem out1_last (c : Dev nD) (t : Fin cfg1.N) (h1 : t.val % 5 = 4) :
    (outsAt1 V c t.val t.isLt).1 = k1_pay3 (outsAt1 V c t.val t.isLt).2 (iblk1 V c 2 t) := rfl

/-! ## The invariant -/

/-- Before point `n`: at the start what the launch hands over (the accumulator at anything); afterwards the
    accumulator at the running sum the point before left, the core's other buffers and the generator register
    as they come. -/
def PhiS1 (c : Dev nD) : (n : ℕ) → n ≤ cfg1.N → sProp 𝕄
  | 0, _ => Pipeline.ΦA spec1 c
  | n + 1, hn => iprop((owns (c : Thread nD τ) scM1_0 fullShare (scrAt1 V c n hn) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((owns (c : Thread nD τ) scM1_0 fullShare (scrAt1 V c n hn) ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop((owns (c : Thread nD τ) scM1_0 fullShare (scrAt1 V c (n - 1) (by omega)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The region's proof data -/

/-- On core `c`: the arrays as found; after point `t` the three inputs' buffers at their blocks and the
    output's at `outsAt1`'s first component; between points the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem out1_eq (c : Dev nD) (t : Fin cfg1.N) :
    (outsAt1 V c t.val t.isLt).1 = k1_pay3 (scrAt1 V c t.val t.isLt) (iblk1 V c 2 t) := rfl

set_option maxHeartbeats 4000000 in
/-- The body at any point. The three inputs' buffers hold their blocks; which of the three cases the point is in
    is read off its position among the five column blocks. At a first block the accumulator comes at anything
    (at the very first point from the launch, later from the row tile before) and leaves at the first term of
    the sum; at the others it comes at what the point before left and leaves one term longer. The output block
    is handed back as it came except at a last block, where it leaves at the finished value. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  have hN : t.val < 50 := lt_of_lt_of_eq t.isLt (show cfg1.N = 50 from N_1)
  by_cases h0 : t.val % 5 = 0
  · have h1 : ¬ t.val % 5 = 4 := by omega
    rw [Dat.leavesExact_idle (dat1 V c) 3 t (idleAt1_3 t h1) (noFlush1_3 t h1)]
    rw [scrAt1_first V c t h0]
    by_cases hz : t.val = 0
    · rw [PhiS1_castSucc V c t, PhiS1_zero V c _ _ hz, PhiA1_eq]
      iintro ⟨⟨⟨HS, HR⟩, Hg⟩, Ho, ⟨%d0, H0⟩, ⟨%d1, H1⟩, ⟨%d2, H2⟩, ⟨%d3, H3⟩⟩
      iapply (sound_kernel1_A c Set.univ (grid1.coords t) _ _ _ _ _ _ _ _ _ _ ((hcond1_0 t).mpr h0) (fun h => h1 ((hcond1_1 t).mp h)) (iblk1 V c 0 t) (iblk1 V c 1 t) (iblk1 V c 2 t) ((dat1 V c).before 3 t d3) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS, HR⟩, Hg⟩, Ho, ⟨%d0, H0⟩, ⟨%d1, H1⟩, ⟨%d2, H2⟩, ⟨%d3, H3⟩⟩
      iapply (sound_kernel1_A c Set.univ (grid1.coords t) _ _ _ _ _ _ _ _ _ _ ((hcond1_0 t).mpr h0) (fun h => h1 ((hcond1_1 t).mp h)) (iblk1 V c 0 t) (iblk1 V c 1 t) (iblk1 V c 2 t) ((dat1 V c).before 3 t d3) _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    rw [scrAt1_next V c t h0]
    by_cases h1 : t.val % 5 = 4
    · rw [show (dat1 V c).leavesExact 3 t = owns (c : Thread nD τ) (st1_3 t) fullShare ((dat1 V c).after 3 t) from by
        unfold Dat.leavesExact; rw [liveAt1_3 t h1], after1_3, out1_eq, scrAt1_next V c t h0]
      rw [PhiS1_castSucc V c t, PhiS1_pos V c _ _ hz]
      iintro ⟨⟨⟨HS, HR⟩, Hg⟩, Ho, ⟨%d0, H0⟩, ⟨%d1, H1⟩, ⟨%d2, H2⟩, ⟨%d3, H3⟩⟩
      iapply (sound_kernel1_C c Set.univ (grid1.coords t) _ _ _ _ _ _ _ _ _ _ (fun h => h0 ((hcond1_0 t).mp h)) ((hcond1_1 t).mpr h1) (iblk1 V c 0 t) (iblk1 V c 1 t) (iblk1 V c 2 t) (scrAt1 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [Dat.leavesExact_idle (dat1 V c) 3 t (idleAt1_3 t h1) (noFlush1_3 t h1)]
      rw [PhiS1_castSucc V c t, PhiS1_pos V c _ _ hz]
      iintro ⟨⟨⟨HS, HR⟩, Hg⟩, Ho, ⟨%d0, H0⟩, ⟨%d1, H1⟩, ⟨%d2, H2⟩, ⟨%d3, H3⟩⟩
      iapply (sound_kernel1_B c Set.univ (grid1.coords t) _ _ _ _ _ _ _ _ _ _ (fun h => h0 ((hcond1_0 t).mp h)) (fun h => h1 ((hcond1_1 t).mp h)) (iblk1 V c 0 t) (iblk1 V c 1 t) (iblk1 V c 2 t) ((dat1 V c).before 3 t d3) (scrAt1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The body obligation of the region, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives that back: what the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, HR⟩, Hg⟩
  isplitl [HS HR]
  · isplitl [HS]; · iexists _; iexact HS
    iexact HR
  iexact Hg

/-- In particular after the last. -/
theorem hout1 (c : Dev nD) : (dat1 V c).Φ (Fin.last cfg1.N) ⊢ Pipeline.ΦA spec1 c :=
  Phi_out1 V c _ (by rw [Fin.val_last]; have : cfg1.N = 50 := N_1; omega)

end Cert.KernelIdeal.Hand

end
-- ==== Proof.KI.Reg3.lean ====
/-
  The second neighbour aggregation, one grid point at a time. The 50 points run through 10 row tiles of the
  normalised adjacency matrix, and within a row tile through its 5 column blocks: point `t` is row tile `t / 5`,
  column block `t % 5`. A point multiplies its 1024 × 2048 tile of the adjacency matrix with the matching
  2048 × 256 tile of the features and adds the product into an f32 accumulator that the kernel KEEPS from one
  point to the next. At a first column block the accumulator is zeroed before the addition, so whatever it held
  — nothing in particular at the very first point, the finished sum of the row tile before at the later ones —
  plays no part; at a last column block the finished sum, with the bias row added and negative entries replaced
  by zero, is stored as the row tile's output block. At the other four points of a row tile the output block is
  neither stored into nor written back.

  So the body has three behaviours, told apart by `t % 5` (0, then 1 to 3, then 4), and what the accumulator
  holds after point `t` is a recursion on `t` (`scrAt3`): the running sum over the column blocks of `t`'s row
  tile up to `t`'s own. The module states the body's triple in each of the three cases on whole buffers
  (`sound_kernel3_A`, `_B`, `_C`), the contents after every point (`outsAt3`, `dat3`), the invariant between
  points (`PhiS3`: the accumulator at the running sum), and the body's triple at a generic point
  (`body_obligation3`), with the three equations that say what the recursion computes (`scr3_first`,
  `scr3_next`, `out3_last`).
-/
import proofs.«422500_j8761733284692_1_alg».proof.Proof.Gen.KernelIdeal.Skeleton
import proofs.«422500_j8761733284692_1_alg».proof.Proof.Gen.KernelIdeal.Launch
import proofs.«422500_j8761733284692_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffers' contents when the region is entered: the parameter the region is stated at
variable (V : (c : Dev nD) → (b : Ref sig .tc) → Buf (Elt F) ((c : Thread nD τ).loc b))

/-- Window `w`'s block at point `t`, read off the array the region finds. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The adjacency tile of the point is in its staging buffer at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- So is the feature tile of the point's column block. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The bias row, fetched once, stays in its staging buffer: its block index never moves. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The two tests on the column coordinate -/

/-- "This is the first column block": the test that guards the reset of the accumulator. -/
abbrev cond3_0 (i : grid3.Coords) : Prop := (Scalar.cmpi .ne (Scalar.extui (Scalar.cmpi .eq (BitVec.ofNat 32 (i 1).val) 0#32)) 0#32) = 1#1
/-- Points run row tile by row tile, five column blocks each: the first block is at the multiples of five. -/
theorem hcond3_0 : ∀ t : Fin cfg3.N, cond3_0 (grid3.coords t) ↔ t.val % 5 = 0 :=
  (by decide +kernel : ∀ t : Fin grid3.N, cond3_0 (grid3.coords t) ↔ t.val % 5 = 0)

/-- "This is the last column block": the test that guards the store of the output block. -/
abbrev cond3_1 (i : grid3.Coords) : Prop := k3_cond2 i = 1#1
theorem hcond3_1 : ∀ t : Fin cfg3.N, cond3_1 (grid3.coords t) ↔ t.val % 5 = 4 :=
  (by decide +kernel : ∀ t : Fin grid3.N, cond3_1 (grid3.coords t) ↔ t.val % 5 = 4)

/-! ## Where the output window rests -/

/-- The three inputs are never at rest. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- Off the last column block the output block is neither stored into -/
theorem idleAt3_3 : ∀ t : Fin cfg3.N, ¬ t.val % 5 = 4 → cfg3.idle 3 (grid3.coords t) = true := by decide +kernel
/-- nor written back; -/
theorem noFlush3_3 (t : Fin cfg3.N) (h : ¬ t.val % 5 = 4) : (cfg3.win 3).flush t = false :=
  Bool.eq_false_iff.mpr fun hf => h ((flush3_3 t).mp hf)
/-- on the last it is stored. -/
theorem liveAt3_3 : ∀ t : Fin cfg3.N, t.val % 5 = 4 → cfg3.idle 3 (grid3.coords t) = false := by decide +kernel

/-! ## The accumulator -/

/-- The f32 accumulator the kernel keeps from one point to the next: a whole buffer of the core's own. -/
abbrev scM3_0 : Memref sig .tc .vmem S1024x64 .f32 := Memref.whole cc3_scratch0

/-- What the launch hands the region, with the accumulator set apart from the other buffers of the core
    that this call does not stage (they pass through unopened) and from the generator register. -/
theorem PhiA3_eq (c : Dev nD) :
    (Pipeline.ΦA spec3 c : sProp 𝕄)
      = iprop(((∃ d, owns (c : Thread nD τ) scM3_0 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA
  rw [Pipeline.scopedRest_split_of_list spec3 c [cc3_scratch0] (by decide) (by decide)]
  simp only [bigSepL_singleton, scM3_0, owns_whole]; try rfl

/-! ## The body on whole staging buffers, case by case -/

theorem hz3 : (![0, 0] : Fin 2 → ℕ) = fun _ => 0 := by funext a; fin_cases a <;> rfl

/-- A store through the whole 1024 × 256 block, made last, covers the block whatever was stored before. -/
theorem cover3_whole (p0 : Vec F S1024x64 .f32) (L : List (View.Piece (Elt F) S1024x64 .f32)) (y : S1024x64.Idx) :
    ∃ pc ∈ ((⟨Rect.unit (s := S1024x64) ![0, 0] S1024x64.size inb_S1024x64_S1024x64_0_0, p0⟩ : View.Piece (Elt F) S1024x64 .f32) :: L), y ∈ pc.1.set :=
  ⟨_, List.mem_cons_self .., View.mem_set_unit_zero hz3 inb_S1024x64_S1024x64_0_0 y⟩

set_option maxHeartbeats 1000000 in
/-- FIRST COLUMN BLOCK. The accumulator, whatever it held, is zeroed, read back, and the product of the two
    tiles is added into it; the bias row and the output block are not touched. -/
theorem sound_kernel3_A (c : Dev nD) (E : Set ℕ) (i : grid3.Coords)
    (arg2 : Memref sig .tc .vmem S1024x2048 .bf16) (harg2 : arg2.IsWhole) (arg3 : Memref sig .tc .vmem S2048x64 .bf16) (harg3 : arg3.IsWhole)
    (arg4 : Memref sig .tc .vmem S1x64 .f32) (harg4 : arg4.IsWhole) (arg5 : Memref sig .tc .vmem S1024x64 .f32) (harg5 : arg5.IsWhole)
    (arg6 : Memref sig .tc .vmem S1024x64 .f32) (harg6 : arg6.IsWhole) (hc0 : cond3_0 i) (hc1 : ¬cond3_1 i)
    (x0 : Vec F S1024x2048 .bf16) (x1 : Vec F S2048x64 .bf16) (x2 : Vec F S1x64 .f32) (xi3 : Vec F S1024x64 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k3_pay2 (k3_pay1 (F := F)) x0 x1)) -∗ K ⟨⟩))
      ⊢ wp frame (wpE (defs₀ (F := F)) Variants.none c none) E (cc3__agg_kernel i arg2 harg2 arg3 harg3 arg4 harg4 arg5 harg5 arg6 harg6) K := by
  simp only [cc3__agg_kernel_eq_skeleton]; unfold cc3__agg_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_words
  rw [View.read_writes_eq_canon _ _ _ (cover3_whole _ _), View.canon_cons_unit_zero hz3]
  simp only [View.readCov_unit_zero (S := S1024x64) _ hz3, View.readAt_eq_ld, View.ld_unit_zero (S := S1024x2048) hz3, View.ld_unit_zero (S := S2048x64) hz3]

set_option maxHeartbeats 1000000 in
/-- A MIDDLE COLUMN BLOCK. The product of the two tiles is added into what the accumulator holds; nothing else
    changes. -/
theorem sound_kernel3_B (c : Dev nD) (E : Set ℕ) (i : grid3.Coords)
    (arg2 : Memref sig .tc .vmem S1024x2048 .bf16) (harg2 : arg2.IsWhole) (arg3 : Memref sig .tc .vmem S2048x64 .bf16) (harg3 : arg3.IsWhole)
    (arg4 : Memref sig .tc .vmem S1x64 .f32) (harg4 : arg4.IsWhole) (arg5 : Memref sig .tc .vmem S1024x64 .f32) (harg5 : arg5.IsWhole)
    (arg6 : Memref sig .tc .vmem S1024x64 .f32) (harg6 : arg6.IsWhole) (hc0 : ¬cond3_0 i) (hc1 : ¬cond3_1 i)
    (x0 : Vec F S1024x2048 .bf16) (x1 : Vec F S2048x64 .bf16) (x2 : Vec F S1x64 .f32) (xi3 : Vec F S1024x64 .f32) (xs : Vec F S1024x64 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k3_pay2 xs x0 x1)) -∗ K ⟨⟩))
      ⊢ wp frame (wpE (defs₀ (F := F)) Variants.none c none) E (cc3__agg_kernel i arg2 harg2 arg3 harg3 arg4 harg4 arg5 harg5 arg6 harg6) K := by
  simp only [cc3__agg_kernel_eq_skeleton]; unfold cc3__agg_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  try sl_unfold_words
  rw [View.read_writes_eq_canon _ _ _ (cover3_whole _ _), View.canon_unit_zero hz3]
  simp only [View.readAt_eq_ld, View.ld_unit_zero (S := S1024x64) hz3, View.ld_unit_zero (S := S1024x2048) hz3, View.ld_unit_zero (S := S2048x64) hz3]

set_option maxHeartbeats 1000000 in
/-- LAST COLUMN BLOCK. The product is added into the accumulator as before; then the finished sum is read back,
    the bias row added to every row, the result clamped below at zero and stored over the output block, whatever
    that held. -/
theorem sound_kernel3_C (c : Dev nD) (E : Set ℕ) (i : grid3.Coords)
    (arg2 : Memref sig .tc .vmem S1024x2048 .bf16) (harg2 : arg2.IsWhole) (arg3 : Memref sig .tc .vmem S2048x64 .bf16) (harg3 : arg3.IsWhole)
    (arg4 : Memref sig .tc .vmem S1x64 .f32) (harg4 : arg4.IsWhole) (arg5 : Memref sig .tc .vmem S1024x64 .f32) (harg5 : arg5.IsWhole)
    (arg6 : Memref sig .tc .vmem S1024x64 .f32) (harg6 : arg6.IsWhole) (hc0 : ¬cond3_0 i) (hc1 : cond3_1 i)
    (x0 : Vec F S1024x2048 .bf16) (x1 : Vec F S2048x64 .bf16) (x2 : Vec F S1x64 .f32) (xs : Vec F S1024x64 .f32)
    (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k3_pay3 (k3_pay2 xs x0 x1) x2) ∗ owns (c : Thread nD τ) arg6 fullShare (k3_pay2 xs x0 x1)) -∗ K ⟨⟩))
      ⊢ wp frame (wpE (defs₀ (F := F)) Variants.none c none) E (cc3__agg_kernel i arg2 harg2 arg3 harg3 arg4 harg4 arg5 harg5 arg6 harg6) K := by
  simp only [cc3__agg_kernel_eq_skeleton]; unfold cc3__agg_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [View.read_writes_eq_canon _ _ _ (cover3_whole _ _), View.canon_unit_zero hz3]
    simp only [View.readCov_unit_zero (S := S1024x64) _ hz3, View.readAt_eq_ld, View.ld_unit_zero (S := S1024x64) hz3, View.ld_unit_zero (S := S1024x2048) hz3, View.ld_unit_zero (S := S2048x64) hz3, View.ld_unit_zero (S := S1x64) hz3]
  iexists _; isplitr
  swap; · iexact HS
  ipureintro
  sl_unfold_words
  rw [View.read_writes_eq_canon _ _ _ (cover3_whole _ _), View.canon_unit_zero hz3]
  simp only [View.readAt_eq_ld, View.ld_unit_zero (S := S1024x64) hz3, View.ld_unit_zero (S := S1024x2048) hz3, View.ld_unit_zero (S := S2048x64) hz3]

/-! ## What the accumulator and the output block hold, point by point -/

/-- THE RUNNING SUM. What the accumulator holds after point `n`: at a first column block the product of the
    point's two tiles added into zero — whatever the accumulator held before, the reset discards it —; at any
    other block the same product added into what the point before left. -/
def scrAt3 (c : Dev nD) : (n : ℕ) → n < cfg3.N → Vec F S1024x64 .f32
  | 0, hn => k3_pay2 (k3_pay1 (F := F)) (iblk3 V c 0 ⟨0, hn⟩) (iblk3 V c 1 ⟨0, hn⟩)
  | n + 1, hn =>
    if (n + 1) % 5 = 0 then k3_pay2 (k3_pay1 (F := F)) (iblk3 V c 0 ⟨n + 1, hn⟩) (iblk3 V c 1 ⟨n + 1, hn⟩)
    else k3_pay2 (scrAt3 c n (Nat.lt_of_succ_lt hn)) (iblk3 V c 0 ⟨n + 1, hn⟩) (iblk3 V c 1 ⟨n + 1, hn⟩)

/-- After point `n`: the output block and the accumulator. The output block is the accumulator plus the bias
    row, clamped below at zero; that is what the last column block stores, and at the other points, where the
    block is neither stored nor written back, nothing reads this component. -/
def outsAt3 (c : Dev nD) (n : ℕ) (hn : n < cfg3.N) : Vec F S1024x64 .f32 × Vec F S1024x64 .f32 :=
  (k3_pay3 (scrAt3 V c n hn) (iblk3 V c 2 ⟨n, hn⟩), scrAt3 V c n hn)

theorem scrAt3_first (c : Dev nD) (t : Fin cfg3.N) (h0 : t.val % 5 = 0) :
    scrAt3 V c t.val t.isLt = k3_pay2 (k3_pay1 (F := F)) (iblk3 V c 0 t) (iblk3 V c 1 t) := by
  obtain ⟨n, hn⟩ := t
  cases n with
  | zero => rfl
  | succ n => exact if_pos h0

theorem scrAt3_next (c : Dev nD) (t : Fin cfg3.N) (h0 : ¬ t.val % 5 = 0) :
    scrAt3 V c t.val t.isLt = k3_pay2 (scrAt3 V c (t.val - 1) (Nat.lt_of_le_of_lt (Nat.sub_le _ _) t.isLt)) (iblk3 V c 0 t) (iblk3 V c 1 t) := by
  obtain ⟨n, hn⟩ := t
  cases n with
  | zero => exact absurd (Nat.zero_mod _) h0
  | succ n => exact if_neg h0

/-- The accumulator after a first column block: the point's product added into zero. -/
theorem scr3_first (c : Dev nD) (t : Fin cfg3.N) (h0 : t.val % 5 = 0) :
    (outsAt3 V c t.val t.isLt).2 = k3_pay2 (k3_pay1 (F := F)) (iblk3 V c 0 t) (iblk3 V c 1 t) :=
  scrAt3_first V c t h0

/-- After any other block: the point's product added into what the point before left. -/
theorem scr3_next (c : Dev nD) (t : Fin cfg3.N) (h0 : ¬ t.val % 5 = 0) :
    (outsAt3 V c t.val t.isLt).2 = k3_pay2 (outsAt3 V c (t.val - 1) (Nat.lt_of_le_of_lt (Nat.sub_le _ _) t.isLt)).2 (iblk3 V c 0 t) (iblk3 V c 1 t) :=
  scrAt3_next V c t h0

/-- The output block after a last column block: the finished sum plus the bias row, clamped below at zero. -/
theorem out3_last (c : Dev nD) (t : Fin cfg3.N) (h1 : t.val % 5 = 4) :
    (outsAt3 V c t.val t.isLt).1 = k3_pay3 (outsAt3 V c t.val t.isLt).2 (iblk3 V c 2 t) := rfl

/-! ## The invariant -/

/-- Before point `n`: at the start what the launch hands over (the accumulator at anything); afterwards the
    accumulator at the running sum the point before left, the core's other buffers and the generator register
    as they come. -/
def PhiS3 (c : Dev nD) : (n : ℕ) → n ≤ cfg3.N → sProp 𝕄
  | 0, _ => Pipeline.ΦA spec3 c
  | n + 1, hn => iprop((owns (c : Thread nD τ) scM3_0 fullShare (scrAt3 V c n hn) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop((owns (c : Thread nD τ) scM3_0 fullShare (scrAt3 V c n hn) ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop((owns (c : Thread nD τ) scM3_0 fullShare (scrAt3 V c (n - 1) (by omega)) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The region's proof data -/

/-- On core `c`: the arrays as found; after point `t` the three inputs' buffers at their blocks and the
    output's at `outsAt3`'s first component; between points the invariant above; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

theorem out3_eq (c : Dev nD) (t : Fin cfg3.N) :
    (outsAt3 V c t.val t.isLt).1 = k3_pay3 (scrAt3 V c t.val t.isLt) (iblk3 V c 2 t) := rfl

set_option maxHeartbeats 4000000 in
/-- The body at any point. The three inputs' buffers hold their blocks; which of the three cases the point is in
    is read off its position among the five column blocks. At a first block the accumulator comes at anything
    (at the very first point from the launch, later from the row tile before) and leaves at the first term of
    the sum; at the others it comes at what the point before left and leaves one term longer. The output block
    is handed back as it came except at a last block, where it leaves at the finished value. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  rw [show (dat3 V c).leavesExact 2 t = owns (c : Thread nD τ) (st3_2 t) fullShare ((dat3 V c).after 2 t) from by
    unfold Dat.leavesExact; rw [liveAt3_2 t], after3_2]
  have hN : t.val < 50 := lt_of_lt_of_eq t.isLt (show cfg3.N = 50 from N_3)
  by_cases h0 : t.val % 5 = 0
  · have h1 : ¬ t.val % 5 = 4 := by omega
    rw [Dat.leavesExact_idle (dat3 V c) 3 t (idleAt3_3 t h1) (noFlush3_3 t h1)]
    rw [scrAt3_first V c t h0]
    by_cases hz : t.val = 0
    · rw [PhiS3_castSucc V c t, PhiS3_zero V c _ _ hz, PhiA3_eq]
      iintro ⟨⟨⟨HS, HR⟩, Hg⟩, Ho, ⟨%d0, H0⟩, ⟨%d1, H1⟩, ⟨%d2, H2⟩, ⟨%d3, H3⟩⟩
      iapply (sound_kernel3_A c Set.univ (grid3.coords t) _ _ _ _ _ _ _ _ _ _ ((hcond3_0 t).mpr h0) (fun h => h1 ((hcond3_1 t).mp h)) (iblk3 V c 0 t) (iblk3 V c 1 t) (iblk3 V c 2 t) ((dat3 V c).before 3 t d3) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [PhiS3_castSucc V c t, PhiS3_pos V c _ _ hz]
      iintro ⟨⟨⟨HS, HR⟩, Hg⟩, Ho, ⟨%d0, H0⟩, ⟨%d1, H1⟩, ⟨%d2, H2⟩, ⟨%d3, H3⟩⟩
      iapply (sound_kernel3_A c Set.univ (grid3.coords t) _ _ _ _ _ _ _ _ _ _ ((hcond3_0 t).mpr h0) (fun h => h1 ((hcond3_1 t).mp h)) (iblk3 V c 0 t) (iblk3 V c 1 t) (iblk3 V c 2 t) ((dat3 V c).before 3 t d3) _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    rw [scrAt3_next V c t h0]
    by_cases h1 : t.val % 5 = 4
    · rw [show (dat3 V c).leavesExact 3 t = owns (c : Thread nD τ) (st3_3 t) fullShare ((dat3 V c).after 3 t) from by
        unfold Dat.leavesExact; rw [liveAt3_3 t h1], after3_3, out3_eq, scrAt3_next V c t h0]
      rw [PhiS3_castSucc V c t, PhiS3_pos V c _ _ hz]
      iintro ⟨⟨⟨HS, HR⟩, Hg⟩, Ho, ⟨%d0, H0⟩, ⟨%d1, H1⟩, ⟨%d2, H2⟩, ⟨%d3, H3⟩⟩
      iapply (sound_kernel3_C c Set.univ (grid3.coords t) _ _ _ _ _ _ _ _ _ _ (fun h => h0 ((hcond3_0 t).mp h)) ((hcond3_1 t).mpr h1) (iblk3 V c 0 t) (iblk3 V c 1 t) (iblk3 V c 2 t) (scrAt3 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [Dat.leavesExact_idle (dat3 V c) 3 t (idleAt3_3 t h1) (noFlush3_3 t h1)]
      rw [PhiS3_castSucc V c t, PhiS3_pos V c _ _ hz]
      iintro ⟨⟨⟨HS, HR⟩, Hg⟩, Ho, ⟨%d0, H0⟩, ⟨%d1, H1⟩, ⟨%d2, H2⟩, ⟨%d3, H3⟩⟩
      iapply (sound_kernel3_B c Set.univ (grid3.coords t) _ _ _ _ _ _ _ _ _ _ (fun h => h0 ((hcond3_0 t).mp h)) (fun h => h1 ((hcond3_1 t).mp h)) (iblk3 V c 0 t) (iblk3 V c 1 t) (iblk3 V c 2 t) ((dat3 V c).before 3 t d3) (scrAt3 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The body obligation of the region, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point the invariant gives that back: what the accumulator holds is forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS, HR⟩, Hg⟩
  isplitl [HS HR]
  · isplitl [HS]; · iexists _; iexact HS
    iexact HR
  iexact Hg

/-- In particular after the last. -/
theorem hout3 (c : Dev nD) : (dat3 V c).Φ (Fin.last cfg3.N) ⊢ Pipeline.ΦA spec3 c :=
  Phi_out3 V c _ (by rw [Fin.val_last]; have : cfg3.N = 50 := N_3; omega)

end Cert.KernelIdeal.Hand

end
-- ==== Proof.KI.Run.lean ====
/-
  The whole program as a walk through its thirteen stretches: five stretches of host operations (building
  the edge list with its self loops, the degree normalisation, the dense weight matrix, the padded features
  and the re-laid parameters), then four kernel regions — first dense product, first propagation, second
  dense product, second propagation — each followed by one host operation (three changes of float format and
  the final cut to 10000 rows).

  Between two stretches a core holds every buffer that outlives a region at known contents: `W0` at launch,
  `W(j+1)` after stretch `j`. A host stretch takes the contents to the operations' values; a region leaves
  every buffer as it found it except its own arrays, which hold what the pipeline wrote back (`Dat.arrAt` at
  the last point). The run theorem reads ALL of them off the final state (`run_all`), so that both the
  arguments' preservation and the result's value follow by looking up one buffer.
-/
import proofs.«422500_j8761733284692_1_alg».proof.Proof.KI.Reg0
import proofs.«422500_j8761733284692_1_alg».proof.Proof.KI.Reg2
import proofs.«422500_j8761733284692_1_alg».proof.Proof.KI.Reg1
import proofs.«422500_j8761733284692_1_alg».proof.Proof.KI.Reg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- At launch. -/
abbrev W0 : Dev nD → Valuation τ sig (Elt F) := fun c b => (s₀ m ρ).mem ((c : Dev nD), b)
/-- After each of the five host stretches before the first region. -/
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
abbrev W5 : Dev nD → Valuation τ sig (Elt F) := fun c => StableHlo.after hostOps0_4 (W4 m ρ c)
/-- What the first dense product finds. -/
abbrev E0 : (c : Dev nD) → (b : Ref sig .tc) → Buf (Elt F) ((c : Thread nD τ).loc b) := fun c b => W5 m ρ c b
/-- After the first dense product: its arrays at what the pipeline left, the rest untouched. -/
def W6 (c : Dev nD) : Valuation τ sig (Elt F) :=
  Pipeline.withArrays spec0 c (W5 m ρ c) fun w => (dat0 (E0 m ρ) c).arrAt w cfg0.N
theorem W6_arr (c : Dev nD) (w : Fin cfg0.W) :
    W6 m ρ c (Proc.devRef .tc (Pipeline.arrRef spec0 w)) = (dat0 (E0 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
abbrev X0 : (c : Dev nD) → (b : Ref sig .tc) → Buf (Elt F) ((c : Thread nD τ).loc b) := fun c b => W6 m ρ c b
theorem hF0 (c : Dev nD) (w : Fin cfg0.W) : (dat0 (E0 m ρ) c).arrAt w cfg0.N = X0 m ρ c (Pipeline.arrRef spec0 w) :=
  (W6_arr m ρ c w).symm
theorem hrest0 (c : Dev nD) : ∀ b, b ∉ Finset.univ.image (Pipeline.arrRef spec0) → X0 m ρ c b = E0 m ρ c b :=
  fun b hb => W6_of_ne m ρ c b fun w e => hb (Finset.mem_image.mpr ⟨w, Finset.mem_univ _, e⟩)

/-- After the change of format that follows it: what the first propagation finds. -/
abbrev W7 : Dev nD → Valuation τ sig (Elt F) := fun c => StableHlo.after hostOps1 (W6 m ρ c)
abbrev E1 : (c : Dev nD) → (b : Ref sig .tc) → Buf (Elt F) ((c : Thread nD τ).loc b) := fun c b => W7 m ρ c b
def W8 (c : Dev nD) : Valuation τ sig (Elt F) :=
  Pipeline.withArrays spec1 c (W7 m ρ c) fun w => (dat1 (E1 m ρ) c).arrAt w cfg1.N
theorem W8_arr (c : Dev nD) (w : Fin cfg1.W) :
    W8 m ρ c (Proc.devRef .tc (Pipeline.arrRef spec1 w)) = (dat1 (E1 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
abbrev X1 : (c : Dev nD) → (b : Ref sig .tc) → Buf (Elt F) ((c : Thread nD τ).loc b) := fun c b => W8 m ρ c b
theorem hF1 (c : Dev nD) (w : Fin cfg1.W) : (dat1 (E1 m ρ) c).arrAt w cfg1.N = X1 m ρ c (Pipeline.arrRef spec1 w) :=
  (W8_arr m ρ c w).symm
theorem hrest1 (c : Dev nD) : ∀ b, b ∉ Finset.univ.image (Pipeline.arrRef spec1) → X1 m ρ c b = E1 m ρ c b :=
  fun b hb => W8_of_ne m ρ c b fun w e => hb (Finset.mem_image.mpr ⟨w, Finset.mem_univ _, e⟩)

/-- The second dense product. -/
abbrev W9 : Dev nD → Valuation τ sig (Elt F) := fun c => StableHlo.after hostOps2 (W8 m ρ c)
abbrev E2 : (c : Dev nD) → (b : Ref sig .tc) → Buf (Elt F) ((c : Thread nD τ).loc b) := fun c b => W9 m ρ c b
def W10 (c : Dev nD) : Valuation τ sig (Elt F) :=
  Pipeline.withArrays spec2 c (W9 m ρ c) fun w => (dat2 (E2 m ρ) c).arrAt w cfg2.N
theorem W10_arr (c : Dev nD) (w : Fin cfg2.W) :
    W10 m ρ c (Proc.devRef .tc (Pipeline.arrRef spec2 w)) = (dat2 (E2 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
abbrev X2 : (c : Dev nD) → (b : Ref sig .tc) → Buf (Elt F) ((c : Thread nD τ).loc b) := fun c b => W10 m ρ c b
theorem hF2 (c : Dev nD) (w : Fin cfg2.W) : (dat2 (E2 m ρ) c).arrAt w cfg2.N = X2 m ρ c (Pipeline.arrRef spec2 w) :=
  (W10_arr m ρ c w).symm
theorem hrest2 (c : Dev nD) : ∀ b, b ∉ Finset.univ.image (Pipeline.arrRef spec2) → X2 m ρ c b = E2 m ρ c b :=
  fun b hb => W10_of_ne m ρ c b fun w e => hb (Finset.mem_image.mpr ⟨w, Finset.mem_univ _, e⟩)

/-- The second propagation. -/
abbrev W11 : Dev nD → Valuation τ sig (Elt F) := fun c => StableHlo.after hostOps3 (W10 m ρ c)
abbrev E3 : (c : Dev nD) → (b : Ref sig .tc) → Buf (Elt F) ((c : Thread nD τ).loc b) := fun c b => W11 m ρ c b
def W12 (c : Dev nD) : Valuation τ sig (Elt F) :=
  Pipeline.withArrays spec3 c (W11 m ρ c) fun w => (dat3 (E3 m ρ) c).arrAt w cfg3.N
theorem W12_arr (c : Dev nD) (w : Fin cfg3.W) :
    W12 m ρ c (Proc.devRef .tc (Pipeline.arrRef spec3 w)) = (dat3 (E3 m ρ) c).arrAt w cfg3.N := by
  unfold W12; exact Pipeline.withArrays_arr spec3 launch3.win.arr_inj c _ _ w
theorem W12_of_ne (c : Dev nD) (b : Ref sig .tc) (hb : ∀ w, Pipeline.arrRef spec3 w ≠ b) :
    W12 m ρ c (Proc.devRef .tc b) = W11 m ρ c (Proc.devRef .tc b) := by
  unfold W12; exact Pipeline.withArrays_of_ne spec3 c _ _ b hb
abbrev X3 : (c : Dev nD) → (b : Ref sig .tc) → Buf (Elt F) ((c : Thread nD τ).loc b) := fun c b => W12 m ρ c b
theorem hF3 (c : Dev nD) (w : Fin cfg3.W) : (dat3 (E3 m ρ) c).arrAt w cfg3.N = X3 m ρ c (Pipeline.arrRef spec3 w) :=
  (W12_arr m ρ c w).symm
theorem hrest3 (c : Dev nD) : ∀ b, b ∉ Finset.univ.image (Pipeline.arrRef spec3) → X3 m ρ c b = E3 m ρ c b :=
  fun b hb => W12_of_ne m ρ c b fun w e => hb (Finset.mem_image.mpr ⟨w, Finset.mem_univ _, e⟩)

/-- After the final cut to 10000 rows: what the program returns from. -/
abbrev W13 : Dev nD → Valuation τ sig (Elt F) := fun c => StableHlo.after hostOps4 (W12 m ρ c)

/-! ## The proof data family and what rides along -/

/-- No region has a prefetched table. -/
abbrev adm : (p : Fin 4) → (pcfgs (F := F) p).Adm := fun p => (cfgs p).toPCfg_adm
/-- Each region's proof data at the contents it is entered from. -/
def pdats : (p : Fin 4) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E1 m ρ) c
  | ⟨2, _⟩ => fun c => dat2 (E2 m ρ) c
  | ⟨3, _⟩ => fun c => dat3 (E3 m ρ) c
abbrev 𝒱₀ : Variants := Variants.none
/-- No core owes another anything. -/
abbrev L : GSem nD τ sig → Finset Unit := fun _ => ∅
abbrev lv : GSem nD τ sig → Unit → ℕ := fun _ _ => 0
/-- Beside the buffers every stretch carries the generator register, at some state, and the core's debts, none. -/
abbrev R (c : Dev nD) : sProp 𝕄 := iprop((∃ r, prngReg c r) ∗ ∃ W, owes (c : Thread nD τ) (0 : CellTallies nD τ sig Unit) W)
/-- A host stretch from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem fresh0 : (hostOps0 : List (HloOp τ sig (Elt F))).Forall fun op => op.fresh = ∅ := by
  simp only [List.Forall]; repeat' constructor
theorem fresh0_1 : (hostOps0_1 : List (HloOp τ sig (Elt F))).Forall fun op => op.fresh = ∅ := by
  simp only [List.Forall]; repeat' constructor
theorem fresh0_2 : (hostOps0_2 : List (HloOp τ sig (Elt F))).Forall fun op => op.fresh = ∅ := by
  simp only [List.Forall]; repeat' constructor
theorem fresh0_3 : (hostOps0_3 : List (HloOp τ sig (Elt F))).Forall fun op => op.fresh = ∅ := by
  simp only [List.Forall]; repeat' constructor
theorem fresh0_4 : (hostOps0_4 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem fresh2 : (hostOps2 : List (HloOp τ sig (Elt F))).Forall fun op => op.fresh = ∅ := by
  simp only [List.Forall]; repeat' constructor
theorem fresh3 : (hostOps3 : List (HloOp τ sig (Elt F))).Forall fun op => op.fresh = ∅ := by
  simp only [List.Forall]; repeat' constructor
theorem fresh4 : (hostOps4 : List (HloOp τ sig (Elt F))).Forall fun op => op.fresh = ∅ := by
  simp only [List.Forall]; repeat' constructor

/-- A buffer that outlives the regions is among those a core holds between stretches. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last state without the debts: every such buffer at the final contents, the generator register at some state. -/
abbrev Tₙ (c : Dev nD) : sProp 𝕄 := iprop(StableHlo.held (c : Thread nD τ) (Pipeline.ucRefs τ sig) (W13 m ρ c) ∗ ∃ r, prngReg c r)

/-! ## The four regions -/

-- a library lemma stated over the pinned configuration unifies with the printed one only when unification may
-- unfold plain definitions in a metavariable's type
set_option backward.isDefEq.respectTransparency.types false in
/-- Region 0 between the boundary contents `W5` and `W6`: its arrays are split out of the unscoped buffers
    on the way in and put back, at what the pipeline left in them, on the way out; the generator register goes
    into the region's invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (X0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 1 between the boundary contents `W7` and `W8`: its arrays are split out of the unscoped buffers
    on the way in and put back, at what the pipeline left in them, on the way out; the generator register goes
    into the region's invariant and comes back; the accumulator's named contents are forgotten at the end; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (hin1 (E1 m ρ) c)
    unfold Pipeline.ΦA
    iintro ⟨Hp, -, Hr⟩
    isplitl [Hr]; · iexact Hr
    iexact Hp
  hout c := by
    refine (show (pdats m ρ 1 c).Φ (Fin.last _) ⊢ Pipeline.ΦA spec1 c from hout1 (E1 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E1 m ρ c) (X1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 2 between the boundary contents `W9` and `W10`: its arrays are split out of the unscoped buffers
    on the way in and put back, at what the pipeline left in them, on the way out; the generator register goes
    into the region's invariant and comes back; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m ρ) c).loose
  hwaits := Pipeline.hwaits_of_owed_zero _ _ _ _ L lv 2 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec2 c (E2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E2 m ρ c) (X2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 3 between the boundary contents `W11` and `W12`: its arrays are split out of the unscoped buffers
    on the way in and put back, at what the pipeline left in them, on the way out; the generator register goes
    into the region's invariant and comes back; the accumulator's named contents are forgotten at the end; nothing is owed. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E3 m ρ) c).loose
  hwaits := Pipeline.hwaits_of_owed_zero _ _ _ _ L lv 3 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec3 c (E3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec3 c from ?_).trans (hin3 (E3 m ρ) c)
    unfold Pipeline.ΦA
    iintro ⟨Hp, -, Hr⟩
    isplitl [Hr]; · iexact Hr
    iexact Hp
  hout c := by
    refine (show (pdats m ρ 3 c).Φ (Fin.last _) ⊢ Pipeline.ΦA spec3 c from hout3 (E3 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (E3 m ρ c) (X3 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its thirteen stretches, and the run -/

abbrev segs : List (Pipeline.Seg (pcfgs (F := F)) adm (pdats m ρ) () defs₀ 𝒱₀ L lv) :=
  [ .host (hseg hostOps0 hostOps0_sub fresh0 (W0 m ρ)),
    .host (hseg hostOps0_1 hostOps0_1_sub fresh0_1 (W1 m ρ)),
    .host (hseg hostOps0_2 hostOps0_2_sub fresh0_2 (W2 m ρ)),
    .host (hseg hostOps0_3 hostOps0_3_sub fresh0_3 (W3 m ρ)),
    .host (hseg hostOps0_4 hostOps0_4_sub fresh0_4 (W4 m ρ)),
    .region (reg0 m ρ),
    .host (hseg hostOps1 hostOps1_sub fresh1 (W6 m ρ)),
    .region (reg1 m ρ),
    .host (hseg hostOps2 hostOps2_sub fresh2 (W8 m ρ)),
    .region (reg2 m ρ),
    .host (hseg hostOps3 hostOps3_sub fresh3 (W10 m ρ)),
    .region (reg3 m ρ),
    .host (hseg hostOps4 hostOps4_sub fresh4 (W12 m ρ)) ]

/-- The program is the run of its stretches. -/
theorem main_run (c : Dev nD) : main (F := F) c = Pipeline.Seg.run (segs m ρ) := (main_chain c).trans (by chain_rfl)

set_option backward.isDefEq.respectTransparency.types false in
/-- From any memory with zero counters every weakly fair execution of the program terminates, nothing
    faulting, and in the final memory every buffer that outlives the regions holds the final contents `W13`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => by
        show iprop(StableHlo.held (c : Thread nD τ) (Pipeline.ucRefs τ sig) (W13 m ρ c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c => h c)

end Cert.KernelIdeal.Hand

end
-- ==== Proof.KI.Args.lean ====
/-
  The program's arguments are never written: no host operation has one of them as its result, and no kernel
  region has one of them among the arrays of its windows. So each of the six argument buffers holds at the end,
  after all thirteen stretches, exactly what it held at launch.

  A host stretch is a list of operations each of which writes one named result buffer; a buffer outside the
  list of those results is read through the stretch unchanged. A region changes only the arrays of its own
  windows; any other buffer is read through the region unchanged.
-/
import proofs.«422500_j8761733284692_1_alg».proof.Proof.KI.Run

set_option maxRecDepth 16384

noncomputable section

namespace Cert.KernelIdeal.Hand

open Idealize.ShloMosaic Idealize.ShloMosaic.TcCoe
open Cert.KernelIdeal Cert.KernelIdeal.Gen

variable {F : FTy → Type} [FloatOps F]

variable (m : (ℓ : Loc nD τ sig) → Buf (Elt F) ℓ) (ρ : Dev nD → PrngReg)

/-! ## The result buffers of each host stretch -/

/-- The results of the first stretch: the self-loop indices, the two edge rows with the loops appended, and the degree. -/
abbrev res0 : List (Ref sig .tc) := [main_v0, main_v1, main_v2, main_v3, main_v4, main_v5, main_v6, main_cst, main_v7, main_cst_0, main_v8, main_v9, main_v10, main_cst_1, main_v11, main_v12, main_v13, main_cst_2]
/-- The results of the second stretch: the guarded inverse square root of the degree. -/
abbrev res0_1 : List (Ref sig .tc) := [main_call0_v0, main_call0_v1, main_v14]
/-- The results of the third stretch: the wrapped indices, the edge weights and the dense matrix. -/
abbrev res0_2 : List (Ref sig .tc) := [main_c, main_v15, main_v16, main_c_3, main_v17, main_v18, main_v19, main_v20, main_v21, main_c_4, main_v22, main_v23, main_c_5, main_v24, main_v25, main_v26, main_v27, main_v28, main_v29, main_cst_6, main_v30, main_c_7, main_v31, main_v32, main_c_8, main_v33, main_v34, main_v35, main_c_9, main_v36, main_v37, main_c_10, main_v38, main_v39, main_v40, main_v41, main_v42, main_v43, main_v44, main_v45, main_c_11]
/-- The results of the fourth stretch: the features padded to 10240 rows. -/
abbrev res0_3 : List (Ref sig .tc) := [main_call1_v0, main_v46]
/-- The results of the fifth stretch: the features and the weights in the narrow format, the biases as rows. -/
abbrev res0_4 : List (Ref sig .tc) := [main_v47, main_v48, main_v49, main_v50, main_v51]

/-- Every operation of a stretch writes one buffer of the stretch's result list. -/
theorem writes0 : (hostOps0 : List (HloOp τ sig (Elt F))).Forall fun op => op.writes ⊆ (res0.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem writes0_1 : (hostOps0_1 : List (HloOp τ sig (Elt F))).Forall fun op => op.writes ⊆ (res0_1.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem writes0_2 : (hostOps0_2 : List (HloOp τ sig (Elt F))).Forall fun op => op.writes ⊆ (res0_2.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem writes0_3 : (hostOps0_3 : List (HloOp τ sig (Elt F))).Forall fun op => op.writes ⊆ (res0_3.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem writes0_4 : (hostOps0_4 : List (HloOp τ sig (Elt F))).Forall fun op => op.writes ⊆ (res0_4.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- Each of the four single operations after a region writes its one result. -/
theorem writes1 : (hostOps1 : List (HloOp τ sig (Elt F))).Forall fun op => op.writes ⊆ (([main_v53] : List (Ref sig .tc)).map (Proc.devRef (τ := τ) .tc)).toFinset := by
  simp only [List.Forall, StableHlo.unary_writes, Finset.singleton_subset_iff, List.mem_toFinset]
  exact List.mem_map_of_mem (by decide)
theorem writes2 : (hostOps2 : List (HloOp τ sig (Elt F))).Forall fun op => op.writes ⊆ (([main_v55] : List (Ref sig .tc)).map (Proc.devRef (τ := τ) .tc)).toFinset := by
  simp only [List.Forall, StableHlo.unary_writes, Finset.singleton_subset_iff, List.mem_toFinset]
  exact List.mem_map_of_mem (by decide)
theorem writes3 : (hostOps3 : List (HloOp τ sig (Elt F))).Forall fun op => op.writes ⊆ (([main_v57] : List (Ref sig .tc)).map (Proc.devRef (τ := τ) .tc)).toFinset := by
  simp only [List.Forall, StableHlo.unary_writes, Finset.singleton_subset_iff, List.mem_toFinset]
  exact List.mem_map_of_mem (by decide)
theorem writes4 : (hostOps4 : List (HloOp τ sig (Elt F))).Forall fun op => op.writes ⊆ (([main_v59] : List (Ref sig .tc)).map (Proc.devRef (τ := τ) .tc)).toFinset := by
  simp only [List.Forall, StableHlo.unary_writes, Finset.singleton_subset_iff, List.mem_toFinset]
  exact List.mem_map_of_mem (by decide)

/-! ## One stretch at a time: a buffer that is no result of the stretch is read through it -/

theorem W1_of (c : Dev nD) (r : Ref sig .tc) (h : r ∉ res0) : W1 m ρ c (Proc.devRef .tc r) = W0 m ρ c (Proc.devRef .tc r) :=
  StableHlo.after_of_writes_sub hostOps0 _ writes0 h
theorem W2_of (c : Dev nD) (r : Ref sig .tc) (h : r ∉ res0_1) : W2 m ρ c (Proc.devRef .tc r) = W1 m ρ c (Proc.devRef .tc r) :=
  StableHlo.after_of_writes_sub hostOps0_1 _ writes0_1 h
theorem W3_of (c : Dev nD) (r : Ref sig .tc) (h : r ∉ res0_2) : W3 m ρ c (Proc.devRef .tc r) = W2 m ρ c (Proc.devRef .tc r) :=
  StableHlo.after_of_writes_sub hostOps0_2 _ writes0_2 h
theorem W4_of (c : Dev nD) (r : Ref sig .tc) (h : r ∉ res0_3) : W4 m ρ c (Proc.devRef .tc r) = W3 m ρ c (Proc.devRef .tc r) :=
  StableHlo.after_of_writes_sub hostOps0_3 _ writes0_3 h
theorem W5_of (c : Dev nD) (r : Ref sig .tc) (h : r ∉ res0_4) : W5 m ρ c (Proc.devRef .tc r) = W4 m ρ c (Proc.devRef .tc r) :=
  StableHlo.after_of_writes_sub hostOps0_4 _ writes0_4 h
theorem W7_of (c : Dev nD) (r : Ref sig .tc) (h : r ∉ ([main_v53] : List (Ref sig .tc))) : W7 m ρ c (Proc.devRef .tc r) = W6 m ρ c (Proc.devRef .tc r) :=
  StableHlo.after_of_writes_sub hostOps1 _ writes1 h
theorem W9_of (c : Dev nD) (r : Ref sig .tc) (h : r ∉ ([main_v55] : List (Ref sig .tc))) : W9 m ρ c (Proc.devRef .tc r) = W8 m ρ c (Proc.devRef .tc r) :=
  StableHlo.after_of_writes_sub hostOps2 _ writes2 h
theorem W11_of (c : Dev nD) (r : Ref sig .tc) (h : r ∉ ([main_v57] : List (Ref sig .tc))) : W11 m ρ c (Proc.devRef .tc r) = W10 m ρ c (Proc.devRef .tc r) :=
  StableHlo.after_of_writes_sub hostOps3 _ writes3 h
theorem W13_of (c : Dev nD) (r : Ref sig .tc) (h : r ∉ ([main_v59] : List (Ref sig .tc))) : W13 m ρ c (Proc.devRef .tc r) = W12 m ρ c (Proc.devRef .tc r) :=
  StableHlo.after_of_writes_sub hostOps4 _ writes4 h

/-! ## A buffer that no stretch touches -/

/-- A buffer that is no result of any host operation and no array of any region's window holds at the end
    what it held at launch: thirteen steps, each reading it through. -/
theorem W13_untouched (c : Dev nD) (r : Ref sig .tc)
    (h0 : r ∉ res0) (h1 : r ∉ res0_1) (h2 : r ∉ res0_2) (h3 : r ∉ res0_3) (h4 : r ∉ res0_4)
    (a0 : ∀ w, Pipeline.arrRef spec0 w ≠ r) (h6 : r ∉ ([main_v53] : List (Ref sig .tc)))
    (a1 : ∀ w, Pipeline.arrRef spec1 w ≠ r) (h8 : r ∉ ([main_v55] : List (Ref sig .tc)))
    (a2 : ∀ w, Pipeline.arrRef spec2 w ≠ r) (h10 : r ∉ ([main_v57] : List (Ref sig .tc)))
    (a3 : ∀ w, Pipeline.arrRef spec3 w ≠ r) (h12 : r ∉ ([main_v59] : List (Ref sig .tc))) :
    W13 m ρ c (Proc.devRef .tc r) = m ((c : Thread nD τ).loc r) :=
  calc W13 m ρ c (Proc.devRef .tc r)
      = W12 m ρ c (Proc.devRef .tc r) := W13_of m ρ c r h12
    _ = W11 m ρ c (Proc.devRef .tc r) := W12_of_ne m ρ c r a3
    _ = W10 m ρ c (Proc.devRef .tc r) := W11_of m ρ c r h10
    _ = W9 m ρ c (Proc.devRef .tc r) := W10_of_ne m ρ c r a2
    _ = W8 m ρ c (Proc.devRef .tc r) := W9_of m ρ c r h8
    _ = W7 m ρ c (Proc.devRef .tc r) := W8_of_ne m ρ c r a1
    _ = W6 m ρ c (Proc.devRef .tc r) := W7_of m ρ c r h6
    _ = W5 m ρ c (Proc.devRef .tc r) := W6_of_ne m ρ c r a0
    _ = W4 m ρ c (Proc.devRef .tc r) := W5_of m ρ c r h4
    _ = W3 m ρ c (Proc.devRef .tc r) := W4_of m ρ c r h3
    _ = W2 m ρ c (Proc.devRef .tc r) := W3_of m ρ c r h2
    _ = W1 m ρ c (Proc.devRef .tc r) := W2_of m ρ c r h1
    _ = W0 m ρ c (Proc.devRef .tc r) := W1_of m ρ c r h0
    _ = m ((c : Thread nD τ).loc r) := rfl

/-! ## The six arguments -/

/-- The node features. -/
theorem W13_arg0 (c : Dev nD) : W13 m ρ c (Proc.devRef .tc main_arg0) = m ((c : Thread nD τ).loc main_arg0) :=
  W13_untouched m ρ c main_arg0 (by decide) (by decide) (by decide) (by decide) (by decide) (by decide) (by decide)
    (by decide) (by decide) (by decide) (by decide) (by decide) (by decide)
/-- The edge list. -/
theorem W13_arg1 (c : Dev nD) : W13 m ρ c (Proc.devRef .tc main_arg1) = m ((c : Thread nD τ).loc main_arg1) :=
  W13_untouched m ρ c main_arg1 (by decide) (by decide) (by decide) (by decide) (by decide) (by decide) (by decide)
    (by decide) (by decide) (by decide) (by decide) (by decide) (by decide)
/-- The first layer's weights. -/
theorem W13_arg2 (c : Dev nD) : W13 m ρ c (Proc.devRef .tc main_arg2) = m ((c : Thread nD τ).loc main_arg2) :=
  W13_untouched m ρ c main_arg2 (by decide) (by decide) (by decide) (by decide) (by decide) (by decide) (by decide)
    (by decide) (by decide) (by decide) (by decide) (by decide) (by decide)
/-- The first layer's bias. -/
theorem W13_arg3 (c : Dev nD) : W13 m ρ c (Proc.devRef .tc main_arg3) = m ((c : Thread nD τ).loc main_arg3) :=
  W13_untouched m ρ c main_arg3 (by decide) (by decide) (by decide) (by decide) (by decide) (by decide) (by decide)
    (by decide) (by decide) (by decide) (by decide) (by decide) (by decide)
/-- The second layer's weights. -/
theorem W13_arg4 (c : Dev nD) : W13 m ρ c (Proc.devRef .tc main_arg4) = m ((c : Thread nD τ).loc main_arg4) :=
  W13_untouched m ρ c main_arg4 (by decide) (by decide) (by decide) (by decide) (by decide) (by decide) (by decide)
    (by decide) (by decide) (by decide) (by decide) (by decide) (by decide)
/-- The second layer's bias. -/
theorem W13_arg5 (c : Dev nD) : W13 m ρ c (Proc.devRef .tc main_arg5) = m ((c : Thread nD τ).loc main_arg5) :=
  W13_untouched m ρ c main_arg5 (by decide) (by decide) (by decide) (by decide) (by decide) (by decide) (by decide)
    (by decide) (by decide) (by decide) (by decide) (by decide) (by decide)

end Cert.KernelIdeal.Hand

end
-- ==== Proof.Graph.lean ====
/-
  The graph the two programs read: the edge list as given — two rows of 320000 words, the start nodes
  and the end nodes — extended by one self loop per node, which makes 330000 edges over 10000 nodes.
  When every given word names a node (`InRange`), each end of each edge of the extended list is a
  node (`node`): the given word for an edge below 320000, and node `e − 320000` for the self loop `e`.
-/
import Idealize.ShloMosaic.Lib.ValueIdx

namespace Cert.Graph

open Idealize.ShloMosaic Idealize.ShloMosaic.ValueIdx

/-- The edge list as given. -/
abbrev Edges : Type := (⟨2, ![2, 320000]⟩ : Shape).Idx → BitVec 32

/-- Every word of the list, read as a signed integer, names one of the 10000 nodes. -/
def InRange (ei : Edges) : Prop :=
  ∀ (p : Fin 2) (q : Fin 320000), 0 ≤ (ei (ix2 p q)).toInt ∧ (ei (ix2 p q)).toInt < 10000

/-- End `p` (0: where it starts, 1: where it arrives) of edge `e` of the extended list. -/
def node (ei : Edges) (h : InRange ei) (p : Fin 2) (e : Fin 330000) : Fin 10000 :=
  if he : e.val < 320000 then
    ⟨((ei (ix2 p ⟨e.val, he⟩)).toInt).toNat, by have := h p ⟨e.val, he⟩; omega⟩
  else ⟨e.val - 320000, by omega⟩

end Cert.Graph
-- ==== Proof.PreRange.lean ====
/-
  What the precondition says of the edge list: its last conjunct is the conjunction, over all 2 × 320000 words,
  of `0 ≤ word` and `word < 10000` (both signed), so under the precondition every word names a node.
-/
import proofs.«422500_j8761733284692_1_alg».proof.Pre_finite_inputs
import proofs.«422500_j8761733284692_1_alg».proof.Proof.Graph
import Idealize.ShloMosaic.Lib.ReduceAll
import Idealize.ShloMosaic.Lib.Affine

namespace Cert.PreRange

open Idealize.ShloMosaic Idealize.ShloMosaic.ValueIdx Cert.Pre_finite_inputs

variable [Cert.Pre_finite_inputs.Facts]
open Cert.Pre_finite_inputs.Facts

/-- The scalar shape has one index. -/
instance : Subsingleton S_.Idx := ⟨fun a b => funext fun d => d.elim0⟩

/-- A conjunction of two one-bit words is set exactly when both are. -/
theorem and1 : ∀ (a b : BitVec 1), IntOp.andi a b = 1#1 ↔ a = 1#1 ∧ b = 1#1 := by decide

/-- Under the precondition every word of the edge list is a node: at least 0 and below 10000. -/
theorem inRange {F : FTy → Type} [FloatOps F] (a0 : FVec F S10000x256 .f32) (a1 : IVec S2x320000 32)
    (a2 : FVec F S256x256 .f32) (a3 : FVec F S256 .f32) (a4 : FVec F S256x64 .f32) (a5 : FVec F S64 .f32)
    (h : fn (F := F) a0 a1 a2 a3 a4 a5 = fun _ => 1#1) : Cert.Graph.InRange a1 := by
  have e := congrFun h ix0
  unfold fn fn_part1 at e
  simp only [andi] at e
  obtain ⟨-, h29⟩ := (and1 _ _).mp e
  intro p q
  have hi := Host.reduce_andi_all _ _ reducesTo_S2x320000_S_d0_1 h_S_ ix0 h29 (ix2 p q)
  simp only [andi, cmpi, broadcastInDim, constantI] at hi
  obtain ⟨h0, h1⟩ := (and1 _ _).mp hi
  rw [IntOp.cmpi_sge] at h0
  rw [IntOp.cmpi_slt] at h1
  have z : (0#32 : BitVec 32).toInt = 0 := by decide
  have t : (10000#32 : BitVec 32).toInt = 10000 := by decide
  rw [z] at h0
  rw [t] at h1
  exact ⟨h0, h1⟩

end Cert.PreRange
-- ==== Proof.KI.Val0.lean ====
/-
  The first dense product, read as one function of its two input arrays. At the ideal instance a
  float is an extended real and every operation is exact, so the block a grid point leaves is, entry
  by entry, the sum over the contracted axis of the products of a row of the left block with a column
  of the right block: the accumulator starts from the zero word, which is the number zero. Point `t`
  takes rows [1024 t, 1024 t + 1024) of the left array and the whole right array, and writes the same
  rows of the product array; the ten row blocks tile that array, so after the last point it holds the
  matrix product of the two arrays, index by index (`final0`).
-/
import proofs.«422500_j8761733284692_1_alg».proof.Proof.KI.Reg0
import proofs.«422500_j8761733284692_1_alg».proof.Proof.Gen.KernelIdeal.Skeleton
import proofs.«422500_j8761733284692_1_alg».proof.Proof.Gen.KernelIdeal.Launch
import proofs.«422500_j8761733284692_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open scoped BigOperators

local notation "𝕄" => MT nD τ sig Unit (Elt Ideal) ℕ (UR sig nD τ) ℕ

variable (V : (c : Dev nD) → (b : Ref sig .tc) → Buf (Elt Ideal) ((c : Thread nD τ).loc b))

/-- The number of columns of the right factor, which is also that of the product. -/
abbrev nc0 : ℕ := 256

/-- The operand indices of the contraction, axis by axis: the left operand is read at the output's
    row and the contracted coordinate, the right one at the contracted coordinate and the output's column. -/
theorem lhs_axis0_0 (j : SC0.Idx) (κ : dot_S1024x256_S256x256_S1024x256_1_0_0_1_n_n.contr.Idx) :
    (dot_S1024x256_S256x256_S1024x256_1_0_0_1_n_n.lhsIdx j κ 0).val = (j 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem lhs_axis0_1 (j : SC0.Idx) (κ : dot_S1024x256_S256x256_S1024x256_1_0_0_1_n_n.contr.Idx) :
    (dot_S1024x256_S256x256_S1024x256_1_0_0_1_n_n.lhsIdx j κ 1).val = (κ ⟨0, by decide⟩).val :=
  dot_S1024x256_S256x256_S1024x256_1_0_0_1_n_n.lhsIdx_val_of_single rfl j κ
theorem rhs_axis0_0 (j : SC0.Idx) (κ : dot_S1024x256_S256x256_S1024x256_1_0_0_1_n_n.contr.Idx) :
    (dot_S1024x256_S256x256_S1024x256_1_0_0_1_n_n.rhsIdx j κ 0).val = (κ ⟨0, by decide⟩).val :=
  dot_S1024x256_S256x256_S1024x256_1_0_0_1_n_n.rhsIdx_val_of_single rfl j κ
theorem rhs_axis0_1 (j : SC0.Idx) (κ : dot_S1024x256_S256x256_S1024x256_1_0_0_1_n_n.contr.Idx) :
    (dot_S1024x256_S256x256_S1024x256_1_0_0_1_n_n.rhsIdx j κ 1).val = (j 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- The payload at an index: a product accumulated into zero is the plain sum of products over the
    contracted axis; the two shape casts are onto the operands' own shapes and change nothing. -/
theorem pay0_apply (vl : Vec Ideal S1024x256 .bf16) (vr : Vec Ideal S256x256 .bf16) (p : Fin 1024) (q : Fin nc0) :
    k0_pay1 (F := Ideal) vl vr (ix2 p q) = ∑ k : Fin 256, vl (ix2 p k) * vr (ix2 k q) := by
  unfold k0_pay1
  refine (Ideal.matmul_constant_zero_apply dot_S1024x256_S256x256_S1024x256_1_0_0_1_n_n none _ _ (ix2 p q)).trans ?_
  rw [← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 p q) ((contrEquiv1 dot_S1024x256_S256x256_S1024x256_1_0_0_1_n_n 256 rfl rfl).symm k) = ix2 p k := funext fun a => Fin.ext (by
    match a with
    | ⟨0, _⟩ => exact lhs_axis0_0 _ _
    | ⟨1, _⟩ => exact (lhs_axis0_1 _ _).trans hk)
  have er : dot_S1024x256_S256x256_S1024x256_1_0_0_1_n_n.rhsIdx (ix2 p q) ((contrEquiv1 dot_S1024x256_S256x256_S1024x256_1_0_0_1_n_n 256 rfl rfl).symm k) = ix2 k q := funext fun a => Fin.ext (by
    match a with
    | ⟨0, _⟩ => exact (rhs_axis0_0 _ _).trans hk
    | ⟨1, _⟩ => exact rhs_axis0_1 _ _)
  rw [el, er, shapeCast_self, shapeCast_self]

theorem hz0 : (![0, 0] : Fin 2 → Nat) = fun _ => 0 := funext fun a => by fin_cases a <;> rfl

/-- One block of the product at an index: the whole-block store leaves its payload, and the two
    whole-block loads read the staging buffers as they are. -/
theorem prodBlock0_apply (xl : Vec Ideal S1024x256 .bf16) (xr : Vec Ideal S256x256 .bf16) (p : Fin 1024) (q : Fin nc0) :
    prodBlock0 (F := Ideal) xl xr (ix2 p q) = ∑ k : Fin 256, xl (ix2 p k) * xr (ix2 k q) := by
  unfold prodBlock0
  rw [View.canon_unit_zero hz0, View.ld_unit_zero (S := S1024x256) hz0, View.ld_unit_zero (S := S256x256) hz0]
  exact pay0_apply xl xr p q

/-- The shape of the product array. -/
abbrev SO0 : Shape := S10240x256

/-- The product of two whole arrays, index by index. -/
def prod0 (a : S10240x256.Idx → EReal) (b : S256x256.Idx → EReal) : SO0.Idx → EReal :=
  fun i => ∑ k : Fin 256, a (ix2 (⟨(i 0).val, idx2_lt0 i⟩ : Fin 10240) k) * b (ix2 k (⟨(i 1).val, idx2_lt1 i⟩ : Fin nc0))

theorem prod0_apply (a : S10240x256.Idx → EReal) (b : S256x256.Idx → EReal) (r : Fin 10240) (q : Fin nc0) :
    prod0 a b (ix2 r q) = ∑ k : Fin 256, a (ix2 r k) * b (ix2 k q) := rfl

/-- Where the three index maps put point `t`'s blocks: the left factor's and the product's at row
    block `t`, the right factor's always at the origin. Decided over the ten points. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left factor's block at point `t` is rows `1024 t … 1024 t + 1023` of the left array. -/
theorem iblk0_0_apply (c : Dev nD) (t : Fin cfg0.N) (p : Fin 1024) (k : Fin 256) (i : S10240x256.Idx)
    (hia : (i 0).val = 1024 * t.val + p.val) (hib : (i 1).val = k.val) :
    (iblk0 V c 0 t : Vec Ideal S1024x256 .bf16) (ix2 p k) = (V c main_v47 : S10240x256.Idx → EReal) i := by
  obtain ⟨ea, eb, -⟩ := idx_facts0 t
  unfold iblk0
  rw [View.read_apply]
  show V c main_v47 _ = V c main_v47 _
  congr 1
  funext a
  apply Fin.ext
  match a with
  | ⟨0, _⟩ => show win0_0.index t 0 * 1024 + 1 * p.val = (i 0).val; rw [ea, hia]; omega
  | ⟨1, _⟩ => show win0_0.index t 1 * 256 + 1 * k.val = (i 1).val; rw [eb, hib]; omega

/-- The right factor's block, at every point, is the whole right array. -/
theorem iblk0_1_apply (c : Dev nD) (t : Fin cfg0.N) (k : Fin 256) (q : Fin nc0) (i : S256x256.Idx)
    (hia : (i 0).val = k.val) (hib : (i 1).val = q.val) :
    (iblk0 V c 1 t : Vec Ideal S256x256 .bf16) (ix2 k q) = (V c main_v48 : S256x256.Idx → EReal) i := by
  obtain ⟨-, -, ea, eb, -⟩ := idx_facts0 t
  unfold iblk0
  rw [View.read_apply]
  show V c main_v48 _ = V c main_v48 _
  congr 1
  funext a
  apply Fin.ext
  match a with
  | ⟨0, _⟩ => show win0_1.index t 0 * 256 + 1 * k.val = (i 0).val; rw [ea, hia]; omega
  | ⟨1, _⟩ => show win0_1.index t 1 * nc0 + 1 * q.val = (i 1).val; rw [eb, hib]; omega

/-- What the product array ends holding, as contents of that array. -/
abbrev out0 (c : Dev nD) : Buf (Elt Ideal) ((c : Thread nD τ).loc main_v52) :=
  prod0 (V c main_v47) (V c main_v48)

/-- What point `t` writes back is its block of the product of the two arrays: entry `(p, q)` of the
    block sits at row `1024 t + p`, column `q` of the array, and the block's row `p` of the left
    factor is the array's row `1024 t + p`. -/
theorem flushed_eq0 (c : Dev nD) (t : Fin cfg0.N) :
    (dat0 (F := Ideal) V c).flushed 2 t = ((cfg0.win 2).blk t).view.read (Elt Ideal) (out0 V c) := by
  show (cfg0.win 2).cut (grid0.coords t) ((dat0 (F := Ideal) V c).after 2 t) = _
  rw [after0_2]
  funext y
  obtain ⟨p, q, rfl⟩ : ∃ (p : Fin 1024) (q : Fin nc0), y = ix2 p q := ⟨y 0, y 1, eq_ix2 y⟩
  rw [View.read_apply]
  show prodBlock0 (F := Ideal) (iblk0 V c 0 t) (iblk0 V c 1 t) (ix2 p q) = prod0 (V c main_v47) (V c main_v48) (((cfg0.win 2).blk t).view.emb (ix2 p q))
  refine (prodBlock0_apply (iblk0 V c 0 t) (iblk0 V c 1 t) p q).trans ?_
  obtain ⟨-, -, -, -, ea, eb⟩ := idx_facts0 t
  have ha : ((((cfg0.win 2).blk t).view.emb (ix2 p q)) 0).val = 1024 * t.val + p.val := by
    show win0_2.index t 0 * 1024 + 1 * p.val = _; rw [ea]; omega
  have hb : ((((cfg0.win 2).blk t).view.emb (ix2 p q)) 1).val = q.val := by
    show win0_2.index t 1 * nc0 + 1 * q.val = _; rw [eb]; omega
  unfold prod0
  refine Finset.sum_congr rfl fun k _ => ?_
  exact congrArg₂ (· * ·) (iblk0_0_apply V c t p k _ ha rfl) (iblk0_1_apply V c t k q _ rfl hb)

/-- An index of the product array lies in point `t`'s block iff each coordinate lies in the block's
    range on its axis. -/
theorem mem_blk0 (t : Fin cfg0.N) (i : SO0.Idx) :
    i ∈ ((cfg0.win 2).blk t).view.set ↔ ∀ a : Fin 2, win0_2.index t a * SC0.size a ≤ (i a).val ∧ (i a).val < win0_2.index t a * SC0.size a + SC0.size a := by
  show i ∈ ((View.whole main_v52).slice (win0_2.rect t)).set ↔ _
  rw [View.set_slice_whole, Rect.mem_set_unit]
  exact Iff.rfl

/-- Every index of the product array is in some point's block: row `r` in that of point `r / 1024`. -/
theorem covered0 (i : SO0.Idx) : ∃ t : Fin cfg0.N, (cfg0.win 2).flush t = true ∧ i ∈ ((cfg0.win 2).blk t).view.set := by
  have hN : cfg0.N = 10 := N_0
  have hia : (i 0).val < 10240 := (i 0).isLt
  have hib : (i 1).val < nc0 := (i 1).isLt
  refine ⟨⟨(i 0).val / 1024, by omega⟩, flush0_2 _, ?_⟩
  obtain ⟨-, -, -, -, ea, eb⟩ := idx_facts0 ⟨(i 0).val / 1024, by omega⟩
  rw [mem_blk0]
  intro a
  match a with
  | ⟨0, _⟩ => show win0_2.index _ 0 * 1024 ≤ (i 0).val ∧ (i 0).val < win0_2.index _ 0 * 1024 + 1024; rw [ea]; dsimp only; omega
  | ⟨1, _⟩ => show win0_2.index _ 1 * nc0 ≤ (i 1).val ∧ (i 1).val < win0_2.index _ 1 * nc0 + nc0; rw [eb]; omega

/-- The product array after the last point: the product of the two input arrays. -/
theorem final0_eq (c : Dev nD) : (dat0 (F := Ideal) V c).arrAt 2 cfg0.N = out0 V c :=
  (dat0 (F := Ideal) V c).arrAt_eq_of_cover 2 (out0 V c) (fun t _ => flushed_eq0 V c t) covered0

/-- The two input arrays at their literal types. -/
abbrev lhs0 (c : Dev nD) : Vec Ideal S10240x256 .bf16 := V c main_v47
abbrev rhs0 (c : Dev nD) : Vec Ideal S256x256 .bf16 := V c main_v48

/-- The same, index by index. -/
theorem final0 (c : Dev nD) (r : Fin 10240) (q : Fin nc0) :
    (dat0 (F := Ideal) V c).arrAt 2 cfg0.N (ix2 r q) = (∑ k : Fin 256, lhs0 V c (ix2 r k) * rhs0 V c (ix2 k q) : EReal) :=
  (congrFun (final0_eq V c) (ix2 r q)).trans (prod0_apply (V c main_v47) (V c main_v48) r q)

end Cert.KernelIdeal.Hand

end
-- ==== Proof.KI.Fin1.lean ====
/-
  How the first propagation finishes a row's total, over the extended reals: at a last column block the bias of the
  column is added and the result is clamped below at zero (`fin1`). The closing payload read at an entry is exactly
  that of the accumulator's entry and the bias row's entry in the same column (`k1_pay3_apply`): the bias row, one
  row high, is repeated down the 1024 rows of the block, and the zero it is compared with is the exact zero.
-/
import proofs.«422500_j8761733284692_1_alg».proof.Proof.Gen.KernelIdeal.Skeleton
import proofs.«422500_j8761733284692_1_alg».proof.Proof.Gen.KernelIdeal.Launch
import proofs.«422500_j8761733284692_1_alg».proof.Proof.Gen.KernelIdeal.Points
import proofs.«422500_j8761733284692_1_alg».proof.Proof.KI.Reg1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open scoped BigOperators

local notation "𝕄" => MT nD τ sig Unit (Elt Ideal) ℕ (UR sig nD τ) ℕ

variable (V : (c : Dev nD) → (b : Ref sig .tc) → Buf (Elt Ideal) ((c : Thread nD τ).loc b))

/-- The number of feature columns of the first propagation. -/
abbrev nc1 : ℕ := 256

/-- What the last column block does with a row's total and the bias: add, then clamp below at zero. -/
def fin1 (a b : EReal) : EReal := max (a + b) 0

/-- The closing step at an entry: the total plus the bias of the column, clamped below at zero. -/
theorem k1_pay3_apply (a : Vec Ideal S1024x256 .f32) (b : Vec Ideal S1x256 .f32) (p : Fin 1024) (q : Fin nc1) :
    k1_pay3 (F := Ideal) a b (ix2 p q) = fin1 (a (ix2 p q)) (b (ix2 0 q)) := by
  unfold k1_pay3 fin1
  simp only [shapeCast_self]
  show max (a (ix2 p q) + broadcastTo S1024x256 b broadcasts_S1x256_S1024x256 (ix2 p q)) (Ideal.ofBits .f32 0x00000000#32) = _
  rw [Ideal.ofBits_zero_f32, broadcastTo_apply b broadcasts_S1x256_S1024x256 (ix2 p q) (ix2 0 q) (fun d => by
    match d with
    | ⟨0, _⟩ => rfl
    | ⟨1, _⟩ => rfl)]

end Cert.KernelIdeal.Hand

end
-- ==== Proof.KI.Val1.lean ====
/-
  One propagation step, read entry by entry over the extended reals, where every operation is exact.
  Its fifty grid points run through ten row tiles of 1024 rows, and inside each through five column blocks of 2048
  columns: point `t` is row tile `t / 5`, column block `t % 5`. A point multiplies its 1024 × 2048 tile of the
  weights by the matching 2048 rows of the features and adds the product into an accumulator that a first column
  block starts again from zero; a last column block finishes the total with the bias row (`fin1`), and its output
  block is written back to rows [1024 (t / 5), 1024 (t / 5) + 1024) of the result.
  So entry `(r, q)` of the result is `fin1 (((((0 + B 0) + B 1) + B 2) + B 3) + B 4) (bias q)`, where `B k` is the
  sum over column block `k` of weight × feature (`blockSum1`, `final1`). The steps: the accumulating payload at an
  index (`k1_pay2_apply`; the closing one is stated with `fin1`); each window's block as entries of its array
  (`xblk1_apply`, `hblk1_apply`, `bblk1_apply`); the accumulator after every point, by induction on the point
  (`acc1_apply`); what a last column block writes back, as a row tile of one function of the arrays
  (`flushed1_eq`); every row is in some written-back tile (`cover1`).
-/
import proofs.«422500_j8761733284692_1_alg».proof.Proof.Gen.KernelIdeal.Skeleton
import proofs.«422500_j8761733284692_1_alg».proof.Proof.Gen.KernelIdeal.Launch
import proofs.«422500_j8761733284692_1_alg».proof.Proof.Gen.KernelIdeal.Points
import proofs.«422500_j8761733284692_1_alg».proof.Proof.KI.Reg1
import proofs.«422500_j8761733284692_1_alg».proof.Proof.KI.Fin1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open scoped BigOperators

local notation "𝕄" => MT nD τ sig Unit (Elt Ideal) ℕ (UR sig nD τ) ℕ

variable (V : (c : Dev nD) → (b : Ref sig .tc) → Buf (Elt Ideal) ((c : Thread nD τ).loc b))

/-! ## The product's operand indices, axis by axis -/

theorem lhs_k1_0 (i : S1024x256.Idx) (k : dot_S1024x2048_S2048x256_S1024x256_1_0_0_1_n_n.contr.Idx) :
    (dot_S1024x2048_S2048x256_S1024x256_1_0_0_1_n_n.lhsIdx i k 0).val = (i 0).val := by
  unfold DotDims.lhsIdx
  rw [dif_neg (show ¬(0 : Fin S1024x2048.rank) ∈ dot_S1024x2048_S2048x256_S1024x256_1_0_0_1_n_n.lhsBatch by decide), dif_pos (show (0 : Fin S1024x2048.rank) ∈ dot_S1024x2048_S2048x256_S1024x256_1_0_0_1_n_n.lhsNonContracting by decide)]
  rfl
theorem lhs_k1_1 (i : S1024x256.Idx) (k : dot_S1024x2048_S2048x256_S1024x256_1_0_0_1_n_n.contr.Idx) :
    (dot_S1024x2048_S2048x256_S1024x256_1_0_0_1_n_n.lhsIdx i k 1).val = (k ⟨0, by decide⟩).val :=
  dot_S1024x2048_S2048x256_S1024x256_1_0_0_1_n_n.lhsIdx_val_of_single rfl i k
theorem rhs_k1_0 (i : S1024x256.Idx) (k : dot_S1024x2048_S2048x256_S1024x256_1_0_0_1_n_n.contr.Idx) :
    (dot_S1024x2048_S2048x256_S1024x256_1_0_0_1_n_n.rhsIdx i k 0).val = (k ⟨0, by decide⟩).val :=
  dot_S1024x2048_S2048x256_S1024x256_1_0_0_1_n_n.rhsIdx_val_of_single rfl i k
theorem rhs_k1_1 (i : S1024x256.Idx) (k : dot_S1024x2048_S2048x256_S1024x256_1_0_0_1_n_n.contr.Idx) :
    (dot_S1024x2048_S2048x256_S1024x256_1_0_0_1_n_n.rhsIdx i k 1).val = (i 1).val := by
  unfold DotDims.rhsIdx
  rw [dif_neg (show ¬(1 : Fin S2048x256.rank) ∈ dot_S1024x2048_S2048x256_S1024x256_1_0_0_1_n_n.rhsBatch by decide), dif_pos (show (1 : Fin S2048x256.rank) ∈ dot_S1024x2048_S2048x256_S1024x256_1_0_0_1_n_n.rhsNonContracting by decide)]
  rfl

/-- The tile product into a zero accumulator, at row `p` and column `q` of the block: the sum over the 2048 contracted
    positions of the left tile's row entry times the right tile's column entry. -/
theorem matmul1_apply (x : FVec Ideal S1024x2048 .bf16) (h : FVec Ideal S2048x256 .bf16) (p : Fin 1024) (q : Fin nc1) :
    matmul (F := Ideal) dot_S1024x2048_S2048x256_S1024x256_1_0_0_1_n_n none x h (constant (F := Ideal) S1024x256 .f32 0x00000000#32) (ix2 p q)
      = ∑ j : Fin 2048, x (ix2 p j) * h (ix2 j q) := by
  simp only [matmul]
  rw [Ideal.matmul_constant_zero_apply, ← Equiv.sum_comp (contrEquiv1 dot_S1024x2048_S2048x256_S1024x256_1_0_0_1_n_n 2048 rfl rfl).symm]
  refine Finset.sum_congr rfl fun j _ => ?_
  have hk := contrEquiv1_symm_val dot_S1024x2048_S2048x256_S1024x256_1_0_0_1_n_n 2048 rfl rfl j
  have el : dot_S1024x2048_S2048x256_S1024x256_1_0_0_1_n_n.lhsIdx (ix2 p q) ((contrEquiv1 dot_S1024x2048_S2048x256_S1024x256_1_0_0_1_n_n 2048 rfl rfl).symm j) = ix2 p j := funext fun a => Fin.ext (by
    match a with
    | ⟨0, _⟩ => exact lhs_k1_0 _ _
    | ⟨1, _⟩ => exact (lhs_k1_1 _ _).trans hk)
  have er : dot_S1024x2048_S2048x256_S1024x256_1_0_0_1_n_n.rhsIdx (ix2 p q) ((contrEquiv1 dot_S1024x2048_S2048x256_S1024x256_1_0_0_1_n_n 2048 rfl rfl).symm j) = ix2 j q := funext fun a => Fin.ext (by
    match a with
    | ⟨0, _⟩ => exact (rhs_k1_0 _ _).trans hk
    | ⟨1, _⟩ => exact rhs_k1_1 _ _)
  rw [el, er]

/-- The accumulating step at an index: what was there, plus the tile product's entry. -/
theorem k1_pay2_apply (a : Vec Ideal S1024x256 .f32) (x : Vec Ideal S1024x2048 .bf16) (h : Vec Ideal S2048x256 .bf16) (p : Fin 1024) (q : Fin nc1) :
    k1_pay2 (F := Ideal) a x h (ix2 p q) = a (ix2 p q) + ∑ j : Fin 2048, x (ix2 p j) * h (ix2 j q) := by
  unfold k1_pay2
  simp only [shapeCast_self]
  exact congrArg (a (ix2 p q) + ·) (matmul1_apply x h p q)

/-- The reset value is zero everywhere. -/
theorem k1_pay1_apply (i : S1024x256.Idx) : k1_pay1 (F := Ideal) i = 0 := by
  unfold k1_pay1
  simp only [shapeCast_self]
  show Ideal.ofBits .f32 0x00000000#32 = 0
  exact Ideal.ofBits_zero_f32

/-! ## Where each window's block sits in its array -/

/-- The block-index maps at each of the fifty points: point `t` is row tile `t / 5`, column block `t % 5`.
    The weight tile moves with both, the feature rows with the column block, the bias row never, the output with the row tile. -/
theorem idx_facts1 : ∀ t : Fin cfg1.N,
    win1_0.index t (0 : Fin 2) = t.val / 5 ∧ win1_0.index t (1 : Fin 2) = t.val % 5
    ∧ win1_1.index t (0 : Fin 2) = t.val % 5 ∧ win1_1.index t (1 : Fin 2) = 0
    ∧ win1_2.index t (0 : Fin 2) = 0 ∧ win1_2.index t (1 : Fin 2) = 0
    ∧ win1_3.index t (0 : Fin 2) = t.val / 5 ∧ win1_3.index t (1 : Fin 2) = 0 :=
  (by decide +kernel : ∀ t : Fin grid1.N, _)

/-- The three arrays the propagation reads, each at its literal type: the dense weights, the features, the bias row. -/
abbrev wts1 (c : Dev nD) : S10240x10240.Idx → EReal := V c main_v45
abbrev feat1 (c : Dev nD) : S10240x256.Idx → EReal := V c main_v53
abbrev bias1 (c : Dev nD) : S1x256.Idx → EReal := V c main_v50

/-- The weight tile at point `t`, entry `(p, j)`: row `1024 (t / 5) + p`, column `2048 (t % 5) + j` of the weights. -/
theorem xblk1_apply (c : Dev nD) (t : Fin cfg1.N) (p : Fin 1024) (j : Fin 2048) (r s : Fin 10240)
    (hr : r.val = 1024 * (t.val / 5) + p.val) (hs : s.val = 2048 * (t.val % 5) + j.val) :
    (iblk1 V c 0 t : Vec Ideal S1024x2048 .bf16) (ix2 p j) = wts1 V c (ix2 r s) := by
  obtain ⟨e0, e1, -⟩ := idx_facts1 t
  unfold iblk1
  rw [View.read_apply]
  show V c main_v45 _ = V c main_v45 _
  congr 1
  funext a
  apply Fin.ext
  match a with
  | ⟨0, _⟩ => show win1_0.index t (0 : Fin 2) * 1024 + 1 * p.val = r.val; rw [e0, hr]; omega
  | ⟨1, _⟩ => show win1_0.index t (1 : Fin 2) * 2048 + 1 * j.val = s.val; rw [e1, hs]; omega

/-- The feature rows at point `t`, entry `(j, q)`: row `2048 (t % 5) + j`, column `q` of the features. -/
theorem hblk1_apply (c : Dev nD) (t : Fin cfg1.N) (j : Fin 2048) (q : Fin nc1) (s : Fin 10240)
    (hs : s.val = 2048 * (t.val % 5) + j.val) :
    (iblk1 V c 1 t : Vec Ideal S2048x256 .bf16) (ix2 j q) = feat1 V c (ix2 s q) := by
  obtain ⟨-, -, e2, e3, -⟩ := idx_facts1 t
  unfold iblk1
  rw [View.read_apply]
  show V c main_v53 _ = V c main_v53 _
  congr 1
  funext a
  apply Fin.ext
  match a with
  | ⟨0, _⟩ => show win1_1.index t (0 : Fin 2) * 2048 + 1 * j.val = s.val; rw [e2, hs]; omega
  | ⟨1, _⟩ => show win1_1.index t (1 : Fin 2) * 256 + 1 * q.val = q.val; rw [e3]; omega

/-- The bias block is the bias row itself at every point. -/
theorem bblk1_apply (c : Dev nD) (t : Fin cfg1.N) (q : Fin nc1) :
    (iblk1 V c 2 t : Vec Ideal S1x256 .f32) (ix2 0 q) = bias1 V c (ix2 0 q) := by
  obtain ⟨-, -, -, -, e4, e5, -⟩ := idx_facts1 t
  unfold iblk1
  rw [View.read_apply]
  show V c main_v50 _ = V c main_v50 _
  congr 1
  funext a
  apply Fin.ext
  match a with
  | ⟨0, _⟩ => show win1_2.index t (0 : Fin 2) * 1 + 1 * ((0 : Fin 1) : ℕ) = ((0 : Fin 1) : ℕ); rw [e4]; omega
  | ⟨1, _⟩ => show win1_2.index t (1 : Fin 2) * 256 + 1 * q.val = q.val; rw [e5]; omega

/-! ## A row's total, one column block at a time -/

/-- What column block `k` contributes to entry `(r, q)` of weights × features: the products over that block's 2048
    contracted positions. -/
def blockSum1 (c : Dev nD) (r : Fin 10240) (q : Fin nc1) (k : Fin 5) : EReal :=
  ∑ j : Fin 2048, wts1 V c (ix2 r ⟨2048 * k.val + j.val, by omega⟩) * feat1 V c (ix2 ⟨2048 * k.val + j.val, by omega⟩ q)

/-- The total of entry `(r, q)` after column blocks `0 … k`, in the order the grid takes them: from zero, one block's
    contribution added at a time. (Past the fifth block nothing is added; those values are never read.) -/
def partial1 (c : Dev nD) (r : Fin 10240) (q : Fin nc1) : ℕ → EReal
  | 0 => 0 + blockSum1 V c r q 0
  | k + 1 => partial1 c r q k + (if h : k + 1 < 5 then blockSum1 V c r q ⟨k + 1, h⟩ else 0)

theorem partial1_succ (c : Dev nD) (r : Fin 10240) (q : Fin nc1) (k : ℕ) (h : k + 1 < 5) :
    partial1 V c r q (k + 1) = partial1 V c r q k + blockSum1 V c r q ⟨k + 1, h⟩ := by
  show partial1 V c r q k + (if h : k + 1 < 5 then blockSum1 V c r q ⟨k + 1, h⟩ else 0) = _
  rw [dif_pos h]

/-- After all five blocks: the five contributions added to zero, first to last. -/
theorem partial1_last (c : Dev nD) (r : Fin 10240) (q : Fin nc1) :
    partial1 V c r q 4 = ((((0 + blockSum1 V c r q 0) + blockSum1 V c r q 1) + blockSum1 V c r q 2) + blockSum1 V c r q 3) + blockSum1 V c r q 4 := by
  rw [partial1_succ V c r q 3 (by decide), partial1_succ V c r q 2 (by decide), partial1_succ V c r q 1 (by decide),
    partial1_succ V c r q 0 (by decide)]
  rfl

/-- One point's step at an entry: whatever the accumulator held there, plus the contribution of the point's column block. -/
theorem step1_apply (c : Dev nD) (t : Fin cfg1.N) (a : Vec Ideal S1024x256 .f32) (p : Fin 1024) (q : Fin nc1) (r : Fin 10240)
    (hr : r.val = 1024 * (t.val / 5) + p.val) (k : Fin 5) (hk : k.val = t.val % 5) :
    k1_pay2 (F := Ideal) a (iblk1 V c 0 t) (iblk1 V c 1 t) (ix2 p q) = a (ix2 p q) + blockSum1 V c r q k := by
  refine (k1_pay2_apply a (iblk1 V c 0 t) (iblk1 V c 1 t) p q).trans ?_
  refine congrArg (a (ix2 p q) + ·) ?_
  unfold blockSum1
  refine Finset.sum_congr rfl fun j _ => ?_
  exact congrArg₂ (· * ·)
    (xblk1_apply V c t p j r ⟨2048 * k.val + j.val, by omega⟩ hr (by show 2048 * k.val + j.val = _; rw [hk]))
    (hblk1_apply V c t j q ⟨2048 * k.val + j.val, by omega⟩ (by show 2048 * k.val + j.val = _; rw [hk]))

/-- THE ACCUMULATOR, ENTRY BY ENTRY. After point `n` — row tile `n / 5`, column block `n % 5` — entry `(p, q)` holds the
    total of row `1024 (n / 5) + p` over the column blocks taken so far. By induction on the point: a first column block
    starts again from zero, any other adds to what the point before left, which is the same row tile one block earlier. -/
theorem acc1_apply (c : Dev nD) : ∀ (n : ℕ) (hn : n < cfg1.N) (p : Fin 1024) (q : Fin nc1) (r : Fin 10240),
    r.val = 1024 * (n / 5) + p.val → (outsAt1 V c n hn).2 (ix2 p q) = partial1 V c r q (n % 5)
  | 0, hn, p, q, r, hr => by
    refine (congrFun (scr1_first V c ⟨0, hn⟩ rfl) (ix2 p q)).trans ?_
    refine (step1_apply V c ⟨0, hn⟩ (k1_pay1 (F := Ideal)) p q r hr 0 rfl).trans ?_
    rw [k1_pay1_apply]
    rfl
  | n + 1, hn, p, q, r, hr => by
    by_cases h0 : (n + 1) % 5 = 0
    · refine (congrFun (scr1_first V c ⟨n + 1, hn⟩ h0) (ix2 p q)).trans ?_
      refine (step1_apply V c ⟨n + 1, hn⟩ (k1_pay1 (F := Ideal)) p q r hr 0 h0.symm).trans ?_
      rw [k1_pay1_apply, h0]
      rfl
    · have hm : (n + 1) % 5 = n % 5 + 1 := by omega
      have hlt : n % 5 + 1 < 5 := by omega
      have hr' : r.val = 1024 * (n / 5) + p.val := by rw [hr]; omega
      refine (congrFun (scr1_next V c ⟨n + 1, hn⟩ h0) (ix2 p q)).trans ?_
      refine (step1_apply V c ⟨n + 1, hn⟩ (outsAt1 V c (n + 1 - 1) (Nat.lt_of_le_of_lt (Nat.sub_le _ _) hn)).2 p q r hr ⟨n % 5 + 1, hlt⟩ hm.symm).trans ?_
      rw [hm, partial1_succ V c r q (n % 5) hlt]
      exact congrArg (· + blockSum1 V c r q ⟨n % 5 + 1, hlt⟩) (acc1_apply c n (Nat.lt_of_succ_lt hn) p q r hr')

/-! ## From the blocks to the output array -/

/-- Entry `(r, q)` of the output: the row's total over all five column blocks, finished by `fin1` with the column's bias. -/
def rowVal1 (c : Dev nD) (r : Fin 10240) (q : Fin nc1) : EReal := fin1 (partial1 V c r q 4) (bias1 V c (ix2 0 q))

/-- The whole output array as one function of the arrays the propagation reads. -/
abbrev G1 (c : Dev nD) : S10240x256.Idx → EReal := fun i => rowVal1 V c ⟨(i 0).val, idx2_lt0 i⟩ ⟨(i 1).val, idx2_lt1 i⟩

/-- The output block after a last column block, entry by entry. -/
theorem out1_apply (c : Dev nD) (t : Fin cfg1.N) (h4 : t.val % 5 = 4) (p : Fin 1024) (q : Fin nc1) (r : Fin 10240)
    (hr : r.val = 1024 * (t.val / 5) + p.val) :
    (outsAt1 V c t.val t.isLt).1 (ix2 p q) = rowVal1 V c r q := by
  refine (congrFun (out1_last V c t h4) (ix2 p q)).trans ?_
  refine (k1_pay3_apply (outsAt1 V c t.val t.isLt).2 (iblk1 V c 2 t) p q).trans ?_
  exact congrArg₂ fin1 ((acc1_apply V c t.val t.isLt p q r hr).trans (by rw [h4])) (bblk1_apply V c t q)

/-- WHAT A LAST COLUMN BLOCK WRITES BACK is its row tile of the output function. -/
theorem flushed1_eq (c : Dev nD) (t : Fin cfg1.N) (hf : (cfg1.win 3).flush t = true) :
    (dat1 V c).flushed 3 t = ((cfg1.win 3).blk t).view.read (Elt Ideal) (G1 V c) := by
  have h4 : t.val % 5 = 4 := (flush1_3 t).mp hf
  have hN : cfg1.N = 50 := N_1
  have ht : t.val < cfg1.N := t.isLt
  obtain ⟨-, -, -, -, -, -, e6, e7⟩ := idx_facts1 t
  show (cfg1.win 3).cut (grid1.coords t) ((dat1 V c).after 3 t) = _
  rw [after1_3]
  funext y
  rw [View.read_apply]
  have hy0 : (y 0).val < 1024 := (y 0).isLt
  have hy1 : (y 1).val < nc1 := (y 1).isLt
  have ey : (cfg1.win 3).xinj (grid1.coords t) y = ix2 (⟨(y 0).val, hy0⟩ : Fin 1024) (⟨(y 1).val, hy1⟩ : Fin nc1) :=
    funext fun a => match a with | ⟨0, _⟩ => rfl | ⟨1, _⟩ => rfl
  show (outsAt1 V c t.val t.isLt).1 ((cfg1.win 3).xinj (grid1.coords t) y) = G1 V c (((cfg1.win 3).blk t).view.emb y)
  rw [ey]
  refine (out1_apply V c t h4 ⟨(y 0).val, hy0⟩ ⟨(y 1).val, hy1⟩ ⟨1024 * (t.val / 5) + (y 0).val, by omega⟩ rfl).trans ?_
  show rowVal1 V c _ _ = rowVal1 V c _ _
  congr 1 <;> apply Fin.ext
  · show 1024 * (t.val / 5) + (y 0).val = win1_3.index t (0 : Fin 2) * 1024 + 1 * (y 0).val
    rw [e6]; omega
  · show (y 1).val = win1_3.index t (1 : Fin 2) * 256 + 1 * (y 1).val
    rw [e7]; omega

/-- An entry of the output array lies in point `t`'s block iff each coordinate lies in the block's range on its axis. -/
theorem mem_blk1 (t : Fin cfg1.N) (i : S10240x256.Idx) :
    i ∈ ((cfg1.win 3).blk t).view.set ↔ ∀ a : Fin 2, win1_3.index t a * S1024x256.size a ≤ (i a).val ∧ (i a).val < win1_3.index t a * S1024x256.size a + S1024x256.size a := by
  show i ∈ ((View.whole main_v54).slice (win1_3.rect t)).set ↔ _
  rw [View.set_slice_whole, Rect.mem_set_unit]
  exact Iff.rfl

/-- Every entry of the output array is written back: row `r` by the last column block of row tile `r / 1024`. -/
theorem cover1 (i : S10240x256.Idx) :
    ∃ t : Fin cfg1.N, (cfg1.win 3).flush t = true ∧ i ∈ ((cfg1.win 3).blk t).view.set := by
  have hi0 : (i 0).val < 10240 := (i 0).isLt
  have hi1 : (i 1).val < 256 := (i 1).isLt
  have hN : cfg1.N = 50 := N_1
  obtain ⟨t, tv⟩ : ∃ t : Fin cfg1.N, t.val = 5 * ((i 0).val / 1024) + 4 := ⟨⟨5 * ((i 0).val / 1024) + 4, by omega⟩, rfl⟩
  obtain ⟨-, -, -, -, -, -, e6, e7⟩ := idx_facts1 t
  refine ⟨t, (flush1_3 t).mpr (by omega), ?_⟩
  rw [mem_blk1]
  intro a
  match a with
  | ⟨0, _⟩ =>
    show win1_3.index t (0 : Fin 2) * 1024 ≤ (i 0).val ∧ (i 0).val < win1_3.index t (0 : Fin 2) * 1024 + 1024
    rw [e6]; omega
  | ⟨1, _⟩ =>
    show win1_3.index t (1 : Fin 2) * 256 ≤ (i 1).val ∧ (i 1).val < win1_3.index t (1 : Fin 2) * 256 + 256
    rw [e7]; omega

/-- THE OUTPUT ARRAY after the propagation, entry by entry: the five column blocks' contributions to the row, added to
    zero in the grid's order, and finished by `fin1` with the column's bias. -/
theorem final1 (c : Dev nD) (r : Fin 10240) (q : Fin nc1) :
    (dat1 (F := Ideal) V c).arrAt 3 cfg1.N (ix2 r q)
      = fin1 (((((0 + blockSum1 V c r q 0) + blockSum1 V c r q 1) + blockSum1 V c r q 2) + blockSum1 V c r q 3) + blockSum1 V c r q 4)
          (V c main_v50 (ix2 0 q)) := by
  refine (congrFun ((dat1 V c).arrAt_eq_of_cover 3 (G1 V c) (flushed1_eq V c) cover1) (ix2 r q)).trans ?_
  show fin1 (partial1 V c r q 4) (bias1 V c (ix2 0 q)) = _
  rw [partial1_last]

end Cert.KernelIdeal.Hand

end
-- ==== Proof.KI.Val2.lean ====
/-
  The second dense product, read as one function of its two input arrays. At the ideal instance a
  float is an extended real and every operation is exact, so the block a grid point leaves is, entry
  by entry, the sum over the contracted axis of the products of a row of the left block with a column
  of the right block: the accumulator starts from the zero word, which is the number zero. Point `t`
  takes rows [1024 t, 1024 t + 1024) of the left array and the whole right array, and writes the same
  rows of the product array; the ten row blocks tile that array, so after the last point it holds the
  matrix product of the two arrays, index by index (`final2`).
-/
import proofs.«422500_j8761733284692_1_alg».proof.Proof.KI.Reg2
import proofs.«422500_j8761733284692_1_alg».proof.Proof.Gen.KernelIdeal.Skeleton
import proofs.«422500_j8761733284692_1_alg».proof.Proof.Gen.KernelIdeal.Launch
import proofs.«422500_j8761733284692_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open scoped BigOperators

local notation "𝕄" => MT nD τ sig Unit (Elt Ideal) ℕ (UR sig nD τ) ℕ

variable (V : (c : Dev nD) → (b : Ref sig .tc) → Buf (Elt Ideal) ((c : Thread nD τ).loc b))

/-- The number of columns of the right factor, which is also that of the product. -/
abbrev nc2 : ℕ := 64

/-- The operand indices of the contraction, axis by axis: the left operand is read at the output's
    row and the contracted coordinate, the right one at the contracted coordinate and the output's column. -/
theorem lhs_axis2_0 (j : SC2.Idx) (κ : dot_S1024x256_S256x64_S1024x64_1_0_0_1_n_n.contr.Idx) :
    (dot_S1024x256_S256x64_S1024x64_1_0_0_1_n_n.lhsIdx j κ 0).val = (j 0).val := by
  unfold DotDims.lhsIdx
  rw [dif_neg (show ¬(0 : Fin S1024x256.rank) ∈ dot_S1024x256_S256x64_S1024x64_1_0_0_1_n_n.lhsBatch by decide), dif_pos (show (0 : Fin S1024x256.rank) ∈ dot_S1024x256_S256x64_S1024x64_1_0_0_1_n_n.lhsNonContracting by decide)]
  rfl
theorem lhs_axis2_1 (j : SC2.Idx) (κ : dot_S1024x256_S256x64_S1024x64_1_0_0_1_n_n.contr.Idx) :
    (dot_S1024x256_S256x64_S1024x64_1_0_0_1_n_n.lhsIdx j κ 1).val = (κ ⟨0, by decide⟩).val :=
  dot_S1024x256_S256x64_S1024x64_1_0_0_1_n_n.lhsIdx_val_of_single rfl j κ
theorem rhs_axis2_0 (j : SC2.Idx) (κ : dot_S1024x256_S256x64_S1024x64_1_0_0_1_n_n.contr.Idx) :
    (dot_S1024x256_S256x64_S1024x64_1_0_0_1_n_n.rhsIdx j κ 0).val = (κ ⟨0, by decide⟩).val :=
  dot_S1024x256_S256x64_S1024x64_1_0_0_1_n_n.rhsIdx_val_of_single rfl j κ
theorem rhs_axis2_1 (j : SC2.Idx) (κ : dot_S1024x256_S256x64_S1024x64_1_0_0_1_n_n.contr.Idx) :
    (dot_S1024x256_S256x64_S1024x64_1_0_0_1_n_n.rhsIdx j κ 1).val = (j 1).val := by
  unfold DotDims.rhsIdx
  rw [dif_neg (show ¬(1 : Fin S256x64.rank) ∈ dot_S1024x256_S256x64_S1024x64_1_0_0_1_n_n.rhsBatch by decide), dif_pos (show (1 : Fin S256x64.rank) ∈ dot_S1024x256_S256x64_S1024x64_1_0_0_1_n_n.rhsNonContracting by decide)]
  rfl

/-- The payload at an index: a product accumulated into zero is the plain sum of products over the
    contracted axis; the two shape casts are onto the operands' own shapes and change nothing. -/
theorem pay2_apply (vl : Vec Ideal S1024x256 .bf16) (vr : Vec Ideal S256x64 .bf16) (p : Fin 1024) (q : Fin nc2) :
    k2_pay1 (F := Ideal) vl vr (ix2 p q) = ∑ k : Fin 256, vl (ix2 p k) * vr (ix2 k q) := by
  unfold k2_pay1
  refine (Ideal.matmul_constant_zero_apply dot_S1024x256_S256x64_S1024x64_1_0_0_1_n_n none _ _ (ix2 p q)).trans ?_
  rw [← Equiv.sum_comp (contrEquiv1 dot_S1024x256_S256x64_S1024x64_1_0_0_1_n_n 256 rfl rfl).symm]
  refine Finset.sum_congr rfl fun k _ => ?_
  have hk := contrEquiv1_symm_val dot_S1024x256_S256x64_S1024x64_1_0_0_1_n_n 256 rfl rfl k
  have el : dot_S1024x256_S256x64_S1024x64_1_0_0_1_n_n.lhsIdx (ix2 p q) ((contrEquiv1 dot_S1024x256_S256x64_S1024x64_1_0_0_1_n_n 256 rfl rfl).symm k) = ix2 p k := funext fun a => Fin.ext (by
    match a with
    | ⟨0, _⟩ => exact lhs_axis2_0 _ _
    | ⟨1, _⟩ => exact (lhs_axis2_1 _ _).trans hk)
  have er : dot_S1024x256_S256x64_S1024x64_1_0_0_1_n_n.rhsIdx (ix2 p q) ((contrEquiv1 dot_S1024x256_S256x64_S1024x64_1_0_0_1_n_n 256 rfl rfl).symm k) = ix2 k q := funext fun a => Fin.ext (by
    match a with
    | ⟨0, _⟩ => exact (rhs_axis2_0 _ _).trans hk
    | ⟨1, _⟩ => exact rhs_axis2_1 _ _)
  rw [el, er, shapeCast_self, shapeCast_self]

theorem hz2 : (![0, 0] : Fin 2 → Nat) = fun _ => 0 := funext fun a => by fin_cases a <;> rfl

/-- One block of the product at an index: the whole-block store leaves its payload, and the two
    whole-block loads read the staging buffers as they are. -/
theorem prodBlock2_apply (xl : Vec Ideal S1024x256 .bf16) (xr : Vec Ideal S256x64 .bf16) (p : Fin 1024) (q : Fin nc2) :
    prodBlock2 (F := Ideal) xl xr (ix2 p q) = ∑ k : Fin 256, xl (ix2 p k) * xr (ix2 k q) := by
  unfold prodBlock2
  rw [View.canon_unit_zero hz2, View.ld_unit_zero (S := S1024x256) hz2, View.ld_unit_zero (S := S256x64) hz2]
  exact pay2_apply xl xr p q

/-- The shape of the product array. -/
abbrev SO2 : Shape := S10240x64

/-- The product of two whole arrays, index by index. -/
def prod2 (a : S10240x256.Idx → EReal) (b : S256x64.Idx → EReal) : SO2.Idx → EReal :=
  fun i => ∑ k : Fin 256, a (ix2 (⟨(i 0).val, idx2_lt0 i⟩ : Fin 10240) k) * b (ix2 k (⟨(i 1).val, idx2_lt1 i⟩ : Fin nc2))

theorem prod2_apply (a : S10240x256.Idx → EReal) (b : S256x64.Idx → EReal) (r : Fin 10240) (q : Fin nc2) :
    prod2 a b (ix2 r q) = ∑ k : Fin 256, a (ix2 r k) * b (ix2 k q) := rfl

/-- Where the three index maps put point `t`'s blocks: the left factor's and the product's at row
    block `t`, the right factor's always at the origin. Decided over the ten points. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left factor's block at point `t` is rows `1024 t … 1024 t + 1023` of the left array. -/
theorem iblk2_0_apply (c : Dev nD) (t : Fin cfg2.N) (p : Fin 1024) (k : Fin 256) (i : S10240x256.Idx)
    (hia : (i 0).val = 1024 * t.val + p.val) (hib : (i 1).val = k.val) :
    (iblk2 V c 0 t : Vec Ideal S1024x256 .bf16) (ix2 p k) = (V c main_v55 : S10240x256.Idx → EReal) i := by
  obtain ⟨ea, eb, -⟩ := idx_facts2 t
  unfold iblk2
  rw [View.read_apply]
  show V c main_v55 _ = V c main_v55 _
  congr 1
  funext a
  apply Fin.ext
  match a with
  | ⟨0, _⟩ => show win2_0.index t 0 * 1024 + 1 * p.val = (i 0).val; rw [ea, hia]; omega
  | ⟨1, _⟩ => show win2_0.index t 1 * 256 + 1 * k.val = (i 1).val; rw [eb, hib]; omega

/-- The right factor's block, at every point, is the whole right array. -/
theorem iblk2_1_apply (c : Dev nD) (t : Fin cfg2.N) (k : Fin 256) (q : Fin nc2) (i : S256x64.Idx)
    (hia : (i 0).val = k.val) (hib : (i 1).val = q.val) :
    (iblk2 V c 1 t : Vec Ideal S256x64 .bf16) (ix2 k q) = (V c main_v49 : S256x64.Idx → EReal) i := by
  obtain ⟨-, -, ea, eb, -⟩ := idx_facts2 t
  unfold iblk2
  rw [View.read_apply]
  show V c main_v49 _ = V c main_v49 _
  congr 1
  funext a
  apply Fin.ext
  match a with
  | ⟨0, _⟩ => show win2_1.index t 0 * 256 + 1 * k.val = (i 0).val; rw [ea, hia]; omega
  | ⟨1, _⟩ => show win2_1.index t 1 * nc2 + 1 * q.val = (i 1).val; rw [eb, hib]; omega

/-- What the product array ends holding, as contents of that array. -/
abbrev out2 (c : Dev nD) : Buf (Elt Ideal) ((c : Thread nD τ).loc main_v56) :=
  prod2 (V c main_v55) (V c main_v49)

/-- What point `t` writes back is its block of the product of the two arrays: entry `(p, q)` of the
    block sits at row `1024 t + p`, column `q` of the array, and the block's row `p` of the left
    factor is the array's row `1024 t + p`. -/
theorem flushed_eq2 (c : Dev nD) (t : Fin cfg2.N) :
    (dat2 (F := Ideal) V c).flushed 2 t = ((cfg2.win 2).blk t).view.read (Elt Ideal) (out2 V c) := by
  show (cfg2.win 2).cut (grid2.coords t) ((dat2 (F := Ideal) V c).after 2 t) = _
  rw [after2_2]
  funext y
  obtain ⟨p, q, rfl⟩ : ∃ (p : Fin 1024) (q : Fin nc2), y = ix2 p q := ⟨y 0, y 1, eq_ix2 y⟩
  rw [View.read_apply]
  show prodBlock2 (F := Ideal) (iblk2 V c 0 t) (iblk2 V c 1 t) (ix2 p q) = prod2 (V c main_v55) (V c main_v49) (((cfg2.win 2).blk t).view.emb (ix2 p q))
  refine (prodBlock2_apply (iblk2 V c 0 t) (iblk2 V c 1 t) p q).trans ?_
  obtain ⟨-, -, -, -, ea, eb⟩ := idx_facts2 t
  have ha : ((((cfg2.win 2).blk t).view.emb (ix2 p q)) 0).val = 1024 * t.val + p.val := by
    show win2_2.index t 0 * 1024 + 1 * p.val = _; rw [ea]; omega
  have hb : ((((cfg2.win 2).blk t).view.emb (ix2 p q)) 1).val = q.val := by
    show win2_2.index t 1 * nc2 + 1 * q.val = _; rw [eb]; omega
  unfold prod2
  refine Finset.sum_congr rfl fun k _ => ?_
  exact congrArg₂ (· * ·) (iblk2_0_apply V c t p k _ ha rfl) (iblk2_1_apply V c t k q _ rfl hb)

/-- An index of the product array lies in point `t`'s block iff each coordinate lies in the block's
    range on its axis. -/
theorem mem_blk2 (t : Fin cfg2.N) (i : SO2.Idx) :
    i ∈ ((cfg2.win 2).blk t).view.set ↔ ∀ a : Fin 2, win2_2.index t a * SC2.size a ≤ (i a).val ∧ (i a).val < win2_2.index t a * SC2.size a + SC2.size a := by
  show i ∈ ((View.whole main_v56).slice (win2_2.rect t)).set ↔ _
  rw [View.set_slice_whole, Rect.mem_set_unit]
  exact Iff.rfl

/-- Every index of the product array is in some point's block: row `r` in that of point `r / 1024`. -/
theorem covered2 (i : SO2.Idx) : ∃ t : Fin cfg2.N, (cfg2.win 2).flush t = true ∧ i ∈ ((cfg2.win 2).blk t).view.set := by
  have hN : cfg2.N = 10 := N_2
  have hia : (i 0).val < 10240 := (i 0).isLt
  have hib : (i 1).val < nc2 := (i 1).isLt
  refine ⟨⟨(i 0).val / 1024, by omega⟩, flush2_2 _, ?_⟩
  obtain ⟨-, -, -, -, ea, eb⟩ := idx_facts2 ⟨(i 0).val / 1024, by omega⟩
  rw [mem_blk2]
  intro a
  match a with
  | ⟨0, _⟩ => show win2_2.index _ 0 * 1024 ≤ (i 0).val ∧ (i 0).val < win2_2.index _ 0 * 1024 + 1024; rw [ea]; dsimp only; omega
  | ⟨1, _⟩ => show win2_2.index _ 1 * nc2 ≤ (i 1).val ∧ (i 1).val < win2_2.index _ 1 * nc2 + nc2; rw [eb]; omega

/-- The product array after the last point: the product of the two input arrays. -/
theorem final2_eq (c : Dev nD) : (dat2 (F := Ideal) V c).arrAt 2 cfg2.N = out2 V c :=
  (dat2 (F := Ideal) V c).arrAt_eq_of_cover 2 (out2 V c) (fun t _ => flushed_eq2 V c t) covered2

/-- The two input arrays at their literal types. -/
abbrev lhs2 (c : Dev nD) : Vec Ideal S10240x256 .bf16 := V c main_v55
abbrev rhs2 (c : Dev nD) : Vec Ideal S256x64 .bf16 := V c main_v49

/-- The same, index by index. -/
theorem final2 (c : Dev nD) (r : Fin 10240) (q : Fin nc2) :
    (dat2 (F := Ideal) V c).arrAt 2 cfg2.N (ix2 r q) = (∑ k : Fin 256, lhs2 V c (ix2 r k) * rhs2 V c (ix2 k q) : EReal) :=
  (congrFun (final2_eq V c) (ix2 r q)).trans (prod2_apply (V c main_v55) (V c main_v49) r q)

end Cert.KernelIdeal.Hand

end
-- ==== Proof.KI.Fin3.lean ====
/-
  How the second propagation finishes a row's total, over the extended reals: at a last column block the bias of the
  column is added and nothing else is done (`fin3`). The closing payload read at an entry is exactly that of the
  accumulator's entry and the bias row's entry in the same column (`k3_pay3_apply`): the bias row, one row high, is
  repeated down the 1024 rows of the block.
-/
import proofs.«422500_j8761733284692_1_alg».proof.Proof.Gen.KernelIdeal.Skeleton
import proofs.«422500_j8761733284692_1_alg».proof.Proof.Gen.KernelIdeal.Launch
import proofs.«422500_j8761733284692_1_alg».proof.Proof.Gen.KernelIdeal.Points
import proofs.«422500_j8761733284692_1_alg».proof.Proof.KI.Reg3
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open scoped BigOperators

local notation "𝕄" => MT nD τ sig Unit (Elt Ideal) ℕ (UR sig nD τ) ℕ

variable (V : (c : Dev nD) → (b : Ref sig .tc) → Buf (Elt Ideal) ((c : Thread nD τ).loc b))

/-- The number of feature columns of the second propagation. -/
abbrev nc3 : ℕ := 64

/-- What the last column block does with a row's total and the bias: add. -/
def fin3 (a b : EReal) : EReal := a + b

/-- The closing step at an entry: the total plus the bias of the column. -/
theorem k3_pay3_apply (a : Vec Ideal S1024x64 .f32) (b : Vec Ideal S1x64 .f32) (p : Fin 1024) (q : Fin nc3) :
    k3_pay3 (F := Ideal) a b (ix2 p q) = fin3 (a (ix2 p q)) (b (ix2 0 q)) := by
  unfold k3_pay3 fin3
  simp only [shapeCast_self]
  show a (ix2 p q) + broadcastTo S1024x64 b broadcasts_S1x64_S1024x64 (ix2 p q) = _
  rw [broadcastTo_apply b broadcasts_S1x64_S1024x64 (ix2 p q) (ix2 0 q) (fun d => by
    match d with
    | ⟨0, _⟩ => rfl
    | ⟨1, _⟩ => rfl)]

end Cert.KernelIdeal.Hand

end
-- ==== Proof.KI.Val3.lean ====
/-
  One propagation step, read entry by entry over the extended reals, where every operation is exact.
  Its fifty grid points run through ten row tiles of 1024 rows, and inside each through five column blocks of 2048
  columns: point `t` is row tile `t / 5`, column block `t % 5`. A point multiplies its 1024 × 2048 tile of the
  weights by the matching 2048 rows of the features and adds the product into an accumulator that a first column
  block starts again from zero; a last column block finishes the total with the bias row (`fin3`), and its output
  block is written back to rows [1024 (t / 5), 1024 (t / 5) + 1024) of the result.
  So entry `(r, q)` of the result is `fin3 (((((0 + B 0) + B 1) + B 2) + B 3) + B 4) (bias q)`, where `B k` is the
  sum over column block `k` of weight × feature (`blockSum3`, `final3`). The steps: the accumulating payload at an
  index (`k3_pay2_apply`; the closing one is stated with `fin3`); each window's block as entries of its array
  (`xblk3_apply`, `hblk3_apply`, `bblk3_apply`); the accumulator after every point, by induction on the point
  (`acc3_apply`); what a last column block writes back, as a row tile of one function of the arrays
  (`flushed3_eq`); every row is in some written-back tile (`cover3`).
-/
import proofs.«422500_j8761733284692_1_alg».proof.Proof.Gen.KernelIdeal.Skeleton
import proofs.«422500_j8761733284692_1_alg».proof.Proof.Gen.KernelIdeal.Launch
import proofs.«422500_j8761733284692_1_alg».proof.Proof.Gen.KernelIdeal.Points
import proofs.«422500_j8761733284692_1_alg».proof.Proof.KI.Reg3
import proofs.«422500_j8761733284692_1_alg».proof.Proof.KI.Fin3
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open scoped BigOperators

local notation "𝕄" => MT nD τ sig Unit (Elt Ideal) ℕ (UR sig nD τ) ℕ

variable (V : (c : Dev nD) → (b : Ref sig .tc) → Buf (Elt Ideal) ((c : Thread nD τ).loc b))

/-! ## The product's operand indices, axis by axis -/

theorem lhs_k3_0 (i : S1024x64.Idx) (k : dot_S1024x2048_S2048x64_S1024x64_1_0_0_1_n_n.contr.Idx) :
    (dot_S1024x2048_S2048x64_S1024x64_1_0_0_1_n_n.lhsIdx i k 0).val = (i 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
theorem lhs_k3_1 (i : S1024x64.Idx) (k : dot_S1024x2048_S2048x64_S1024x64_1_0_0_1_n_n.contr.Idx) :
    (dot_S1024x2048_S2048x64_S1024x64_1_0_0_1_n_n.lhsIdx i k 1).val = (k ⟨0, by decide⟩).val :=
  dot_S1024x2048_S2048x64_S1024x64_1_0_0_1_n_n.lhsIdx_val_of_single rfl i k
theorem rhs_k3_0 (i : S1024x64.Idx) (k : dot_S1024x2048_S2048x64_S1024x64_1_0_0_1_n_n.contr.Idx) :
    (dot_S1024x2048_S2048x64_S1024x64_1_0_0_1_n_n.rhsIdx i k 0).val = (k ⟨0, by decide⟩).val :=
  dot_S1024x2048_S2048x64_S1024x64_1_0_0_1_n_n.rhsIdx_val_of_single rfl i k
theorem rhs_k3_1 (i : S1024x64.Idx) (k : dot_S1024x2048_S2048x64_S1024x64_1_0_0_1_n_n.contr.Idx) :
    (dot_S1024x2048_S2048x64_S1024x64_1_0_0_1_n_n.rhsIdx i k 1).val = (i 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl

/-- The tile product into a zero accumulator, at row `p` and column `q` of the block: the sum over the 2048 contracted
    positions of the left tile's row entry times the right tile's column entry. -/
theorem matmul3_apply (x : FVec Ideal S1024x2048 .bf16) (h : FVec Ideal S2048x64 .bf16) (p : Fin 1024) (q : Fin nc3) :
    matmul (F := Ideal) dot_S1024x2048_S2048x64_S1024x64_1_0_0_1_n_n none x h (constant (F := Ideal) S1024x64 .f32 0x00000000#32) (ix2 p q)
      = ∑ j : Fin 2048, x (ix2 p j) * h (ix2 j q) := by
  simp only [matmul]
  rw [Ideal.matmul_constant_zero_apply, ← Equiv.sum_comp (contrEquiv1 dot_S1024x2048_S2048x64_S1024x64_1_0_0_1_n_n 2048 rfl rfl).symm]
  refine Finset.sum_congr rfl fun j _ => ?_
  have hk := contrEquiv1_symm_val dot_S1024x2048_S2048x64_S1024x64_1_0_0_1_n_n 2048 rfl rfl j
  have el : dot_S1024x2048_S2048x64_S1024x64_1_0_0_1_n_n.lhsIdx (ix2 p q) ((contrEquiv1 dot_S1024x2048_S2048x64_S1024x64_1_0_0_1_n_n 2048 rfl rfl).symm j) = ix2 p j := funext fun a => Fin.ext (by
    match a with
    | ⟨0, _⟩ => exact lhs_k3_0 _ _
    | ⟨1, _⟩ => exact (lhs_k3_1 _ _).trans hk)
  have er : dot_S1024x2048_S2048x64_S1024x64_1_0_0_1_n_n.rhsIdx (ix2 p q) ((contrEquiv1 dot_S1024x2048_S2048x64_S1024x64_1_0_0_1_n_n 2048 rfl rfl).symm j) = ix2 j q := funext fun a => Fin.ext (by
    match a with
    | ⟨0, _⟩ => exact (rhs_k3_0 _ _).trans hk
    | ⟨1, _⟩ => exact rhs_k3_1 _ _)
  rw [el, er]

/-- The accumulating step at an index: what was there, plus the tile product's entry. -/
theorem k3_pay2_apply (a : Vec Ideal S1024x64 .f32) (x : Vec Ideal S1024x2048 .bf16) (h : Vec Ideal S2048x64 .bf16) (p : Fin 1024) (q : Fin nc3) :
    k3_pay2 (F := Ideal) a x h (ix2 p q) = a (ix2 p q) + ∑ j : Fin 2048, x (ix2 p j) * h (ix2 j q) := by
  unfold k3_pay2
  simp only [shapeCast_self]
  exact congrArg (a (ix2 p q) + ·) (matmul3_apply x h p q)

/-- The reset value is zero everywhere. -/
theorem k3_pay1_apply (i : S1024x64.Idx) : k3_pay1 (F := Ideal) i = 0 := by
  unfold k3_pay1
  simp only [shapeCast_self]
  show Ideal.ofBits .f32 0x00000000#32 = 0
  exact Ideal.ofBits_zero_f32

/-! ## Where each window's block sits in its array -/

/-- The block-index maps at each of the fifty points: point `t` is row tile `t / 5`, column block `t % 5`.
    The weight tile moves with both, the feature rows with the column block, the bias row never, the output with the row tile. -/
theorem idx_facts3 : ∀ t : Fin cfg3.N,
    win3_0.index t (0 : Fin 2) = t.val / 5 ∧ win3_0.index t (1 : Fin 2) = t.val % 5
    ∧ win3_1.index t (0 : Fin 2) = t.val % 5 ∧ win3_1.index t (1 : Fin 2) = 0
    ∧ win3_2.index t (0 : Fin 2) = 0 ∧ win3_2.index t (1 : Fin 2) = 0
    ∧ win3_3.index t (0 : Fin 2) = t.val / 5 ∧ win3_3.index t (1 : Fin 2) = 0 :=
  (by decide +kernel : ∀ t : Fin grid3.N, _)

/-- The three arrays the propagation reads, each at its literal type: the dense weights, the features, the bias row. -/
abbrev wts3 (c : Dev nD) : S10240x10240.Idx → EReal := V c main_v45
abbrev feat3 (c : Dev nD) : S10240x64.Idx → EReal := V c main_v57
abbrev bias3 (c : Dev nD) : S1x64.Idx → EReal := V c main_v51

/-- The weight tile at point `t`, entry `(p, j)`: row `1024 (t / 5) + p`, column `2048 (t % 5) + j` of the weights. -/
theorem xblk3_apply (c : Dev nD) (t : Fin cfg3.N) (p : Fin 1024) (j : Fin 2048) (r s : Fin 10240)
    (hr : r.val = 1024 * (t.val / 5) + p.val) (hs : s.val = 2048 * (t.val % 5) + j.val) :
    (iblk3 V c 0 t : Vec Ideal S1024x2048 .bf16) (ix2 p j) = wts3 V c (ix2 r s) := by
  obtain ⟨e0, e1, -⟩ := idx_facts3 t
  unfold iblk3
  rw [View.read_apply]
  show V c main_v45 _ = V c main_v45 _
  congr 1
  funext a
  apply Fin.ext
  match a with
  | ⟨0, _⟩ => show win3_0.index t (0 : Fin 2) * 1024 + 1 * p.val = r.val; rw [e0, hr]; omega
  | ⟨1, _⟩ => show win3_0.index t (1 : Fin 2) * 2048 + 1 * j.val = s.val; rw [e1, hs]; omega

/-- The feature rows at point `t`, entry `(j, q)`: row `2048 (t % 5) + j`, column `q` of the features. -/
theorem hblk3_apply (c : Dev nD) (t : Fin cfg3.N) (j : Fin 2048) (q : Fin nc3) (s : Fin 10240)
    (hs : s.val = 2048 * (t.val % 5) + j.val) :
    (iblk3 V c 1 t : Vec Ideal S2048x64 .bf16) (ix2 j q) = feat3 V c (ix2 s q) := by
  obtain ⟨-, -, e2, e3, -⟩ := idx_facts3 t
  unfold iblk3
  rw [View.read_apply]
  show V c main_v57 _ = V c main_v57 _
  congr 1
  funext a
  apply Fin.ext
  match a with
  | ⟨0, _⟩ => show win3_1.index t (0 : Fin 2) * 2048 + 1 * j.val = s.val; rw [e2, hs]; omega
  | ⟨1, _⟩ => show win3_1.index t (1 : Fin 2) * 64 + 1 * q.val = q.val; rw [e3]; omega

/-- The bias block is the bias row itself at every point. -/
theorem bblk3_apply (c : Dev nD) (t : Fin cfg3.N) (q : Fin nc3) :
    (iblk3 V c 2 t : Vec Ideal S1x64 .f32) (ix2 0 q) = bias3 V c (ix2 0 q) := by
  obtain ⟨-, -, -, -, e4, e5, -⟩ := idx_facts3 t
  unfold iblk3
  rw [View.read_apply]
  show V c main_v51 _ = V c main_v51 _
  congr 1
  funext a
  apply Fin.ext
  match a with
  | ⟨0, _⟩ => show win3_2.index t (0 : Fin 2) * 1 + 1 * ((0 : Fin 1) : ℕ) = ((0 : Fin 1) : ℕ); rw [e4]; omega
  | ⟨1, _⟩ => show win3_2.index t (1 : Fin 2) * 64 + 1 * q.val = q.val; rw [e5]; omega

/-! ## A row's total, one column block at a time -/

/-- What column block `k` contributes to entry `(r, q)` of weights × features: the products over that block's 2048
    contracted positions. -/
def blockSum3 (c : Dev nD) (r : Fin 10240) (q : Fin nc3) (k : Fin 5) : EReal :=
  ∑ j : Fin 2048, wts3 V c (ix2 r ⟨2048 * k.val + j.val, by omega⟩) * feat3 V c (ix2 ⟨2048 * k.val + j.val, by omega⟩ q)

/-- The total of entry `(r, q)` after column blocks `0 … k`, in the order the grid takes them: from zero, one block's
    contribution added at a time. (Past the fifth block nothing is added; those values are never read.) -/
def partial3 (c : Dev nD) (r : Fin 10240) (q : Fin nc3) : ℕ → EReal
  | 0 => 0 + blockSum3 V c r q 0
  | k + 1 => partial3 c r q k + (if h : k + 1 < 5 then blockSum3 V c r q ⟨k + 1, h⟩ else 0)

theorem partial3_succ (c : Dev nD) (r : Fin 10240) (q : Fin nc3) (k : ℕ) (h : k + 1 < 5) :
    partial3 V c r q (k + 1) = partial3 V c r q k + blockSum3 V c r q ⟨k + 1, h⟩ := by
  show partial3 V c r q k + (if h : k + 1 < 5 then blockSum3 V c r q ⟨k + 1, h⟩ else 0) = _
  rw [dif_pos h]

/-- After all five blocks: the five contributions added to zero, first to last. -/
theorem partial3_last (c : Dev nD) (r : Fin 10240) (q : Fin nc3) :
    partial3 V c r q 4 = ((((0 + blockSum3 V c r q 0) + blockSum3 V c r q 1) + blockSum3 V c r q 2) + blockSum3 V c r q 3) + blockSum3 V c r q 4 := by
  rw [partial3_succ V c r q 3 (by decide), partial3_succ V c r q 2 (by decide), partial3_succ V c r q 1 (by decide),
    partial3_succ V c r q 0 (by decide)]
  rfl

/-- One point's step at an entry: whatever the accumulator held there, plus the contribution of the point's column block. -/
theorem step3_apply (c : Dev nD) (t : Fin cfg3.N) (a : Vec Ideal S1024x64 .f32) (p : Fin 1024) (q : Fin nc3) (r : Fin 10240)
    (hr : r.val = 1024 * (t.val / 5) + p.val) (k : Fin 5) (hk : k.val = t.val % 5) :
    k3_pay2 (F := Ideal) a (iblk3 V c 0 t) (iblk3 V c 1 t) (ix2 p q) = a (ix2 p q) + blockSum3 V c r q k := by
  refine (k3_pay2_apply a (iblk3 V c 0 t) (iblk3 V c 1 t) p q).trans ?_
  refine congrArg (a (ix2 p q) + ·) ?_
  unfold blockSum3
  refine Finset.sum_congr rfl fun j _ => ?_
  exact congrArg₂ (· * ·)
    (xblk3_apply V c t p j r ⟨2048 * k.val + j.val, by omega⟩ hr (by show 2048 * k.val + j.val = _; rw [hk]))
    (hblk3_apply V c t j q ⟨2048 * k.val + j.val, by omega⟩ (by show 2048 * k.val + j.val = _; rw [hk]))

/-- THE ACCUMULATOR, ENTRY BY ENTRY. After point `n` — row tile `n / 5`, column block `n % 5` — entry `(p, q)` holds the
    total of row `1024 (n / 5) + p` over the column blocks taken so far. By induction on the point: a first column block
    starts again from zero, any other adds to what the point before left, which is the same row tile one block earlier. -/
theorem acc3_apply (c : Dev nD) : ∀ (n : ℕ) (hn : n < cfg3.N) (p : Fin 1024) (q : Fin nc3) (r : Fin 10240),
    r.val = 1024 * (n / 5) + p.val → (outsAt3 V c n hn).2 (ix2 p q) = partial3 V c r q (n % 5)
  | 0, hn, p, q, r, hr => by
    refine (congrFun (scr3_first V c ⟨0, hn⟩ rfl) (ix2 p q)).trans ?_
    refine (step3_apply V c ⟨0, hn⟩ (k3_pay1 (F := Ideal)) p q r hr 0 rfl).trans ?_
    rw [k3_pay1_apply]
    rfl
  | n + 1, hn, p, q, r, hr => by
    by_cases h0 : (n + 1) % 5 = 0
    · refine (congrFun (scr3_first V c ⟨n + 1, hn⟩ h0) (ix2 p q)).trans ?_
      refine (step3_apply V c ⟨n + 1, hn⟩ (k3_pay1 (F := Ideal)) p q r hr 0 h0.symm).trans ?_
      rw [k3_pay1_apply, h0]
      rfl
    · have hm : (n + 1) % 5 = n % 5 + 1 := by omega
      have hlt : n % 5 + 1 < 5 := by omega
      have hr' : r.val = 1024 * (n / 5) + p.val := by rw [hr]; omega
      refine (congrFun (scr3_next V c ⟨n + 1, hn⟩ h0) (ix2 p q)).trans ?_
      refine (step3_apply V c ⟨n + 1, hn⟩ (outsAt3 V c (n + 1 - 1) (Nat.lt_of_le_of_lt (Nat.sub_le _ _) hn)).2 p q r hr ⟨n % 5 + 1, hlt⟩ hm.symm).trans ?_
      rw [hm, partial3_succ V c r q (n % 5) hlt]
      exact congrArg (· + blockSum3 V c r q ⟨n % 5 + 1, hlt⟩) (acc3_apply c n (Nat.lt_of_succ_lt hn) p q r hr')

/-! ## From the blocks to the output array -/

/-- Entry `(r, q)` of the output: the row's total over all five column blocks, finished by `fin3` with the column's bias. -/
def rowVal3 (c : Dev nD) (r : Fin 10240) (q : Fin nc3) : EReal := fin3 (partial3 V c r q 4) (bias3 V c (ix2 0 q))

/-- The whole output array as one function of the arrays the propagation reads. -/
abbrev G3 (c : Dev nD) : S10240x64.Idx → EReal := fun i => rowVal3 V c ⟨(i 0).val, idx2_lt0 i⟩ ⟨(i 1).val, idx2_lt1 i⟩

/-- The output block after a last column block, entry by entry. -/
theorem out3_apply (c : Dev nD) (t : Fin cfg3.N) (h4 : t.val % 5 = 4) (p : Fin 1024) (q : Fin nc3) (r : Fin 10240)
    (hr : r.val = 1024 * (t.val / 5) + p.val) :
    (outsAt3 V c t.val t.isLt).1 (ix2 p q) = rowVal3 V c r q := by
  refine (congrFun (out3_last V c t h4) (ix2 p q)).trans ?_
  refine (k3_pay3_apply (outsAt3 V c t.val t.isLt).2 (iblk3 V c 2 t) p q).trans ?_
  exact congrArg₂ fin3 ((acc3_apply V c t.val t.isLt p q r hr).trans (by rw [h4])) (bblk3_apply V c t q)

/-- WHAT A LAST COLUMN BLOCK WRITES BACK is its row tile of the output function. -/
theorem flushed3_eq (c : Dev nD) (t : Fin cfg3.N) (hf : (cfg3.win 3).flush t = true) :
    (dat3 V c).flushed 3 t = ((cfg3.win 3).blk t).view.read (Elt Ideal) (G3 V c) := by
  have h4 : t.val % 5 = 4 := (flush3_3 t).mp hf
  have hN : cfg3.N = 50 := N_3
  have ht : t.val < cfg3.N := t.isLt
  obtain ⟨-, -, -, -, -, -, e6, e7⟩ := idx_facts3 t
  show (cfg3.win 3).cut (grid3.coords t) ((dat3 V c).after 3 t) = _
  rw [after3_3]
  funext y
  rw [View.read_apply]
  have hy0 : (y 0).val < 1024 := (y 0).isLt
  have hy1 : (y 1).val < nc3 := (y 1).isLt
  have ey : (cfg3.win 3).xinj (grid3.coords t) y = ix2 (⟨(y 0).val, hy0⟩ : Fin 1024) (⟨(y 1).val, hy1⟩ : Fin nc3) :=
    funext fun a => match a with | ⟨0, _⟩ => rfl | ⟨1, _⟩ => rfl
  show (outsAt3 V c t.val t.isLt).1 ((cfg3.win 3).xinj (grid3.coords t) y) = G3 V c (((cfg3.win 3).blk t).view.emb y)
  rw [ey]
  refine (out3_apply V c t h4 ⟨(y 0).val, hy0⟩ ⟨(y 1).val, hy1⟩ ⟨1024 * (t.val / 5) + (y 0).val, by omega⟩ rfl).trans ?_
  show rowVal3 V c _ _ = rowVal3 V c _ _
  congr 1 <;> apply Fin.ext
  · show 1024 * (t.val / 5) + (y 0).val = win3_3.index t (0 : Fin 2) * 1024 + 1 * (y 0).val
    rw [e6]; omega
  · show (y 1).val = win3_3.index t (1 : Fin 2) * 64 + 1 * (y 1).val
    rw [e7]; omega

/-- An entry of the output array lies in point `t`'s block iff each coordinate lies in the block's range on its axis. -/
theorem mem_blk3 (t : Fin cfg3.N) (i : S10240x64.Idx) :
    i ∈ ((cfg3.win 3).blk t).view.set ↔ ∀ a : Fin 2, win3_3.index t a * S1024x64.size a ≤ (i a).val ∧ (i a).val < win3_3.index t a * S1024x64.size a + S1024x64.size a := by
  show i ∈ ((View.whole main_v58).slice (win3_3.rect t)).set ↔ _
  rw [View.set_slice_whole, Rect.mem_set_unit]
  exact Iff.rfl

/-- Every entry of the output array is written back: row `r` by the last column block of row tile `r / 1024`. -/
theorem cover3 (i : S10240x64.Idx) :
    ∃ t : Fin cfg3.N, (cfg3.win 3).flush t = true ∧ i ∈ ((cfg3.win 3).blk t).view.set := by
  have hi0 : (i 0).val < 10240 := (i 0).isLt
  have hi1 : (i 1).val < 64 := (i 1).isLt
  have hN : cfg3.N = 50 := N_3
  obtain ⟨t, tv⟩ : ∃ t : Fin cfg3.N, t.val = 5 * ((i 0).val / 1024) + 4 := ⟨⟨5 * ((i 0).val / 1024) + 4, by omega⟩, rfl⟩
  obtain ⟨-, -, -, -, -, -, e6, e7⟩ := idx_facts3 t
  refine ⟨t, (flush3_3 t).mpr (by omega), ?_⟩
  rw [mem_blk3]
  intro a
  match a with
  | ⟨0, _⟩ =>
    show win3_3.index t (0 : Fin 2) * 1024 ≤ (i 0).val ∧ (i 0).val < win3_3.index t (0 : Fin 2) * 1024 + 1024
    rw [e6]; omega
  | ⟨1, _⟩ =>
    show win3_3.index t (1 : Fin 2) * 64 ≤ (i 1).val ∧ (i 1).val < win3_3.index t (1 : Fin 2) * 64 + 64
    rw [e7]; omega

/-- THE OUTPUT ARRAY after the propagation, entry by entry: the five column blocks' contributions to the row, added to
    zero in the grid's order, and finished by `fin3` with the column's bias. -/
theorem final3 (c : Dev nD) (r : Fin 10240) (q : Fin nc3) :
    (dat3 (F := Ideal) V c).arrAt 3 cfg3.N (ix2 r q)
      = fin3 (((((0 + blockSum3 V c r q 0) + blockSum3 V c r q 1) + blockSum3 V c r q 2) + blockSum3 V c r q 3) + blockSum3 V c r q 4)
          (V c main_v51 (ix2 0 q)) := by
  refine (congrFun ((dat3 V c).arrAt_eq_of_cover 3 (G3 V c) (flushed3_eq V c) cover3) (ix2 r q)).trans ?_
  show fin3 (partial3 V c r q 4) (bias3 V c (ix2 0 q)) = _
  rw [partial3_last]

end Cert.KernelIdeal.Hand

end
-- ==== Proof.KI.Host.lean ====
/-
  What the host operations between the kernel regions leave in the buffers the regions read, entry by entry,
  over the extended reals.

  A change of float format is the identity there, so a converted buffer holds what its source held. The
  padded features hold the argument's rows and then 240 rows of zeros. A bias re-laid as a one-row matrix
  holds the bias entries along that row. The dense matrix built before the first region is not an output of
  any region and not a result of any later host operation, so both propagations read the same matrix.
  The result is the first 10000 rows of what the last region leaves.
-/
import proofs.«422500_j8761733284692_1_alg».proof.Proof.KI.Args
import Idealize.ShloMosaic.Lib.ValueIdx
import Idealize.ShloMosaic.Lib.ValueLayout
import Idealize.ShloMosaic.Lib.KernelVsHost
import Idealize.ShloMosaic.Lib.Pipeline.Value

set_option maxRecDepth 16384

noncomputable section

namespace Cert.KernelIdeal.Hand

open Idealize.ShloMosaic Idealize.ShloMosaic.TcCoe
open Idealize.ShloMosaic.ValueIdx
open Idealize.ShloMosaic.Pipeline (Dat Cfg Window)
open Cert.KernelIdeal Cert.KernelIdeal.Gen

/-! ## Each host result as its operation's value, from any contents and in any float semantics -/

section Steps

variable {F : FTy → Type} [FloatOps F]
variable (V : Valuation τ sig (Elt F))

/-- The narrow-format features are the padded features converted. -/
theorem after0_4_v47 : StableHlo.after hostOps0_4 V (Proc.devRef .tc main_v47)
    = truncf .bf16 (V (Proc.devRef .tc main_v46)) bitsLt_bf16_f32 := by
  after_results <;> rfl
/-- The narrow-format first weights are the first weights converted. -/
theorem after0_4_v48 : StableHlo.after hostOps0_4 V (Proc.devRef .tc main_v48)
    = truncf .bf16 (V (Proc.devRef .tc main_arg2)) bitsLt_bf16_f32 := by
  after_results <;> rfl
/-- The narrow-format second weights are the second weights converted. -/
theorem after0_4_v49 : StableHlo.after hostOps0_4 V (Proc.devRef .tc main_v49)
    = truncf .bf16 (V (Proc.devRef .tc main_arg4)) bitsLt_bf16_f32 := by
  after_results <;> rfl
/-- The first bias as a one-row matrix. -/
theorem after0_4_v50 : StableHlo.after hostOps0_4 V (Proc.devRef .tc main_v50)
    = shapeCast S1x256 (V (Proc.devRef .tc main_arg3) : (⟨S256, .f32⟩ : BufTy).Contents (Elt F)) shapeCasts_S256_S1x256 := by
  after_results <;> rfl
/-- The second bias as a one-row matrix. -/
theorem after0_4_v51 : StableHlo.after hostOps0_4 V (Proc.devRef .tc main_v51)
    = shapeCast S1x64 (V (Proc.devRef .tc main_arg5) : (⟨S64, .f32⟩ : BufTy).Contents (Elt F)) shapeCasts_S64_S1x64 := by
  after_results <;> rfl
/-- The padded features are the features padded below with the converted integer constant. -/
theorem after0_3_v46 : StableHlo.after hostOps0_3 V (Proc.devRef .tc main_v46)
    = pad S10240x256 ![0, 0] ![240, 0] ![0, 0] (V (Proc.devRef .tc main_arg0))
        (sitofp .f32 (V (Proc.devRef .tc main_c_11))) pads_S10000x256_S10240x256_02400_000 h_S_ := by
  after_results <;> rfl
/-- That integer constant is zero. -/
theorem after0_2_c11 : StableHlo.after hostOps0_2 V (Proc.devRef .tc main_c_11) = constantI S_ 32 0#32 := by
  after_results <;> rfl
/-- After each of the first three regions its product is converted to the narrow format. -/
theorem after1_v53 : StableHlo.after hostOps1 V (Proc.devRef .tc main_v53)
    = truncf .bf16 (V (Proc.devRef .tc main_v52)) bitsLt_bf16_f32 := by
  after_results <;> rfl
theorem after2_v55 : StableHlo.after hostOps2 V (Proc.devRef .tc main_v55)
    = truncf .bf16 (V (Proc.devRef .tc main_v54)) bitsLt_bf16_f32 := by
  after_results <;> rfl
theorem after3_v57 : StableHlo.after hostOps3 V (Proc.devRef .tc main_v57)
    = truncf .bf16 (V (Proc.devRef .tc main_v56)) bitsLt_bf16_f32 := by
  after_results <;> rfl
/-- The result is the first 10000 rows of the last region's output. -/
theorem after4_v59 : StableHlo.after hostOps4 V (Proc.devRef .tc main_v59)
    = extractStridedSlice S10000x64 ![0, 0] (V (Proc.devRef .tc main_v58)) slices_S10240x64_S10000x64_0_0 := by
  after_results <;> rfl

end Steps

/-! ## Buffers that reach a region untouched (any float semantics) -/

section Through

variable {F : FTy → Type} [FloatOps F]
variable (m : (ℓ : Loc nD τ sig) → Buf (Elt F) ℓ) (ρ : Dev nD → PrngReg)

/-- A buffer that is no result of the first three stretches still holds its launch contents after them, -/
theorem W3_launch (c : Dev nD) (r : Ref sig .tc) (h0 : r ∉ res0) (h1 : r ∉ res0_1) (h2 : r ∉ res0_2) :
    W3 m ρ c (Proc.devRef .tc r) = m ((c : Thread nD τ).loc r) :=
  (W3_of m ρ c r h2).trans <| (W2_of m ρ c r h1).trans <| (W1_of m ρ c r h0).trans rfl
/-- and after the fourth if it is no result of that one either. -/
theorem W4_launch (c : Dev nD) (r : Ref sig .tc) (h0 : r ∉ res0) (h1 : r ∉ res0_1) (h2 : r ∉ res0_2) (h3 : r ∉ res0_3) :
    W4 m ρ c (Proc.devRef .tc r) = m ((c : Thread nD τ).loc r) :=
  (W4_of m ρ c r h3).trans (W3_launch m ρ c r h0 h1 h2)

/-- The dense matrix made in the third stretch is no result of the two stretches after it, no array of the
    first region and not the result of the conversion after that region: the first propagation reads it as made. -/
theorem E1_v45 (c : Dev nD) : E1 m ρ c main_v45 = W3 m ρ c (Proc.devRef .tc main_v45) :=
  calc E1 m ρ c main_v45
      = W6 m ρ c (Proc.devRef .tc main_v45) := W7_of m ρ c main_v45 (by decide)
    _ = W5 m ρ c (Proc.devRef .tc main_v45) := W6_of_ne m ρ c main_v45 (by decide)
    _ = W4 m ρ c (Proc.devRef .tc main_v45) := W5_of m ρ c main_v45 (by decide)
    _ = W3 m ρ c (Proc.devRef .tc main_v45) := W4_of m ρ c main_v45 (by decide)

/-- The first propagation only reads the matrix (an input window's array is never written back), the second
    dense product does not touch it, and the conversions write other buffers: the second propagation reads it as made. -/
theorem E3_v45 (c : Dev nD) : E3 m ρ c main_v45 = W3 m ρ c (Proc.devRef .tc main_v45) :=
  calc E3 m ρ c main_v45
      = W10 m ρ c (Proc.devRef .tc main_v45) := W11_of m ρ c main_v45 (by decide)
    _ = W9 m ρ c (Proc.devRef .tc main_v45) := W10_of_ne m ρ c main_v45 (by decide)
    _ = W8 m ρ c (Proc.devRef .tc main_v45) := W9_of m ρ c main_v45 (by decide)
    _ = E1 m ρ c main_v45 :=
        (W8_arr m ρ c 0).trans (((dat1 (E1 m ρ) c).arrAt_in 0 rfl _).trans (A_eq1 (E1 m ρ) c 0))
    _ = W3 m ρ c (Proc.devRef .tc main_v45) := E1_v45 m ρ c

end Through

/-! ## Entries, over the extended reals -/

section PadRows
variable {α : Type}

/-- A 10000-row matrix padded below with 240 rows of one value: above row 10000 the matrix, from there on the value. -/
theorem pad_rows_apply (x : S10000x256.Idx → α) {u : Shape} (v : u.Idx → α) (hu : 0 < u.numel) (r : Fin 10240) (k : Fin 256) :
    pad S10240x256 ![0, 0] ![240, 0] ![0, 0] x v pads_S10000x256_S10240x256_02400_000 hu (ix2 r k)
      = if h : r.val < 10000 then x (ix2 ⟨r.val, h⟩ k) else v (Shape.Idx.first hu) := by
  by_cases h : r.val < 10000
  · rw [dif_pos h]
    exact pad_apply_of_inside _ _ _ x v _ hu (ix2 r k) (ix2 ⟨r.val, h⟩ k) fun a => match a with
      | ⟨0, _⟩ => by show r.val = 0 + r.val * (0 + 1); omega
      | ⟨1, _⟩ => by show k.val = 0 + k.val * (0 + 1); omega
  · rw [dif_neg h]
    refine pad_apply_of_not_inside _ _ _ x v _ hu (ix2 r k) (0 : Fin 2) fun hin => h ?_
    have h3 : (r.val - 0) / (0 + 1) < 10000 := hin.2.2
    omega

end PadRows

section AtIdeal

variable (m : (ℓ : Loc nD τ sig) → Buf (Elt Ideal) ℓ) (ρ : Dev nD → PrngReg)

/-- The integer zero converted to a real is zero. -/
theorem sitofp_zero_apply (i : S_.Idx) : (sitofp .f32 (constantI S_ 32 0#32) : FVec Ideal S_ .f32) i = 0 := by
  show (((0#32 : BitVec 32).toInt : ℝ) : EReal) = 0
  simp

/-- The first region's left factor: the features' rows, then 240 rows of zeros. -/
theorem E0_v47 (c : Dev nD) (r : Fin 10240) (k : Fin 256) :
    E0 m ρ c main_v47 (ix2 r k)
      = if h : r.val < 10000 then m ((c : Thread nD τ).loc main_arg0) (ix2 ⟨r.val, h⟩ k) else (0 : EReal) :=
  calc E0 m ρ c main_v47 (ix2 r k)
      = W4 m ρ c (Proc.devRef .tc main_v46) (ix2 r k) := congrFun (after0_4_v47 (W4 m ρ c)) (ix2 r k)
    _ = if h : r.val < 10000 then W3 m ρ c (Proc.devRef .tc main_arg0) (ix2 ⟨r.val, h⟩ k)
          else (sitofp .f32 (W3 m ρ c (Proc.devRef .tc main_c_11) : IVec S_ 32) : FVec Ideal S_ .f32) (Shape.Idx.first h_S_) :=
        (congrFun (after0_3_v46 (W3 m ρ c)) (ix2 r k)).trans (pad_rows_apply (α := EReal) _ _ h_S_ r k)
    _ = if h : r.val < 10000 then m ((c : Thread nD τ).loc main_arg0) (ix2 ⟨r.val, h⟩ k) else (0 : EReal) := by
        rw [show W3 m ρ c (Proc.devRef .tc main_c_11) = constantI S_ 32 0#32 from after0_2_c11 (W2 m ρ c),
          sitofp_zero_apply, W3_launch m ρ c main_arg0 (by decide) (by decide) (by decide)]

/-- The first region's right factor: the first weights. -/
theorem E0_v48 (c : Dev nD) (k q : Fin 256) :
    E0 m ρ c main_v48 (ix2 k q) = m ((c : Thread nD τ).loc main_arg2) (ix2 k q) :=
  calc E0 m ρ c main_v48 (ix2 k q)
      = W4 m ρ c (Proc.devRef .tc main_arg2) (ix2 k q) := congrFun (after0_4_v48 (W4 m ρ c)) (ix2 k q)
    _ = m ((c : Thread nD τ).loc main_arg2) (ix2 k q) :=
        congrFun (W4_launch m ρ c main_arg2 (by decide) (by decide) (by decide) (by decide)) (ix2 k q)

/-- The first propagation's right factor: the first product, its format changed. -/
theorem E1_v53 (c : Dev nD) (r : Fin 10240) (q : Fin 256) :
    E1 m ρ c main_v53 (ix2 r q) = (dat0 (E0 m ρ) c).arrAt 2 cfg0.N (ix2 r q) :=
  calc E1 m ρ c main_v53 (ix2 r q)
      = W6 m ρ c (Proc.devRef .tc main_v52) (ix2 r q) := congrFun (after1_v53 (W6 m ρ c)) (ix2 r q)
    _ = (dat0 (E0 m ρ) c).arrAt 2 cfg0.N (ix2 r q) := congrFun (W6_arr m ρ c 2) (ix2 r q)

/-- The first propagation's bias row: the first bias. -/
theorem E1_v50 (c : Dev nD) (q : Fin 256) :
    E1 m ρ c main_v50 (ix2 0 q) = m ((c : Thread nD τ).loc main_arg3) (ix1 q) :=
  calc E1 m ρ c main_v50 (ix2 0 q)
      = W6 m ρ c (Proc.devRef .tc main_v50) (ix2 0 q) := congrFun (W7_of m ρ c main_v50 (by decide)) (ix2 0 q)
    _ = W5 m ρ c (Proc.devRef .tc main_v50) (ix2 0 q) := congrFun (W6_of_ne m ρ c main_v50 (by decide)) (ix2 0 q)
    _ = shapeCast S1x256 (W4 m ρ c (Proc.devRef .tc main_arg3) : (⟨S256, .f32⟩ : BufTy).Contents (Elt Ideal))
          shapeCasts_S256_S1x256 (ix2 0 q) := congrFun (after0_4_v50 (W4 m ρ c)) (ix2 0 q)
    _ = W4 m ρ c (Proc.devRef .tc main_arg3) (ix1 q) := shapeCast_a_1a_apply _ _ 0 q
    _ = m ((c : Thread nD τ).loc main_arg3) (ix1 q) :=
        congrFun (W4_launch m ρ c main_arg3 (by decide) (by decide) (by decide) (by decide)) (ix1 q)

/-- The result: the first 10000 rows of what the second propagation leaves. -/
theorem W13_v59 (c : Dev nD) (r : Fin 10000) (q : Fin 64) :
    W13 m ρ c (Proc.devRef .tc main_v59) (ix2 r q) = (dat3 (E3 m ρ) c).arrAt 3 cfg3.N (ix2 ⟨r.val, by omega⟩ q) :=
  calc W13 m ρ c (Proc.devRef .tc main_v59) (ix2 r q)
      = extractStridedSlice S10000x64 ![0, 0] (W12 m ρ c (Proc.devRef .tc main_v58)) slices_S10240x64_S10000x64_0_0 (ix2 r q) :=
        congrFun (after4_v59 (W12 m ρ c)) (ix2 r q)
    _ = W12 m ρ c (Proc.devRef .tc main_v58) (ix2 ⟨r.val, by omega⟩ q) :=
        extractStridedSlice_apply _ _ _ (ix2 r q) (ix2 ⟨r.val, by omega⟩ q) fun a => match a with
          | ⟨0, _⟩ => by show r.val = 0 + r.val; omega
          | ⟨1, _⟩ => by show q.val = 0 + q.val; omega
    _ = (dat3 (E3 m ρ) c).arrAt 3 cfg3.N (ix2 ⟨r.val, by omega⟩ q) := congrFun (W12_arr m ρ c 3) _

/-- The second dense product's left factor: the first propagation's output, its format changed. -/
theorem E2_v55 (c : Dev nD) (r : Fin 10240) (q : Fin 256) :
    E2 m ρ c main_v55 (ix2 r q) = (dat1 (E1 m ρ) c).arrAt 3 cfg1.N (ix2 r q) :=
  calc E2 m ρ c main_v55 (ix2 r q)
      = W8 m ρ c (Proc.devRef .tc main_v54) (ix2 r q) := congrFun (after2_v55 (W8 m ρ c)) (ix2 r q)
    _ = (dat1 (E1 m ρ) c).arrAt 3 cfg1.N (ix2 r q) := congrFun (W8_arr m ρ c 3) (ix2 r q)

/-- The second dense product's right factor: the second weights. -/
theorem E2_v49 (c : Dev nD) (k : Fin 256) (q : Fin 64) :
    E2 m ρ c main_v49 (ix2 k q) = m ((c : Thread nD τ).loc main_arg4) (ix2 k q) :=
  calc E2 m ρ c main_v49 (ix2 k q)
      = W8 m ρ c (Proc.devRef .tc main_v49) (ix2 k q) := congrFun (W9_of m ρ c main_v49 (by decide)) (ix2 k q)
    _ = W7 m ρ c (Proc.devRef .tc main_v49) (ix2 k q) := congrFun (W8_of_ne m ρ c main_v49 (by decide)) (ix2 k q)
    _ = W6 m ρ c (Proc.devRef .tc main_v49) (ix2 k q) := congrFun (W7_of m ρ c main_v49 (by decide)) (ix2 k q)
    _ = W5 m ρ c (Proc.devRef .tc main_v49) (ix2 k q) := congrFun (W6_of_ne m ρ c main_v49 (by decide)) (ix2 k q)
    _ = W4 m ρ c (Proc.devRef .tc main_arg4) (ix2 k q) := congrFun (after0_4_v49 (W4 m ρ c)) (ix2 k q)
    _ = m ((c : Thread nD τ).loc main_arg4) (ix2 k q) :=
        congrFun (W4_launch m ρ c main_arg4 (by decide) (by decide) (by decide) (by decide)) (ix2 k q)

/-- The second propagation's right factor: the second product, its format changed. -/
theorem E3_v57 (c : Dev nD) (r : Fin 10240) (q : Fin 64) :
    E3 m ρ c main_v57 (ix2 r q) = (dat2 (E2 m ρ) c).arrAt 2 cfg2.N (ix2 r q) :=
  calc E3 m ρ c main_v57 (ix2 r q)
      = W10 m ρ c (Proc.devRef .tc main_v56) (ix2 r q) := congrFun (after3_v57 (W10 m ρ c)) (ix2 r q)
    _ = (dat2 (E2 m ρ) c).arrAt 2 cfg2.N (ix2 r q) := congrFun (W10_arr m ρ c 2) (ix2 r q)

/-- The second propagation's bias row: the second bias. -/
theorem E3_v51 (c : Dev nD) (q : Fin 64) :
    E3 m ρ c main_v51 (ix2 0 q) = m ((c : Thread nD τ).loc main_arg5) (ix1 q) :=
  calc E3 m ρ c main_v51 (ix2 0 q)
      = W10 m ρ c (Proc.devRef .tc main_v51) (ix2 0 q) := congrFun (W11_of m ρ c main_v51 (by decide)) (ix2 0 q)
    _ = W9 m ρ c (Proc.devRef .tc main_v51) (ix2 0 q) := congrFun (W10_of_ne m ρ c main_v51 (by decide)) (ix2 0 q)
    _ = W8 m ρ c (Proc.devRef .tc main_v51) (ix2 0 q) := congrFun (W9_of m ρ c main_v51 (by decide)) (ix2 0 q)
    _ = W7 m ρ c (Proc.devRef .tc main_v51) (ix2 0 q) := congrFun (W8_of_ne m ρ c main_v51 (by decide)) (ix2 0 q)
    _ = W6 m ρ c (Proc.devRef .tc main_v51) (ix2 0 q) := congrFun (W7_of m ρ c main_v51 (by decide)) (ix2 0 q)
    _ = W5 m ρ c (Proc.devRef .tc main_v51) (ix2 0 q) := congrFun (W6_of_ne m ρ c main_v51 (by decide)) (ix2 0 q)
    _ = shapeCast S1x64 (W4 m ρ c (Proc.devRef .tc main_arg5) : (⟨S64, .f32⟩ : BufTy).Contents (Elt Ideal))
          shapeCasts_S64_S1x64 (ix2 0 q) := congrFun (after0_4_v51 (W4 m ρ c)) (ix2 0 q)
    _ = W4 m ρ c (Proc.devRef .tc main_arg5) (ix1 q) := shapeCast_a_1a_apply _ _ 0 q
    _ = m ((c : Thread nD τ).loc main_arg5) (ix1 q) :=
        congrFun (W4_launch m ρ c main_arg5 (by decide) (by decide) (by decide) (by decide)) (ix1 q)

end AtIdeal

end Cert.KernelIdeal.Hand

end
-- ==== Proof.LibTake.lean ====
/-
  Row takes and index scatters, read at one index, for any extents.

  jnp's `h[src]` over a matrix takes whole rows: result row `e` is the operand's row named by the `e`-th start
  index, that index read as a signed integer and clamped into the operand's rows. jnp's `segment_sum` and
  `A.at[dst, src].add(v)` go the other way: update `e` is sent to the operand position its scatter index names,
  the index read as a signed integer and NOT clamped, so that an update whose position falls outside the
  operand lands nowhere.

  Both are instances of general gather and scatter index arithmetic, in which an operand position is, axis by
  axis, a start (read off the index array) plus a coordinate inside a window. For the shapes below that
  arithmetic collapses: every window has extent one along the indexed axes, so the position along an indexed
  axis is the start alone, and along a window axis it is the update's (or result's) own coordinate.

  Each statement takes an arbitrary record of dimension numbers whose lists are given by hypotheses, so that it
  applies to any record with those lists, whatever its name; at a record written out in full each hypothesis
  holds by `rfl`. The proofs first replace the record by the one with the lists written out, after which every
  position lookup in those short lists computes.
-/
import Idealize.ShloMosaic.Lib.ValueIdx
import Idealize.ShloMosaic.PureOps.ShapeOps

namespace Cert.LibTake

open Idealize.ShloMosaic Idealize.ShloMosaic.ValueIdx

/-! ## Where an update lands, axis by axis -/

/-- An update lands at operand position `i` exactly when, on every axis, its start plus its window coordinate
    IS `i`'s coordinate, as integers. (The landing position exists only when start plus window coordinate is in
    range on every axis; an integer equal to a coordinate of `i` is in range, and conversely the landing
    position's coordinates are those sums.) -/
theorem resultIdx?_eq_some_iff {s si u : Shape} {w : Nat} (d : ScatterDims s si u) (j : u.Idx) (idx : IVec si w)
    (i : s.Idx) :
    d.resultIdx? j idx = some i ↔ ∀ a, d.start j idx a + (d.window j a : ℤ) = ((i a).val : ℤ) := by
  unfold ScatterDims.resultIdx?
  by_cases h : ∀ a, 0 ≤ d.start j idx a + d.window j a ∧ d.start j idx a + d.window j a < s.size a
  · -- in range on every axis: the landing position has the sums as coordinates
    rw [dif_pos h]
    constructor
    · intro hi a
      have h1 := congrArg Fin.val (congrFun (Option.some.inj hi) a)
      have h2 := (h a).1
      simp only at h1
      omega
    · intro hi
      congr 1
      funext a
      apply Fin.ext
      show (d.start j idx a + d.window j a).toNat = (i a).val
      rw [hi a]
      exact Int.toNat_natCast _
  · -- out of range on some axis: no landing position, and no `i` can have the sums as coordinates
    rw [dif_neg h]
    constructor
    · intro hi
      cases hi
    · intro hi
      refine absurd (fun a => ?_) h
      rw [hi a]
      exact ⟨Int.natCast_nonneg _, by exact_mod_cast (i a).isLt⟩

/-! ## Scatters -/

/-- `A.at[dst, src].add(v)` for a matrix `A : [N, K]`, `M` index pairs `[M, 2]` and `M` scalar updates: update
    `e` HITS entry `(r, k)` exactly when its index pair, read signed, is `(r, k)`. Both operand axes are indexed
    and there is no window, so the position on axis `c` is component `c` of the pair; a pair with a negative or
    too large component hits nothing. -/
theorem scatter_pair_hits {N K M w : Nat} (d : ScatterDims ⟨2, ![N, K]⟩ ⟨2, ![M, 2]⟩ ⟨1, ![M]⟩)
    (huw : d.updateWindowDims = []) (hiw : d.insertedWindowDims = [0, 1])
    (hsd : d.scatterDimsToOperandDims = [0, 1]) (hivd : d.indexVectorDim = 1)
    (idx : IVec ⟨2, ![M, 2]⟩ w) (e : Fin M) (r : Fin N) (k : Fin K) :
    d.resultIdx? (ix1 e) idx = some (ix2 r k) ↔
      (idx (ix2 e (0 : Fin 2))).toInt = (r.val : ℤ) ∧ (idx (ix2 e (1 : Fin 2))).toInt = (k.val : ℤ) := by
  obtain ⟨uw, iw, sd, iv, wf⟩ := d
  dsimp only at huw hiw hsd hivd
  subst huw hiw hsd hivd
  rw [resultIdx?_eq_some_iff, Fin.forall_fin_two]
  generalize hd : (ScatterDims.mk [] [0, 1] [0, 1] 1 wf : ScatterDims ⟨2, ![N, K]⟩ ⟨2, ![M, 2]⟩ ⟨1, ![M]⟩) = d
  -- no operand axis is kept for a window: the window coordinate is 0 on both
  have hw0 : d.window (ix1 e) 0 = 0 := by subst hd; rfl
  have hw1 : d.window (ix1 e) 1 = 0 := by subst hd; rfl
  -- axis `c` is indexed by component `c` of update `e`'s pair: row `e`, column `c` of the index array
  have hs : ∀ c : Fin 2, d.start (ix1 e) idx c = (idx (ix2 e c)).toInt := by
    subst hd
    intro c
    unfold ScatterDims.start
    rw [dif_pos (by fin_cases c <;> simp)]
    refine congrArg (fun z => (idx z).toInt) ?_
    funext b
    refine Fin.ext ?_
    match b with
    | ⟨0, _⟩ => rfl
    | ⟨1, _⟩ => fin_cases c <;> rfl
  rw [hw0, hw1, hs 0, hs 1]
  simp only [Nat.cast_zero, add_zero]

/-- `segment_sum` of a vector: an operand `[N]`, `M` scatter indices kept as a column `[M, 1]` and `M` scalar
    updates. Update `e` HITS entry `r` exactly when its index, read signed, is `r`; a negative index or one
    from `N` on hits nothing. -/
theorem scatter_vec_hits {N M w : Nat} (d : ScatterDims ⟨1, ![N]⟩ ⟨2, ![M, 1]⟩ ⟨1, ![M]⟩)
    (huw : d.updateWindowDims = []) (hiw : d.insertedWindowDims = [0])
    (hsd : d.scatterDimsToOperandDims = [0]) (hivd : d.indexVectorDim = 1)
    (idx : IVec ⟨2, ![M, 1]⟩ w) (e : Fin M) (r : Fin N) :
    d.resultIdx? (ix1 e) idx = some (ix1 r) ↔ (idx (ix2 e (0 : Fin 1))).toInt = (r.val : ℤ) := by
  obtain ⟨uw, iw, sd, iv, wf⟩ := d
  dsimp only at huw hiw hsd hivd
  subst huw hiw hsd hivd
  rw [resultIdx?_eq_some_iff, Fin.forall_fin_one]
  generalize hd : (ScatterDims.mk [] [0] [0] 1 wf : ScatterDims ⟨1, ![N]⟩ ⟨2, ![M, 1]⟩ ⟨1, ![M]⟩) = d
  -- the operand's one axis is indexed, not a window axis
  have hw0 : d.window (ix1 e) 0 = 0 := by subst hd; rfl
  -- and its start is the one component of update `e`'s index: row `e` of the column
  have hs : d.start (ix1 e) idx 0 = (idx (ix2 e (0 : Fin 1))).toInt := by
    subst hd
    unfold ScatterDims.start
    rw [dif_pos (by simp)]
    refine congrArg (fun z => (idx z).toInt) ?_
    funext b
    refine Fin.ext ?_
    match b with
    | ⟨0, _⟩ => rfl
    | ⟨1, _⟩ => rfl
  rw [hw0, hs]
  simp only [Nat.cast_zero, add_zero]

/-- `segment_sum` of rows: an operand `[N, D]`, `M` scatter indices kept as a column `[M, 1]` and `M` update
    rows `[M, D]`. Entry `(e, j)` of the updates HITS entry `(r, j')` of the operand exactly when row `e`'s index,
    read signed, is `r`, and the column is the same: the row axis is indexed, the column axis is a full-width
    window starting at 0, so a column goes to itself. -/
theorem scatter_rows_hits {N D M w : Nat} (d : ScatterDims ⟨2, ![N, D]⟩ ⟨2, ![M, 1]⟩ ⟨2, ![M, D]⟩)
    (huw : d.updateWindowDims = [1]) (hiw : d.insertedWindowDims = [0])
    (hsd : d.scatterDimsToOperandDims = [0]) (hivd : d.indexVectorDim = 1)
    (idx : IVec ⟨2, ![M, 1]⟩ w) (e : Fin M) (j j' : Fin D) (r : Fin N) :
    d.resultIdx? (ix2 e j) idx = some (ix2 r j') ↔ (idx (ix2 e (0 : Fin 1))).toInt = (r.val : ℤ) ∧ j = j' := by
  obtain ⟨uw, iw, sd, iv, wf⟩ := d
  dsimp only at huw hiw hsd hivd
  subst huw hiw hsd hivd
  rw [resultIdx?_eq_some_iff, Fin.forall_fin_two]
  generalize hd : (ScatterDims.mk [1] [0] [0] 1 wf : ScatterDims ⟨2, ![N, D]⟩ ⟨2, ![M, 1]⟩ ⟨2, ![M, D]⟩) = d
  -- rows: indexed, no window coordinate; columns: not indexed (start 0), the window coordinate is the column
  have hw0 : d.window (ix2 e j) 0 = 0 := by subst hd; rfl
  have hw1 : d.window (ix2 e j) 1 = j.val := by subst hd; rfl
  have hs1 : d.start (ix2 e j) idx 1 = 0 := by subst hd; rfl
  have hs : d.start (ix2 e j) idx 0 = (idx (ix2 e (0 : Fin 1))).toInt := by
    subst hd
    unfold ScatterDims.start
    rw [dif_pos (by simp)]
    refine congrArg (fun z => (idx z).toInt) ?_
    funext b
    refine Fin.ext ?_
    match b with
    | ⟨0, _⟩ => rfl
    | ⟨1, _⟩ => rfl
  rw [hw0, hw1, hs1, hs]
  simp only [Nat.cast_zero, add_zero, zero_add, Nat.cast_inj, Fin.val_inj]

/-! ## The row take -/

/-- jnp's `h[src]` for a matrix `h : [N, D]` with at least one row and `M` start indices kept as a column
    `[M, 1]`: entry `(e, j)` of the result READS `h` at row `src e` — that index read signed and clamped into
    `[0, N − 1]`, so a negative index reads row 0 and one past the end reads the last row — and column `j`. The
    row axis is collapsed (a slice of one row, placed at the clamped start), the column axis is taken whole
    (slice size `D`, so its start clamps to 0 and the offset is the result's column). -/
theorem gather_rows {α : Type} {N D M w : Nat} (d : GatherDims ⟨2, ![N, D]⟩ ⟨2, ![M, 1]⟩ ⟨2, ![M, D]⟩)
    (hod : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, D]) (hN : 0 < N)
    (x : (⟨2, ![N, D]⟩ : Shape).Idx → α) (idx : IVec ⟨2, ![M, 1]⟩ w) (e : Fin M) (j : Fin D) :
    Host.gather d x idx (ix2 e j) =
      x (ix2 ⟨min (idx (ix2 e (0 : Fin 1))).toInt.toNat (N - 1), by omega⟩ j) := by
  obtain ⟨od, cd, ob, sb, sm, iv, ss, wf⟩ := d
  dsimp only at hod hcoll hob hsb hsim hivd hss
  subst hod hcoll hob hsb hsim hivd hss
  unfold Host.gather
  refine congrArg x ?_
  generalize hd : (GatherDims.mk [1] [0] [] [] [0] 1 ![1, D] wf :
    GatherDims ⟨2, ![N, D]⟩ ⟨2, ![M, 1]⟩ ⟨2, ![M, D]⟩) = d
  -- no batching axes
  have hb : ∀ a, d.batchCoord (ix2 e j) a = 0 := fun a =>
    d.batchCoord_eq_zero _ a (by subst hd; exact List.not_mem_nil)
  -- rows are collapsed (no offset); columns carry the result's column as offset and are not start-indexed
  have ho0 : d.offCoord (ix2 e j) 0 = 0 := by subst hd; rfl
  have ho1 : d.offCoord (ix2 e j) 1 = j.val := by subst hd; rfl
  have hs1 : d.start (ix2 e j) idx 1 = 0 := by subst hd; rfl
  -- the row start: result row `e`'s start index, clamped to the last place a one-row slice fits, `N − 1`
  have hs0 : d.start (ix2 e j) idx 0 = min (idx (ix2 e (0 : Fin 1))).toInt.toNat (N - 1) := by
    subst hd
    unfold GatherDims.start
    rw [dif_pos (by simp)]
    refine congrArg (fun z => min (idx z).toInt.toNat (N - 1)) ?_
    funext b
    refine Fin.ext ?_
    match b with
    | ⟨0, _⟩ => rfl
    | ⟨1, _⟩ => rfl
  have key : ∀ a, d.start (ix2 e j) idx a + d.batchCoord (ix2 e j) a + d.offCoord (ix2 e j) a =
      ((ix2 (⟨min (idx (ix2 e (0 : Fin 1))).toInt.toNat (N - 1), by omega⟩ : Fin N) j :
        (⟨2, ![N, D]⟩ : Shape).Idx) a).val := by
    rw [Fin.forall_fin_two]
    constructor
    · rw [hs0, hb, ho0]; rfl
    · rw [hs1, hb, ho1, Nat.add_zero, Nat.zero_add]
  funext a
  exact Fin.ext (key a)

end Cert.LibTake
-- ==== Proof.Spec.lean ====
/-
  Two rounds of graph propagation, in the two arrangements the programs compute them in.

  The graph has 10000 nodes and 330000 directed edges (the given ones followed by one self loop per
  node); edge `e` goes from node `s e` to node `d e` and carries a weight `nrm e ≥ 0`. One round
  takes a feature matrix `H` to the matrix whose row `r` is the weighted sum, over the edges arriving
  at `r`, of the rows of `H` they start from.

  * Edge by edge (`propEdges`): the sum over the edges `e` with `d e = r` of `H (s e) c * nrm e`.
  * Densely (`propDense`): first the 10240 × 10240 matrix `adj` whose entry (r, j) is the total weight
    of the edges from `j` to `r` (rows and columns from 10000 on are empty), then row `r` of `adj`
    against column `c` of `H`, five blocks of 2048 columns at a time, each block's partial sum added
    to the running total in order, starting from zero.

  They agree (`propDense_eq`) because a sum of non-negative extended reals distributes over a product
  whatever the other factor is, so that `adj r j * H j c` is the sum of `nrm e * H j c` over the edges
  from `j` to `r`, and summing over `j` collects every edge arriving at `r` exactly once.
-/
import Mathlib.Data.EReal.Operations
import Mathlib.Algebra.BigOperators.Fin
import Mathlib.Algebra.Order.BigOperators.Group.Finset

noncomputable section

namespace Cert.Spec

open scoped BigOperators

/-- A matrix product with exact sums. -/
def matMul {n k m : ℕ} (X : Fin n → Fin k → EReal) (W : Fin k → Fin m → EReal) (r : Fin n) (c : Fin m) : EReal :=
  ∑ q : Fin k, X r q * W q c

variable (s d : Fin 330000 → Fin 10000) (nrm : Fin 330000 → EReal)

/-- One round, edge by edge: row `r` collects `H (s e) * nrm e` over the edges arriving at `r`. -/
def propEdges {D : ℕ} (H : Fin 10000 → Fin D → EReal) (r : Fin 10000) (c : Fin D) : EReal :=
  0 + ∑ e ∈ Finset.univ.filter (fun e => d e = r), H (s e) c * nrm e

/-- The dense weight matrix: entry (r, j) is the total weight of the edges from `j` to `r`. -/
def adj (r j : Fin 10240) : EReal :=
  0 + ∑ e ∈ Finset.univ.filter (fun e => (d e).val = r.val ∧ (s e).val = j.val), nrm e

/-- Column `2048 k + q` of the dense matrix's 10240 columns. -/
def colOf (k : Fin 5) (q : Fin 2048) : Fin 10240 := ⟨2048 * k.val + q.val, by omega⟩

/-- Row `r` of the dense matrix against column `c` of `H`, over the `k`-th block of 2048 columns. -/
def blockDot {D : ℕ} (H : Fin 10240 → Fin D → EReal) (r : Fin 10240) (c : Fin D) (k : Fin 5) : EReal :=
  ∑ q : Fin 2048, adj s d nrm r (colOf k q) * H (colOf k q) c

/-- One round, densely: the five block sums added in order to a running total that starts at zero. -/
def propDense {D : ℕ} (H : Fin 10240 → Fin D → EReal) (r : Fin 10240) (c : Fin D) : EReal :=
  ((((0 + blockDot s d nrm H r c 0) + blockDot s d nrm H r c 1) + blockDot s d nrm H r c 2)
    + blockDot s d nrm H r c 3) + blockDot s d nrm H r c 4

/-- A finite sum of non-negative extended reals, times any factor at all, is the sum of the products:
    two non-negative terms distribute over a product whatever its sign or size, and a partial sum of
    non-negative terms is again non-negative, so the terms can be peeled off one at a time. -/
theorem sum_mul_of_nonneg {ι : Type*} (S : Finset ι) (a : ι → EReal) (c : EReal)
    (ha : ∀ e ∈ S, 0 ≤ a e) : (∑ e ∈ S, a e) * c = ∑ e ∈ S, a e * c := by
  classical
  induction S using Finset.induction_on with
  | empty => simp
  | insert x T hx ih =>
    rw [Finset.sum_insert hx, Finset.sum_insert hx,
      EReal.right_distrib_of_nonneg (ha x (Finset.mem_insert_self x T))
        (Finset.sum_nonneg fun e he => ha e (Finset.mem_insert_of_mem he)),
      ih fun e he => ha e (Finset.mem_insert_of_mem he)]

/-- Place q of block k is column 2048 k + q; quotient and remainder by 2048 lead back. -/
def colEquiv : Fin 5 × Fin 2048 ≃ Fin 10240 where
  toFun p := colOf p.1 p.2
  invFun j := (⟨j.val / 2048, by omega⟩, ⟨j.val % 2048, by omega⟩)
  left_inv p := by
    rcases p with ⟨k, q⟩
    ext <;> simp only [colOf] <;> omega
  right_inv j := by
    ext
    simp only [colOf]
    omega

/-- Summing block by block over the five blocks of 2048 columns is summing over all 10240 columns. -/
theorem sum_blocks {M : Type*} [AddCommMonoid M] (f : Fin 10240 → M) :
    ∑ k : Fin 5, ∑ q : Fin 2048, f (colOf k q) = ∑ j : Fin 10240, f j :=
  calc ∑ k : Fin 5, ∑ q : Fin 2048, f (colOf k q)
      = ∑ p : Fin 5 × Fin 2048, f (colEquiv p) :=
        (Fintype.sum_prod_type' (fun k q => f (colOf k q))).symm
    _ = ∑ j : Fin 10240, f j := colEquiv.sum_comp f

/-- Every edge has exactly one start node, and that node is one of the 10240 columns (it is below
    10000): so collecting, column by column, the edges that arrive at row r from that column meets
    every edge arriving at r exactly once. -/
theorem sum_cols_edges (r : ℕ) (f : Fin 330000 → EReal) :
    ∑ j : Fin 10240, ∑ e ∈ Finset.univ.filter (fun e => (d e).val = r ∧ (s e).val = j.val), f e
      = ∑ e ∈ Finset.univ.filter (fun e => (d e).val = r), f e := by
  rw [← Finset.sum_fiberwise_of_maps_to (s := Finset.univ.filter (fun e => (d e).val = r))
    (t := (Finset.univ : Finset (Fin 10240)))
    (g := fun e => (⟨(s e).val, by omega⟩ : Fin 10240)) (fun _ _ => Finset.mem_univ _) f]
  refine Finset.sum_congr rfl fun j _ => ?_
  rw [Finset.filter_filter]
  refine Finset.sum_congr ?_ fun _ _ => rfl
  ext e
  simp only [Finset.mem_filter, Finset.mem_univ, true_and, Fin.ext_iff]

/-- The running total over the five blocks, started at zero, is the plain sum over all columns. -/
theorem propDense_sum {D : ℕ} (H : Fin 10240 → Fin D → EReal) (r : Fin 10240) (c : Fin D) :
    propDense s d nrm H r c = ∑ j : Fin 10240, adj s d nrm r j * H j c := by
  unfold propDense blockDot
  rw [zero_add, ← sum_blocks (fun j => adj s d nrm r j * H j c), Fin.sum_univ_five]

/-- One entry of the dense matrix times any factor: the weights being non-negative, the product
    spreads over the edges that make up the entry. -/
theorem adj_mul (hn : ∀ e, 0 ≤ nrm e) (r j : Fin 10240) (x : EReal) :
    adj s d nrm r j * x
      = ∑ e ∈ Finset.univ.filter (fun e => (d e).val = r.val ∧ (s e).val = j.val), nrm e * x := by
  unfold adj
  rw [zero_add, sum_mul_of_nonneg _ _ _ (fun e _ => hn e)]

/-- The agreement of the two arrangements, with the passage from a node to its column kept abstract:
    any map that keeps the index will do. -/
theorem propDense_eq_of_emb (hn : ∀ e, 0 ≤ nrm e) {D : ℕ} (H : Fin 10240 → Fin D → EReal)
    (up : Fin 10000 → Fin 10240) (hup : ∀ i, (up i).val = i.val) (r : Fin 10000) (c : Fin D) :
    propDense s d nrm H (up r) c = propEdges s d nrm (fun i => H (up i)) r c := by
  rw [propDense_sum, propEdges, zero_add]
  calc ∑ j : Fin 10240, adj s d nrm (up r) j * H j c
      = ∑ j : Fin 10240, ∑ e ∈ Finset.univ.filter
            (fun e => (d e).val = r.val ∧ (s e).val = j.val), nrm e * H (up (s e)) c := by
        refine Finset.sum_congr rfl fun j _ => ?_
        rw [adj_mul s d nrm hn, hup r]
        refine Finset.sum_congr rfl fun e he => ?_
        -- on the edges counted in entry (r, j) the start node is j itself
        have hj : j = up (s e) :=
          Fin.ext ((Finset.mem_filter.mp he).2.2.symm.trans (hup (s e)).symm)
        rw [← hj]
    _ = ∑ e ∈ Finset.univ.filter (fun e => (d e).val = r.val), nrm e * H (up (s e)) c :=
        sum_cols_edges s d r.val _
    _ = ∑ e ∈ Finset.univ.filter (fun e => d e = r), H (up (s e)) c * nrm e := by
        refine Finset.sum_congr ?_ fun e _ => EReal.mul_comm _ _
        ext e
        simp only [Finset.mem_filter, Finset.mem_univ, true_and, Fin.ext_iff]

/-- The two arrangements of one round agree on the first 10000 rows, whatever `H` holds (its rows
    from 10000 on meet only empty columns of the dense matrix). -/
theorem propDense_eq (hn : ∀ e, 0 ≤ nrm e) {D : ℕ} (H : Fin 10240 → Fin D → EReal) (r : Fin 10000) (c : Fin D) :
    propDense s d nrm H ⟨r.val, by omega⟩ c = propEdges s d nrm (fun i => H ⟨i.val, by omega⟩) r c :=
  propDense_eq_of_emb s d nrm hn H (fun i => ⟨i.val, by omega⟩) (fun _ => rfl) r c

end Cert.Spec

end
-- ==== Proof.KI.Adj.lean ====
/-
  The dense weight matrix the kernel builds on the host, read one entry at a time.

  From the edge list with its self loops the third host stretch makes a [330000, 2] array of index pairs —
  for edge `e` the node it arrives at, then the node it starts from, each word first wrapped the way a
  negative index is wrapped (10240 added where the word is negative) — and scatters the 330000 edge weights into
  a 10240 × 10240 matrix of zeros at those pairs, adding where pairs coincide. A change of float format, which
  does nothing to an extended real, follows.

  When every given word names a node, no word of the extended list is negative (a given word is a node by
  assumption, a self loop's word is its node's number), so the wrap changes nothing and edge `e`'s pair is
  (arrival node, start node), both below 10000. An update lands on entry (r, j) exactly when its pair read as
  integers IS (r, j); so entry (r, j) is zero plus the sum of the weights of the edges from `j` to `r`, which is
  `Spec.adj`. The weights themselves stay as the program computed them (`kerNorm`): nothing here looks inside.

  The first part reads the shape operations involved at one index, for any extents. The second part reads the
  program's buffers: each is what its one writing operation made of the operands' buffers, and an operation
  that does not write a buffer leaves it alone; the long host stretch is only ever looked at one or two
  operations deep, its earlier results staying as they are named.
-/
import proofs.«422500_j8761733284692_1_alg».proof.Proof.KI.Run
import proofs.«422500_j8761733284692_1_alg».proof.Proof.LibTake
import proofs.«422500_j8761733284692_1_alg».proof.Proof.Spec
import proofs.«422500_j8761733284692_1_alg».proof.Proof.Graph
import Idealize.ShloMosaic.Lib.Pipeline.Value
import Idealize.ShloMosaic.Lib.IdealHost
import Idealize.ShloMosaic.Lib.StableHlo.Predicate

set_option maxRecDepth 16384

noncomputable section

namespace Cert.KernelIdeal.Hand

open Idealize.ShloMosaic Idealize.ShloMosaic.TcCoe Idealize.ShloMosaic.ValueIdx
open Idealize.SL.Sem
open Cert.KernelIdeal Cert.KernelIdeal.Gen
open scoped BigOperators

/-! ## Reads at an index, for any extents -/

section Generic
variable {α : Type}

/-- Two one-column arrays side by side: column 0 of the result is the first. -/
theorem concat_cols_left {M : Nat} (a b : (⟨2, ![M, 1]⟩ : Shape).Idx → α)
    (h : Shape.Concatenates [(⟨2, ![M, 1]⟩ : Shape), ⟨2, ![M, 1]⟩] ⟨2, ![M, 2]⟩ 1) (e : Fin M) :
    concatenate ⟨2, ![M, 2]⟩ 1 [⟨⟨2, ![M, 1]⟩, a⟩, ⟨⟨2, ![M, 1]⟩, b⟩] h (ix2 e (0 : Fin 2)) = a (ix2 e (0 : Fin 1)) :=
  concatenate_pair_apply_left 1 a b h _ rfl _ (fun x => by match x with | ⟨0, _⟩ => rfl | ⟨1, _⟩ => rfl)

/-- … and column 1 is the second. -/
theorem concat_cols_right {M : Nat} (a b : (⟨2, ![M, 1]⟩ : Shape).Idx → α)
    (h : Shape.Concatenates [(⟨2, ![M, 1]⟩ : Shape), ⟨2, ![M, 1]⟩] ⟨2, ![M, 2]⟩ 1) (e : Fin M) :
    concatenate ⟨2, ![M, 2]⟩ 1 [⟨⟨2, ![M, 1]⟩, a⟩, ⟨⟨2, ![M, 1]⟩, b⟩] h (ix2 e (1 : Fin 2)) = b (ix2 e (0 : Fin 1)) :=
  concatenate_pair_apply_right 1 a b h _ rfl rfl _
    (fun x hx => by
      match x with
      | ⟨0, _⟩ => rfl
      | ⟨1, _⟩ => exact absurd rfl hx)
    rfl

/-- Two vectors end to end: a position below the first's length reads the first. -/
theorem concat_vec_left {A B N : Nat} (a : (⟨1, ![A]⟩ : Shape).Idx → α) (b : (⟨1, ![B]⟩ : Shape).Idx → α)
    (h : Shape.Concatenates [(⟨1, ![A]⟩ : Shape), ⟨1, ![B]⟩] ⟨1, ![N]⟩ 0) (e : Fin N) (he : e.val < A) :
    concatenate ⟨1, ![N]⟩ 0 [⟨⟨1, ![A]⟩, a⟩, ⟨⟨1, ![B]⟩, b⟩] h (ix1 e) = a (ix1 ⟨e.val, he⟩) :=
  concatenate_pair_apply_left 0 a b h _ rfl _ (fun x => by match x with | ⟨0, _⟩ => rfl)

/-- … and a position from there on reads the second, the first's length less. -/
theorem concat_vec_right {A B N : Nat} (a : (⟨1, ![A]⟩ : Shape).Idx → α) (b : (⟨1, ![B]⟩ : Shape).Idx → α)
    (h : Shape.Concatenates [(⟨1, ![A]⟩ : Shape), ⟨1, ![B]⟩] ⟨1, ![N]⟩ 0) (e : Fin N) (he : A ≤ e.val)
    (hB : e.val - A < B) :
    concatenate ⟨1, ![N]⟩ 0 [⟨⟨1, ![A]⟩, a⟩, ⟨⟨1, ![B]⟩, b⟩] h (ix1 e) = b (ix1 ⟨e.val - A, hB⟩) :=
  concatenate_pair_apply_right 0 a b h _ rfl rfl _
    (fun x hx => absurd (Subsingleton.elim _ _) hx)
    (by show e.val - A + A = e.val; omega)

/-- Row `p` of a two-row array, cut out as a one-row block and flattened, reads the row. -/
theorem edge_row {Q : Nat} (ei : (⟨2, ![2, Q]⟩ : Shape).Idx → α) (p : Fin 2) (o : Nat) (ho : p.val = o)
    (hs : (⟨2, ![2, Q]⟩ : Shape).Slices ![o, 0] ⟨2, ![1, Q]⟩)
    (hc : (⟨2, ![1, Q]⟩ : Shape).ShapeCasts ⟨1, ![Q]⟩) (q : Fin Q) :
    shapeCast ⟨1, ![Q]⟩ (extractStridedSlice ⟨2, ![1, Q]⟩ ![o, 0] ei hs) hc (ix1 q) = ei (ix2 p q) := by
  refine (shapeCast_apply _ hc (ix1 q) (ix2 (0 : Fin 1) q) ?_).trans
    (extractStridedSlice_apply _ ei hs (ix2 (0 : Fin 1) q) (ix2 p q) fun x => ?_)
  · rw [Shape.rowMajor_val_two, Shape.rowMajor_val_one]
    show 0 * Q + q.val = q.val
    omega
  · match x with
    | ⟨0, _⟩ => show p.val = o + 0; omega
    | ⟨1, _⟩ => show q.val = 0 + q.val; omega

/-- A vector kept as a column reads, at row `e`, the vector at `e`. -/
theorem bcast_col {M : Nat} (hb : (⟨1, ![M]⟩ : Shape).BroadcastsInDim ⟨2, ![M, 1]⟩ ![0])
    (v : (⟨1, ![M]⟩ : Shape).Idx → α) (e : Fin M) :
    broadcastInDim ⟨2, ![M, 1]⟩ ![0] hb v (ix2 e (0 : Fin 1)) = v (ix1 e) := by
  refine broadcastInDim_apply _ hb v _ (ix1 e) fun x => ?_
  match x with
  | ⟨0, _⟩ =>
    show e.val = if M = 1 then 0 else e.val
    have := e.isLt
    split <;> omega

/-- The wrap of an index word — add `k` where the word is negative — leaves a word that is not negative alone. -/
theorem wrap_of_nonneg (v k : BitVec 32) (h0 : 0 ≤ v.toInt) :
    Scalar.select (IntOp.cmpi .slt v 0#32) (IntOp.addi v k) v = v := by
  have hs : IntOp.cmpi .slt v 0#32 = 0#1 := by
    show BitVec.ofBool (v.slt 0#32) = 0#1
    have : v.slt 0#32 = false := by
      rw [BitVec.slt, decide_eq_false_iff_not]
      show ¬ v.toInt < (0#32 : BitVec 32).toInt
      simp
      exact h0
    rw [this]; rfl
  rw [hs]
  exact select_zero _ _

/-- A rank-1 index set is its coordinate's range. -/
def idxEquiv1 {n : Nat} : (⟨1, ![n]⟩ : Shape).Idx ≃ Fin n where
  toFun i := i 0
  invFun e := ix1 e
  left_inv i := (eq_ix1 i).symm
  right_inv _ := rfl

/-- The same for a vector of words, at one position where the compared-with word is zero. -/
theorem wrapV_apply {s : Shape} (v z k : IVec s 32) (i : s.Idx) (hz : z i = 0#32) (h0 : 0 ≤ (v i).toInt) :
    select (cmpi .slt v z) (addi v k) v i = v i := by
  show Scalar.select (IntOp.cmpi .slt (v i) (z i)) (IntOp.addi (v i) (k i)) (v i) = v i
  rw [hz]
  exact wrap_of_nonneg _ _ h0

/-- Word `e` of end `p` of the extended edge list. -/
def edgeWord (ei : Cert.Graph.Edges) (p : Fin 2) (e : Fin 330000) : BitVec 32 :=
  if he : e.val < 320000 then ei (ix2 p ⟨e.val, he⟩) else BitVec.ofNat 32 (e.val - 320000)

/-- When the given words name nodes, every word of the extended list is its edge's node. -/
theorem edgeWord_toInt (ei : Cert.Graph.Edges) (hR : Cert.Graph.InRange ei) (p : Fin 2) (e : Fin 330000) :
    (edgeWord ei p e).toInt = ((Cert.Graph.node ei hR p e).val : ℤ) := by
  unfold edgeWord Cert.Graph.node
  by_cases he : e.val < 320000
  · rw [dif_pos he, dif_pos he]
    exact (Int.toNat_of_nonneg (hR p ⟨e.val, he⟩).1).symm
  · rw [dif_neg he, dif_neg he]
    have := e.isLt
    exact StableHlo.Predicate.toInt_ofNat_small _ (by omega)

/-- A scatter-add of 330000 weights into zeros at index pairs that are (arrival node, start node) of the edges:
    entry (r, j) is zero plus the sum of the weights of the edges whose pair is (r, j). The sum over the updates'
    rank-1 indices is re-indexed by their one coordinate. -/
theorem scatter_adj (d : ScatterDims ⟨2, ![10240, 10240]⟩ ⟨2, ![330000, 2]⟩ ⟨1, ![330000]⟩)
    (huw : d.updateWindowDims = []) (hiw : d.insertedWindowDims = [0, 1])
    (hsd : d.scatterDimsToOperandDims = [0, 1]) (hivd : d.indexVectorDim = 1)
    (X : (⟨2, ![10240, 10240]⟩ : Shape).Idx → EReal) (hX : ∀ i, X i = 0)
    (idx : IVec ⟨2, ![330000, 2]⟩ 32) (sN dN : Fin 330000 → Fin 10000)
    (h0 : ∀ e, (idx (ix2 e (0 : Fin 2))).toInt = ((dN e).val : ℤ))
    (h1 : ∀ e, (idx (ix2 e (1 : Fin 2))).toInt = ((sN e).val : ℤ))
    (U : (⟨1, ![330000]⟩ : Shape).Idx → EReal) (r j : Fin 10240) :
    Ideal.hostScatterAdd d X idx U (ix2 r j) = Cert.Spec.adj sN dN (fun e => U (ix1 e)) r j := by
  unfold Ideal.hostScatterAdd Cert.Spec.adj
  rw [hX]
  refine congrArg (fun z => 0 + z) ?_
  refine Finset.sum_equiv idxEquiv1 (fun u => ?_) (fun u _ => ?_)
  · obtain ⟨e, rfl⟩ : ∃ e, u = ix1 e := ⟨u 0, eq_ix1 u⟩
    simp only [Finset.mem_filter, Finset.mem_univ, true_and]
    rw [Cert.LibTake.scatter_pair_hits d huw hiw hsd hivd idx e r j, h0, h1, Nat.cast_inj, Nat.cast_inj]
    exact Iff.rfl
  · obtain ⟨e, rfl⟩ : ∃ e, u = ix1 e := ⟨u 0, eq_ix1 u⟩
    rfl

end Generic

/-! ## Reading one buffer off a list of operations -/

/-- Moves a buffer's contents back past every operation that does not write it. -/
local macro "peel_ne" : tactic =>
  `(tactic| repeat (first
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)
      | (rw [StableHlo.reshape_result_ne]; rotate_left; decide)))

/-- Reads a buffer's contents off the operations that wrote it, all the way down. -/
local macro "peel_all" : tactic =>
  `(tactic| repeat (first
      | rw [StableHlo.nullary_result] | rw [StableHlo.unary_result] | rw [StableHlo.binary_result]
      | rw [StableHlo.ternary_result] | rw [StableHlo.reshape_result]
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)
      | (rw [StableHlo.reshape_result_ne]; rotate_left; decide)))

variable (m : (ℓ : Loc nD τ sig) → Buf (Elt Ideal) ℓ) (ρ : Dev nD → PrngReg)

/-! ## The program's buffers -/

/-- The kernel's own edge weights, as the third host stretch leaves them. -/
def kerNorm (c : Dev nD) : Fin 330000 → EReal := fun e =>
  (W3 m ρ c (Proc.devRef .tc main_v29) : S330000.Idx → EReal) (ix1 e)

/-- The splat words the wrap compares with and adds. -/
abbrev zeroW : IVec S330000 32 := broadcastInDim S330000 ![] bcast_S_S330000 (constantI S_ 32 0#32)
abbrev padW : IVec S330000 32 := broadcastInDim S330000 ![] bcast_S_S330000 (constantI S_ 32 10240#32)

set_option maxHeartbeats 1000000 in
/-- The dense matrix is the scatter of the weights into zeros at the index pairs, then a change of format. -/
theorem v45_eq (c : Dev nD) :
    (W3 m ρ c (Proc.devRef .tc main_v45) : S10240x10240.Idx → EReal) =
      truncf (F := Ideal) .bf16 (Host.scatterAdd (F := Ideal) (φ := .f32) scatter_S10240x10240_S330000x2_S330000_n_01_01_1
        (W3 m ρ c (Proc.devRef .tc main_v30) : S10240x10240.Idx → EReal)
        (W3 m ρ c (Proc.devRef .tc main_v43) : IVec S330000x2 32)
        (W3 m ρ c (Proc.devRef .tc main_v29) : S330000.Idx → EReal)) bitsLt_bf16_f32 := by
  show StableHlo.after hostOps0_2 (W2 m ρ c) (Proc.devRef .tc main_v45) =
    truncf (F := Ideal) .bf16 (Host.scatterAdd (F := Ideal) (φ := .f32) _ (StableHlo.after hostOps0_2 (W2 m ρ c) (Proc.devRef .tc main_v30))
      (StableHlo.after hostOps0_2 (W2 m ρ c) (Proc.devRef .tc main_v43))
      (StableHlo.after hostOps0_2 (W2 m ρ c) (Proc.devRef .tc main_v29))) _
  generalize W2 m ρ c = V2
  simp only [StableHlo.after_cons, StableHlo.after_nil]
  peel_ne
  conv_lhs => rw [StableHlo.unary_result]
  conv_lhs => rw [StableHlo.ternary_result]
  peel_ne
  rfl

set_option maxHeartbeats 1000000 in
/-- The operand scattered into is zero everywhere. -/
theorem v30_apply (c : Dev nD) (i : S10240x10240.Idx) :
    (W3 m ρ c (Proc.devRef .tc main_v30) : S10240x10240.Idx → EReal) i = (0 : EReal) := by
  have h : (W3 m ρ c (Proc.devRef .tc main_v30) : S10240x10240.Idx → EReal) =
      broadcastInDim S10240x10240 ![] bcast_S_S10240x10240 (constant (F := Ideal) S_ .f32 0x00000000#32) := by
    show StableHlo.after hostOps0_2 (W2 m ρ c) (Proc.devRef .tc main_v30) = _
    generalize W2 m ρ c = V2
    after_results
    try rfl
  rw [h]
  exact Ideal.ofBits_zero_f32

set_option maxHeartbeats 1000000 in
/-- Column 0 of the index pairs: the wrapped end nodes, as a column. -/
theorem v41_eq (c : Dev nD) :
    (W3 m ρ c (Proc.devRef .tc main_v41) : IVec S330000x1 32) =
      broadcastInDim S330000x1 ![0] bcast_S330000_S330000x1_0
        (select (cmpi .slt (W2 m ρ c (Proc.devRef .tc main_v6) : IVec S330000 32) zeroW)
          (addi (W2 m ρ c (Proc.devRef .tc main_v6) : IVec S330000 32) padW)
          (W2 m ρ c (Proc.devRef .tc main_v6) : IVec S330000 32)) := by
  show StableHlo.after hostOps0_2 (W2 m ρ c) (Proc.devRef .tc main_v41) = _
  generalize W2 m ρ c = V2
  after_results
  try rfl

set_option maxHeartbeats 1000000 in
/-- Column 1 of the index pairs: the wrapped start nodes, as a column. -/
theorem v42_eq (c : Dev nD) :
    (W3 m ρ c (Proc.devRef .tc main_v42) : IVec S330000x1 32) =
      broadcastInDim S330000x1 ![0] bcast_S330000_S330000x1_0
        (select (cmpi .slt (W2 m ρ c (Proc.devRef .tc main_v3) : IVec S330000 32) zeroW)
          (addi (W2 m ρ c (Proc.devRef .tc main_v3) : IVec S330000 32) padW)
          (W2 m ρ c (Proc.devRef .tc main_v3) : IVec S330000 32)) := by
  show StableHlo.after hostOps0_2 (W2 m ρ c) (Proc.devRef .tc main_v42) = _
  generalize W2 m ρ c = V2
  after_results
  try rfl

set_option maxHeartbeats 1000000 in
/-- The index pairs are the two columns side by side: column 0 … -/
theorem v43_col0 (c : Dev nD) (e : Fin 330000) :
    (W3 m ρ c (Proc.devRef .tc main_v43) : IVec S330000x2 32) (ix2 e (0 : Fin 2)) =
      (W3 m ρ c (Proc.devRef .tc main_v41) : IVec S330000x1 32) (ix2 e (0 : Fin 1)) := by
  show StableHlo.after hostOps0_2 (W2 m ρ c) (Proc.devRef .tc main_v43) (ix2 e (0 : Fin 2)) =
    StableHlo.after hostOps0_2 (W2 m ρ c) (Proc.devRef .tc main_v41) (ix2 e (0 : Fin 1))
  generalize W2 m ρ c = V2
  simp only [StableHlo.after_cons, StableHlo.after_nil]
  peel_ne
  conv_lhs => rw [StableHlo.binary_result]
  show concatenate S330000x2 1 [⟨S330000x1, _⟩, ⟨S330000x1, _⟩] concatenates_S330000x1_S330000x1_S330000x2_d1
    (ix2 e (0 : Fin 2)) = _
  rw [concat_cols_left]
  peel_ne
  try rfl

set_option maxHeartbeats 1000000 in
/-- … and column 1. -/
theorem v43_col1 (c : Dev nD) (e : Fin 330000) :
    (W3 m ρ c (Proc.devRef .tc main_v43) : IVec S330000x2 32) (ix2 e (1 : Fin 2)) =
      (W3 m ρ c (Proc.devRef .tc main_v42) : IVec S330000x1 32) (ix2 e (0 : Fin 1)) := by
  show StableHlo.after hostOps0_2 (W2 m ρ c) (Proc.devRef .tc main_v43) (ix2 e (1 : Fin 2)) =
    StableHlo.after hostOps0_2 (W2 m ρ c) (Proc.devRef .tc main_v42) (ix2 e (0 : Fin 1))
  generalize W2 m ρ c = V2
  simp only [StableHlo.after_cons, StableHlo.after_nil]
  peel_ne
  conv_lhs => rw [StableHlo.binary_result]
  show concatenate S330000x2 1 [⟨S330000x1, _⟩, ⟨S330000x1, _⟩] concatenates_S330000x1_S330000x1_S330000x2_d1
    (ix2 e (1 : Fin 2)) = _
  rw [concat_cols_right]
  peel_ne
  try rfl

/-- The second host stretch leaves the two node lists alone. -/
theorem w2_v6 (c : Dev nD) : W2 m ρ c (Proc.devRef .tc main_v6) = W1 m ρ c (Proc.devRef .tc main_v6) := by
  show StableHlo.after hostOps0_1 (W1 m ρ c) (Proc.devRef .tc main_v6) = W1 m ρ c (Proc.devRef .tc main_v6)
  generalize W1 m ρ c = V1
  simp only [StableHlo.after_cons, StableHlo.after_nil]
  peel_ne
/-- Likewise the start nodes. -/
theorem w2_v3 (c : Dev nD) : W2 m ρ c (Proc.devRef .tc main_v3) = W1 m ρ c (Proc.devRef .tc main_v3) := by
  show StableHlo.after hostOps0_1 (W1 m ρ c) (Proc.devRef .tc main_v3) = W1 m ρ c (Proc.devRef .tc main_v3)
  generalize W1 m ρ c = V1
  simp only [StableHlo.after_cons, StableHlo.after_nil]
  peel_ne

set_option maxHeartbeats 1000000 in
/-- The end nodes of the extended list: the second given row, then one self loop per node. -/
theorem w1_v6_apply (c : Dev nD) (e : Fin 330000) :
    (W1 m ρ c (Proc.devRef .tc main_v6) : IVec S330000 32) (ix1 e) =
      edgeWord (m ((c : Thread nD τ).loc main_arg1)) 1 e := by
  show StableHlo.after hostOps0 (W0 m ρ c) (Proc.devRef .tc main_v6) (ix1 e) = _
  generalize hV : W0 m ρ c = V0
  have hA : (V0 (Proc.devRef .tc main_arg1) : S2x320000.Idx → BitVec 32) = m ((c : Thread nD τ).loc main_arg1) := by
    subst hV; rfl
  simp only [StableHlo.after_cons, StableHlo.after_nil]
  peel_ne
  rw [StableHlo.binary_result]
  show concatenate S330000 0 [⟨S320000, _⟩, ⟨S10000, _⟩] concatenates_S320000_S10000_S330000_d0 (ix1 e) = _
  unfold edgeWord
  by_cases he : e.val < 320000
  · rw [dif_pos he, concat_vec_left _ _ _ e he]
    peel_all
    show shapeCast S320000 (extractStridedSlice S1x320000 ![1, 0] (V0 (Proc.devRef .tc main_arg1)) slices_S2x320000_S1x320000_1_0)
      shapeCasts_S1x320000_S320000 (ix1 ⟨e.val, he⟩) = _
    rw [edge_row _ 1 1 rfl, hA]
  · have := e.isLt
    rw [dif_neg he, concat_vec_right _ _ _ e (by omega) (by omega)]
    peel_all
    try rfl

set_option maxHeartbeats 1000000 in
/-- The start nodes of the extended list: the first given row, then one self loop per node. -/
theorem w1_v3_apply (c : Dev nD) (e : Fin 330000) :
    (W1 m ρ c (Proc.devRef .tc main_v3) : IVec S330000 32) (ix1 e) =
      edgeWord (m ((c : Thread nD τ).loc main_arg1)) 0 e := by
  show StableHlo.after hostOps0 (W0 m ρ c) (Proc.devRef .tc main_v3) (ix1 e) = _
  generalize hV : W0 m ρ c = V0
  have hA : (V0 (Proc.devRef .tc main_arg1) : S2x320000.Idx → BitVec 32) = m ((c : Thread nD τ).loc main_arg1) := by
    subst hV; rfl
  simp only [StableHlo.after_cons, StableHlo.after_nil]
  peel_ne
  rw [StableHlo.binary_result]
  show concatenate S330000 0 [⟨S320000, _⟩, ⟨S10000, _⟩] concatenates_S320000_S10000_S330000_d0 (ix1 e) = _
  unfold edgeWord
  by_cases he : e.val < 320000
  · rw [dif_pos he, concat_vec_left _ _ _ e he]
    peel_all
    show shapeCast S320000 (extractStridedSlice S1x320000 ![0, 0] (V0 (Proc.devRef .tc main_arg1)) slices_S2x320000_S1x320000_0_0)
      shapeCasts_S1x320000_S320000 (ix1 ⟨e.val, he⟩) = _
    rw [edge_row _ 0 0 rfl, hA]
  · have := e.isLt
    rw [dif_neg he, concat_vec_right _ _ _ e (by omega) (by omega)]
    peel_all
    try rfl

/-- So the third host stretch finds the extended list's words in the two node buffers. -/
theorem dst_word (c : Dev nD) (e : Fin 330000) :
    (W2 m ρ c (Proc.devRef .tc main_v6) : IVec S330000 32) (ix1 e) = edgeWord (m ((c : Thread nD τ).loc main_arg1)) 1 e := by
  rw [w2_v6]; exact w1_v6_apply m ρ c e
theorem src_word (c : Dev nD) (e : Fin 330000) :
    (W2 m ρ c (Proc.devRef .tc main_v3) : IVec S330000 32) (ix1 e) = edgeWord (m ((c : Thread nD τ).loc main_arg1)) 0 e := by
  rw [w2_v3]; exact w1_v3_apply m ρ c e

/-- Column 0 of edge `e`'s index pair is the node the edge arrives at. -/
theorem idx_col0 (c : Dev nD) (hR : Cert.Graph.InRange (m ((c : Thread nD τ).loc main_arg1))) (e : Fin 330000) :
    ((W3 m ρ c (Proc.devRef .tc main_v43) : IVec S330000x2 32) (ix2 e (0 : Fin 2))).toInt =
      ((Cert.Graph.node (m ((c : Thread nD τ).loc main_arg1)) hR 1 e).val : ℤ) := by
  have hw := dst_word m ρ c e
  rw [v43_col0, v41_eq, bcast_col,
    wrapV_apply _ _ _ _ rfl (by rw [hw, edgeWord_toInt _ hR]; exact Int.natCast_nonneg _), hw, edgeWord_toInt _ hR]

/-- Column 1 of edge `e`'s index pair is the node the edge starts from. -/
theorem idx_col1 (c : Dev nD) (hR : Cert.Graph.InRange (m ((c : Thread nD τ).loc main_arg1))) (e : Fin 330000) :
    ((W3 m ρ c (Proc.devRef .tc main_v43) : IVec S330000x2 32) (ix2 e (1 : Fin 2))).toInt =
      ((Cert.Graph.node (m ((c : Thread nD τ).loc main_arg1)) hR 0 e).val : ℤ) := by
  have hw := src_word m ρ c e
  rw [v43_col1, v42_eq, bcast_col,
    wrapV_apply _ _ _ _ rfl (by rw [hw, edgeWord_toInt _ hR]; exact Int.natCast_nonneg _), hw, edgeWord_toInt _ hR]

/-- THE DENSE WEIGHT MATRIX, entry by entry: the total weight of the edges from `j` to `r`. -/
theorem adj_value (c : Dev nD) (hR : Cert.Graph.InRange (m ((c : Thread nD τ).loc main_arg1))) (r j : Fin 10240) :
    (W3 m ρ c (Proc.devRef .tc main_v45) : S10240x10240.Idx → EReal) (ix2 r j) =
      Cert.Spec.adj (Cert.Graph.node (m ((c : Thread nD τ).loc main_arg1)) hR 0)
        (Cert.Graph.node (m ((c : Thread nD τ).loc main_arg1)) hR 1) (kerNorm m ρ c) r j := by
  rw [v45_eq, truncf_apply]
  show Ideal.hostScatterAdd scatter_S10240x10240_S330000x2_S330000_n_01_01_1
    (W3 m ρ c (Proc.devRef .tc main_v30) : S10240x10240.Idx → EReal)
    (W3 m ρ c (Proc.devRef .tc main_v43) : IVec S330000x2 32)
    (W3 m ρ c (Proc.devRef .tc main_v29) : S330000.Idx → EReal) (ix2 r j) = _
  exact scatter_adj scatter_S10240x10240_S330000x2_S330000_n_01_01_1 rfl rfl rfl rfl _ (v30_apply m ρ c) _ _ _
    (idx_col0 m ρ c hR) (idx_col1 m ρ c hR) _ r j

end Cert.KernelIdeal.Hand

end
-- ==== Proof.KI.Out.lean ====
/-
  The kernel program's result, as a function of its arguments, at the exact instance.

  Reading the four regions' arrays in order: the first dense product is the padded features times the
  first weights (`h1_eq`: the rows from 10000 on are zero rows times the weights); the first propagation
  is the dense weight matrix against that product, five column blocks in order, plus the bias, clamped
  below at zero (`agg1_eq`: exactly `Spec.propDense`); the second dense product and the second
  propagation repeat this with the second weights and bias and no clamp; the result is the first 10000
  rows. The law `Spec.propDense_eq` then turns each dense propagation into the edge-by-edge one on those
  rows (`ker_value`), which is the form the reference's result has.
-/
import proofs.«422500_j8761733284692_1_alg».proof.Proof.KI.Val0
import proofs.«422500_j8761733284692_1_alg».proof.Proof.KI.Val1
import proofs.«422500_j8761733284692_1_alg».proof.Proof.KI.Val2
import proofs.«422500_j8761733284692_1_alg».proof.Proof.KI.Val3
import proofs.«422500_j8761733284692_1_alg».proof.Proof.KI.Host
import proofs.«422500_j8761733284692_1_alg».proof.Proof.KI.Adj
import proofs.«422500_j8761733284692_1_alg».proof.Proof.Spec
import proofs.«422500_j8761733284692_1_alg».proof.Proof.Graph

set_option maxRecDepth 16384

noncomputable section

namespace Cert.KernelIdeal.Hand

open Idealize.ShloMosaic Idealize.ShloMosaic.TcCoe Idealize.SL.Sem Idealize.ShloMosaic.ValueIdx
open Cert.KernelIdeal Cert.KernelIdeal.Gen
open scoped BigOperators

variable (m : (ℓ : Loc nD τ sig) → Buf (Elt Ideal) ℓ) (ρ : Dev nD → PrngReg) (c : Dev nD)

/-- The arguments as matrices and vectors over `Fin`. -/
abbrev argX : Fin 10000 → Fin 256 → EReal := fun i k => m ((c : Thread nD τ).loc main_arg0) (ix2 i k)
abbrev argW1 : Fin 256 → Fin 256 → EReal := fun k q => m ((c : Thread nD τ).loc main_arg2) (ix2 k q)
abbrev argB1 : Fin 256 → EReal := fun q => m ((c : Thread nD τ).loc main_arg3) (ix1 q)
abbrev argW2 : Fin 256 → Fin 64 → EReal := fun k q => m ((c : Thread nD τ).loc main_arg4) (ix2 k q)
abbrev argB2 : Fin 64 → EReal := fun q => m ((c : Thread nD τ).loc main_arg5) (ix1 q)
/-- The features padded with 240 zero rows. -/
def padX : Fin 10240 → Fin 256 → EReal := fun r k => if h : r.val < 10000 then argX m c ⟨r.val, h⟩ k else 0

variable (hR : Cert.Graph.InRange (m ((c : Thread nD τ).loc main_arg1)))

/-- Where each edge starts and arrives, and its weight as the kernel program computes it. -/
abbrev srcN : Fin 330000 → Fin 10000 := Cert.Graph.node (m ((c : Thread nD τ).loc main_arg1)) hR 0
abbrev dstN : Fin 330000 → Fin 10000 := Cert.Graph.node (m ((c : Thread nD τ).loc main_arg1)) hR 1

/-- The first dense product: the padded features times the first weights. -/
def hid1 : Fin 10240 → Fin 256 → EReal := Cert.Spec.matMul (padX m c) (argW1 m c)

theorem h1_eq (r : Fin 10240) (q : Fin 256) : ((dat0 (F := Ideal) (E0 m ρ) c).arrAt 2 cfg0.N (ix2 r q) : EReal) = hid1 m c r q := by
  rw [final0_eq]
  show prod0 (E0 m ρ c main_v47) (E0 m ρ c main_v48) (ix2 r q) = _
  rw [prod0_apply]
  unfold hid1 Cert.Spec.matMul
  refine Finset.sum_congr rfl fun k _ => ?_
  have ha : (E0 m ρ c main_v47 : S10240x256.Idx → EReal) (ix2 r k) = padX m c r k := E0_v47 m ρ c r k
  have hb : (E0 m ρ c main_v48 : S256x256.Idx → EReal) (ix2 k q) = argW1 m c k q := E0_v48 m ρ c k q
  rw [ha, hb]

/-- The first propagation, bias and clamp: the activations of the hidden layer, all 10240 rows. -/
def act1 : Fin 10240 → Fin 256 → EReal := fun r q =>
  max (Cert.Spec.propDense (srcN m c hR) (dstN m c hR) (kerNorm m ρ c) (hid1 m c) r q + argB1 m c q) 0

theorem agg1_eq (r : Fin 10240) (q : Fin 256) : ((dat1 (F := Ideal) (E1 m ρ) c).arrAt 3 cfg1.N (ix2 r q) : EReal) = act1 m ρ c hR r q := by
  have hw : ∀ j : Fin 10240, wts1 (E1 m ρ) c (ix2 r j)
      = Cert.Spec.adj (srcN m c hR) (dstN m c hR) (kerNorm m ρ c) r j := fun j => by
    show (E1 m ρ c main_v45 : S10240x10240.Idx → EReal) (ix2 r j) = _
    rw [E1_v45]; exact adj_value m ρ c hR r j
  have hf : ∀ j : Fin 10240, feat1 (E1 m ρ) c (ix2 j q) = hid1 m c j q := fun j =>
    (E1_v53 m ρ c j q).trans (h1_eq m ρ c j q)
  have hb : ∀ k : Fin 5, blockSum1 (E1 m ρ) c r q k
      = Cert.Spec.blockDot (srcN m c hR) (dstN m c hR) (kerNorm m ρ c) (hid1 m c) r q k := fun k => by
    unfold blockSum1 Cert.Spec.blockDot
    refine Finset.sum_congr rfl fun j _ => ?_
    rw [hw, hf]; rfl
  have hbias : (E1 m ρ c main_v50 : S1x256.Idx → EReal) (ix2 0 q) = argB1 m c q := E1_v50 m ρ c q
  refine (final1 (E1 m ρ) c r q).trans ?_
  rw [hb 0, hb 1, hb 2, hb 3, hb 4, hbias]
  rfl

/-- The second dense product. -/
def hid2 : Fin 10240 → Fin 64 → EReal := Cert.Spec.matMul (act1 m ρ c hR) (argW2 m c)

theorem h2_eq (r : Fin 10240) (q : Fin 64) : ((dat2 (F := Ideal) (E2 m ρ) c).arrAt 2 cfg2.N (ix2 r q) : EReal) = hid2 m ρ c hR r q := by
  rw [final2_eq]
  show prod2 (E2 m ρ c main_v55) (E2 m ρ c main_v49) (ix2 r q) = _
  rw [prod2_apply]
  unfold hid2 Cert.Spec.matMul
  refine Finset.sum_congr rfl fun k _ => ?_
  have ha : (E2 m ρ c main_v55 : S10240x256.Idx → EReal) (ix2 r k) = act1 m ρ c hR r k :=
    (E2_v55 m ρ c r k).trans (agg1_eq m ρ c hR r k)
  have hb : (E2 m ρ c main_v49 : S256x64.Idx → EReal) (ix2 k q) = argW2 m c k q := E2_v49 m ρ c k q
  rw [ha, hb]

theorem out_eq (r : Fin 10240) (q : Fin 64) : ((dat3 (F := Ideal) (E3 m ρ) c).arrAt 3 cfg3.N (ix2 r q) : EReal)
    = Cert.Spec.propDense (srcN m c hR) (dstN m c hR) (kerNorm m ρ c) (hid2 m ρ c hR) r q + argB2 m c q := by
  have hw : ∀ j : Fin 10240, wts3 (E3 m ρ) c (ix2 r j)
      = Cert.Spec.adj (srcN m c hR) (dstN m c hR) (kerNorm m ρ c) r j := fun j => by
    show (E3 m ρ c main_v45 : S10240x10240.Idx → EReal) (ix2 r j) = _
    rw [E3_v45]; exact adj_value m ρ c hR r j
  have hf : ∀ j : Fin 10240, feat3 (E3 m ρ) c (ix2 j q) = hid2 m ρ c hR j q := fun j =>
    (E3_v57 m ρ c j q).trans (h2_eq m ρ c hR j q)
  have hb : ∀ k : Fin 5, blockSum3 (E3 m ρ) c r q k
      = Cert.Spec.blockDot (srcN m c hR) (dstN m c hR) (kerNorm m ρ c) (hid2 m ρ c hR) r q k := fun k => by
    unfold blockSum3 Cert.Spec.blockDot
    refine Finset.sum_congr rfl fun j _ => ?_
    rw [hw, hf]; rfl
  have hbias : (E3 m ρ c main_v51 : S1x64.Idx → EReal) (ix2 0 q) = argB2 m c q := E3_v51 m ρ c q
  refine (final3 (E3 m ρ) c r q).trans ?_
  rw [hb 0, hb 1, hb 2, hb 3, hb 4, hbias]
  rfl

/-- THE KERNEL PROGRAM'S RESULT on the 10000 nodes: two edge-by-edge propagations, the form the reference has. -/
theorem ker_value (hn : ∀ e, 0 ≤ kerNorm m ρ c e) (r : Fin 10000) (q : Fin 64) :
    (W13 m ρ c (Proc.devRef .tc main_v59) (ix2 r q) : EReal)
      = Cert.Spec.propEdges (srcN m c hR) (dstN m c hR) (kerNorm m ρ c)
          (Cert.Spec.matMul (fun i k => max (Cert.Spec.propEdges (srcN m c hR) (dstN m c hR) (kerNorm m ρ c)
              (Cert.Spec.matMul (argX m c) (argW1 m c)) i k + argB1 m c k) 0) (argW2 m c)) r q
        + argB2 m c q := by
  -- the rows below 10000 of the first dense product are the features times the first weights,
  have e1 : (fun i : Fin 10000 => hid1 m c ⟨i.val, by omega⟩) = Cert.Spec.matMul (argX m c) (argW1 m c) := by
    funext i k
    unfold hid1 Cert.Spec.matMul padX
    exact Finset.sum_congr rfl fun k' _ => by rw [dif_pos i.isLt]
  -- and those of the second are the hidden activations of the 10000 nodes times the second weights
  have e2 : (fun i : Fin 10000 => hid2 m ρ c hR ⟨i.val, by omega⟩)
      = Cert.Spec.matMul (fun i k => max (Cert.Spec.propEdges (srcN m c hR) (dstN m c hR) (kerNorm m ρ c)
          (Cert.Spec.matMul (argX m c) (argW1 m c)) i k + argB1 m c k) 0) (argW2 m c) := by
    funext i k
    unfold hid2 Cert.Spec.matMul act1
    refine Finset.sum_congr rfl fun k' _ => ?_
    rw [Cert.Spec.propDense_eq (srcN m c hR) (dstN m c hR) (kerNorm m ρ c) hn (hid1 m c) i k', e1]
    rfl
  refine (W13_v59 m ρ c r q).trans ((out_eq m ρ c hR ⟨r.val, by omega⟩ q).trans ?_)
  rw [Cert.Spec.propDense_eq (srcN m c hR) (dstN m c hR) (kerNorm m ρ c) hn (hid2 m ρ c hR) r q, e2]

end Cert.KernelIdeal.Hand

end
-- ==== Proof.Ref.Value.lean ====
/-
  The reference's value: what its one result array holds, as a function of the argument arrays,
  read index by index.

  The reference is a two-layer graph convolution. Both layers run over the same extended edge list
  (the given edges followed by one self loop per node) and weigh edge `e` by the product of the inverse
  square roots of the degrees of its two ends; that weight array is computed twice, by the same
  operations, and is kept here as one opaque function `refNorm` of the edge words. A layer multiplies the
  node features by a weight matrix, takes for every edge the product's row at the edge's start node,
  scales it by the edge's weight, adds the scaled rows into the rows named by the edges' end nodes
  starting from zero, and adds a bias; between the layers the negative entries are cut off at zero.

  When every given word names a node, the bookkeeping around the indexed operations disappears: a word
  of the extended list is its edge's node, Python's wrap of a negative index and the clamp of a take do
  nothing to it, a take of rows reads the row of the start node, and an update row lands on the row of
  the end node, column for column. A segment sum over (edge, column) pairs is then a sum over the edges
  arriving at a node, which is the specification's round of propagation, edge by edge.
-/
import proofs.«422500_j8761733284692_1_alg».proof.Proof.Ref.Run
import proofs.«422500_j8761733284692_1_alg».proof.Proof.Ref.Read
import proofs.«422500_j8761733284692_1_alg».proof.Proof.Spec
import proofs.«422500_j8761733284692_1_alg».proof.Proof.Graph
import proofs.«422500_j8761733284692_1_alg».proof.Proof.LibTake
import Idealize.ShloMosaic.Lib.StableHlo.Predicate
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx Idealize.SL.Sem
open scoped BigOperators

/-! ## The edge weights are never negative -/

/-- The reciprocal square root of a positive extended real is not negative: it is 0 at ⊤ and the
    inverse of a real square root at a positive real. -/
theorem rsqrt_nonneg_of_pos {x : EReal} (hx : 0 < x) : 0 ≤ Ideal.rsqrt x := by
  induction x using EReal.rec with
  | bot => exact absurd hx (by simp)
  | top => simp
  | coe r =>
    have hr : 0 < r := by exact_mod_cast hx
    rw [Ideal.rsqrt_coe, if_neg (not_lt.2 hr.le), if_neg hr.ne']
    exact_mod_cast inv_nonneg.2 (Real.sqrt_nonneg r)

/-- "Where the degree is positive its reciprocal square root, elsewhere zero" is never negative. -/
theorem where_rsqrt_nonneg (x : EReal) :
    0 ≤ Scalar.select (FloatOps.cmpf (F := Ideal) (φ := .f32) .ogt x (FloatOps.ofBits .f32 0x00000000#32))
      (FloatOps.hostUnary (F := Ideal) (φ := .f32) .rsqrt x) (FloatOps.ofBits (F := Ideal) .f32 0x00000000#32) := by
  rw [Ideal.ofBits_def, Ideal.ofBits_zero_f32, Ideal.hostUnary_rsqrt_def, Ideal.cmpf_def]
  unfold Scalar.select
  split
  · next h =>
    have h' : (0 : EReal) < x := by
      unfold Ideal.cmp at h
      have h2 := (Idealize.ShloMosaic.StableHlo.Predicate.ofBool_eq_one_iff _).1 h
      exact of_decide_eq_true h2
    exact rsqrt_nonneg_of_pos h'
  · exact le_refl _

/-- Every entry of the first layer's inverse-root-degree array is non-negative. -/
theorem dinv_nonneg (ei : Cert.Graph.Edges) (i : S10000.Idx) : 0 ≤ ReadP.val_main_v14 (F := Ideal) ei i := by
  rw [ReadP.val_main_v14_apply, ReadP.val_main_v12_apply, ReadP.val_main_v13_apply, ReadP.val_main_call0_v1_apply,
    ReadP.val_main_call0_v0_apply, ReadP.val_main_cst_2_apply, ReadP.val_main_v11_apply, ReadP.val_main_cst_1_apply]
  exact where_rsqrt_nonneg _

/-- The reference's own edge weights: its array of the products of the two ends' inverse root
    degrees, as a function of the edge words. -/
def refNorm (ei : Cert.Graph.Edges) : Fin 330000 → EReal :=
  fun e => ReadP.val_main_v29 (F := Ideal) ei (ix1 e)

/-- The second layer computes the same weights again. -/
theorem refNorm_again (ei : Cert.Graph.Edges) :
    (fun e : Fin 330000 => ReadP.val_main_v70 (F := Ideal) ei (ix1 e)) = refNorm ei := rfl

/-- Each weight is a product of two entries of the inverse-root-degree array (a gather reads some
    entry of its operand), so it is non-negative. -/
theorem refNorm_nonneg (ei : Cert.Graph.Edges) : ∀ e, 0 ≤ refNorm ei e := by
  intro e
  unfold refNorm
  rw [ReadP.val_main_v29_apply, Ideal.mulf_def]
  unfold ReadP.val_main_v21 ReadP.val_main_v28 Host.gather
  exact mul_nonneg (dinv_nonneg ei _) (dinv_nonneg ei _)

/-! ## The extended edge list, word by word -/

/-- Two arrays laid end to end along their one axis: position `e` reads the first below its length and
    the second, the first's length further back, after. -/
theorem concat_apply (a : S320000.Idx → BitVec 32) (b : S10000.Idx → BitVec 32)
    (h : Shape.Concatenates [S320000, S10000] S330000 0) (e : Fin 330000) :
    concatenate S330000 0 [⟨S320000, a⟩, ⟨S10000, b⟩] h (ix1 e)
      = if he : e.val < 320000 then a (ix1 ⟨e.val, he⟩) else b (ix1 ⟨e.val - 320000, by omega⟩) := by
  split
  · next he =>
    exact concatenate_pair_apply_left (0 : Fin 1) a b h (ix1 e) rfl (ix1 ⟨e.val, he⟩) (fun b => by
      match b with | ⟨0, _⟩ => rfl)
  · next he =>
    exact concatenate_pair_apply_right (0 : Fin 1) a b h (ix1 e) rfl rfl (ix1 ⟨e.val - 320000, by omega⟩)
      (fun b hb => absurd (Subsingleton.elim _ _) hb)
      (by show (e.val - 320000) + 320000 = e.val; omega)

/-- Word `e` of the start nodes: the given word of row 0, or the loop's node number. -/
theorem word_src (ei : Cert.Graph.Edges) (e : Fin 330000) :
    ReadP.val_main_v3 (F := Ideal) ei (ix1 e)
      = if he : e.val < 320000 then ei (ix2 (0 : Fin 2) ⟨e.val, he⟩) else BitVec.ofNat 32 (e.val - 320000) := by
  unfold ReadP.val_main_v3
  rw [concat_apply]
  by_cases he : e.val < 320000
  · rw [dif_pos he, dif_pos he, ReadP.val_main_v2_apply, ReadP.val_main_v1_apply]
    congr 1
    funext a
    apply Fin.ext
    match a with
    | ⟨0, _⟩ => rfl
    | ⟨1, _⟩ => exact Nat.mod_eq_of_lt he
  · rw [dif_neg he, dif_neg he]
    rfl

/-- Word `e` of the end nodes: the given word of row 1, or the loop's node number. -/
theorem word_dst (ei : Cert.Graph.Edges) (e : Fin 330000) :
    ReadP.val_main_v6 (F := Ideal) ei (ix1 e)
      = if he : e.val < 320000 then ei (ix2 (1 : Fin 2) ⟨e.val, he⟩) else BitVec.ofNat 32 (e.val - 320000) := by
  unfold ReadP.val_main_v6
  rw [concat_apply]
  by_cases he : e.val < 320000
  · rw [dif_pos he, dif_pos he, ReadP.val_main_v5_apply, ReadP.val_main_v4_apply]
    congr 1
    funext a
    apply Fin.ext
    match a with
    | ⟨0, _⟩ => rfl
    | ⟨1, _⟩ => exact Nat.mod_eq_of_lt he
  · rw [dif_neg he, dif_neg he]
    rfl

/-- When the given words name nodes, a word of the extended list read as a signed integer is the
    node at that end of the edge. -/
theorem word_toInt (ei : Cert.Graph.Edges) (hR : Cert.Graph.InRange ei) (p : Fin 2) (e : Fin 330000) (w : BitVec 32)
    (hw : w = if he : e.val < 320000 then ei (ix2 p ⟨e.val, he⟩) else BitVec.ofNat 32 (e.val - 320000)) :
    w.toInt = ((Cert.Graph.node ei hR p e).val : ℤ) := by
  subst hw
  unfold Cert.Graph.node
  by_cases he : e.val < 320000
  · rw [dif_pos he, dif_pos he]
    exact (Int.toNat_of_nonneg (hR p ⟨e.val, he⟩).1).symm
  · rw [dif_neg he, dif_neg he]
    exact Idealize.ShloMosaic.StableHlo.Predicate.toInt_ofNat_small _ (by omega)

/-- Python's wrap of a negative index, `i < 0 ? i + 10000 : i`, leaves a non-negative word alone. -/
theorem wrap_id (w : BitVec 32) (h0 : 0 ≤ w.toInt) :
    Scalar.select (IntOp.cmpi .slt w 0#32) (IntOp.addi w 10000#32) w = w := by
  unfold Scalar.select IntOp.cmpi
  rw [if_neg]
  intro h
  have h2 := (Idealize.ShloMosaic.StableHlo.Predicate.ofBool_eq_one_iff _).1 h
  have h3 : w.toInt < (0#32 : BitVec 32).toInt := by simpa [BitVec.slt] using h2
  have h4 : (0#32 : BitVec 32).toInt = 0 := by decide
  omega

/-! ## One round of propagation, as the reference computes it -/

/-- A sum over the (edge, column) pairs landing on one entry (r, k) — the edge arrives at `r`, the column
    is `k` — is the sum over the edges arriving at `r` of the term in column `k`. -/
theorem sum_hits {D : ℕ} (P : (⟨2, ![330000, D]⟩ : Shape).Idx → Prop) [DecidablePred P]
    (dn : Fin 330000 → Fin 10000) (r : Fin 10000) (k : Fin D)
    (hP : ∀ (e : Fin 330000) (j : Fin D), P (ix2 e j) ↔ dn e = r ∧ j = k)
    (upd : (⟨2, ![330000, D]⟩ : Shape).Idx → EReal) :
    ∑ j ∈ Finset.univ.filter P, upd j = ∑ e ∈ Finset.univ.filter (fun e => dn e = r), upd (ix2 e k) := by
  have key : ∀ j : (⟨2, ![330000, D]⟩ : Shape).Idx, P j → dn (j 0) = r ∧ j 1 = k := fun j hj =>
    (hP (j 0) (j 1)).1 ((congrArg P (eq_ix2 j)).mp hj)
  have back : ∀ j : (⟨2, ![330000, D]⟩ : Shape).Idx, P j → ix2 (j 0) k = j := fun j hj => by
    rw [← (key j hj).2]; exact (eq_ix2 j).symm
  refine Finset.sum_bij' (fun j _ => j 0) (fun e _ => ix2 e k) ?_ ?_ ?_ ?_ ?_
  · intro j hj
    exact Finset.mem_filter.2 ⟨Finset.mem_univ _, (key j (Finset.mem_filter.1 hj).2).1⟩
  · intro e he
    exact Finset.mem_filter.2 ⟨Finset.mem_univ _, (hP e k).2 ⟨(Finset.mem_filter.1 he).2, rfl⟩⟩
  · intro j hj
    exact back j (Finset.mem_filter.1 hj).2
  · intro e _
    rfl
  · intro j hj
    exact congrArg upd (back j (Finset.mem_filter.1 hj).2).symm

/-- One round, for any feature matrix `H`: rows of `H` taken at the start nodes, scaled by the edge
    weights, and added into the rows named by the end nodes, starting from a zero matrix. Stated over
    variables for every array, with the words' meaning (`hs`, `hd`) as hypotheses. -/
theorem round_apply {D : ℕ}
    (dg : GatherDims ⟨2, ![10000, D]⟩ ⟨2, ![330000, 1]⟩ ⟨2, ![330000, D]⟩)
    (hoff : dg.offsetDims = [1]) (hcoll : dg.collapsedSliceDims = [0]) (hob : dg.operandBatchingDims = [])
    (hsb : dg.startIndicesBatchingDims = []) (hsim : dg.startIndexMap = [0]) (hivd : dg.indexVectorDim = 1) (hss : dg.sliceSizes = ![1, D])
    (ds : ScatterDims ⟨2, ![10000, D]⟩ ⟨2, ![330000, 1]⟩ ⟨2, ![330000, D]⟩)
    (huw : ds.updateWindowDims = [1]) (hiw : ds.insertedWindowDims = [0])
    (hsd : ds.scatterDimsToOperandDims = [0]) (hivd' : ds.indexVectorDim = 1)
    (H z : (⟨2, ![10000, D]⟩ : Shape).Idx → EReal) (srcw dstw : IVec ⟨2, ![330000, 1]⟩ 32)
    (nrm : (⟨2, ![330000, D]⟩ : Shape).Idx → EReal)
    (s d : Fin 330000 → Fin 10000)
    (hs : ∀ e, (srcw (ix2 e (0 : Fin 1))).toInt = ((s e).val : ℤ))
    (hd : ∀ e, (dstw (ix2 e (0 : Fin 1))).toInt = ((d e).val : ℤ))
    (nr : Fin 330000 → EReal) (hn : ∀ e k, nrm (ix2 e k) = nr e) (hz : ∀ i, z i = 0)
    (r : Fin 10000) (k : Fin D) :
    Ideal.hostScatterAdd ds z dstw (fun j => Host.gather dg H srcw j * nrm j) (ix2 r k)
      = Cert.Spec.propEdges s d nr (fun a b => H (ix2 a b)) r k := by
  have hits : ∀ (e : Fin 330000) (j : Fin D), ds.resultIdx? (ix2 e j) dstw = some (ix2 r k) ↔ d e = r ∧ j = k := by
    intro e j
    rw [Cert.LibTake.scatter_rows_hits ds huw hiw hsd hivd' dstw e j k r, hd e]
    constructor
    · rintro ⟨h1, h2⟩; exact ⟨Fin.ext (by exact_mod_cast h1), h2⟩
    · rintro ⟨h1, h2⟩; exact ⟨by rw [h1], h2⟩
  unfold Ideal.hostScatterAdd Cert.Spec.propEdges
  rw [hz, sum_hits (fun j => ds.resultIdx? j dstw = some (ix2 r k)) d r k hits]
  refine congrArg (fun t => (0 : EReal) + t) (Finset.sum_congr rfl fun e _ => ?_)
  have hnat : (srcw (ix2 e (0 : Fin 1))).toInt.toNat = (s e).val := by rw [hs e]; exact Int.toNat_natCast _
  have hrow : ∀ h : min (srcw (ix2 e (0 : Fin 1))).toInt.toNat (10000 - 1) < 10000,
      (⟨min (srcw (ix2 e (0 : Fin 1))).toInt.toNat (10000 - 1), h⟩ : Fin 10000) = s e := fun h =>
    Fin.ext (by show min (srcw (ix2 e (0 : Fin 1))).toInt.toNat (10000 - 1) = (s e).val; rw [hnat]; have := (s e).isLt; omega)
  rw [hn, Cert.LibTake.gather_rows dg hoff hcoll hob hsb hsim hivd hss (by omega) H srcw e k, hrow]

/-! ## The reference, stage by stage -/

section Stages
variable (x0 : (⟨S10000x256, .f32⟩ : BufTy).Contents (Elt Ideal)) (x1 : Cert.Graph.Edges)
  (x2 : (⟨S256x256, .f32⟩ : BufTy).Contents (Elt Ideal)) (x3 : (⟨S256, .f32⟩ : BufTy).Contents (Elt Ideal))
  (x4 : (⟨S256x64, .f32⟩ : BufTy).Contents (Elt Ideal)) (x5 : (⟨S64, .f32⟩ : BufTy).Contents (Elt Ideal))

/-- The first layer's row take reads, at edge `e`, the edge's start node (the wrap of a negative index
    does nothing to a node number). -/
theorem src_rows1 (hR : Cert.Graph.InRange x1) (e : Fin 330000) :
    (ReadP.val_main_v36 (F := Ideal) x1 (ix2 e (0 : Fin 1))).toInt = ((Cert.Graph.node x1 hR 0 e).val : ℤ) := by
  have e36 : ReadP.idx_main_v36 (ix2 e (0 : Fin 1)) = ix1 e := funext fun a => by match a with | ⟨0, _⟩ => rfl
  have h := word_toInt x1 hR 0 e _ (word_src x1 e)
  rw [ReadP.val_main_v36_apply, e36, ReadP.val_main_v35_apply, ReadP.val_main_v32_apply, ReadP.val_main_v31_apply,
    ReadP.val_main_c_6_apply, ReadP.val_main_v34_apply, ReadP.val_main_v33_apply, ReadP.val_main_c_7_apply,
    wrap_id _ (by rw [h]; exact Int.natCast_nonneg _)]
  exact h

/-- The second layer's row take, likewise. -/
theorem src_rows2 (hR : Cert.Graph.InRange x1) (e : Fin 330000) :
    (ReadP.val_main_v77 (F := Ideal) x1 (ix2 e (0 : Fin 1))).toInt = ((Cert.Graph.node x1 hR 0 e).val : ℤ) := by
  have e77 : ReadP.idx_main_v77 (ix2 e (0 : Fin 1)) = ix1 e := funext fun a => by match a with | ⟨0, _⟩ => rfl
  have h := word_toInt x1 hR 0 e _ (word_src x1 e)
  rw [ReadP.val_main_v77_apply, e77, ReadP.val_main_v76_apply, ReadP.val_main_v73_apply, ReadP.val_main_v72_apply,
    ReadP.val_main_c_17_apply, ReadP.val_main_v75_apply, ReadP.val_main_v74_apply, ReadP.val_main_c_18_apply,
    wrap_id _ (by rw [h]; exact Int.natCast_nonneg _)]
  exact h

/-- The first layer's segment sum is indexed, at edge `e`, by the edge's end node. -/
theorem dst_rows1 (hR : Cert.Graph.InRange x1) (e : Fin 330000) :
    (ReadP.val_main_v42 (F := Ideal) x1 (ix2 e (0 : Fin 1))).toInt = ((Cert.Graph.node x1 hR 1 e).val : ℤ) := by
  have e42 : ReadP.idx_main_v42 (ix2 e (0 : Fin 1)) = ix1 e := funext fun a => by match a with | ⟨0, _⟩ => rfl
  rw [ReadP.val_main_v42_apply, e42]
  exact word_toInt x1 hR 1 e _ (word_dst x1 e)

/-- The second layer's, likewise. -/
theorem dst_rows2 (hR : Cert.Graph.InRange x1) (e : Fin 330000) :
    (ReadP.val_main_v83 (F := Ideal) x1 (ix2 e (0 : Fin 1))).toInt = ((Cert.Graph.node x1 hR 1 e).val : ℤ) := by
  have e83 : ReadP.idx_main_v83 (ix2 e (0 : Fin 1)) = ix1 e := funext fun a => by match a with | ⟨0, _⟩ => rfl
  rw [ReadP.val_main_v83_apply, e83]
  exact word_toInt x1 hR 1 e _ (word_dst x1 e)

/-- The weights spread along the first layer's 256 columns: constant along each edge's row. -/
theorem nrm_cols1 (e : Fin 330000) (k : Fin 256) : ReadP.val_main_v39 (F := Ideal) x1 (ix2 e k) = refNorm x1 e := by
  have e39 : ReadP.idx_main_v39 (ix2 e k) = ix2 e (0 : Fin 1) := funext fun a => by
    match a with | ⟨0, _⟩ => rfl | ⟨1, _⟩ => rfl
  have e38 : ReadP.idx_main_v38 (ix2 e (0 : Fin 1)) = ix1 e := funext fun a => by match a with | ⟨0, _⟩ => rfl
  rw [ReadP.val_main_v39_apply, e39, ReadP.val_main_v38_apply, e38]
  rfl

/-- The weights spread along the second layer's 64 columns. -/
theorem nrm_cols2 (e : Fin 330000) (k : Fin 64) : ReadP.val_main_v80 (F := Ideal) x1 (ix2 e k) = refNorm x1 e := by
  have e80 : ReadP.idx_main_v80 (ix2 e k) = ix2 e (0 : Fin 1) := funext fun a => by
    match a with | ⟨0, _⟩ => rfl | ⟨1, _⟩ => rfl
  have e79 : ReadP.idx_main_v79 (ix2 e (0 : Fin 1)) = ix1 e := funext fun a => by match a with | ⟨0, _⟩ => rfl
  rw [ReadP.val_main_v80_apply, e80, ReadP.val_main_v79_apply, e79]
  exact congrFun (refNorm_again x1) e

/-- The first dense product is the exact matrix product of the features and the first weights. -/
theorem dense1 (i : Fin 10000) (k : Fin 256) :
    ReadP.val_main_v30 (F := Ideal) x0 x2 (ix2 i k)
      = Cert.Spec.matMul (fun a b => x0 (ix2 a b)) (fun a b => x2 (ix2 a b)) i k := by
  rw [ReadP.val_main_v30_apply]
  unfold Cert.Spec.matMul
  refine Finset.sum_congr rfl fun p _ => ?_
  have el : ReadP.lidx_main_v30 (ix2 i k) p = ix2 i p := funext fun a => by
    match a with | ⟨0, _⟩ => rfl | ⟨1, _⟩ => rfl
  have er : ReadP.ridx_main_v30 (ix2 i k) p = ix2 p k := funext fun a => by
    match a with | ⟨0, _⟩ => rfl | ⟨1, _⟩ => rfl
  rw [el, er]

/-- The first layer's segment sum is one round of propagation of the first dense product. -/
theorem layer1 (hR : Cert.Graph.InRange x1) (i : Fin 10000) (p : Fin 256) :
    ReadP.val_main_v43 (F := Ideal) x0 x1 x2 (ix2 i p)
      = Cert.Spec.propEdges (Cert.Graph.node x1 hR 0) (Cert.Graph.node x1 hR 1) (refNorm x1)
          (Cert.Spec.matMul (fun a b => x0 (ix2 a b)) (fun a b => x2 (ix2 a b))) i p := by
  have hH : (fun a b => ReadP.val_main_v30 (F := Ideal) x0 x2 (ix2 a b))
      = Cert.Spec.matMul (fun a b => x0 (ix2 a b)) (fun a b => x2 (ix2 a b)) :=
    funext fun a => funext fun b => dense1 x0 x2 a b
  rw [← hH]
  unfold ReadP.val_main_v43 Host.scatterAdd
  rw [Ideal.hostScatterAdd_def]
  exact round_apply gather_S10000x256_S330000x1_S330000x256_1_0_n_n_0_1_1256 rfl rfl rfl rfl rfl rfl rfl
    scatter_S10000x256_S330000x1_S330000x256_1_0_0_1 rfl rfl rfl rfl
    (ReadP.val_main_v30 (F := Ideal) x0 x2) (ReadP.val_main_v41 (F := Ideal)) (ReadP.val_main_v36 (F := Ideal) x1)
    (ReadP.val_main_v42 (F := Ideal) x1) (ReadP.val_main_v39 (F := Ideal) x1) _ _ (src_rows1 x1 hR) (dst_rows1 x1 hR)
    (refNorm x1) (nrm_cols1 x1)
    (fun j => by rw [ReadP.val_main_v41_apply, ReadP.val_main_cst_8_apply, Ideal.ofBits_def, Ideal.ofBits_zero_f32]) i p

/-- The hidden activations: the first round plus the bias, cut off below at zero (the maximum is taken
    with the zero second, as the program has it). -/
theorem hidden (i : Fin 10000) (p : Fin 256) :
    ReadP.val_main_v47 (F := Ideal) x0 x1 x2 x3 (ix2 i p)
      = max (ReadP.val_main_v43 (F := Ideal) x0 x1 x2 (ix2 i p) + x3 (ix1 p)) 0 := by
  have e45 : ReadP.idx_main_v45 (ix2 i p) = ix2 (0 : Fin 1) p := funext fun a => by
    match a with | ⟨0, _⟩ => rfl | ⟨1, _⟩ => rfl
  have e44 : ReadP.idx_main_v44 (ix2 (0 : Fin 1) p) = ix1 p := funext fun a => by match a with | ⟨0, _⟩ => rfl
  rw [ReadP.val_main_v47_apply, ReadP.val_main_v46_apply, ReadP.val_main_v45_apply, e45, ReadP.val_main_v44_apply, e44,
    ReadP.val_main_call1_v0_apply, ReadP.val_main_call1_cst_apply, Ideal.ofBits_def, Ideal.ofBits_zero_f32,
    Ideal.maximumf_def, Ideal.addf_def]

/-- The second dense product is the exact matrix product of the hidden activations and the second weights. -/
theorem dense2 (i : Fin 10000) (k : Fin 64) :
    ReadP.val_main_v71 (F := Ideal) x0 x1 x2 x3 x4 (ix2 i k)
      = Cert.Spec.matMul (fun a b => ReadP.val_main_v47 (F := Ideal) x0 x1 x2 x3 (ix2 a b)) (fun a b => x4 (ix2 a b)) i k := by
  rw [ReadP.val_main_v71_apply]
  unfold Cert.Spec.matMul
  refine Finset.sum_congr rfl fun p _ => ?_
  have el : ReadP.lidx_main_v71 (ix2 i k) p = ix2 i p := funext fun a => by
    match a with | ⟨0, _⟩ => rfl | ⟨1, _⟩ => rfl
  have er : ReadP.ridx_main_v71 (ix2 i k) p = ix2 p k := funext fun a => by
    match a with | ⟨0, _⟩ => rfl | ⟨1, _⟩ => rfl
  rw [el, er]

/-- The second layer's segment sum is one round of propagation of the second dense product. -/
theorem layer2 (hR : Cert.Graph.InRange x1) (r : Fin 10000) (q : Fin 64) :
    ReadP.val_main_v84 (F := Ideal) x0 x1 x2 x3 x4 (ix2 r q)
      = Cert.Spec.propEdges (Cert.Graph.node x1 hR 0) (Cert.Graph.node x1 hR 1) (refNorm x1)
          (fun a b => ReadP.val_main_v71 (F := Ideal) x0 x1 x2 x3 x4 (ix2 a b)) r q := by
  unfold ReadP.val_main_v84 Host.scatterAdd
  rw [Ideal.hostScatterAdd_def]
  exact round_apply gather_S10000x64_S330000x1_S330000x64_1_0_n_n_0_1_164 rfl rfl rfl rfl rfl rfl rfl
    scatter_S10000x64_S330000x1_S330000x64_1_0_0_1 rfl rfl rfl rfl
    (ReadP.val_main_v71 (F := Ideal) x0 x1 x2 x3 x4) (ReadP.val_main_v82 (F := Ideal)) (ReadP.val_main_v77 (F := Ideal) x1)
    (ReadP.val_main_v83 (F := Ideal) x1) (ReadP.val_main_v80 (F := Ideal) x1) _ _ (src_rows2 x1 hR) (dst_rows2 x1 hR)
    (refNorm x1) (nrm_cols2 x1)
    (fun j => by rw [ReadP.val_main_v82_apply, ReadP.val_main_cst_19_apply, Ideal.ofBits_def, Ideal.ofBits_zero_f32]) r q

/-- The reference's result at (r, q), over variables for the six argument arrays. -/
theorem ref_value_core (hR : Cert.Graph.InRange x1) (r : Fin 10000) (q : Fin 64) :
    ReadP.val_main_v87 (F := Ideal) x0 x1 x2 x3 x4 x5 (ix2 r q)
      = Cert.Spec.propEdges (Cert.Graph.node x1 hR 0) (Cert.Graph.node x1 hR 1) (refNorm x1)
          (Cert.Spec.matMul
            (fun i k => max (Cert.Spec.propEdges (Cert.Graph.node x1 hR 0) (Cert.Graph.node x1 hR 1) (refNorm x1)
              (Cert.Spec.matMul (fun a b => x0 (ix2 a b)) (fun a b => x2 (ix2 a b))) i k + x3 (ix1 k)) 0)
            (fun a b => x4 (ix2 a b))) r q + x5 (ix1 q) := by
  have e86 : ReadP.idx_main_v86 (ix2 r q) = ix2 (0 : Fin 1) q := funext fun a => by
    match a with | ⟨0, _⟩ => rfl | ⟨1, _⟩ => rfl
  have e85 : ReadP.idx_main_v85 (ix2 (0 : Fin 1) q) = ix1 q := funext fun a => by match a with | ⟨0, _⟩ => rfl
  have h71 : (fun a b => ReadP.val_main_v71 (F := Ideal) x0 x1 x2 x3 x4 (ix2 a b))
      = Cert.Spec.matMul (fun a b => ReadP.val_main_v47 (F := Ideal) x0 x1 x2 x3 (ix2 a b)) (fun a b => x4 (ix2 a b)) :=
    funext fun a => funext fun b => dense2 x0 x1 x2 x3 x4 a b
  have h47 : (fun a b => ReadP.val_main_v47 (F := Ideal) x0 x1 x2 x3 (ix2 a b))
      = fun i k => max (Cert.Spec.propEdges (Cert.Graph.node x1 hR 0) (Cert.Graph.node x1 hR 1) (refNorm x1)
          (Cert.Spec.matMul (fun a b => x0 (ix2 a b)) (fun a b => x2 (ix2 a b))) i k + x3 (ix1 k)) 0 :=
    funext fun a => funext fun b => by rw [hidden, layer1 x0 x1 x2 hR]
  rw [ReadP.val_main_v87_apply, Ideal.addf_def, ReadP.val_main_v86_apply, e86, ReadP.val_main_v85_apply, e85,
    layer2 x0 x1 x2 x3 x4 hR, h71, h47]

end Stages

/-! ## The reference's value -/

/-- The reference's result, entry by entry: two rounds of propagation along the extended edge list with
    the reference's own weights, a dense product before each, the first round's bias and cut-off between
    them and the second bias at the end. -/
theorem ref_value (m : (ℓ : Loc nD τ sig) → Buf (Elt Ideal) ℓ) (c : Dev nD)
    (hR : Cert.Graph.InRange (m ((c.tc : Thread nD τ).loc main_arg1))) (r : Fin 10000) (q : Fin 64) :
    Cert.ReferenceIdeal.ValueP.res_main_v87 (F := Ideal) m c (ix2 r q)
      = Cert.Spec.propEdges (Cert.Graph.node (m ((c.tc : Thread nD τ).loc main_arg1)) hR 0)
          (Cert.Graph.node (m ((c.tc : Thread nD τ).loc main_arg1)) hR 1)
          (refNorm (m ((c.tc : Thread nD τ).loc main_arg1)))
          (Cert.Spec.matMul
            (fun i k => max (Cert.Spec.propEdges (Cert.Graph.node (m ((c.tc : Thread nD τ).loc main_arg1)) hR 0)
                (Cert.Graph.node (m ((c.tc : Thread nD τ).loc main_arg1)) hR 1)
                (refNorm (m ((c.tc : Thread nD τ).loc main_arg1)))
                (Cert.Spec.matMul (fun a b => m ((c.tc : Thread nD τ).loc main_arg0) (ix2 a b))
                  (fun a b => m ((c.tc : Thread nD τ).loc main_arg2) (ix2 a b))) i k
              + m ((c.tc : Thread nD τ).loc main_arg3) (ix1 k)) 0)
            (fun a b => m ((c.tc : Thread nD τ).loc main_arg4) (ix2 a b))) r q
        + m ((c.tc : Thread nD τ).loc main_arg5) (ix1 q) := by
  rw [ReadP.val_main_v87_eq]
  exact ref_value_core _ _ _ _ _ _ hR r q

end Cert.ReferenceIdeal.RefValue

end
-- ==== Proof.NormShared.lean ====
/-
  The edge weights are computed twice by the same arithmetic: once by the kernel program, on the host, before
  its first region, and once by the reference program. Both start from the two rows of the edge list, append
  the self loops (an iota) to each, count the in-degree of every node by adding a one at each destination,
  take the inverse square root of the degree where it is positive and zero elsewhere, wrap negative indices
  by adding the node count, and multiply the two looked-up factors edge by edge.

  Here the two chains are matched stage by stage, for an arbitrary float family: every stage of the kernel's
  chain is, as a function of the edge words, literally the reference's stage function. No array is ever
  computed: two stages are equal because they are the same operation applied to equal stages. The reference also repeats the whole computation for its
  second layer; that second copy is the first one, again stage by stage.
-/
import proofs.«422500_j8761733284692_1_alg».proof.Proof.KI.Args
import proofs.«422500_j8761733284692_1_alg».proof.Proof.Ref.Read

set_option maxRecDepth 16384

noncomputable section

namespace Cert.NormShared

open Idealize.ShloMosaic Idealize.ShloMosaic.TcCoe Idealize.SL.Sem

variable {F : FTy → Type} [FloatOps F]

/-! ## The reference's second computation of the weights is its first

The reference program normalises the adjacency once per layer. The second time it starts from the same
sources and destinations and applies the same operations in the same order, so every stage of the second
computation is the corresponding stage of the first: a constant is the same constant, and a stage built from
earlier stages is the same once those are. -/

section Again

open Cert.ReferenceIdeal.ReadP

/-- The one that is added at every destination. -/
theorem again_cst_9 : val_main_cst_9 (F := F) = val_main_cst := rfl
/-- A one for every edge. -/
theorem again_v48 : val_main_v48 (F := F) = val_main_v7 := by
  unfold val_main_v48 val_main_v7; rw [again_cst_9]
/-- The zero the degree count starts from. -/
theorem again_cst_10 : val_main_cst_10 (F := F) = val_main_cst_0 := rfl
/-- A zero for every node. -/
theorem again_v49 : val_main_v49 (F := F) = val_main_v8 := by
  unfold val_main_v49 val_main_v8; rw [again_cst_10]
/-- The destinations as a column of index vectors. -/
theorem again_v50 : val_main_v50 (F := F) = val_main_v9 := rfl
/-- The in-degree. -/
theorem again_v51 : val_main_v51 (F := F) = val_main_v10 := by
  funext x1; unfold val_main_v51 val_main_v10; rw [again_v48, again_v49, again_v50]
/-- The zero the degree is compared with. -/
theorem again_cst_11 : val_main_cst_11 (F := F) = val_main_cst_1 := rfl
/-- That zero for every node. -/
theorem again_v52 : val_main_v52 (F := F) = val_main_v11 := by
  unfold val_main_v52 val_main_v11; rw [again_cst_11]
/-- Where the degree is positive. -/
theorem again_v53 : val_main_v53 (F := F) = val_main_v12 := by
  funext x1; unfold val_main_v53 val_main_v12; rw [again_v51, again_v52]
/-- The inverse square root of the degree. -/
theorem again_v54 : val_main_v54 (F := F) = val_main_v13 := by
  funext x1; unfold val_main_v54 val_main_v13; rw [again_v51]
/-- The zero of an isolated node. -/
theorem again_cst_12 : val_main_cst_12 (F := F) = val_main_cst_2 := rfl
/-- The same zero inside the guarded choice. -/
theorem again_call2_v0 : val_main_call2_v0 (F := F) = val_main_call0_v0 := by
  unfold val_main_call2_v0 val_main_call0_v0; rw [again_cst_12]
/-- That zero for every node. -/
theorem again_call2_v1 : val_main_call2_v1 (F := F) = val_main_call0_v1 := by
  unfold val_main_call2_v1 val_main_call0_v1; rw [again_call2_v0]
/-- The normalising factor of a node. -/
theorem again_v55 : val_main_v55 (F := F) = val_main_v14 := by
  funext x1; unfold val_main_v55 val_main_v14; rw [again_v53, again_v54, again_call2_v1]
/-- The zero index. -/
theorem again_c_13 : val_main_c_13 (F := F) = val_main_c := rfl
/-- The zero index for every edge. -/
theorem again_v56 : val_main_v56 (F := F) = val_main_v15 := by
  unfold val_main_v56 val_main_v15; rw [again_c_13]
/-- Which sources are negative. -/
theorem again_v57 : val_main_v57 (F := F) = val_main_v16 := by
  funext x1; unfold val_main_v57 val_main_v16; rw [again_v56]
/-- The node count. -/
theorem again_c_14 : val_main_c_14 (F := F) = val_main_c_3 := rfl
/-- The node count for every edge. -/
theorem again_v58 : val_main_v58 (F := F) = val_main_v17 := by
  unfold val_main_v58 val_main_v17; rw [again_c_14]
/-- The sources moved up by the node count. -/
theorem again_v59 : val_main_v59 (F := F) = val_main_v18 := by
  funext x1; unfold val_main_v59 val_main_v18; rw [again_v58]
/-- The wrapped sources. -/
theorem again_v60 : val_main_v60 (F := F) = val_main_v19 := by
  funext x1; unfold val_main_v60 val_main_v19; rw [again_v57, again_v59]
/-- The wrapped sources as a column of index vectors. -/
theorem again_v61 : val_main_v61 (F := F) = val_main_v20 := by
  funext x1; unfold val_main_v61 val_main_v20; rw [again_v60]
/-- The factor of every edge's source. -/
theorem again_v62 : val_main_v62 (F := F) = val_main_v21 := by
  funext x1; unfold val_main_v62 val_main_v21; rw [again_v55, again_v61]
/-- The zero index, for the destinations. -/
theorem again_c_15 : val_main_c_15 (F := F) = val_main_c_4 := rfl
/-- The zero index for every edge. -/
theorem again_v63 : val_main_v63 (F := F) = val_main_v22 := by
  unfold val_main_v63 val_main_v22; rw [again_c_15]
/-- Which destinations are negative. -/
theorem again_v64 : val_main_v64 (F := F) = val_main_v23 := by
  funext x1; unfold val_main_v64 val_main_v23; rw [again_v63]
/-- The node count, for the destinations. -/
theorem again_c_16 : val_main_c_16 (F := F) = val_main_c_5 := rfl
/-- The node count for every edge. -/
theorem again_v65 : val_main_v65 (F := F) = val_main_v24 := by
  unfold val_main_v65 val_main_v24; rw [again_c_16]
/-- The destinations moved up by the node count. -/
theorem again_v66 : val_main_v66 (F := F) = val_main_v25 := by
  funext x1; unfold val_main_v66 val_main_v25; rw [again_v65]
/-- The wrapped destinations. -/
theorem again_v67 : val_main_v67 (F := F) = val_main_v26 := by
  funext x1; unfold val_main_v67 val_main_v26; rw [again_v64, again_v66]
/-- The wrapped destinations as a column of index vectors. -/
theorem again_v68 : val_main_v68 (F := F) = val_main_v27 := by
  funext x1; unfold val_main_v68 val_main_v27; rw [again_v67]
/-- The factor of every edge's destination. -/
theorem again_v69 : val_main_v69 (F := F) = val_main_v28 := by
  funext x1; unfold val_main_v69 val_main_v28; rw [again_v55, again_v68]

/-- The edge weights of the second layer are those of the first: the product of the two looked-up factors,
    each of which is the same as before. -/
theorem ref_norm_again : val_main_v70 (F := F) = val_main_v29 (F := F) := by
  funext x1; unfold val_main_v70 val_main_v29; rw [again_v62, again_v69]

end Again

section Kernel

open Cert.KernelIdeal Cert.KernelIdeal.Gen Cert.KernelIdeal.Hand

variable (m : (ℓ : Loc nD τ sig) → Buf (Elt F) ℓ) (ρ : Dev nD → PrngReg)

/-! ## The index records of the two programs agree -/

/-- The degree count's scatter record: the same fields in both programs. -/
theorem scatter_rec_eq :
    scatter_S10000_S330000x1_S330000_n_0_0_1 = Cert.ReferenceIdeal.scatter_S10000_S330000x1_S330000_n_0_0_1 := rfl
/-- The look-up's gather record: the same fields in both programs. -/
theorem gather_rec_eq :
    gather_S10000_S330000x1_S330000_n_0_n_n_0_1_1 = Cert.ReferenceIdeal.gather_S10000_S330000x1_S330000_n_0_n_n_0_1_1 := rfl

/-! ## After the first stretch: the edge rows with the loops appended, the degree, its sign test and its inverse root -/

/-- The edge words a core was launched with. -/
abbrev ei (c : Dev nD) : (⟨S2x320000, .i32⟩ : BufTy).Contents (Elt F) := m ((c : Thread nD τ).loc main_arg1)

/-- The sources: the first edge row followed by the loop indices. -/
theorem W1_v3 (c : Dev nD) :
    (W1 m ρ c (Proc.devRef .tc main_v3) : (⟨S330000, .i32⟩ : BufTy).Contents (Elt F))
      = Cert.ReferenceIdeal.ReadP.val_main_v3 (F := F) (ei m c) := by
  show StableHlo.after hostOps0 _ (Proc.devRef .tc main_v3) = _
  after_results
  rfl
/-- The destinations: the second edge row followed by the loop indices. -/
theorem W1_v6 (c : Dev nD) :
    (W1 m ρ c (Proc.devRef .tc main_v6) : (⟨S330000, .i32⟩ : BufTy).Contents (Elt F))
      = Cert.ReferenceIdeal.ReadP.val_main_v6 (F := F) (ei m c) := by
  show StableHlo.after hostOps0 _ (Proc.devRef .tc main_v6) = _
  after_results
  rfl

/-- The in-degree: a one added at every destination, from zero. -/
theorem W1_v10 (c : Dev nD) :
    (W1 m ρ c (Proc.devRef .tc main_v10) : (⟨S10000, .f32⟩ : BufTy).Contents (Elt F))
      = Cert.ReferenceIdeal.ReadP.val_main_v10 (F := F) (ei m c) := by
  show StableHlo.after hostOps0 _ (Proc.devRef .tc main_v10) = _
  after_results
  rfl
/-- Where the degree is positive. -/
theorem W1_v12 (c : Dev nD) :
    (W1 m ρ c (Proc.devRef .tc main_v12) : (⟨S10000, .i1⟩ : BufTy).Contents (Elt F))
      = Cert.ReferenceIdeal.ReadP.val_main_v12 (F := F) (ei m c) := by
  show StableHlo.after hostOps0 _ (Proc.devRef .tc main_v12) = _
  after_results
  rfl
/-- The inverse square root of the degree. -/
theorem W1_v13 (c : Dev nD) :
    (W1 m ρ c (Proc.devRef .tc main_v13) : (⟨S10000, .f32⟩ : BufTy).Contents (Elt F))
      = Cert.ReferenceIdeal.ReadP.val_main_v13 (F := F) (ei m c) := by
  show StableHlo.after hostOps0 _ (Proc.devRef .tc main_v13) = _
  after_results
  rfl
/-- The zero that replaces the inverse root at an isolated node. -/
theorem W1_cst_2 (c : Dev nD) :
    (W1 m ρ c (Proc.devRef .tc main_cst_2) : (⟨S_, .f32⟩ : BufTy).Contents (Elt F))
      = Cert.ReferenceIdeal.ReadP.val_main_cst_2 (F := F) := by
  show StableHlo.after hostOps0 _ (Proc.devRef .tc main_cst_2) = _
  after_results
  rfl

/-! ## After the second stretch: the guarded inverse root -/

/-- The normalising factor of a node: the inverse root of its degree where that is positive, zero elsewhere. -/
theorem W2_v14 (c : Dev nD) :
    (W2 m ρ c (Proc.devRef .tc main_v14) : (⟨S10000, .f32⟩ : BufTy).Contents (Elt F))
      = Cert.ReferenceIdeal.ReadP.val_main_v14 (F := F) (ei m c) := by
  show StableHlo.after hostOps0_1 (W1 m ρ c) (Proc.devRef .tc main_v14) = _
  have h12 := W1_v12 m ρ c
  have h13 := W1_v13 m ρ c
  have hz := W1_cst_2 m ρ c
  -- the three operations read only these three buffers, whatever else the contents hold
  generalize W1 m ρ c = V at h12 h13 hz ⊢
  after_results
  rw [h12, h13, hz]
  rfl
/-- The second stretch leaves the sources and the destinations as they were. -/
theorem W2_v3 (c : Dev nD) :
    (W2 m ρ c (Proc.devRef .tc main_v3) : (⟨S330000, .i32⟩ : BufTy).Contents (Elt F))
      = Cert.ReferenceIdeal.ReadP.val_main_v3 (F := F) (ei m c) :=
  (W2_of m ρ c main_v3 (by decide)).trans (W1_v3 m ρ c)
theorem W2_v6 (c : Dev nD) :
    (W2 m ρ c (Proc.devRef .tc main_v6) : (⟨S330000, .i32⟩ : BufTy).Contents (Elt F))
      = Cert.ReferenceIdeal.ReadP.val_main_v6 (F := F) (ei m c) :=
  (W2_of m ρ c main_v6 (by decide)).trans (W1_v6 m ρ c)

/-! ## After the third stretch: the edge weights -/

/-- The weight of an edge is the product of the normalising factors of its two ends, each looked up at the
    wrapped index. The third stretch computes it from the factor, the sources and the destinations, which
    are the reference's; so the weights are the reference's. -/
theorem ker_norm_eq (c : Dev nD) :
    Cert.KernelIdeal.Hand.W3 (F := F) m ρ c (Proc.devRef .tc Cert.KernelIdeal.main_v29)
      = Cert.ReferenceIdeal.ReadP.val_main_v29 (F := F) (m ((c : Thread nD τ).loc Cert.KernelIdeal.main_arg1)) := by
  show StableHlo.after hostOps0_2 (W2 m ρ c) (Proc.devRef .tc main_v29) = _
  have h14 := W2_v14 m ρ c
  have h3 := W2_v3 m ρ c
  have h6 := W2_v6 m ρ c
  -- the operations read only these three buffers, whatever else the contents hold
  generalize W2 m ρ c = V at h14 h3 h6 ⊢
  after_results_simp
  rw [h14, h3, h6]
  rfl

end Kernel

end Cert.NormShared

end
-- ==== Proof.lean ====
/-
  A two-layer graph convolution, out = Â · relu(Â · (x W₁) + b₁) W₂ + b₂ with Â the degree-normalised
  adjacency matrix (self loops included), computed in two arrangements that agree over the extended reals
  when every word of the edge list names one of the 10000 nodes.

  The reference propagates edge by edge: it gathers row `src e` of the dense product, scales it by
  `norm e = dinv[src e] · dinv[dst e]`, and adds it into row `dst e`. The kernel first adds the weights
  `norm e` into a dense 10240 × 10240 matrix at (dst e, src e), and then multiplies that matrix with the
  dense product in 1024 × 2048 tiles, five column blocks accumulated per row tile. Each weight is a
  product of two entries of `dinv`, which are 0 or a reciprocal square root of a positive count, so every
  weight is non-negative; and a sum of non-negative extended reals distributes over a product with ANY
  factor. So an entry of the dense matrix times a row entry is the sum of the weighted row entries of the
  edges between the two nodes, and summing over the columns collects each arriving edge once: the two
  propagations agree, without any finiteness of the features, weights or biases. The rows and columns
  from 10000 on, which pad the node count to a multiple of the tile, meet only empty sums.

  The frames: the word-level program and its idealization are the same text; each is walked through its
  thirteen stretches (host operations and the four kernel regions), which leaves the arguments as launched.
-/
import proofs.«422500_j8761733284692_1_alg».proof.Defs
import proofs.«422500_j8761733284692_1_alg».proof.Proof.Gen.Kernel
import proofs.«422500_j8761733284692_1_alg».proof.Proof.Gen.KernelIdeal
import proofs.«422500_j8761733284692_1_alg».proof.Proof.Gen.ReferenceIdeal
import proofs.«422500_j8761733284692_1_alg».proof.Proof.Gen.Pre_finite_inputs
import proofs.«422500_j8761733284692_1_alg».proof.Proof.K.Args
import proofs.«422500_j8761733284692_1_alg».proof.Proof.KI.Args
import proofs.«422500_j8761733284692_1_alg».proof.Proof.Ref.Run
import proofs.«422500_j8761733284692_1_alg».proof.Proof.PreRange
import proofs.«422500_j8761733284692_1_alg».proof.Proof.KI.Out
import proofs.«422500_j8761733284692_1_alg».proof.Proof.Ref.Value
import proofs.«422500_j8761733284692_1_alg».proof.Proof.NormShared
import Idealize.ShloMosaic.Adequacy
import Idealize.ShloMosaic.Init

set_option maxRecDepth 16384

noncomputable section

namespace Cert.Proof

open Idealize.ShloMosaic Idealize.SL.Sem

/-- The word-level program runs and leaves its arguments as launched. -/
theorem frame_k : Cert.frame_Kernel (hKernel := Cert.Kernel.Gen.facts) (hPre_finite_inputs := Cert.Pre_finite_inputs.Gen.facts) :=
  fun m ρ _ => (θ_run (Cert.Kernel.defs (F := Bits)) _ _).mono (fun r h c => ⟨
      (h c _ (Cert.Kernel.Hand.mem_uc Cert.Kernel.main_arg0 (by decide))).trans (Cert.Kernel.Hand.W13_arg0 (F := Bits) m ρ c),
      (h c _ (Cert.Kernel.Hand.mem_uc Cert.Kernel.main_arg1 (by decide))).trans (Cert.Kernel.Hand.W13_arg1 (F := Bits) m ρ c),
      (h c _ (Cert.Kernel.Hand.mem_uc Cert.Kernel.main_arg2 (by decide))).trans (Cert.Kernel.Hand.W13_arg2 (F := Bits) m ρ c),
      (h c _ (Cert.Kernel.Hand.mem_uc Cert.Kernel.main_arg3 (by decide))).trans (Cert.Kernel.Hand.W13_arg3 (F := Bits) m ρ c),
      (h c _ (Cert.Kernel.Hand.mem_uc Cert.Kernel.main_arg4 (by decide))).trans (Cert.Kernel.Hand.W13_arg4 (F := Bits) m ρ c),
      (h c _ (Cert.Kernel.Hand.mem_uc Cert.Kernel.main_arg5 (by decide))).trans (Cert.Kernel.Hand.W13_arg5 (F := Bits) m ρ c)⟩)
    (Cert.Kernel.Hand.run_all (F := Bits) m ρ)

/-- So does its idealization. -/
theorem frame_ki : Cert.frame_KernelIdeal (hKernelIdeal := Cert.KernelIdeal.Gen.facts) (hPre_finite_inputs := Cert.Pre_finite_inputs.Gen.facts) :=
  fun m ρ _ => (θ_run (Cert.KernelIdeal.defs (F := Ideal)) _ _).mono (fun r h c => ⟨
      (h c _ (Cert.KernelIdeal.Hand.mem_uc Cert.KernelIdeal.main_arg0 (by decide))).trans (Cert.KernelIdeal.Hand.W13_arg0 (F := Ideal) m ρ c),
      (h c _ (Cert.KernelIdeal.Hand.mem_uc Cert.KernelIdeal.main_arg1 (by decide))).trans (Cert.KernelIdeal.Hand.W13_arg1 (F := Ideal) m ρ c),
      (h c _ (Cert.KernelIdeal.Hand.mem_uc Cert.KernelIdeal.main_arg2 (by decide))).trans (Cert.KernelIdeal.Hand.W13_arg2 (F := Ideal) m ρ c),
      (h c _ (Cert.KernelIdeal.Hand.mem_uc Cert.KernelIdeal.main_arg3 (by decide))).trans (Cert.KernelIdeal.Hand.W13_arg3 (F := Ideal) m ρ c),
      (h c _ (Cert.KernelIdeal.Hand.mem_uc Cert.KernelIdeal.main_arg4 (by decide))).trans (Cert.KernelIdeal.Hand.W13_arg4 (F := Ideal) m ρ c),
      (h c _ (Cert.KernelIdeal.Hand.mem_uc Cert.KernelIdeal.main_arg5 (by decide))).trans (Cert.KernelIdeal.Hand.W13_arg5 (F := Ideal) m ρ c)⟩)
    (Cert.KernelIdeal.Hand.run_all (F := Ideal) m ρ)

/-- And the reference: its run with the result dropped. -/
theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2)
    (Cert.ReferenceIdeal.ValueP.run (F := Ideal) m ρ)

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  -- under the precondition every word of the edge list names a node
  haveI : Cert.Pre_finite_inputs.Facts := Cert.Pre_finite_inputs.Gen.facts
  have hR : ∀ c : Dev Cert.KernelIdeal.nD, Cert.Graph.InRange (m ((c.tc : Thread Cert.KernelIdeal.nD Cert.KernelIdeal.τ).loc Cert.KernelIdeal.main_arg1)) :=
    fun c => Cert.PreRange.inRange _ _ _ _ _ _ (hpre c)
  -- the kernel program's edge weights are the reference's, a non-negative array
  have hnorm : ∀ c : Dev Cert.KernelIdeal.nD, Cert.KernelIdeal.Hand.kerNorm m ρ c
      = Cert.ReferenceIdeal.RefValue.refNorm (m ((c.tc : Thread Cert.KernelIdeal.nD Cert.KernelIdeal.τ).loc Cert.KernelIdeal.main_arg1)) :=
    fun c => funext fun e => congrFun (Cert.NormShared.ker_norm_eq (F := Ideal) m ρ c) (ValueIdx.ix1 e)
  have hn : ∀ (c : Dev Cert.KernelIdeal.nD) (e : Fin 330000), 0 ≤ Cert.KernelIdeal.Hand.kerNorm m ρ c e := fun c e => by
    rw [hnorm c]; exact Cert.ReferenceIdeal.RefValue.refNorm_nonneg _ e
  refine ⟨fun c => Cert.KernelIdeal.Hand.W13 (F := Ideal) m ρ c (Proc.devRef .tc Cert.KernelIdeal.main_v59), ?_, ?_⟩
  · -- the kernel program: its walk, the result buffer and the arguments read off the final contents
    exact (θ_run (Cert.KernelIdeal.defs (F := Ideal)) _ _).mono (fun r h c => ⟨
        h c _ (Cert.KernelIdeal.Hand.mem_uc Cert.KernelIdeal.main_v59 (by decide)),
        (h c _ (Cert.KernelIdeal.Hand.mem_uc Cert.KernelIdeal.main_arg0 (by decide))).trans (Cert.KernelIdeal.Hand.W13_arg0 (F := Ideal) m ρ c),
        (h c _ (Cert.KernelIdeal.Hand.mem_uc Cert.KernelIdeal.main_arg1 (by decide))).trans (Cert.KernelIdeal.Hand.W13_arg1 (F := Ideal) m ρ c),
        (h c _ (Cert.KernelIdeal.Hand.mem_uc Cert.KernelIdeal.main_arg2 (by decide))).trans (Cert.KernelIdeal.Hand.W13_arg2 (F := Ideal) m ρ c),
        (h c _ (Cert.KernelIdeal.Hand.mem_uc Cert.KernelIdeal.main_arg3 (by decide))).trans (Cert.KernelIdeal.Hand.W13_arg3 (F := Ideal) m ρ c),
        (h c _ (Cert.KernelIdeal.Hand.mem_uc Cert.KernelIdeal.main_arg4 (by decide))).trans (Cert.KernelIdeal.Hand.W13_arg4 (F := Ideal) m ρ c),
        (h c _ (Cert.KernelIdeal.Hand.mem_uc Cert.KernelIdeal.main_arg5 (by decide))).trans (Cert.KernelIdeal.Hand.W13_arg5 (F := Ideal) m ρ c)⟩)
      (Cert.KernelIdeal.Hand.run_all (F := Ideal) m ρ)
  · -- the reference: its run, and its result is the kernel program's, entry by entry
    refine (θ_run (Cert.ReferenceIdeal.defs (F := Ideal)) _ _).mono (fun r h c => ⟨(h c).1.trans ?_, (h c).2⟩)
      (Cert.ReferenceIdeal.ValueP.run (F := Ideal) m' ρ')
    funext j
    obtain ⟨a, b, rfl⟩ : ∃ (a : Fin 10000) (b : Fin 64), j = ValueIdx.ix2 a b := ⟨j 0, j 1, ValueIdx.eq_ix2 j⟩
    rw [Cert.ReferenceIdeal.ReadP.val_main_v87_eq, (hagree c).1, (hagree c).2.1, (hagree c).2.2.1, (hagree c).2.2.2.1,
      (hagree c).2.2.2.2.1, (hagree c).2.2.2.2.2]
    refine (Cert.ReferenceIdeal.RefValue.ref_value_core _ _ _ _ _ _ (hR c) a b).trans ?_
    rw [← hnorm c]
    exact (Cert.KernelIdeal.Hand.ker_value m ρ c (hR c) (hn c) a b).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
